-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x13 : Shape := ⟨2, ![2097152, 13]⟩
abbrev S2097152x2 : Shape := ⟨2, ![2097152, 2]⟩
abbrev S2097152x3 : Shape := ⟨2, ![2097152, 3]⟩
abbrev S_ : Shape := ⟨0, ![]⟩

class Facts : Prop where
  bcast_S_S2097152x13 : S_.BroadcastsInDim S2097152x13 (![] : Fin 0 → Fin S2097152x13.rank)
  reducesTo_S2097152x13_S_d0_1 : S2097152x13.ReducesTo [0, 1] S_
  h_S_ : 0 < S_.numel
  bcast_S_S2097152x2 : S_.BroadcastsInDim S2097152x2 (![] : Fin 0 → Fin S2097152x2.rank)
  reducesTo_S2097152x2_S_d0_1 : S2097152x2.ReducesTo [0, 1] S_
  bcast_S_S2097152x3 : S_.BroadcastsInDim S2097152x3 (![] : Fin 0 → Fin S2097152x3.rank)
  reducesTo_S2097152x3_S_d0_1 : S2097152x3.ReducesTo [0, 1] S_

variable [Facts]

def fn_part1 {F : FTy → Type} [FloatOps F] (main_v10 : IVec S_ 1) (main_v15 : IVec S2097152x3 1) (main_c_5 : IVec S_ 1) : IVec S_ 1 :=
  let main_v16 : IVec S_ 1 := (fun x v => Host.reduce IntOp.andi x v reducesTo_S2097152x3_S_d0_1 h_S_) main_v15 main_c_5
  let main_v17 : IVec S_ 1 := andi main_v10 main_v16
  main_v17

def fn {F : FTy → Type} [FloatOps F] (main_arg0 : FVec F S2097152x13 .f32) (main_arg1 : IVec S2097152x2 32) (main_arg2 : IVec S2097152x3 32) : IVec S_ 1 :=
  let main_v0 : FVec F S2097152x13 .f32 := Host.absf main_arg0
  let main_cst : FVec F S_ .f32 := constant S_ .f32 0x7F800000#32
  let main_v1 : FVec F S2097152x13 .f32 := broadcastInDim S2097152x13 ![] bcast_S_S2097152x13 main_cst
  let main_v2 : IVec S2097152x13 1 := cmpf .olt main_v0 main_v1
  let main_c : IVec S_ 1 := constantI S_ 1 1#1
  let main_v3 : IVec S_ 1 := (fun x v => Host.reduce IntOp.andi x v reducesTo_S2097152x13_S_d0_1 h_S_) main_v2 main_c
  let main_c_0 : IVec S_ 32 := constantI S_ 32 0#32
  let main_v4 : IVec S2097152x2 32 := broadcastInDim S2097152x2 ![] bcast_S_S2097152x2 main_c_0
  let main_v5 : IVec S2097152x2 1 := cmpi .sge main_arg1 main_v4
  let main_c_1 : IVec S_ 32 := constantI S_ 32 2#32
  let main_v6 : IVec S2097152x2 32 := broadcastInDim S2097152x2 ![] bcast_S_S2097152x2 main_c_1
  let main_v7 : IVec S2097152x2 1 := cmpi .slt main_arg1 main_v6
  let main_v8 : IVec S2097152x2 1 := andi main_v5 main_v7
  let main_c_2 : IVec S_ 1 := constantI S_ 1 1#1
  let main_v9 : IVec S_ 1 := (fun x v => Host.reduce IntOp.andi x v reducesTo_S2097152x2_S_d0_1 h_S_) main_v8 main_c_2
  let main_v10 : IVec S_ 1 := andi main_v3 main_v9
  let main_c_3 : IVec S_ 32 := constantI S_ 32 0#32
  let main_v11 : IVec S2097152x3 32 := broadcastInDim S2097152x3 ![] bcast_S_S2097152x3 main_c_3
  let main_v12 : IVec S2097152x3 1 := cmpi .sge main_arg2 main_v11
  let main_c_4 : IVec S_ 32 := constantI S_ 32 3#32
  let main_v13 : IVec S2097152x3 32 := broadcastInDim S2097152x3 ![] bcast_S_S2097152x3 main_c_4
  let main_v14 : IVec S2097152x3 1 := cmpi .slt main_arg2 main_v13
  let main_v15 : IVec S2097152x3 1 := andi main_v12 main_v14
  let main_c_5 : IVec S_ 1 := constantI S_ 1 1#1
  fn_part1 (F := F) main_v10 main_v15 main_c_5
-- ==== Kernel.lean ====
abbrev S2097152x13 : Shape := ⟨2, ![2097152, 13]⟩
abbrev S2097152x2 : Shape := ⟨2, ![2097152, 2]⟩
abbrev S2097152x3 : Shape := ⟨2, ![2097152, 3]⟩
abbrev S2x6x128 : Shape := ⟨3, ![2, 6, 128]⟩
abbrev S4096x13 : Shape := ⟨2, ![4096, 13]⟩
abbrev S4096x2 : Shape := ⟨2, ![4096, 2]⟩
abbrev S4096x3 : Shape := ⟨2, ![4096, 3]⟩
abbrev S1x6x128 : Shape := ⟨3, ![1, 6, 128]⟩
abbrev S6x128 : Shape := ⟨2, ![6, 128]⟩
abbrev S4096x1 : Shape := ⟨2, ![4096, 1]⟩
abbrev S4096 : Shape := ⟨1, ![4096]⟩
abbrev S32x128 : Shape := ⟨2, ![32, 128]⟩
abbrev S128 : Shape := ⟨1, ![128]⟩
abbrev S1x128 : Shape := ⟨2, ![1, 128]⟩
abbrev S_ : Shape := ⟨0, ![]⟩
abbrev S6 : Shape := ⟨1, ![6]⟩
abbrev S1 : Shape := ⟨1, ![1]⟩
abbrev S7 : Shape := ⟨1, ![7]⟩

abbrev nBuf : Space → Nat
  | .hbm => 13
  | .vmem => 9
  | .smem => 0
  | _ => 0

abbrev bufTy : (tb : Table) → Fin (tcTables nBuf tb) → BufTy
  | .hbm, ⟨0, _⟩ => ⟨S2097152x13, .f32⟩
  | .hbm, ⟨1, _⟩ => ⟨S2097152x2, .i32⟩
  | .hbm, ⟨2, _⟩ => ⟨S2097152x3, .i32⟩
  | .hbm, ⟨3, _⟩ => ⟨S2x6x128, .f32⟩
  | .hbm, ⟨4, _⟩ => ⟨S_, .f32⟩
  | .hbm, ⟨5, _⟩ => ⟨S6, .f32⟩
  | .hbm, ⟨6, _⟩ => ⟨S_, .f32⟩
  | .hbm, ⟨7, _⟩ => ⟨S6, .f32⟩
  | .hbm, ⟨8, _⟩ => ⟨S6, .f32⟩
  | .hbm, ⟨9, _⟩ => ⟨S_, .f32⟩
  | .hbm, ⟨10, _⟩ => ⟨S_, .f32⟩
  | .hbm, ⟨11, _⟩ => ⟨S1, .f32⟩
  | .hbm, ⟨12, _⟩ => ⟨S7, .f32⟩
  | .local _ .vmem, ⟨0, _⟩ => ⟨S4096x13, .f32⟩
  | .local _ .vmem, ⟨1, _⟩ => ⟨S4096x13, .f32⟩
  | .local _ .vmem, ⟨2, _⟩ => ⟨S4096x2, .i32⟩
  | .local _ .vmem, ⟨3, _⟩ => ⟨S4096x2, .i32⟩
  | .local _ .vmem, ⟨4, _⟩ => ⟨S4096x3, .i32⟩
  | .local _ .vmem, ⟨5, _⟩ => ⟨S4096x3, .i32⟩
  | .local _ .vmem, ⟨6, _⟩ => ⟨S1x6x128, .f32⟩
  | .local _ .vmem, ⟨7, _⟩ => ⟨S1x6x128, .f32⟩
  | .local _ .vmem, ⟨8, _⟩ => ⟨S6x128, .f32⟩
  | _, _ => ⟨S2097152x13, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 256], ![false, false]⟩

def k0_cond2 (i : grid0.Coords) : BitVec 1 :=
  let arg1 : BitVec 32 := BitVec.ofNat 32 (i 1).val
  let c255_i32 : BitVec 32 := 255#32
  let v256 : BitVec 1 := Scalar.cmpi .eq arg1 c255_i32
  let v257 : BitVec 32 := Scalar.extui v256
  let c0_i32_81 : BitVec 32 := 0#32
  let v258 : BitVec 1 := Scalar.cmpi .ne v257 c0_i32_81
  v258

def cc0_transform_0 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x13 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x2 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x3 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S6x128_S6x128_0_0 : ∀ a, (![0, 0] : Fin 2 → Nat) a + S6x128.size a ≤ S6x128.size a
  h_S6x128 : 0 < S6x128.numel
  shapeCasts_S6x128_S6x128 : S6x128.ShapeCasts S6x128
  inb_S4096x13_S4096x13_0_0 : ∀ a, (![0, 0] : Fin 2 → Nat) a + S4096x13.size a ≤ S4096x13.size a
  h_S4096x13 : 0 < S4096x13.numel
  inb_S4096x2_S4096x2_0_0 : ∀ a, (![0, 0] : Fin 2 → Nat) a + S4096x2.size a ≤ S4096x2.size a
  h_S4096x2 : 0 < S4096x2.numel
  inb_S4096x3_S4096x3_0_0 : ∀ a, (![0, 0] : Fin 2 → Nat) a + S4096x3.size a ≤ S4096x3.size a
  h_S4096x3 : 0 < S4096x3.numel
  slices_S4096x2_o0_0_S4096x1 : S4096x2.Slices ![0, 0] S4096x1
  shapeCasts_S4096x1_S4096 : S4096x1.ShapeCasts S4096
  slices_S4096x2_o0_1_S4096x1 : S4096x2.Slices ![0, 1] S4096x1
  slices_S4096x3_o0_0_S4096x1 : S4096x3.Slices ![0, 0] S4096x1
  slices_S4096x3_o0_1_S4096x1 : S4096x3.Slices ![0, 1] S4096x1
  slices_S4096x3_o0_2_S4096x1 : S4096x3.Slices ![0, 2] S4096x1
  slices_S4096x13_o0_0_S4096x2 : S4096x13.Slices ![0, 0] S4096x2
  reduces_S4096x2_S4096 : S4096x2.Reduces [1] S4096
  shapeCasts_S4096_S4096x1 : S4096.ShapeCasts S4096x1
  broadcasts_S4096x1_S4096x2 : S4096x1.Broadcasts S4096x2
  iota_S4096x2_d1_w32 : S4096x2.Iotas .tc 32 [1]
  shapeCasts_S4096_S32x128 : S4096.ShapeCasts S32x128
  reduces_S32x128_S128 : S32x128.Reduces [0] S128
  shapeCasts_S128_S1x128 : S128.ShapeCasts S1x128
  slices_S4096x13_o0_2_S4096x2 : S4096x13.Slices ![0, 2] S4096x2
  slices_S4096x13_o0_4_S4096x3 : S4096x13.Slices ![0, 4] S4096x3
  reduces_S4096x3_S4096 : S4096x3.Reduces [1] S4096
  broadcasts_S4096x1_S4096x3 : S4096x1.Broadcasts S4096x3
  iota_S4096x3_d1_w32 : S4096x3.Iotas .tc 32 [1]
  slices_S4096x13_o0_7_S4096x3 : S4096x13.Slices ![0, 7] S4096x3
  slices_S4096x13_o0_10_S4096x3 : S4096x13.Slices ![0, 10] S4096x3
  natLt_1_32 : 1 < 32
  concatenates_S1x128_S1x128_S1x128_S1x128_S1x128_S1x128_S6x128_d0 : Shape.Concatenates [S1x128, S1x128, S1x128, S1x128, S1x128, S1x128] S6x128 0
  shapeCasts_S6x128_S1x6x128 : S6x128.ShapeCasts S1x6x128
  inb_S1x6x128_S1x6x128_0_0_0 : ∀ a, (![0, 0, 0] : Fin 3 → Nat) a + S1x6x128.size a ≤ S1x6x128.size a
  h_S1x6x128 : 0 < S1x6x128.numel
  reducesTo_S2x6x128_S6_d0_2 : S2x6x128.ReducesTo [0, 2] S6
  h_S_ : 0 < S_.numel
  bcast_S_S6 : S_.BroadcastsInDim S6 (![] : Fin 0 → Fin S6.rank)
  reducesTo_S6_S_d0 : S6.ReducesTo [0] S_
  bcast_S_S1 : S_.BroadcastsInDim S1 (![] : Fin 0 → Fin S1.rank)
  concatenates_S6_S1_S7_d0 : Shape.Concatenates [S6, S1] S7 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x13.size a ≤ S2097152x13.size a
  hwx0_0 : ∀ i : grid0.Coords, EltTy.bits .f32 = 32 ∨ (Rect.block (s := S2097152x13) S4096x13.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x2.size a ≤ S2097152x2.size a
  hwx0_1 : ∀ i : grid0.Coords, EltTy.bits .i32 = 32 ∨ (Rect.block (s := S2097152x2) S4096x2.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x3.size a ≤ S2097152x3.size a
  hwx0_2 : ∀ i : grid0.Coords, EltTy.bits .i32 = 32 ∨ (Rect.block (s := S2097152x3) S4096x3.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x6x128.size a ≤ S2x6x128.size a
  hwx0_3 : ∀ i : grid0.Coords, EltTy.bits .f32 = 32 ∨ (Rect.block (s := S2x6x128) S1x6x128.size (cc0_transform_3 i) (hinb0_3 i)).WholeWords (EltTy.packing .f32)

variable [Facts₀]

abbrev win0_0 : Pipeline.Window sig grid0 :=
  Pipeline.Window.ofSpec (Memref.whole main_arg0) S4096x13.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x6x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2097152x13 : Shape := ⟨2, ![2097152, 13]⟩
abbrev S2097152x2 : Shape := ⟨2, ![2097152, 2]⟩
abbrev S2097152x3 : Shape := ⟨2, ![2097152, 3]⟩
abbrev S2 : Shape := ⟨1, ![2]⟩
abbrev S3 : Shape := ⟨1, ![3]⟩
abbrev S2097152x5 : Shape := ⟨2, ![2097152, 5]⟩
abbrev S_ : Shape := ⟨0, ![]⟩
abbrev S2097152 : Shape := ⟨1, ![2097152]⟩
abbrev S2097152x1 : Shape := ⟨2, ![2097152, 1]⟩
abbrev S2097152x1x1 : Shape := ⟨3, ![2097152, 1, 1]⟩
abbrev S1 : Shape := ⟨1, ![1]⟩
abbrev S1x1x1 : Shape := ⟨3, ![1, 1, 1]⟩
abbrev S7 : Shape := ⟨1, ![7]⟩

abbrev nBuf : Space → Nat
  | .hbm => 375
  | .vmem => 0
  | .smem => 0
  | _ => 0

abbrev hbmTy0_0 (i : Nat) : BufTy := match i % 128 with
  | 0 => ⟨S2097152x13, .f32⟩
  | 1 => ⟨S2097152x2, .i32⟩
  | 2 => ⟨S2097152x3, .i32⟩
  | 3 => ⟨S2, .f32⟩
  | 4 => ⟨S2, .f32⟩
  | 5 => ⟨S3, .f32⟩
  | 6 => ⟨S3, .f32⟩
  | 7 => ⟨S3, .f32⟩
  | 8 => ⟨S2097152x5, .i32⟩
  | 9 => ⟨S2097152x2, .f32⟩
  | 10 => ⟨S_, .f32⟩
  | 11 => ⟨S2097152, .f32⟩
  | 12 => ⟨S_, .f32⟩
  | 13 => ⟨S2097152, .f32⟩
  | 14 => ⟨S2097152, .f32⟩
  | 15 => ⟨S2097152x1, .f32⟩
  | 16 => ⟨S2097152x2, .f32⟩
  | 17 => ⟨S2097152x2, .f32⟩
  | 18 => ⟨S2097152x2, .f32⟩
  | 19 => ⟨S_, .f32⟩
  | 20 => ⟨S2097152, .f32⟩
  | 21 => ⟨S2097152x1, .f32⟩
  | 22 => ⟨S2097152x1, .f32⟩
  | 23 => ⟨S2097152x2, .f32⟩
  | 24 => ⟨S2097152x2, .f32⟩
  | 25 => ⟨S2097152x1, .i32⟩
  | 26 => ⟨S2097152, .i32⟩
  | 27 => ⟨S2097152x1, .i32⟩
  | 28 => ⟨S_, .i32⟩
  | 29 => ⟨S2097152x1, .i32⟩
  | 30 => ⟨S2097152x1, .i1⟩
  | 31 => ⟨S_, .i32⟩
  | 32 => ⟨S2097152x1, .i32⟩
  | 33 => ⟨S2097152x1, .i32⟩
  | 34 => ⟨S2097152x1, .i32⟩
  | 35 => ⟨S2097152x1x1, .i32⟩
  | 36 => ⟨S1, .i32⟩
  | 37 => ⟨S_, .i32⟩
  | 38 => ⟨S2097152x1x1, .i32⟩
  | 39 => ⟨S2097152x1x1, .i1⟩
  | 40 => ⟨S1x1x1, .i32⟩
  | 41 => ⟨S2097152x1x1, .i32⟩
  | 42 => ⟨S2097152x1x1, .i1⟩
  | 43 => ⟨S2097152x1x1, .i1⟩
  | 44 => ⟨S_, .i1⟩
  | 45 => ⟨S2097152x1, .i1⟩
  | 46 => ⟨S2097152x1, .f32⟩
  | 47 => ⟨S_, .f32⟩
  | 48 => ⟨S2097152x1, .f32⟩
  | 49 => ⟨S2097152x1, .f32⟩
  | 50 => ⟨S2097152, .f32⟩
  | 51 => ⟨S2097152, .f32⟩
  | 52 => ⟨S_, .i32⟩
  | 53 => ⟨S2097152, .i32⟩
  | 54 => ⟨S2097152, .i1⟩
  | 55 => ⟨S_, .i32⟩
  | 56 => ⟨S2097152, .i32⟩
  | 57 => ⟨S2097152, .i32⟩
  | 58 => ⟨S2097152, .i32⟩
  | 59 => ⟨S2097152x1, .i32⟩
  | 60 => ⟨S2097152, .f32⟩
  | 61 => ⟨S2097152, .f32⟩
  | 62 => ⟨S_, .f32⟩
  | 63 => ⟨S_, .f32⟩
  | 64 => ⟨S_, .f32⟩
  | 65 => ⟨S_, .f32⟩
  | 66 => ⟨S2097152x1, .f32⟩
  | 67 => ⟨S2097152, .f32⟩
  | 68 => ⟨S2097152, .f32⟩
  | 69 => ⟨S_, .f32⟩
  | 70 => ⟨S2097152, .f32⟩
  | 71 => ⟨S2097152, .f32⟩
  | 72 => ⟨S2097152x2, .f32⟩
  | 73 => ⟨S_, .f32⟩
  | 74 => ⟨S2097152, .f32⟩
  | 75 => ⟨S_, .f32⟩
  | 76 => ⟨S2097152, .f32⟩
  | 77 => ⟨S2097152, .f32⟩
  | 78 => ⟨S2097152x1, .f32⟩
  | 79 => ⟨S2097152x2, .f32⟩
  | 80 => ⟨S2097152x2, .f32⟩
  | 81 => ⟨S2097152x2, .f32⟩
  | 82 => ⟨S_, .f32⟩
  | 83 => ⟨S2097152, .f32⟩
  | 84 => ⟨S2097152x1, .f32⟩
  | 85 => ⟨S2097152x1, .f32⟩
  | 86 => ⟨S2097152x2, .f32⟩
  | 87 => ⟨S2097152x2, .f32⟩
  | 88 => ⟨S2097152x1, .i32⟩
  | 89 => ⟨S2097152, .i32⟩
  | 90 => ⟨S2097152x1, .i32⟩
  | 91 => ⟨S_, .i32⟩
  | 92 => ⟨S2097152x1, .i32⟩
  | 93 => ⟨S2097152x1, .i1⟩
  | 94 => ⟨S_, .i32⟩
  | 95 => ⟨S2097152x1, .i32⟩
  | 96 => ⟨S2097152x1, .i32⟩
  | 97 => ⟨S2097152x1, .i32⟩
  | 98 => ⟨S2097152x1x1, .i32⟩
  | 99 => ⟨S1, .i32⟩
  | 100 => ⟨S_, .i32⟩
  | 101 => ⟨S2097152x1x1, .i32⟩
  | 102 => ⟨S2097152x1x1, .i1⟩
  | 103 => ⟨S1x1x1, .i32⟩
  | 104 => ⟨S2097152x1x1, .i32⟩
  | 105 => ⟨S2097152x1x1, .i1⟩
  | 106 => ⟨S2097152x1x1, .i1⟩
  | 107 => ⟨S_, .i1⟩
  | 108 => ⟨S2097152x1, .i1⟩
  | 109 => ⟨S2097152x1, .f32⟩
  | 110 => ⟨S_, .f32⟩
  | 111 => ⟨S2097152x1, .f32⟩
  | 112 => ⟨S2097152x1, .f32⟩
  | 113 => ⟨S2097152, .f32⟩
  | 114 => ⟨S2097152, .f32⟩
  | 115 => ⟨S_, .i32⟩
  | 116 => ⟨S2097152, .i32⟩
  | 117 => ⟨S2097152, .i1⟩
  | 118 => ⟨S_, .i32⟩
  | 119 => ⟨S2097152, .i32⟩
  | 120 => ⟨S2097152, .i32⟩
  | 121 => ⟨S2097152, .i32⟩
  | 122 => ⟨S2097152x1, .i32⟩
  | 123 => ⟨S2097152, .f32⟩
  | 124 => ⟨S2097152, .f32⟩
  | 125 => ⟨S_, .f32⟩
  | 126 => ⟨S_, .f32⟩
  | 127 => ⟨S_, .f32⟩
  | _ => ⟨S2097152x13, .f32⟩

abbrev hbmTy0_1 (i : Nat) : BufTy := match i % 128 with
  | 0 => ⟨S_, .f32⟩
  | 1 => ⟨S2097152x1, .f32⟩
  | 2 => ⟨S2097152, .f32⟩
  | 3 => ⟨S2097152, .f32⟩
  | 4 => ⟨S_, .f32⟩
  | 5 => ⟨S2097152, .f32⟩
  | 6 => ⟨S2097152, .f32⟩
  | 7 => ⟨S2097152x3, .f32⟩
  | 8 => ⟨S_, .f32⟩
  | 9 => ⟨S2097152, .f32⟩
  | 10 => ⟨S_, .f32⟩
  | 11 => ⟨S2097152, .f32⟩
  | 12 => ⟨S2097152, .f32⟩
  | 13 => ⟨S2097152x1, .f32⟩
  | 14 => ⟨S2097152x3, .f32⟩
  | 15 => ⟨S2097152x3, .f32⟩
  | 16 => ⟨S2097152x3, .f32⟩
  | 17 => ⟨S_, .f32⟩
  | 18 => ⟨S2097152, .f32⟩
  | 19 => ⟨S2097152x1, .f32⟩
  | 20 => ⟨S2097152x1, .f32⟩
  | 21 => ⟨S2097152x3, .f32⟩
  | 22 => ⟨S2097152x3, .f32⟩
  | 23 => ⟨S2097152x1, .i32⟩
  | 24 => ⟨S2097152, .i32⟩
  | 25 => ⟨S2097152x1, .i32⟩
  | 26 => ⟨S_, .i32⟩
  | 27 => ⟨S2097152x1, .i32⟩
  | 28 => ⟨S2097152x1, .i1⟩
  | 29 => ⟨S_, .i32⟩
  | 30 => ⟨S2097152x1, .i32⟩
  | 31 => ⟨S2097152x1, .i32⟩
  | 32 => ⟨S2097152x1, .i32⟩
  | 33 => ⟨S2097152x1x1, .i32⟩
  | 34 => ⟨S1, .i32⟩
  | 35 => ⟨S_, .i32⟩
  | 36 => ⟨S2097152x1x1, .i32⟩
  | 37 => ⟨S2097152x1x1, .i1⟩
  | 38 => ⟨S1x1x1, .i32⟩
  | 39 => ⟨S2097152x1x1, .i32⟩
  | 40 => ⟨S2097152x1x1, .i1⟩
  | 41 => ⟨S2097152x1x1, .i1⟩
  | 42 => ⟨S_, .i1⟩
  | 43 => ⟨S2097152x1, .i1⟩
  | 44 => ⟨S2097152x1, .f32⟩
  | 45 => ⟨S_, .f32⟩
  | 46 => ⟨S2097152x1, .f32⟩
  | 47 => ⟨S2097152x1, .f32⟩
  | 48 => ⟨S2097152, .f32⟩
  | 49 => ⟨S2097152, .f32⟩
  | 50 => ⟨S_, .i32⟩
  | 51 => ⟨S2097152, .i32⟩
  | 52 => ⟨S2097152, .i1⟩
  | 53 => ⟨S_, .i32⟩
  | 54 => ⟨S2097152, .i32⟩
  | 55 => ⟨S2097152, .i32⟩
  | 56 => ⟨S2097152, .i32⟩
  | 57 => ⟨S2097152x1, .i32⟩
  | 58 => ⟨S2097152, .f32⟩
  | 59 => ⟨S2097152, .f32⟩
  | 60 => ⟨S_, .f32⟩
  | 61 => ⟨S_, .f32⟩
  | 62 => ⟨S_, .f32⟩
  | 63 => ⟨S_, .f32⟩
  | 64 => ⟨S2097152x1, .f32⟩
  | 65 => ⟨S2097152, .f32⟩
  | 66 => ⟨S2097152, .f32⟩
  | 67 => ⟨S_, .f32⟩
  | 68 => ⟨S2097152, .f32⟩
  | 69 => ⟨S2097152, .f32⟩
  | 70 => ⟨S2097152x3, .f32⟩
  | 71 => ⟨S_, .f32⟩
  | 72 => ⟨S2097152, .f32⟩
  | 73 => ⟨S_, .f32⟩
  | 74 => ⟨S2097152, .f32⟩
  | 75 => ⟨S2097152, .f32⟩
  | 76 => ⟨S2097152x1, .f32⟩
  | 77 => ⟨S2097152x3, .f32⟩
  | 78 => ⟨S2097152x3, .f32⟩
  | 79 => ⟨S2097152x3, .f32⟩
  | 80 => ⟨S_, .f32⟩
  | 81 => ⟨S2097152, .f32⟩
  | 82 => ⟨S2097152x1, .f32⟩
  | 83 => ⟨S2097152x1, .f32⟩
  | 84 => ⟨S2097152x3, .f32⟩
  | 85 => ⟨S2097152x3, .f32⟩
  | 86 => ⟨S2097152x1, .i32⟩
  | 87 => ⟨S2097152, .i32⟩
  | 88 => ⟨S2097152x1, .i32⟩
  | 89 => ⟨S_, .i32⟩
  | 90 => ⟨S2097152x1, .i32⟩
  | 91 => ⟨S2097152x1, .i1⟩
  | 92 => ⟨S_, .i32⟩
  | 93 => ⟨S2097152x1, .i32⟩
  | 94 => ⟨S2097152x1, .i32⟩
  | 95 => ⟨S2097152x1, .i32⟩
  | 96 => ⟨S2097152x1x1, .i32⟩
  | 97 => ⟨S1, .i32⟩
  | 98 => ⟨S_, .i32⟩
  | 99 => ⟨S2097152x1x1, .i32⟩
  | 100 => ⟨S2097152x1x1, .i1⟩
  | 101 => ⟨S1x1x1, .i32⟩
  | 102 => ⟨S2097152x1x1, .i32⟩
  | 103 => ⟨S2097152x1x1, .i1⟩
  | 104 => ⟨S2097152x1x1, .i1⟩
  | 105 => ⟨S_, .i1⟩
  | 106 => ⟨S2097152x1, .i1⟩
  | 107 => ⟨S2097152x1, .f32⟩
  | 108 => ⟨S_, .f32⟩
  | 109 => ⟨S2097152x1, .f32⟩
  | 110 => ⟨S2097152x1, .f32⟩
  | 111 => ⟨S2097152, .f32⟩
  | 112 => ⟨S2097152, .f32⟩
  | 113 => ⟨S_, .i32⟩
  | 114 => ⟨S2097152, .i32⟩
  | 115 => ⟨S2097152, .i1⟩
  | 116 => ⟨S_, .i32⟩
  | 117 => ⟨S2097152, .i32⟩
  | 118 => ⟨S2097152, .i32⟩
  | 119 => ⟨S2097152, .i32⟩
  | 120 => ⟨S2097152x1, .i32⟩
  | 121 => ⟨S2097152, .f32⟩
  | 122 => ⟨S2097152, .f32⟩
  | 123 => ⟨S_, .f32⟩
  | 124 => ⟨S_, .f32⟩
  | 125 => ⟨S_, .f32⟩
  | 126 => ⟨S_, .f32⟩
  | 127 => ⟨S2097152x1, .f32⟩
  | _ => ⟨S2097152x13, .f32⟩

abbrev hbmTy0_2 (i : Nat) : BufTy := match i % 128 with
  | 0 => ⟨S2097152, .f32⟩
  | 1 => ⟨S2097152, .f32⟩
  | 2 => ⟨S_, .f32⟩
  | 3 => ⟨S2097152, .f32⟩
  | 4 => ⟨S2097152, .f32⟩
  | 5 => ⟨S2097152x3, .f32⟩
  | 6 => ⟨S_, .f32⟩
  | 7 => ⟨S2097152, .f32⟩
  | 8 => ⟨S_, .f32⟩
  | 9 => ⟨S2097152, .f32⟩
  | 10 => ⟨S2097152, .f32⟩
  | 11 => ⟨S2097152x1, .f32⟩
  | 12 => ⟨S2097152x3, .f32⟩
  | 13 => ⟨S2097152x3, .f32⟩
  | 14 => ⟨S2097152x3, .f32⟩
  | 15 => ⟨S_, .f32⟩
  | 16 => ⟨S2097152, .f32⟩
  | 17 => ⟨S2097152x1, .f32⟩
  | 18 => ⟨S2097152x1, .f32⟩
  | 19 => ⟨S2097152x3, .f32⟩
  | 20 => ⟨S2097152x3, .f32⟩
  | 21 => ⟨S2097152x1, .i32⟩
  | 22 => ⟨S2097152, .i32⟩
  | 23 => ⟨S2097152x1, .i32⟩
  | 24 => ⟨S_, .i32⟩
  | 25 => ⟨S2097152x1, .i32⟩
  | 26 => ⟨S2097152x1, .i1⟩
  | 27 => ⟨S_, .i32⟩
  | 28 => ⟨S2097152x1, .i32⟩
  | 29 => ⟨S2097152x1, .i32⟩
  | 30 => ⟨S2097152x1, .i32⟩
  | 31 => ⟨S2097152x1x1, .i32⟩
  | 32 => ⟨S1, .i32⟩
  | 33 => ⟨S_, .i32⟩
  | 34 => ⟨S2097152x1x1, .i32⟩
  | 35 => ⟨S2097152x1x1, .i1⟩
  | 36 => ⟨S1x1x1, .i32⟩
  | 37 => ⟨S2097152x1x1, .i32⟩
  | 38 => ⟨S2097152x1x1, .i1⟩
  | 39 => ⟨S2097152x1x1, .i1⟩
  | 40 => ⟨S_, .i1⟩
  | 41 => ⟨S2097152x1, .i1⟩
  | 42 => ⟨S2097152x1, .f32⟩
  | 43 => ⟨S_, .f32⟩
  | 44 => ⟨S2097152x1, .f32⟩
  | 45 => ⟨S2097152x1, .f32⟩
  | 46 => ⟨S2097152, .f32⟩
  | 47 => ⟨S2097152, .f32⟩
  | 48 => ⟨S_, .i32⟩
  | 49 => ⟨S2097152, .i32⟩
  | 50 => ⟨S2097152, .i1⟩
  | 51 => ⟨S_, .i32⟩
  | 52 => ⟨S2097152, .i32⟩
  | 53 => ⟨S2097152, .i32⟩
  | 54 => ⟨S2097152, .i32⟩
  | 55 => ⟨S2097152x1, .i32⟩
  | 56 => ⟨S2097152, .f32⟩
  | 57 => ⟨S2097152, .f32⟩
  | 58 => ⟨S_, .f32⟩
  | 59 => ⟨S_, .f32⟩
  | 60 => ⟨S_, .f32⟩
  | 61 => ⟨S_, .f32⟩
  | 62 => ⟨S2097152x1, .f32⟩
  | 63 => ⟨S2097152, .f32⟩
  | 64 => ⟨S2097152, .f32⟩
  | 65 => ⟨S_, .f32⟩
  | 66 => ⟨S2097152, .f32⟩
  | 67 => ⟨S2097152, .f32⟩
  | 68 => ⟨S_, .i32⟩
  | 69 => ⟨S2097152, .i32⟩
  | 70 => ⟨S_, .i32⟩
  | 71 => ⟨S2097152, .i32⟩
  | 72 => ⟨S2097152, .i1⟩
  | 73 => ⟨S2097152, .f32⟩
  | 74 => ⟨S2097152x1, .f32⟩
  | 75 => ⟨S2097152x1, .f32⟩
  | 76 => ⟨S2097152x1, .f32⟩
  | 77 => ⟨S2097152x1, .f32⟩
  | 78 => ⟨S2097152x1, .f32⟩
  | 79 => ⟨S2097152x5, .f32⟩
  | 80 => ⟨S_, .f32⟩
  | 81 => ⟨S2097152, .f32⟩
  | 82 => ⟨S_, .f32⟩
  | 83 => ⟨S2097152, .f32⟩
  | 84 => ⟨S2097152, .i1⟩
  | 85 => ⟨S_, .f32⟩
  | 86 => ⟨S_, .f32⟩
  | 87 => ⟨S2097152, .f32⟩
  | 88 => ⟨S2097152, .f32⟩
  | 89 => ⟨S2097152, .f32⟩
  | 90 => ⟨S2097152, .f32⟩
  | 91 => ⟨S2097152, .f32⟩
  | 92 => ⟨S_, .f32⟩
  | 93 => ⟨S2097152, .f32⟩
  | 94 => ⟨S2097152, .f32⟩
  | 95 => ⟨S2097152, .f32⟩
  | 96 => ⟨S2097152, .f32⟩
  | 97 => ⟨S2097152, .f32⟩
  | 98 => ⟨S2097152, .f32⟩
  | 99 => ⟨S2097152, .f32⟩
  | 100 => ⟨S2097152, .f32⟩
  | 101 => ⟨S2097152, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S1, .f32⟩
  | 112 => ⟨S1, .f32⟩
  | 113 => ⟨S1, .f32⟩
  | 114 => ⟨S1, .f32⟩
  | 115 => ⟨S1, .f32⟩
  | 116 => ⟨S1, .f32⟩
  | 117 => ⟨S1, .f32⟩
  | 118 => ⟨S7, .f32⟩
  | _ => ⟨S2097152x13, .f32⟩

abbrev hbmTy (i : Nat) : BufTy := match i / 128 with
  | 0 => hbmTy0_0 i
  | 1 => hbmTy0_1 i
  | 2 => hbmTy0_2 i
  | _ => ⟨S2097152x13, .f32⟩

abbrev bufTy : (tb : Table) → Fin (tcTables nBuf tb) → BufTy
  | .hbm, ⟨i, _⟩ => hbmTy i
  | _, _ => ⟨S2097152x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_cst_2 : Ref sig .tc := ⟨.hbm, 6, rfl⟩
abbrev main_cst_3 : Ref sig .tc := ⟨.hbm, 7, rfl⟩
abbrev main_v0 : Ref sig .tc := ⟨.hbm, 8, rfl⟩
abbrev main_v1 : Ref sig .tc := ⟨.hbm, 9, rfl⟩
abbrev main_call0_cst : Ref sig .tc := ⟨.hbm, 10, rfl⟩
abbrev main_call0_v0 : Ref sig .tc := ⟨.hbm, 11, rfl⟩
abbrev main_call0_cst_0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_cst_1 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_cst : Ref sig .tc := ⟨.hbm, 47, rfl⟩
abbrev main_call1_v14 : Ref sig .tc := ⟨.hbm, 48, rfl⟩
abbrev main_v6 : Ref sig .tc := ⟨.hbm, 49, rfl⟩
abbrev main_v7 : Ref sig .tc := ⟨.hbm, 50, rfl⟩
abbrev main_v8 : Ref sig .tc := ⟨.hbm, 51, rfl⟩
abbrev main_c : Ref sig .tc := ⟨.hbm, 52, rfl⟩
abbrev main_v9 : Ref sig .tc := ⟨.hbm, 53, rfl⟩
abbrev main_v10 : Ref sig .tc := ⟨.hbm, 54, rfl⟩
abbrev main_c_4 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_cst_5 : Ref sig .tc := ⟨.hbm, 62, rfl⟩
abbrev main_v17 : Ref sig .tc := ⟨.hbm, 63, rfl⟩
abbrev main_cst_6 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_cst_7 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_call2_cst : Ref sig .tc := ⟨.hbm, 73, rfl⟩
abbrev main_call2_v0 : Ref sig .tc := ⟨.hbm, 74, rfl⟩
abbrev main_call2_cst_0 : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_v6 : Ref sig .tc := ⟨.hbm, 81, rfl⟩
abbrev main_call2_cst_1 : Ref sig .tc := ⟨.hbm, 82, rfl⟩
abbrev main_call2_v7 : Ref sig .tc := ⟨.hbm, 83, rfl⟩
abbrev main_call2_v8 : Ref sig .tc := ⟨.hbm, 84, rfl⟩
abbrev main_call2_v9 : Ref sig .tc := ⟨.hbm, 85, rfl⟩
abbrev main_call2_v10 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_call3_c : Ref sig .tc := ⟨.hbm, 91, rfl⟩
abbrev main_call3_v0 : Ref sig .tc := ⟨.hbm, 92, rfl⟩
abbrev main_call3_v1 : Ref sig .tc := ⟨.hbm, 93, rfl⟩
abbrev main_call3_c_0 : Ref sig .tc := ⟨.hbm, 94, rfl⟩
abbrev main_call3_v2 : Ref sig .tc := ⟨.hbm, 95, rfl⟩
abbrev main_call3_v3 : Ref sig .tc := ⟨.hbm, 96, rfl⟩
abbrev main_call3_v4 : Ref sig .tc := ⟨.hbm, 97, rfl⟩
abbrev main_call3_v5 : Ref sig .tc := ⟨.hbm, 98, rfl⟩
abbrev main_call3_c_1 : Ref sig .tc := ⟨.hbm, 99, rfl⟩
abbrev main_call3_c_2 : Ref sig .tc := ⟨.hbm, 100, rfl⟩
abbrev main_call3_v6 : Ref sig .tc := ⟨.hbm, 101, rfl⟩
abbrev main_call3_v7 : Ref sig .tc := ⟨.hbm, 102, rfl⟩
abbrev main_call3_v8 : Ref sig .tc := ⟨.hbm, 103, rfl⟩
abbrev main_call3_v9 : Ref sig .tc := ⟨.hbm, 104, rfl⟩
abbrev main_call3_v10 : Ref sig .tc := ⟨.hbm, 105, rfl⟩
abbrev main_call3_v11 : Ref sig .tc := ⟨.hbm, 106, rfl⟩
abbrev main_call3_c_3 : Ref sig .tc := ⟨.hbm, 107, rfl⟩
abbrev main_call3_v12 : Ref sig .tc := ⟨.hbm, 108, rfl⟩
abbrev main_call3_v13 : Ref sig .tc := ⟨.hbm, 109, rfl⟩
abbrev main_call3_cst : Ref sig .tc := ⟨.hbm, 110, rfl⟩
abbrev main_call3_v14 : Ref sig .tc := ⟨.hbm, 111, rfl⟩
abbrev main_v29 : Ref sig .tc := ⟨.hbm, 112, rfl⟩
abbrev main_v30 : Ref sig .tc := ⟨.hbm, 113, rfl⟩
abbrev main_v31 : Ref sig .tc := ⟨.hbm, 114, rfl⟩
abbrev main_c_8 : Ref sig .tc := ⟨.hbm, 115, rfl⟩
abbrev main_v32 : Ref sig .tc := ⟨.hbm, 116, rfl⟩
abbrev main_v33 : Ref sig .tc := ⟨.hbm, 117, rfl⟩
abbrev main_c_9 : Ref sig .tc := ⟨.hbm, 118, rfl⟩
abbrev main_v34 : Ref sig .tc := ⟨.hbm, 119, rfl⟩
abbrev main_v35 : Ref sig .tc := ⟨.hbm, 120, rfl⟩
abbrev main_v36 : Ref sig .tc := ⟨.hbm, 121, rfl⟩
abbrev main_v37 : Ref sig .tc := ⟨.hbm, 122, rfl⟩
abbrev main_v38 : Ref sig .tc := ⟨.hbm, 123, rfl⟩
abbrev main_v39 : Ref sig .tc := ⟨.hbm, 124, rfl⟩
abbrev main_cst_10 : Ref sig .tc := ⟨.hbm, 125, rfl⟩
abbrev main_v40 : Ref sig .tc := ⟨.hbm, 126, rfl⟩
abbrev main_cst_11 : Ref sig .tc := ⟨.hbm, 127, rfl⟩
abbrev main_v41 : Ref sig .tc := ⟨.hbm, 128, rfl⟩
abbrev main_v42 : Ref sig .tc := ⟨.hbm, 129, rfl⟩
abbrev main_v43 : Ref sig .tc := ⟨.hbm, 130, rfl⟩
abbrev main_v44 : Ref sig .tc := ⟨.hbm, 131, rfl⟩
abbrev main_cst_12 : Ref sig .tc := ⟨.hbm, 132, rfl⟩
abbrev main_v45 : Ref sig .tc := ⟨.hbm, 133, rfl⟩
abbrev main_v46 : Ref sig .tc := ⟨.hbm, 134, rfl⟩
abbrev main_v47 : Ref sig .tc := ⟨.hbm, 135, rfl⟩
abbrev main_call4_cst : Ref sig .tc := ⟨.hbm, 136, rfl⟩
abbrev main_call4_v0 : Ref sig .tc := ⟨.hbm, 137, rfl⟩
abbrev main_call4_cst_0 : Ref sig .tc := ⟨.hbm, 138, rfl⟩
abbrev main_call4_v1 : Ref sig .tc := ⟨.hbm, 139, rfl⟩
abbrev main_call4_v2 : Ref sig .tc := ⟨.hbm, 140, rfl⟩
abbrev main_call4_v3 : Ref sig .tc := ⟨.hbm, 141, rfl⟩
abbrev main_call4_v4 : Ref sig .tc := ⟨.hbm, 142, rfl⟩
abbrev main_call4_v5 : Ref sig .tc := ⟨.hbm, 143, rfl⟩
abbrev main_call4_v6 : Ref sig .tc := ⟨.hbm, 144, rfl⟩
abbrev main_call4_cst_1 : Ref sig .tc := ⟨.hbm, 145, rfl⟩
abbrev main_call4_v7 : Ref sig .tc := ⟨.hbm, 146, rfl⟩
abbrev main_call4_v8 : Ref sig .tc := ⟨.hbm, 147, rfl⟩
abbrev main_call4_v9 : Ref sig .tc := ⟨.hbm, 148, rfl⟩
abbrev main_call4_v10 : Ref sig .tc := ⟨.hbm, 149, rfl⟩
abbrev main_v48 : Ref sig .tc := ⟨.hbm, 150, rfl⟩
abbrev main_v49 : Ref sig .tc := ⟨.hbm, 151, rfl⟩
abbrev main_v50 : Ref sig .tc := ⟨.hbm, 152, rfl⟩
abbrev main_v51 : Ref sig .tc := ⟨.hbm, 153, rfl⟩
abbrev main_call5_c : Ref sig .tc := ⟨.hbm, 154, rfl⟩
abbrev main_call5_v0 : Ref sig .tc := ⟨.hbm, 155, rfl⟩
abbrev main_call5_v1 : Ref sig .tc := ⟨.hbm, 156, rfl⟩
abbrev main_call5_c_0 : Ref sig .tc := ⟨.hbm, 157, rfl⟩
abbrev main_call5_v2 : Ref sig .tc := ⟨.hbm, 158, rfl⟩
abbrev main_call5_v3 : Ref sig .tc := ⟨.hbm, 159, rfl⟩
abbrev main_call5_v4 : Ref sig .tc := ⟨.hbm, 160, rfl⟩
abbrev main_call5_v5 : Ref sig .tc := ⟨.hbm, 161, rfl⟩
abbrev main_call5_c_1 : Ref sig .tc := ⟨.hbm, 162, rfl⟩
abbrev main_call5_c_2 : Ref sig .tc := ⟨.hbm, 163, rfl⟩
abbrev main_call5_v6 : Ref sig .tc := ⟨.hbm, 164, rfl⟩
abbrev main_call5_v7 : Ref sig .tc := ⟨.hbm, 165, rfl⟩
abbrev main_call5_v8 : Ref sig .tc := ⟨.hbm, 166, rfl⟩
abbrev main_call5_v9 : Ref sig .tc := ⟨.hbm, 167, rfl⟩
abbrev main_call5_v10 : Ref sig .tc := ⟨.hbm, 168, rfl⟩
abbrev main_call5_v11 : Ref sig .tc := ⟨.hbm, 169, rfl⟩
abbrev main_call5_c_3 : Ref sig .tc := ⟨.hbm, 170, rfl⟩
abbrev main_call5_v12 : Ref sig .tc := ⟨.hbm, 171, rfl⟩
abbrev main_call5_v13 : Ref sig .tc := ⟨.hbm, 172, rfl⟩
abbrev main_call5_cst : Ref sig .tc := ⟨.hbm, 173, rfl⟩
abbrev main_call5_v14 : Ref sig .tc := ⟨.hbm, 174, rfl⟩
abbrev main_v52 : Ref sig .tc := ⟨.hbm, 175, rfl⟩
abbrev main_v53 : Ref sig .tc := ⟨.hbm, 176, rfl⟩
abbrev main_v54 : Ref sig .tc := ⟨.hbm, 177, rfl⟩
abbrev main_c_13 : Ref sig .tc := ⟨.hbm, 178, rfl⟩
abbrev main_v55 : Ref sig .tc := ⟨.hbm, 179, rfl⟩
abbrev main_v56 : Ref sig .tc := ⟨.hbm, 180, rfl⟩
abbrev main_c_14 : Ref sig .tc := ⟨.hbm, 181, rfl⟩
abbrev main_v57 : Ref sig .tc := ⟨.hbm, 182, rfl⟩
abbrev main_v58 : Ref sig .tc := ⟨.hbm, 183, rfl⟩
abbrev main_v59 : Ref sig .tc := ⟨.hbm, 184, rfl⟩
abbrev main_v60 : Ref sig .tc := ⟨.hbm, 185, rfl⟩
abbrev main_v61 : Ref sig .tc := ⟨.hbm, 186, rfl⟩
abbrev main_v62 : Ref sig .tc := ⟨.hbm, 187, rfl⟩
abbrev main_cst_15 : Ref sig .tc := ⟨.hbm, 188, rfl⟩
abbrev main_v63 : Ref sig .tc := ⟨.hbm, 189, rfl⟩
abbrev main_cst_16 : Ref sig .tc := ⟨.hbm, 190, rfl⟩
abbrev main_v64 : Ref sig .tc := ⟨.hbm, 191, rfl⟩
abbrev main_v65 : Ref sig .tc := ⟨.hbm, 192, rfl⟩
abbrev main_v66 : Ref sig .tc := ⟨.hbm, 193, rfl⟩
abbrev main_v67 : Ref sig .tc := ⟨.hbm, 194, rfl⟩
abbrev main_cst_17 : Ref sig .tc := ⟨.hbm, 195, rfl⟩
abbrev main_v68 : Ref sig .tc := ⟨.hbm, 196, rfl⟩
abbrev main_v69 : Ref sig .tc := ⟨.hbm, 197, rfl⟩
abbrev main_v70 : Ref sig .tc := ⟨.hbm, 198, rfl⟩
abbrev main_call6_cst : Ref sig .tc := ⟨.hbm, 199, rfl⟩
abbrev main_call6_v0 : Ref sig .tc := ⟨.hbm, 200, rfl⟩
abbrev main_call6_cst_0 : Ref sig .tc := ⟨.hbm, 201, rfl⟩
abbrev main_call6_v1 : Ref sig .tc := ⟨.hbm, 202, rfl⟩
abbrev main_call6_v2 : Ref sig .tc := ⟨.hbm, 203, rfl⟩
abbrev main_call6_v3 : Ref sig .tc := ⟨.hbm, 204, rfl⟩
abbrev main_call6_v4 : Ref sig .tc := ⟨.hbm, 205, rfl⟩
abbrev main_call6_v5 : Ref sig .tc := ⟨.hbm, 206, rfl⟩
abbrev main_call6_v6 : Ref sig .tc := ⟨.hbm, 207, rfl⟩
abbrev main_call6_cst_1 : Ref sig .tc := ⟨.hbm, 208, rfl⟩
abbrev main_call6_v7 : Ref sig .tc := ⟨.hbm, 209, rfl⟩
abbrev main_call6_v8 : Ref sig .tc := ⟨.hbm, 210, rfl⟩
abbrev main_call6_v9 : Ref sig .tc := ⟨.hbm, 211, rfl⟩
abbrev main_call6_v10 : Ref sig .tc := ⟨.hbm, 212, rfl⟩
abbrev main_v71 : Ref sig .tc := ⟨.hbm, 213, rfl⟩
abbrev main_v72 : Ref sig .tc := ⟨.hbm, 214, rfl⟩
abbrev main_v73 : Ref sig .tc := ⟨.hbm, 215, rfl⟩
abbrev main_v74 : Ref sig .tc := ⟨.hbm, 216, rfl⟩
abbrev main_call7_c : Ref sig .tc := ⟨.hbm, 217, rfl⟩
abbrev main_call7_v0 : Ref sig .tc := ⟨.hbm, 218, rfl⟩
abbrev main_call7_v1 : Ref sig .tc := ⟨.hbm, 219, rfl⟩
abbrev main_call7_c_0 : Ref sig .tc := ⟨.hbm, 220, rfl⟩
abbrev main_call7_v2 : Ref sig .tc := ⟨.hbm, 221, rfl⟩
abbrev main_call7_v3 : Ref sig .tc := ⟨.hbm, 222, rfl⟩
abbrev main_call7_v4 : Ref sig .tc := ⟨.hbm, 223, rfl⟩
abbrev main_call7_v5 : Ref sig .tc := ⟨.hbm, 224, rfl⟩
abbrev main_call7_c_1 : Ref sig .tc := ⟨.hbm, 225, rfl⟩
abbrev main_call7_c_2 : Ref sig .tc := ⟨.hbm, 226, rfl⟩
abbrev main_call7_v6 : Ref sig .tc := ⟨.hbm, 227, rfl⟩
abbrev main_call7_v7 : Ref sig .tc := ⟨.hbm, 228, rfl⟩
abbrev main_call7_v8 : Ref sig .tc := ⟨.hbm, 229, rfl⟩
abbrev main_call7_v9 : Ref sig .tc := ⟨.hbm, 230, rfl⟩
abbrev main_call7_v10 : Ref sig .tc := ⟨.hbm, 231, rfl⟩
abbrev main_call7_v11 : Ref sig .tc := ⟨.hbm, 232, rfl⟩
abbrev main_call7_c_3 : Ref sig .tc := ⟨.hbm, 233, rfl⟩
abbrev main_call7_v12 : Ref sig .tc := ⟨.hbm, 234, rfl⟩
abbrev main_call7_v13 : Ref sig .tc := ⟨.hbm, 235, rfl⟩
abbrev main_call7_cst : Ref sig .tc := ⟨.hbm, 236, rfl⟩
abbrev main_call7_v14 : Ref sig .tc := ⟨.hbm, 237, rfl⟩
abbrev main_v75 : Ref sig .tc := ⟨.hbm, 238, rfl⟩
abbrev main_v76 : Ref sig .tc := ⟨.hbm, 239, rfl⟩
abbrev main_v77 : Ref sig .tc := ⟨.hbm, 240, rfl⟩
abbrev main_c_18 : Ref sig .tc := ⟨.hbm, 241, rfl⟩
abbrev main_v78 : Ref sig .tc := ⟨.hbm, 242, rfl⟩
abbrev main_v79 : Ref sig .tc := ⟨.hbm, 243, rfl⟩
abbrev main_c_19 : Ref sig .tc := ⟨.hbm, 244, rfl⟩
abbrev main_v80 : Ref sig .tc := ⟨.hbm, 245, rfl⟩
abbrev main_v81 : Ref sig .tc := ⟨.hbm, 246, rfl⟩
abbrev main_v82 : Ref sig .tc := ⟨.hbm, 247, rfl⟩
abbrev main_v83 : Ref sig .tc := ⟨.hbm, 248, rfl⟩
abbrev main_v84 : Ref sig .tc := ⟨.hbm, 249, rfl⟩
abbrev main_v85 : Ref sig .tc := ⟨.hbm, 250, rfl⟩
abbrev main_cst_20 : Ref sig .tc := ⟨.hbm, 251, rfl⟩
abbrev main_v86 : Ref sig .tc := ⟨.hbm, 252, rfl⟩
abbrev main_cst_21 : Ref sig .tc := ⟨.hbm, 253, rfl⟩
abbrev main_v87 : Ref sig .tc := ⟨.hbm, 254, rfl⟩
abbrev main_v88 : Ref sig .tc := ⟨.hbm, 255, rfl⟩
abbrev main_v89 : Ref sig .tc := ⟨.hbm, 256, rfl⟩
abbrev main_v90 : Ref sig .tc := ⟨.hbm, 257, rfl⟩
abbrev main_cst_22 : Ref sig .tc := ⟨.hbm, 258, rfl⟩
abbrev main_v91 : Ref sig .tc := ⟨.hbm, 259, rfl⟩
abbrev main_v92 : Ref sig .tc := ⟨.hbm, 260, rfl⟩
abbrev main_v93 : Ref sig .tc := ⟨.hbm, 261, rfl⟩
abbrev main_call8_cst : Ref sig .tc := ⟨.hbm, 262, rfl⟩
abbrev main_call8_v0 : Ref sig .tc := ⟨.hbm, 263, rfl⟩
abbrev main_call8_cst_0 : Ref sig .tc := ⟨.hbm, 264, rfl⟩
abbrev main_call8_v1 : Ref sig .tc := ⟨.hbm, 265, rfl⟩
abbrev main_call8_v2 : Ref sig .tc := ⟨.hbm, 266, rfl⟩
abbrev main_call8_v3 : Ref sig .tc := ⟨.hbm, 267, rfl⟩
abbrev main_call8_v4 : Ref sig .tc := ⟨.hbm, 268, rfl⟩
abbrev main_call8_v5 : Ref sig .tc := ⟨.hbm, 269, rfl⟩
abbrev main_call8_v6 : Ref sig .tc := ⟨.hbm, 270, rfl⟩
abbrev main_call8_cst_1 : Ref sig .tc := ⟨.hbm, 271, rfl⟩
abbrev main_call8_v7 : Ref sig .tc := ⟨.hbm, 272, rfl⟩
abbrev main_call8_v8 : Ref sig .tc := ⟨.hbm, 273, rfl⟩
abbrev main_call8_v9 : Ref sig .tc := ⟨.hbm, 274, rfl⟩
abbrev main_call8_v10 : Ref sig .tc := ⟨.hbm, 275, rfl⟩
abbrev main_v94 : Ref sig .tc := ⟨.hbm, 276, rfl⟩
abbrev main_v95 : Ref sig .tc := ⟨.hbm, 277, rfl⟩
abbrev main_v96 : Ref sig .tc := ⟨.hbm, 278, rfl⟩
abbrev main_v97 : Ref sig .tc := ⟨.hbm, 279, rfl⟩
abbrev main_call9_c : Ref sig .tc := ⟨.hbm, 280, rfl⟩
abbrev main_call9_v0 : Ref sig .tc := ⟨.hbm, 281, rfl⟩
abbrev main_call9_v1 : Ref sig .tc := ⟨.hbm, 282, rfl⟩
abbrev main_call9_c_0 : Ref sig .tc := ⟨.hbm, 283, rfl⟩
abbrev main_call9_v2 : Ref sig .tc := ⟨.hbm, 284, rfl⟩
abbrev main_call9_v3 : Ref sig .tc := ⟨.hbm, 285, rfl⟩
abbrev main_call9_v4 : Ref sig .tc := ⟨.hbm, 286, rfl⟩
abbrev main_call9_v5 : Ref sig .tc := ⟨.hbm, 287, rfl⟩
abbrev main_call9_c_1 : Ref sig .tc := ⟨.hbm, 288, rfl⟩
abbrev main_call9_c_2 : Ref sig .tc := ⟨.hbm, 289, rfl⟩
abbrev main_call9_v6 : Ref sig .tc := ⟨.hbm, 290, rfl⟩
abbrev main_call9_v7 : Ref sig .tc := ⟨.hbm, 291, rfl⟩
abbrev main_call9_v8 : Ref sig .tc := ⟨.hbm, 292, rfl⟩
abbrev main_call9_v9 : Ref sig .tc := ⟨.hbm, 293, rfl⟩
abbrev main_call9_v10 : Ref sig .tc := ⟨.hbm, 294, rfl⟩
abbrev main_call9_v11 : Ref sig .tc := ⟨.hbm, 295, rfl⟩
abbrev main_call9_c_3 : Ref sig .tc := ⟨.hbm, 296, rfl⟩
abbrev main_call9_v12 : Ref sig .tc := ⟨.hbm, 297, rfl⟩
abbrev main_call9_v13 : Ref sig .tc := ⟨.hbm, 298, rfl⟩
abbrev main_call9_cst : Ref sig .tc := ⟨.hbm, 299, rfl⟩
abbrev main_call9_v14 : Ref sig .tc := ⟨.hbm, 300, rfl⟩
abbrev main_v98 : Ref sig .tc := ⟨.hbm, 301, rfl⟩
abbrev main_v99 : Ref sig .tc := ⟨.hbm, 302, rfl⟩
abbrev main_v100 : Ref sig .tc := ⟨.hbm, 303, rfl⟩
abbrev main_c_23 : Ref sig .tc := ⟨.hbm, 304, rfl⟩
abbrev main_v101 : Ref sig .tc := ⟨.hbm, 305, rfl⟩
abbrev main_v102 : Ref sig .tc := ⟨.hbm, 306, rfl⟩
abbrev main_c_24 : Ref sig .tc := ⟨.hbm, 307, rfl⟩
abbrev main_v103 : Ref sig .tc := ⟨.hbm, 308, rfl⟩
abbrev main_v104 : Ref sig .tc := ⟨.hbm, 309, rfl⟩
abbrev main_v105 : Ref sig .tc := ⟨.hbm, 310, rfl⟩
abbrev main_v106 : Ref sig .tc := ⟨.hbm, 311, rfl⟩
abbrev main_v107 : Ref sig .tc := ⟨.hbm, 312, rfl⟩
abbrev main_v108 : Ref sig .tc := ⟨.hbm, 313, rfl⟩
abbrev main_cst_25 : Ref sig .tc := ⟨.hbm, 314, rfl⟩
abbrev main_v109 : Ref sig .tc := ⟨.hbm, 315, rfl⟩
abbrev main_cst_26 : Ref sig .tc := ⟨.hbm, 316, rfl⟩
abbrev main_v110 : Ref sig .tc := ⟨.hbm, 317, rfl⟩
abbrev main_v111 : Ref sig .tc := ⟨.hbm, 318, rfl⟩
abbrev main_v112 : Ref sig .tc := ⟨.hbm, 319, rfl⟩
abbrev main_v113 : Ref sig .tc := ⟨.hbm, 320, rfl⟩
abbrev main_cst_27 : Ref sig .tc := ⟨.hbm, 321, rfl⟩
abbrev main_v114 : Ref sig .tc := ⟨.hbm, 322, rfl⟩
abbrev main_v115 : Ref sig .tc := ⟨.hbm, 323, rfl⟩
abbrev main_c_28 : Ref sig .tc := ⟨.hbm, 324, rfl⟩
abbrev main_v116 : Ref sig .tc := ⟨.hbm, 325, rfl⟩
abbrev main_c_29 : Ref sig .tc := ⟨.hbm, 326, rfl⟩
abbrev main_v117 : Ref sig .tc := ⟨.hbm, 327, rfl⟩
abbrev main_v118 : Ref sig .tc := ⟨.hbm, 328, rfl⟩
abbrev main_v119 : Ref sig .tc := ⟨.hbm, 329, rfl⟩
abbrev main_v120 : Ref sig .tc := ⟨.hbm, 330, rfl⟩
abbrev main_v121 : Ref sig .tc := ⟨.hbm, 331, rfl⟩
abbrev main_v122 : Ref sig .tc := ⟨.hbm, 332, rfl⟩
abbrev main_v123 : Ref sig .tc := ⟨.hbm, 333, rfl⟩
abbrev main_v124 : Ref sig .tc := ⟨.hbm, 334, rfl⟩
abbrev main_v125 : Ref sig .tc := ⟨.hbm, 335, rfl⟩
abbrev main_cst_30 : Ref sig .tc := ⟨.hbm, 336, rfl⟩
abbrev main_v126 : Ref sig .tc := ⟨.hbm, 337, rfl⟩
abbrev main_cst_31 : Ref sig .tc := ⟨.hbm, 338, rfl⟩
abbrev main_v127 : Ref sig .tc := ⟨.hbm, 339, rfl⟩
abbrev main_v128 : Ref sig .tc := ⟨.hbm, 340, rfl⟩
abbrev main_cst_32 : Ref sig .tc := ⟨.hbm, 341, rfl⟩
abbrev main_cst_33 : Ref sig .tc := ⟨.hbm, 342, rfl⟩
abbrev main_call10_v0 : Ref sig .tc := ⟨.hbm, 343, rfl⟩
abbrev main_call10_v1 : Ref sig .tc := ⟨.hbm, 344, rfl⟩
abbrev main_v129 : Ref sig .tc := ⟨.hbm, 345, rfl⟩
abbrev main_v130 : Ref sig .tc := ⟨.hbm, 346, rfl⟩
abbrev main_v131 : Ref sig .tc := ⟨.hbm, 347, rfl⟩
abbrev main_cst_34 : Ref sig .tc := ⟨.hbm, 348, rfl⟩
abbrev main_v132 : Ref sig .tc := ⟨.hbm, 349, rfl⟩
abbrev main_v133 : Ref sig .tc := ⟨.hbm, 350, rfl⟩
abbrev main_v134 : Ref sig .tc := ⟨.hbm, 351, rfl⟩
abbrev main_v135 : Ref sig .tc := ⟨.hbm, 352, rfl⟩
abbrev main_v136 : Ref sig .tc := ⟨.hbm, 353, rfl⟩
abbrev main_v137 : Ref sig .tc := ⟨.hbm, 354, rfl⟩
abbrev main_v138 : Ref sig .tc := ⟨.hbm, 355, rfl⟩
abbrev main_v139 : Ref sig .tc := ⟨.hbm, 356, rfl⟩
abbrev main_v140 : Ref sig .tc := ⟨.hbm, 357, rfl⟩
abbrev main_cst_35 : Ref sig .tc := ⟨.hbm, 358, rfl⟩
abbrev main_v141 : Ref sig .tc := ⟨.hbm, 359, rfl⟩
abbrev main_cst_36 : Ref sig .tc := ⟨.hbm, 360, rfl⟩
abbrev main_v142 : Ref sig .tc := ⟨.hbm, 361, rfl⟩
abbrev main_v143 : Ref sig .tc := ⟨.hbm, 362, rfl⟩
abbrev main_v144 : Ref sig .tc := ⟨.hbm, 363, rfl⟩
abbrev main_v145 : Ref sig .tc := ⟨.hbm, 364, rfl⟩
abbrev main_v146 : Ref sig .tc := ⟨.hbm, 365, rfl⟩
abbrev main_v147 : Ref sig .tc := ⟨.hbm, 366, rfl⟩
abbrev main_v148 : Ref sig .tc := ⟨.hbm, 367, rfl⟩
abbrev main_v149 : Ref sig .tc := ⟨.hbm, 368, rfl⟩
abbrev main_v150 : Ref sig .tc := ⟨.hbm, 369, rfl⟩
abbrev main_v151 : Ref sig .tc := ⟨.hbm, 370, rfl⟩
abbrev main_v152 : Ref sig .tc := ⟨.hbm, 371, rfl⟩
abbrev main_v153 : Ref sig .tc := ⟨.hbm, 372, rfl⟩
abbrev main_v154 : Ref sig .tc := ⟨.hbm, 373, rfl⟩
abbrev main_v155 : Ref sig .tc := ⟨.hbm, 374, rfl⟩

abbrev nD : Nat := 1
abbrev τ : Topo := Topo.v7x

variable {F : FTy → Type} [FloatOps F]

class Facts₀ : Prop where
  concatenates_S2097152x2_S2097152x3_S2097152x5_d1 : Shape.Concatenates [S2097152x2, S2097152x3] S2097152x5 1
  slices_S2097152x13_S2097152x2_0_0 : S2097152x13.Slices ![0, 0] S2097152x2
  reducesTo_S2097152x2_S2097152_d1 : S2097152x2.ReducesTo [1] S2097152
  h_S_ : 0 < S_.numel
  bcast_S_S2097152 : S_.BroadcastsInDim S2097152 (![] : Fin 0 → Fin S2097152.rank)
  bcast_S2097152_S2097152x1_0 : S2097152.BroadcastsInDim S2097152x1 (![0] : Fin 1 → Fin S2097152x1.rank)
  bcast_S2097152x1_S2097152x2_0_1 : S2097152x1.BroadcastsInDim S2097152x2 (![0, 1] : Fin 2 → Fin S2097152x2.rank)
  slices_S2097152x5_S2097152x1_0_0 : S2097152x5.Slices ![0, 0] S2097152x1
  shapeCasts_S2097152x1_S2097152 : S2097152x1.ShapeCasts S2097152
  bcast_S_S2097152x1 : S_.BroadcastsInDim S2097152x1 (![] : Fin 0 → Fin S2097152x1.rank)
  shapeCasts_S2097152x1_S2097152x1x1 : S2097152x1.ShapeCasts S2097152x1x1
  bcast_S_S2097152x1x1 : S_.BroadcastsInDim S2097152x1x1 (![] : Fin 0 → Fin S2097152x1x1.rank)
  bcast_S1_S1x1x1_2 : S1.BroadcastsInDim S1x1x1 (![2] : Fin 1 → Fin S1x1x1.rank)
  bcast_S1x1x1_S2097152x1x1_0_1_2 : S1x1x1.BroadcastsInDim S2097152x1x1 (![0, 1, 2] : Fin 3 → Fin S2097152x1x1.rank)
  reducesTo_S2097152x1x1_S2097152x1_d2 : S2097152x1x1.ReducesTo [2] S2097152x1
  reducesTo_S2097152_S_d0 : S2097152.ReducesTo [0] S_
  slices_S2097152x2_S2097152x1_0_0 : S2097152x2.Slices ![0, 0] S2097152x1
  slices_S2097152x13_S2097152x2_0_2 : S2097152x13.Slices ![0, 2] S2097152x2
  slices_S2097152x5_S2097152x1_0_1 : S2097152x5.Slices ![0, 1] S2097152x1
  slices_S2097152x13_S2097152x3_0_4 : S2097152x13.Slices ![0, 4] S2097152x3
  reducesTo_S2097152x3_S2097152_d1 : S2097152x3.ReducesTo [1] S2097152
  bcast_S2097152x1_S2097152x3_0_1 : S2097152x1.BroadcastsInDim S2097152x3 (![0, 1] : Fin 2 → Fin S2097152x3.rank)
  slices_S2097152x5_S2097152x1_0_2 : S2097152x5.Slices ![0, 2] S2097152x1
  slices_S2097152x3_S2097152x1_0_0 : S2097152x3.Slices ![0, 0] S2097152x1
  slices_S2097152x13_S2097152x3_0_7 : S2097152x13.Slices ![0, 7] S2097152x3
  slices_S2097152x5_S2097152x1_0_3 : S2097152x5.Slices ![0, 3] S2097152x1
  slices_S2097152x13_S2097152x3_0_10 : S2097152x13.Slices ![0, 10] S2097152x3
  slices_S2097152x5_S2097152x1_0_4 : S2097152x5.Slices ![0, 4] S2097152x1
  reducesTo_S2097152x5_S2097152_d1 : S2097152x5.ReducesTo [1] S2097152
  concatenates_S2097152x1_S2097152x1_S2097152x1_S2097152x1_S2097152x1_S2097152x5_d1 : Shape.Concatenates [S2097152x1, S2097152x1, S2097152x1, S2097152x1, S2097152x1] S2097152x5 1
  bcast_S_S1 : S_.BroadcastsInDim S1 (![] : Fin 0 → Fin S1.rank)
  concatenates_S1_S1_S1_S1_S1_S1_S1_S7_d0 : Shape.Concatenates [S1, S1, S1, S1, S1, S1, S1] S7 0
  gather_S2097152x2_S2097152x1x1_S2097152x1_n_1_0_0_1_2_11_wf : GatherDims.WF S2097152x2 S2097152x1x1 S2097152x1 [] [1] [0] [1] [0] 2 ![1, 1]
  gather_S2_S2097152x1_S2097152_n_0_n_n_0_1_1_wf : GatherDims.WF S2 S2097152x1 S2097152 [] [0] [] [0] [] 1 ![1]
  gather_S2097152x3_S2097152x1x1_S2097152x1_n_1_0_0_1_2_11_wf : GatherDims.WF S2097152x3 S2097152x1x1 S2097152x1 [] [1] [0] [1] [0] 2 ![1, 1]
  gather_S3_S2097152x1_S2097152_n_0_n_n_0_1_1_wf : GatherDims.WF S3 S2097152x1 S2097152 [] [0] [] [0] [] 1 ![1]

variable [Facts₀]

def gather_S2097152x2_S2097152x1x1_S2097152x1_n_1_0_0_1_2_11 : GatherDims S2097152x2 S2097152x1x1 S2097152x1 where
  offsetDims := []
  collapsedSliceDims := [1]
  operandBatchingDims := [0]
  startIndicesBatchingDims := [0]
  startIndexMap := [1]
  indexVectorDim := 2
  sliceSizes := ![1, 1]
  wf := gather_S2097152x2_S2097152x1x1_S2097152x1_n_1_0_0_1_2_11_wf
def gather_S2_S2097152x1_S2097152_n_0_n_n_0_1_1 : GatherDims S2 S2097152x1 S2097152 where
  offsetDims := []
  collapsedSliceDims := [0]
  operandBatchingDims := []
  startIndicesBatchingDims := []
  startIndexMap := [0]
  indexVectorDim := 1
  sliceSizes := ![1]
  wf := gather_S2_S2097152x1_S2097152_n_0_n_n_0_1_1_wf
def gather_S2097152x3_S2097152x1x1_S2097152x1_n_1_0_0_1_2_11 : GatherDims S2097152x3 S2097152x1x1 S2097152x1 where
  offsetDims := []
  collapsedSliceDims := [1]
  operandBatchingDims := [0]
  startIndicesBatchingDims := [0]
  startIndexMap := [1]
  indexVectorDim := 2
  sliceSizes := ![1, 1]
  wf := gather_S2097152x3_S2097152x1x1_S2097152x1_n_1_0_0_1_2_11_wf
def gather_S3_S2097152x1_S2097152_n_0_n_n_0_1_1 : GatherDims S3 S2097152x1 S2097152 where
  offsetDims := []
  collapsedSliceDims := [0]
  operandBatchingDims := []
  startIndicesBatchingDims := []
  startIndexMap := [0]
  indexVectorDim := 1
  sliceSizes := ![1]
  wf := gather_S3_S2097152x1_S2097152_n_0_n_n_0_1_1_wf

class Facts : Prop extends Facts₀ where

variable [Facts]
-- ==== Proof.LossSpec.lean ====
/-
  The quantity both programs compute, written once over the extended reals.

  A row of the input carries 13 logits, cut into five groups (two of 2 classes, three of 3), and five integer
  labels, one per group.  Per group: the log-softmax of its logits, the class-weighted negative log-likelihood
  of the labelled class, and the probability 1 − softmax₀ of "not class 0".  Across the groups: the label
  "some group's label is positive" and the largest of the five probabilities feed a weighted binary
  cross-entropy.  Each of the six per-row numbers is summed over all 2 097 152 rows and divided by the row
  count; the seventh result is the sum of the six means.
-/
import Idealize.ShloMosaic.PureOps.Ideal
import Idealize.ShloMosaic.PureOps.Ideal.Laws
import Idealize.ShloMosaic.Lib.ValueIdx

noncomputable section

namespace Cert.InjuryLoss

open Idealize.ShloMosaic Idealize.ShloMosaic.ValueIdx

/-- The f32 literals of the two programs, as the extended reals their words denote. -/
abbrev negInf : EReal := Ideal.ofBits .f32 0xFF800000#32
abbrev one : EReal := Ideal.ofBits .f32 0x3F800000#32
abbrev two : EReal := Ideal.ofBits .f32 0x40000000#32
abbrev four : EReal := Ideal.ofBits .f32 0x40800000#32
abbrev six : EReal := Ideal.ofBits .f32 0x40C00000#32
abbrev half : EReal := Ideal.ofBits .f32 0x3F000000#32
/-- The row count 2²¹ = 2 097 152 as an f32. -/
abbrev rowCount : EReal := Ideal.ofBits .f32 0x4A000000#32

/-- The largest of a group's logits: the fold of `max` from −∞. -/
def rowMax {C : ℕ} (z : Fin C → EReal) : EReal := (Finset.univ : Finset (Fin C)).fold max negInf z

/-- log-softmax of a group's logits at class `c`: `(z c − max z) − log Σ exp (z c' − max z)`. -/
def logSoftmax {C : ℕ} (z : Fin C → EReal) (c : Fin C) : EReal :=
  (z c - rowMax z) - Ideal.log (∑ c' : Fin C, Ideal.exp (z c' - rowMax z))

/-- The entry of `f` at the class the label `y` names, as a sum over the classes of the entries the label
    selects: zero when the label names no class. -/
def pick {C : ℕ} (f : Fin C → EReal) (y : BitVec 32) : EReal :=
  ∑ c : Fin C, if y = BitVec.ofNat 32 c.val then f c else 0

/-- The class-weighted negative log-likelihood of the labelled class. -/
def weightedNll {C : ℕ} (w : Fin C → EReal) (z : Fin C → EReal) (y : BitVec 32) : EReal :=
  pick w y * (0 - pick (logSoftmax z) y)

/-- The probability of "not class 0": `1 − exp (log-softmax z 0)`. -/
def probInjured {C : ℕ} (z : Fin (C + 1) → EReal) : EReal := one - Ideal.exp (logSoftmax z 0)

/-- The class weights of the 2-class groups 0 and 1 and of the 3-class groups. -/
def w2a : Fin 2 → EReal := ![one, two]
def w2b : Fin 2 → EReal := ![one, six]
def w3 : Fin 3 → EReal := ![one, two, four]

/-- The five groups of a row's 13 logits. -/
def grp0 (x : Fin 13 → EReal) : Fin 2 → EReal := fun c => x ⟨c.val, by omega⟩
def grp1 (x : Fin 13 → EReal) : Fin 2 → EReal := fun c => x ⟨2 + c.val, by omega⟩
def grp2 (x : Fin 13 → EReal) : Fin 3 → EReal := fun c => x ⟨4 + c.val, by omega⟩
def grp3 (x : Fin 13 → EReal) : Fin 3 → EReal := fun c => x ⟨7 + c.val, by omega⟩
def grp4 (x : Fin 13 → EReal) : Fin 3 → EReal := fun c => x ⟨10 + c.val, by omega⟩

/-- 1 when some group's label is positive (as a signed integer), else 0. -/
def anyPositive (y : Fin 5 → BitVec 32) : EReal := if ∃ k, 0 < (y k).toInt then 1 else 0

/-- The largest of the five "not class 0" probabilities, folded left to right. -/
def maxProb (x : Fin 13 → EReal) : EReal :=
  max (max (max (max (probInjured (grp0 x)) (probInjured (grp1 x))) (probInjured (grp2 x))) (probInjured (grp3 x)))
    (probInjured (grp4 x))

/-- The weighted binary cross-entropy of a row: `−(a·log p + (1 − a)·log1p (−p))` times 6 where `a > ½`, else times 1. -/
def weightedBce (x : Fin 13 → EReal) (y : Fin 5 → BitVec 32) : EReal :=
  (0 - (anyPositive y * Ideal.log (maxProb x) + (one - anyPositive y) * Ideal.log1p (0 - maxProb x)))
    * Scalar.select (Ideal.cmp .ogt (anyPositive y) half) six one

/-- The six per-row numbers. -/
def rowLoss (x : Fin 13 → EReal) (y : Fin 5 → BitVec 32) : Fin 6 → EReal :=
  ![weightedNll w2a (grp0 x) (y 0), weightedNll w2b (grp1 x) (y 1), weightedNll w3 (grp2 x) (y 2),
    weightedNll w3 (grp3 x) (y 3), weightedNll w3 (grp4 x) (y 4), weightedBce x y]

/-- Each of the six summed over the rows, and its mean. -/
def total (X : Fin 2097152 → Fin 13 → EReal) (Y : Fin 2097152 → Fin 5 → BitVec 32) (k : Fin 6) : EReal :=
  ∑ n : Fin 2097152, rowLoss (X n) (Y n) k
def meanLoss (X : Fin 2097152 → Fin 13 → EReal) (Y : Fin 2097152 → Fin 5 → BitVec 32) (k : Fin 6) : EReal :=
  Ideal.div (total X Y k) rowCount

/-- The seven results: the six means, then their sum. -/
def result (X : Fin 2097152 → Fin 13 → EReal) (Y : Fin 2097152 → Fin 5 → BitVec 32) (j : Fin 7) : EReal :=
  if h : j.val < 6 then meanLoss X Y ⟨j.val, h⟩ else ∑ k : Fin 6, meanLoss X Y k

/-- The rows of the three argument arrays. -/
def rowsX (a0 : (⟨2, ![2097152, 13]⟩ : Shape).Idx → EReal) (n : Fin 2097152) : Fin 13 → EReal := fun j => a0 (ix2 n j)
def rowsY (a1 : (⟨2, ![2097152, 2]⟩ : Shape).Idx → BitVec 32) (a2 : (⟨2, ![2097152, 3]⟩ : Shape).Idx → BitVec 32)
    (n : Fin 2097152) : Fin 5 → BitVec 32 :=
  ![a1 (ix2 n 0), a1 (ix2 n 1), a2 (ix2 n 0), a2 (ix2 n 1), a2 (ix2 n 2)]

/-- The result array as one function of the three argument arrays. -/
def lossVector (a0 : (⟨2, ![2097152, 13]⟩ : Shape).Idx → EReal) (a1 : (⟨2, ![2097152, 2]⟩ : Shape).Idx → BitVec 32)
    (a2 : (⟨2, ![2097152, 3]⟩ : Shape).Idx → BitVec 32) : (⟨1, ![7]⟩ : Shape).Idx → EReal :=
  fun j => result (rowsX a0) (rowsY a1 a2) ⟨(j 0).val, (j 0).isLt⟩

/-- Every label names a class of its group: the binary ones lie in {0, 1}, the ternary ones in {0, 1, 2}. -/
def LabelsInRange (a1 : (⟨2, ![2097152, 2]⟩ : Shape).Idx → BitVec 32) (a2 : (⟨2, ![2097152, 3]⟩ : Shape).Idx → BitVec 32) : Prop :=
  (∀ (n : Fin 2097152) (j : Fin 2), (a1 (ix2 n j)).toNat < 2) ∧ (∀ (n : Fin 2097152) (j : Fin 3), (a2 (ix2 n j)).toNat < 3)

/-! ## How the kernel's grid walks the rows

  The kernel's grid is 2 × 256; point (o, i) stages rows `(o·256 + i)·4096 … + 4095`, lays a block's 4096 per-row
  numbers out as 32 × 128 and sums the 32 sublanes, so lane `l` of output block `o` collects the rows
  `(o·256 + i)·4096 + r·128 + l` over all `i` and `r`. -/

/-- The row that block `(o, i)`, sublane `r`, lane `l` holds. -/
def rowOf (o : Fin 2) (i : Fin 256) (r : Fin 32) (l : Fin 128) : Fin 2097152 :=
  ⟨(o.val * 256 + i.val) * 4096 + r.val * 128 + l.val, by omega⟩

/-- What lane `l` of row `k` of output block `o` ends at: the sum over the 256 grid steps and the 32 sublanes. -/
def laneSum (X : Fin 2097152 → Fin 13 → EReal) (Y : Fin 2097152 → Fin 5 → BitVec 32) (o : Fin 2) (k : Fin 6) (l : Fin 128) : EReal :=
  ∑ i : Fin 256, ∑ r : Fin 32, rowLoss (X (rowOf o i r l)) (Y (rowOf o i r l)) k

/-- The kernel call's output array `[2, 6, 128]` as a function of the argument arrays. -/
def laneArr (a0 : (⟨2, ![2097152, 13]⟩ : Shape).Idx → EReal) (a1 : (⟨2, ![2097152, 2]⟩ : Shape).Idx → BitVec 32)
    (a2 : (⟨2, ![2097152, 3]⟩ : Shape).Idx → BitVec 32) : (⟨3, ![2, 6, 128]⟩ : Shape).Idx → EReal :=
  fun j => laneSum (rowsX a0) (rowsY a1 a2) ⟨(j 0).val, (j 0).isLt⟩ ⟨(j 1).val, (j 1).isLt⟩ ⟨(j 2).val, (j 2).isLt⟩

end Cert.InjuryLoss

end
-- ==== Proof.KernelStep.lean ====
/-
  One grid step of the kernel as a function: from the step's three input blocks (4096 rows of logits, of binary
  labels, of ternary labels) and the accumulator it finds, the accumulator it leaves.  Read at row `k`, lane `l`
  the step adds, to what it found, the sum over the 32 sublanes `r` of the `k`-th per-row number of block row
  `r·128 + l`.
-/
import proofs.«403666_j67276367724950_3_alg».proof.Proof.Gen.KernelIdeal.Skeleton
import proofs.«403666_j67276367724950_3_alg».proof.Proof.LossSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Step

open Cert.KernelIdeal Cert.KernelIdeal.Gen Idealize.ShloMosaic Idealize.ShloMosaic.ValueIdx Cert.InjuryLoss

variable {F : FTy → Type} [FloatOps F]

/-- The accumulator a grid step leaves, from its input blocks and the accumulator it finds: the body's stored
    value over the body's loads. -/
def accStep (x0 : Vec F S4096x13 .f32) (x1 : Vec F S4096x2 .i32) (x2 : Vec F S4096x3 .i32) (acc : Vec F S6x128 .f32) :
    FVec F S6x128 .f32 :=
  k0_pay1 (k0_pay12 (k0_pay4 x1) (k0_pay10 x0 x1) (k0_pay11 x1)) (k0_pay13 (k0_pay9 x0))
    (k0_pay16 (k0_pay15 x0 (k0_pay5 x1))) (k0_pay17 (k0_pay14 x0)) (k0_pay19 x0 (k0_pay6 x2)) (k0_pay21 (k0_pay20 x0))
    (k0_pay23 x0 (k0_pay7 x2)) (k0_pay24 x0) (k0_pay27 (k0_pay8 x2) (k0_pay25 x0)) (k0_pay28 (k0_pay25 x0))
    (k0_pay29 (k0_pay4 x1) (k0_pay5 x1) (k0_pay6 x2) (k0_pay7 x2) (k0_pay8 x2)) 0#32 acc

/-- Row `q` of a block of logits, and the five labels of row `q` of the two label blocks. -/
def blockX (x0 : Vec Ideal S4096x13 .f32) (q : Fin 4096) : Fin 13 → EReal := fun j => x0 (ix2 q j)
def blockY (x1 : Vec Ideal S4096x2 .i32) (x2 : Vec Ideal S4096x3 .i32) (q : Fin 4096) : Fin 5 → BitVec 32 :=
  ![x1 (ix2 q 0), x1 (ix2 q 1), x2 (ix2 q 0), x2 (ix2 q 1), x2 (ix2 q 2)]

end Cert.KernelIdeal.Step

end
-- ==== Proof.RowReductions.lean ====
/-
  The layout operations and reductions a 2-class group of the kernel body uses, each read at an index given by
  coordinates: a vector viewed as one column and back, one column broadcast over the columns, the 4096 per-row numbers
  viewed 32 × 128, the sum and the maximum over a row's two columns, the sum over the 32 sublanes; and a select on an
  equality test of two words as the `if` on the equation.
-/
import proofs.«403666_j67276367724950_3_alg».proof.Proof.Gen.KernelIdeal.Skeleton
import proofs.«403666_j67276367724950_3_alg».proof.Proof.LossSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Step.TwoClass

open Cert.KernelIdeal Cert.KernelIdeal.Gen Idealize.ShloMosaic Idealize.ShloMosaic.ValueIdx Cert.InjuryLoss

variable {α : Type}

/-! ## Layout operations of the body read at an index -/

/-- A vector viewed as one column reads, at `(q, u)`, the vector at `q`. -/
theorem shapeCast_a_a1_apply {a : ℕ} (x : (⟨1, ![a]⟩ : Shape).Idx → α) (h : (⟨1, ![a]⟩ : Shape).ShapeCasts ⟨2, ![a, 1]⟩)
    (q : Fin a) (u : Fin 1) : shapeCast ⟨2, ![a, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- One column viewed as a vector reads, at `q`, the column at `(q, 0)`. -/
theorem shapeCast_a1_a_apply {a : ℕ} (x : (⟨2, ![a, 1]⟩ : Shape).Idx → α) (h : (⟨2, ![a, 1]⟩ : Shape).ShapeCasts ⟨1, ![a]⟩)
    (q : Fin a) : shapeCast ⟨1, ![a]⟩ x h (ix1 q) = x (ix2 q (0 : Fin 1)) :=
  shapeCast_apply x h _ _ (by
    rw [Shape.rowMajor_val_two, Shape.rowMajor_val_one]
    show q.val * 1 + 0 = q.val
    rw [Nat.mul_one, Nat.add_zero])

/-- One column broadcast over `b` columns reads, at `(q, c)`, the column at `(q, 0)`. -/
theorem broadcastTo_a1_ab_apply {a b : ℕ} (v : (⟨2, ![a, 1]⟩ : Shape).Idx → α) (h : (⟨2, ![a, 1]⟩ : Shape).Broadcasts ⟨2, ![a, b]⟩)
    (q : Fin a) (c : Fin b) : broadcastTo ⟨2, ![a, b]⟩ v h (ix2 q c) = v (ix2 q (0 : Fin 1)) := by
  refine broadcastTo_apply v h (ix2 q c) (ix2 q (0 : Fin 1)) fun ax => ?_
  match ax with
  | ⟨0, _⟩ =>
    show q.val = if a = 1 then 0 else q.val
    split
    · have := q.isLt; omega
    · rfl
  | ⟨1, _⟩ => rfl

/-- A vector of `n` entries viewed as `a` rows of `b` reads, at `(r, l)`, the entry `r * b + l`. -/
theorem shapeCast_n_ab_apply {n a b : ℕ} (x : (⟨1, ![n]⟩ : Shape).Idx → α) (h : (⟨1, ![n]⟩ : Shape).ShapeCasts ⟨2, ![a, b]⟩)
    (r : Fin a) (l : Fin b) (k : Fin n) (hk : k.val = r.val * b + l.val) :
    shapeCast ⟨2, ![a, b]⟩ x h (ix2 r l) = x (ix1 k) :=
  shapeCast_apply x h _ _ (by
    rw [Shape.rowMajor_val_two, Shape.rowMajor_val_one]
    exact hk)

/-- The index a reduction over the columns inserts coordinate `k` into: `(q, k)`. -/
theorem lift_cols2 (h : S4096x2.Reduces [1] S4096) (q : Fin 4096) (k : Fin 2) : h.lift (ix1 q) k = ix2 q k := by
  funext c
  refine Fin.ext ?_
  match c with
  | ⟨0, _⟩ => rfl
  | ⟨1, _⟩ => rfl

/-- The index a reduction over the sublanes inserts coordinate `r` into: `(r, l)`. -/
theorem lift_sublanes (h : S32x128.Reduces [0] S128) (l : Fin 128) (r : Fin 32) : h.lift (ix1 l) r = ix2 r l := by
  funext c
  refine Fin.ext ?_
  match c with
  | ⟨0, _⟩ => rfl
  | ⟨1, _⟩ => rfl

/-! ## Reductions of the body read at an index -/

/-- The sum over a row's two columns. -/
theorem sumCols2_apply (v : FVec Ideal S4096x2 .f32) (hφ : FKind.Formats .f32)
    (hacc : (0x00000000#32 : BitVec 32) = FKind.add.neutral .f32 hφ) (q : Fin 4096) :
    multiReduction .add [1] S4096 v 0x00000000#32 reduces_S4096x2_S4096 hφ hacc (ix1 q) = ∑ c : Fin 2, v (ix2 q c) :=
  (Ideal.multiReduction_add_single v _ reduces_S4096x2_S4096 hφ hacc (ix1 q)).trans
    (Finset.sum_congr rfl fun k _ => congrArg v (lift_cols2 _ q k))

/-- The largest of a row's two columns is the specification's `rowMax`. -/
theorem maxCols2_apply (v : FVec Ideal S4096x2 .f32) (hφ : FKind.Formats .f32)
    (hacc : (0xFF800000#32 : BitVec 32) = FKind.maximumf.neutral .f32 hφ) (q : Fin 4096) :
    multiReduction .maximumf [1] S4096 v 0xFF800000#32 reduces_S4096x2_S4096 hφ hacc (ix1 q)
      = rowMax (fun c : Fin 2 => v (ix2 q c)) := by
  refine (Ideal.multiReduction_maximumf_single v _ reduces_S4096x2_S4096 hφ hacc (ix1 q)).trans ?_
  show (Finset.univ : Finset (Fin 2)).fold max negInf (v ∘ reduces_S4096x2_S4096.lift (ix1 q)) = _
  unfold rowMax
  congr 1
  funext k
  exact congrArg v (lift_cols2 _ q k)

/-- The sum over the 32 sublanes of a block's 4096 per-row numbers laid out 32 × 128: lane `l` collects rows `r·128 + l`. -/
theorem sumSublanes_apply (v : FVec Ideal S4096 .f32) (hφ : FKind.Formats .f32)
    (hacc : (0x00000000#32 : BitVec 32) = FKind.add.neutral .f32 hφ) (l : Fin 128) :
    multiReduction .add [0] S128 (shapeCast S32x128 v shapeCasts_S4096_S32x128) 0x00000000#32 reduces_S32x128_S128 hφ hacc (ix1 l)
      = ∑ r : Fin 32, v (ix1 ⟨r.val * 128 + l.val, by omega⟩) :=
  (Ideal.multiReduction_add_single _ _ reduces_S32x128_S128 hφ hacc (ix1 l)).trans
    (Finset.sum_congr rfl fun (r : Fin 32) _ => (congrArg _ (lift_sublanes _ l r)).trans
      (shapeCast_n_ab_apply v shapeCasts_S4096_S32x128 r l ⟨r.val * 128 + l.val, by omega⟩ rfl))

/-! ## Words: a select on an equality test -/

/-- A select whose condition is the test `x = y` of two words is the `if` on that equation. -/
theorem select_cmpi_eq {β : Type} (x y : BitVec 32) (a b : β) :
    Scalar.select (IntOp.cmpi .eq x y) a b = if x = y then a else b := by
  by_cases h : x = y
  · rw [if_pos h]
    have hb : (x == y) = true := beq_iff_eq.mpr h
    have e : IntOp.cmpi .eq x y = 1#1 := by
      show BitVec.ofBool (x == y) = 1#1
      rw [hb]; rfl
    rw [e]; exact select_one a b
  · rw [if_neg h]
    have hb : (x == y) = false := beq_eq_false_iff_ne.mpr h
    have e : IntOp.cmpi .eq x y = 0#1 := by
      show BitVec.ofBool (x == y) = 0#1
      rw [hb]; rfl
    rw [e]; exact select_zero a b

end Cert.KernelIdeal.Step.TwoClass

end
-- ==== Proof.TwoClassPieces.lean ====
/-
  The pieces the kernel body builds each 2-class group from, read at an index against the specification: the
  log-softmax along the two columns (`logSoftmax`), the one-hot select of the label summed over the classes and taken
  from zero (`0 - pick`), the chain of selects that picks the label's class weight (`pick` of the weights), and the
  128 lane sums of their products over the 32 sublanes.
-/
import proofs.«403666_j67276367724950_3_alg».proof.Proof.Gen.KernelIdeal.Skeleton
import proofs.«403666_j67276367724950_3_alg».proof.Proof.LossSpec
import proofs.«403666_j67276367724950_3_alg».proof.Proof.RowReductions
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Step.TwoClass

open Cert.KernelIdeal Cert.KernelIdeal.Gen Idealize.ShloMosaic Idealize.ShloMosaic.ValueIdx Cert.InjuryLoss

/-! ## The shared pieces of a 2-class group, as the body writes them -/

/-- A row's largest logit, kept as a column and broadcast back over the two columns. -/
def rowMaxB (v : FVec Ideal S4096x2 .f32) : FVec Ideal S4096x2 .f32 :=
  broadcastTo S4096x2 (shapeCast S4096x1
    (multiReduction .maximumf [1] S4096 v 0xFF800000#32 reduces_S4096x2_S4096 (.inl rfl) rfl) shapeCasts_S4096_S4096x1)
    broadcasts_S4096x1_S4096x2

theorem rowMaxB_apply (v : FVec Ideal S4096x2 .f32) (q : Fin 4096) (c : Fin 2) :
    rowMaxB v (ix2 q c) = rowMax (fun c' : Fin 2 => v (ix2 q c')) :=
  (broadcastTo_a1_ab_apply _ _ q c).trans ((shapeCast_a_a1_apply _ _ q 0).trans (maxCols2_apply v _ _ q))

/-- The log of a row's sum, kept as a column and broadcast back over the two columns. -/
def logSumB (e : FVec Ideal S4096x2 .f32) : FVec Ideal S4096x2 .f32 :=
  broadcastTo S4096x2 (log (shapeCast S4096x1
    (multiReduction .add [1] S4096 e 0x00000000#32 reduces_S4096x2_S4096 (.inl rfl) rfl) shapeCasts_S4096_S4096x1))
    broadcasts_S4096x1_S4096x2

theorem logSumB_apply (e : FVec Ideal S4096x2 .f32) (q : Fin 4096) (c : Fin 2) :
    logSumB e (ix2 q c) = Ideal.log (∑ c' : Fin 2, e (ix2 q c')) :=
  (broadcastTo_a1_ab_apply _ _ q c).trans
    (congrArg Ideal.log ((shapeCast_a_a1_apply _ _ q 0).trans (sumCols2_apply e _ _ q)))

/-- The body's log-softmax along the two columns of a group's logits. -/
def logSoftmax2 (v : FVec Ideal S4096x2 .f32) : FVec Ideal S4096x2 .f32 :=
  subf (subf v (rowMaxB v)) (logSumB (exp (subf v (rowMaxB v))))

/-- It is the specification's log-softmax of the row. -/
theorem logSoftmax2_apply (v : FVec Ideal S4096x2 .f32) (q : Fin 4096) (c : Fin 2) :
    logSoftmax2 v (ix2 q c) = logSoftmax (fun c' : Fin 2 => v (ix2 q c')) c := by
  show (v (ix2 q c) - rowMaxB v (ix2 q c)) - logSumB (exp (subf v (rowMaxB v))) (ix2 q c) = _
  rw [logSumB_apply, rowMaxB_apply]
  unfold logSoftmax
  congr 2
  refine Finset.sum_congr rfl fun c' _ => ?_
  show Ideal.exp (v (ix2 q c') - rowMaxB v (ix2 q c')) = _
  rw [rowMaxB_apply]

/-- The body's picked log-probability, negated: the one-hot select of the label against the class numbers, summed
    over the two classes, taken from zero. -/
def negPick (lsm : FVec Ideal S4096x2 .f32) (y : IVec S4096 32) : FVec Ideal S4096 .f32 :=
  subf (broadcast S4096 (Scalar.ofBits .f32 0x00000000#32))
    (multiReduction .add [1] S4096
      (select (cmpi .eq (broadcastTo S4096x2 (shapeCast S4096x1 y shapeCasts_S4096_S4096x1) broadcasts_S4096x1_S4096x2)
          (iota .tc S4096x2 32 [1] iota_S4096x2_d1_w32))
        lsm (broadcast S4096x2 (Scalar.ofBits .f32 0x00000000#32)))
      0x00000000#32 reduces_S4096x2_S4096 (.inl rfl) rfl)

/-- It is zero less the specification's `pick` of the row's log-probabilities at the label. -/
theorem negPick_apply (lsm : FVec Ideal S4096x2 .f32) (y : IVec S4096 32) (q : Fin 4096) :
    negPick lsm y (ix1 q) = 0 - pick (fun c : Fin 2 => lsm (ix2 q c)) (y (ix1 q)) := by
  show Ideal.ofBits .f32 0x00000000#32 - multiReduction .add [1] S4096 _ 0x00000000#32 reduces_S4096x2_S4096 _ _ (ix1 q) = _
  rw [Ideal.ofBits_zero_f32]
  refine congrArg (fun t => (0 : EReal) - t) ((sumCols2_apply _ _ _ q).trans (Finset.sum_congr rfl fun c _ => ?_))
  show Scalar.select (IntOp.cmpi .eq
      (broadcastTo S4096x2 (shapeCast S4096x1 y shapeCasts_S4096_S4096x1) broadcasts_S4096x1_S4096x2 (ix2 q c))
      (iota .tc S4096x2 32 [1] iota_S4096x2_d1_w32 (ix2 q c))) (lsm (ix2 q c)) (Ideal.ofBits .f32 0x00000000#32) = _
  rw [broadcastTo_a1_ab_apply, shapeCast_a_a1_apply, iota_single_apply, select_cmpi_eq, Ideal.ofBits_zero_f32]

/-- The body's class weight of the label: a chain of selects over the tests `label = 1`, `label = 0`, else zero. -/
def weightSel (y : IVec S4096 32) (w0 w1 : BitVec 32) : FVec Ideal S4096 .f32 :=
  select (cmpi .eq y (broadcast S4096 1#32)) (broadcast S4096 (Scalar.ofBits .f32 w1))
    (select (cmpi .eq y (broadcast S4096 0#32)) (broadcast S4096 (Scalar.ofBits .f32 w0))
      (broadcast S4096 (Scalar.ofBits .f32 0x00000000#32)))

/-- It is the specification's `pick` of the two weights at the label. -/
theorem weightSel_apply (y : IVec S4096 32) (w0 w1 : BitVec 32) (q : Fin 4096) :
    weightSel y w0 w1 (ix1 q) = pick ![Ideal.ofBits .f32 w0, Ideal.ofBits .f32 w1] (y (ix1 q)) := by
  show Scalar.select (IntOp.cmpi .eq (y (ix1 q)) 1#32) (Ideal.ofBits .f32 w1)
      (Scalar.select (IntOp.cmpi .eq (y (ix1 q)) 0#32) (Ideal.ofBits .f32 w0) (Ideal.ofBits .f32 0x00000000#32)) = _
  rw [select_cmpi_eq, select_cmpi_eq, Ideal.ofBits_zero_f32]
  unfold pick
  rw [Fin.sum_univ_two]
  show _ = (if y (ix1 q) = 0#32 then Ideal.ofBits .f32 w0 else 0) + (if y (ix1 q) = 1#32 then Ideal.ofBits .f32 w1 else 0)
  by_cases h1 : y (ix1 q) = 1#32
  · have h0 : ¬ y (ix1 q) = 0#32 := by rw [h1]; decide
    rw [if_pos h1, if_neg h0, if_pos h1, zero_add]
  · rw [if_neg h1, if_neg h1, add_zero]

/-- A group's 128 lane sums: the weighted negative log-likelihoods of the block's 4096 rows, summed over the sublanes. -/
def lanes2 (lsm : FVec Ideal S4096x2 .f32) (y : IVec S4096 32) (w0 w1 : BitVec 32) : FVec Ideal S128 .f32 :=
  multiReduction .add [0] S128 (shapeCast S32x128 (mulf (weightSel y w0 w1) (negPick lsm y)) shapeCasts_S4096_S32x128)
    0x00000000#32 reduces_S32x128_S128 (.inl rfl) rfl

theorem lanes2_apply (lsm : FVec Ideal S4096x2 .f32) (y : IVec S4096 32) (w0 w1 : BitVec 32) (l : Fin 128) :
    lanes2 lsm y w0 w1 (ix1 l)
      = ∑ r : Fin 32, pick ![Ideal.ofBits .f32 w0, Ideal.ofBits .f32 w1] (y (ix1 ⟨r.val * 128 + l.val, by omega⟩))
          * (0 - pick (fun c : Fin 2 => lsm (ix2 ⟨r.val * 128 + l.val, by omega⟩ c)) (y (ix1 ⟨r.val * 128 + l.val, by omega⟩))) := by
  refine (sumSublanes_apply _ _ _ l).trans (Finset.sum_congr rfl fun r _ => ?_)
  show weightSel y w0 w1 (ix1 _) * negPick lsm y (ix1 _) = _
  rw [weightSel_apply, negPick_apply]

end Cert.KernelIdeal.Step.TwoClass

end
-- ==== Proof.KernelGroups2.lean ====
/-
  The two 2-class groups of a block, as the kernel body computes them: per lane the sum over the 32 sublanes of the
  weighted negative log-likelihood (the body's one-hot select summed over the classes is the specification's `pick`,
  its chain of selects over the label the picked weight), and per row the probability of "not class 0".
-/
import proofs.«403666_j67276367724950_3_alg».proof.Proof.Gen.KernelIdeal.Skeleton
import proofs.«403666_j67276367724950_3_alg».proof.Proof.LossSpec
import proofs.«403666_j67276367724950_3_alg».proof.Proof.KernelStep
import proofs.«403666_j67276367724950_3_alg».proof.Proof.TwoClassPieces
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Step

open Cert.KernelIdeal Cert.KernelIdeal.Gen Idealize.ShloMosaic Idealize.ShloMosaic.ValueIdx Cert.InjuryLoss
  Cert.KernelIdeal.Step.TwoClass

namespace TwoClass

/-! ## The body's payloads over the shared pieces -/

/-- Label column 0 and label column 1 of the binary labels. -/
theorem pay4_apply (x1 : Vec Ideal S4096x2 .i32) (q : Fin 4096) : k0_pay4 (F := Ideal) x1 (ix1 q) = x1 (ix2 q 0) :=
  (shapeCast_a1_a_apply _ _ q).trans (slice2_axis1_apply 0 x1 _ q 0 0 rfl)
theorem pay5_apply (x1 : Vec Ideal S4096x2 .i32) (q : Fin 4096) : k0_pay5 (F := Ideal) x1 (ix1 q) = x1 (ix2 q 1) :=
  (shapeCast_a1_a_apply _ _ q).trans (slice2_axis1_apply 1 x1 _ q 0 1 rfl)

/-- The two groups' log-softmax payloads are the shared log-softmax of their two logit columns. -/
theorem pay9_eq (x0 : Vec Ideal S4096x13 .f32) :
    k0_pay9 (F := Ideal) x0 = logSoftmax2 (extractStridedSlice S4096x2 ![0, 0] x0 slices_S4096x13_o0_0_S4096x2) := rfl
theorem pay14_eq (x0 : Vec Ideal S4096x13 .f32) :
    k0_pay14 (F := Ideal) x0 = logSoftmax2 (extractStridedSlice S4096x2 ![0, 2] x0 slices_S4096x13_o0_2_S4096x2) := rfl

theorem pay9_apply (x0 : Vec Ideal S4096x13 .f32) (q : Fin 4096) (c : Fin 2) :
    k0_pay9 (F := Ideal) x0 (ix2 q c) = logSoftmax (grp0 (blockX x0 q)) c := by
  rw [pay9_eq, logSoftmax2_apply]
  congr 1
  funext c'
  exact slice2_axis1_apply 0 x0 _ q c' ⟨c'.val, by omega⟩ (Nat.zero_add _).symm

theorem pay9_row (x0 : Vec Ideal S4096x13 .f32) (q : Fin 4096) :
    (fun c : Fin 2 => k0_pay9 (F := Ideal) x0 (ix2 q c)) = logSoftmax (grp0 (blockX x0 q)) :=
  funext fun c => pay9_apply x0 q c

theorem pay14_apply (x0 : Vec Ideal S4096x13 .f32) (q : Fin 4096) (c : Fin 2) :
    k0_pay14 (F := Ideal) x0 (ix2 q c) = logSoftmax (grp1 (blockX x0 q)) c := by
  rw [pay14_eq, logSoftmax2_apply]
  congr 1
  funext c'
  exact slice2_axis1_apply 2 x0 _ q c' ⟨2 + c'.val, by omega⟩ rfl

theorem pay14_row (x0 : Vec Ideal S4096x13 .f32) (q : Fin 4096) :
    (fun c : Fin 2 => k0_pay14 (F := Ideal) x0 (ix2 q c)) = logSoftmax (grp1 (blockX x0 q)) :=
  funext fun c => pay14_apply x0 q c

/-- The probability payload: one less the exponential of column 0 of the log-softmax. -/
theorem pay13_apply (lsm : FVec Ideal S4096x2 .f32) (q : Fin 4096) :
    k0_pay13 (F := Ideal) lsm (ix1 q) = one - Ideal.exp (lsm (ix2 q 0)) := by
  show Ideal.ofBits .f32 0x3F800000#32 - Ideal.exp (shapeCast S4096 (extractStridedSlice S4096x1 ![0, 0] lsm slices_S4096x2_o0_0_S4096x1) shapeCasts_S4096x1_S4096 (ix1 q)) = _
  rw [shapeCast_a1_a_apply, slice2_axis1_apply 0 lsm _ q 0 0 rfl]
theorem pay17_eq (lsm : FVec Ideal S4096x2 .f32) : k0_pay17 (F := Ideal) lsm = k0_pay13 lsm := rfl

/-- Group 0's piece and group 1's piece over the shared lane sums. -/
theorem pay12_eq (x0 : Vec Ideal S4096x13 .f32) (x1 : Vec Ideal S4096x2 .i32) :
    k0_pay12 (F := Ideal) (k0_pay4 x1) (k0_pay10 x0 x1) (k0_pay11 x1)
      = shapeCast S1x128 (lanes2 (k0_pay9 x0) (k0_pay4 x1) 0x3F800000#32 0x40000000#32) shapeCasts_S128_S1x128 := rfl
theorem pay16_eq (x0 : Vec Ideal S4096x13 .f32) (x1 : Vec Ideal S4096x2 .i32) :
    k0_pay16 (F := Ideal) (k0_pay15 x0 (k0_pay5 x1))
      = shapeCast S1x128 (lanes2 (k0_pay14 x0) (k0_pay5 x1) 0x3F800000#32 0x40C00000#32) shapeCasts_S128_S1x128 := rfl

end TwoClass

/-! ## The four readings -/

/-- Group 0 (logit columns 0–1, label column 0 of the binary labels): lane `l` of the group's 1 × 128 piece. -/
theorem piece0_apply (x0 : Vec Ideal S4096x13 .f32) (x1 : Vec Ideal S4096x2 .i32) (l : Fin 128) :
    k0_pay12 (F := Ideal) (k0_pay4 x1) (k0_pay10 x0 x1) (k0_pay11 x1) (ix2 0 l)
      = ∑ r : Fin 32, weightedNll w2a (grp0 (blockX x0 ⟨r.val * 128 + l.val, by omega⟩)) (x1 (ix2 ⟨r.val * 128 + l.val, by omega⟩ 0)) := by
  rw [pay12_eq, shapeCast_a_1a_apply, lanes2_apply]
  refine Finset.sum_congr rfl fun r _ => ?_
  rw [pay4_apply, pay9_row]
  rfl

/-- Group 0's probability of "not class 0" at block row `q`. -/
theorem prob0_apply (x0 : Vec Ideal S4096x13 .f32) (q : Fin 4096) :
    k0_pay13 (F := Ideal) (k0_pay9 x0) (ix1 q) = probInjured (grp0 (blockX x0 q)) := by
  rw [pay13_apply, pay9_apply]
  rfl

/-- Group 1 (logit columns 2–3, label column 1 of the binary labels). -/
theorem piece1_apply (x0 : Vec Ideal S4096x13 .f32) (x1 : Vec Ideal S4096x2 .i32) (l : Fin 128) :
    k0_pay16 (F := Ideal) (k0_pay15 x0 (k0_pay5 x1)) (ix2 0 l)
      = ∑ r : Fin 32, weightedNll w2b (grp1 (blockX x0 ⟨r.val * 128 + l.val, by omega⟩)) (x1 (ix2 ⟨r.val * 128 + l.val, by omega⟩ 1)) := by
  rw [pay16_eq, shapeCast_a_1a_apply, lanes2_apply]
  refine Finset.sum_congr rfl fun r _ => ?_
  rw [pay5_apply, pay14_row]
  rfl

theorem prob1_apply (x0 : Vec Ideal S4096x13 .f32) (q : Fin 4096) :
    k0_pay17 (F := Ideal) (k0_pay14 x0) (ix1 q) = probInjured (grp1 (blockX x0 q)) := by
  rw [pay17_eq, pay13_apply, pay14_apply]
  rfl

end Cert.KernelIdeal.Step

end
-- ==== Proof.BlockReads.lean ====
/-
  A block of per-row numbers read at an index: the layout operations that move between a vector of 4096 rows, its
  column form `[4096, 1]`, a `[4096, 3]` block of classes and the `[32, 128]` sublane-by-lane view; the reductions
  along a row of classes and along the sublanes as finite sums and folds; and a label's equality tests as the
  specification's `pick`.
-/
import proofs.«403666_j67276367724950_3_alg».proof.Proof.Gen.KernelIdeal.Skeleton
import proofs.«403666_j67276367724950_3_alg».proof.Proof.LossSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Groups3

open Cert.KernelIdeal Cert.KernelIdeal.Gen Idealize.ShloMosaic Idealize.ShloMosaic.ValueIdx Cert.InjuryLoss

/-! ## Layout operations of a per-row column, read at an index -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[4096]` array cast to `[32, 128]` reads, at `(r, l)`, the operand at `r · 128 + l`. -/
theorem shapeCast_4096_32x128_apply (x : (⟨1, ![4096]⟩ : Shape).Idx → α) (h : (⟨1, ![4096]⟩ : Shape).ShapeCasts ⟨2, ![32, 128]⟩)
    (r : Fin 32) (l : Fin 128) :
    shapeCast ⟨2, ![32, 128]⟩ x h (ix2 r l) = x (ix1 (⟨r.val * 128 + l.val, by omega⟩ : Fin 4096)) :=
  shapeCast_apply x h _ _ (by
    rw [Shape.rowMajor_val_two, Shape.rowMajor_val_one]
    rfl)

/-- The class counter along axis 1 of a `[4096, 3]` vector reads, at `(q, c)`, the word of `c`. -/
theorem iota_axis1_apply (h : S4096x3.Iotas .tc 32 [1]) (q : Fin 4096) (c : Fin 3) :
    iota .tc S4096x3 32 [1] h (ix2 q c) = BitVec.ofNat 32 c.val := by
  show BitVec.ofNat 32 (0 * 3 + c.val) = _
  rw [Nat.zero_mul, Nat.zero_add]

end Layout

/-! ## Pointwise operations and reductions, read at an index -/

section Reductions

/-- The exponential, the logarithm and an integer comparison read at an index act on the elements. -/
theorem exp_apply {s : Shape} (x : FVec Ideal s .f32) (i : s.Idx) : exp x i = Ideal.exp (x i) := rfl
theorem log_apply {s : Shape} (x : FVec Ideal s .f32) (i : s.Idx) : log x i = Ideal.log (x i) := rfl
theorem cmpi_apply {s : Shape} {w : ℕ} (p : CmpIPredicate) (x y : IVec s w) (i : s.Idx) :
    cmpi p x y i = IntOp.cmpi p (x i) (y i) := rfl

/-- The maximum over axis 1 of a `[4096, 3]` block at row `q`: the fold of `max` from −∞ over the row. -/
theorem rowMax_apply (g : FVec Ideal S4096x3 .f32) (h : S4096x3.Reduces [1] S4096) (hφ : FTy.f32 = FTy.f32 ∨ FTy.f32 = FTy.bf16)
    (hacc : (0xFF800000#32 : BitVec 32) = 0xFF800000#32) (q : Fin 4096) :
    multiReduction .maximumf [1] S4096 g 0xFF800000#32 h hφ hacc (ix1 q) = rowMax (fun c : Fin 3 => g (ix2 q c)) := by
  refine (Ideal.multiReduction_maximumf_single g _ h hφ hacc (ix1 q)).trans ?_
  have hl : ∀ c : Fin 3, h.lift (ix1 q) c = ix2 q c := fun c => funext fun a => by
    match a with
    | ⟨0, _⟩ => rfl
    | ⟨1, _⟩ => rfl
  exact congrArg (fun f : Fin 3 → EReal => (Finset.univ : Finset (Fin 3)).fold max negInf f) (funext fun c => congrArg g (hl c))

/-- The sum over axis 1 of a `[4096, 3]` block at row `q`: the sum over the row. -/
theorem rowSum_apply (g : FVec Ideal S4096x3 .f32) (h : S4096x3.Reduces [1] S4096) (hφ : FTy.f32 = FTy.f32 ∨ FTy.f32 = FTy.bf16)
    (hacc : (0x00000000#32 : BitVec 32) = 0x00000000#32) (q : Fin 4096) :
    multiReduction .add [1] S4096 g 0x00000000#32 h hφ hacc (ix1 q) = ∑ c : Fin 3, g (ix2 q c) := by
  refine (Ideal.multiReduction_add_single g _ h hφ hacc (ix1 q)).trans ?_
  have hl : ∀ c : Fin 3, h.lift (ix1 q) c = ix2 q c := fun c => funext fun a => by
    match a with
    | ⟨0, _⟩ => rfl
    | ⟨1, _⟩ => rfl
  exact Finset.sum_congr rfl fun c _ => congrArg g (hl c)

/-- The sum over axis 0 of a `[32, 128]` block at lane `l`: the sum over the 32 sublanes. -/
theorem laneSum_apply (v : FVec Ideal S32x128 .f32) (h : S32x128.Reduces [0] S128) (hφ : FTy.f32 = FTy.f32 ∨ FTy.f32 = FTy.bf16)
    (hacc : (0x00000000#32 : BitVec 32) = 0x00000000#32) (l : Fin 128) :
    multiReduction .add [0] S128 v 0x00000000#32 h hφ hacc (ix1 l) = ∑ r : Fin 32, v (ix2 r l) := by
  refine (Ideal.multiReduction_add_single v _ h hφ hacc (ix1 l)).trans ?_
  have hl : ∀ r : Fin 32, h.lift (ix1 l) r = ix2 r l := fun r => funext fun a => by
    match a with
    | ⟨0, _⟩ => rfl
    | ⟨1, _⟩ => rfl
  exact Finset.sum_congr rfl fun r _ => congrArg v (hl r)

end Reductions

/-! ## A label's equality tests -/

section Pick

/-- A select on the equality test of two words is the `if` on their equality. -/
theorem select_cmpi_eq {α : Type} (a b : BitVec 32) (u v : α) :
    Scalar.select (IntOp.cmpi .eq a b) u v = if a = b then u else v := by
  by_cases h : a = b
  · rw [if_pos h, h]
    show (if BitVec.ofBool (b == b) = 1#1 then u else v) = u
    rw [beq_self_eq_true]; rfl
  · rw [if_neg h]
    show (if BitVec.ofBool (a == b) = 1#1 then u else v) = v
    rw [beq_eq_false_iff_ne.mpr h]; rfl

/-- The chain of tests "label is 2, else is 1, else is 0, else nothing" over the three class weights is the
    specification's `pick` of the weights: a label that names no class picks zero on both sides. -/
theorem weights3_eq_pick (y : BitVec 32) :
    (if y = 2#32 then four else if y = 1#32 then two else if y = 0#32 then one else Ideal.ofBits .f32 0x00000000#32) = pick w3 y := by
  rw [Ideal.ofBits_zero_f32]
  unfold pick
  rw [Fin.sum_univ_three]
  show _ = (if y = 0#32 then one else 0) + (if y = 1#32 then two else 0) + (if y = 2#32 then four else 0)
  by_cases h0 : y = 0#32
  · subst h0; simp
  · by_cases h1 : y = 1#32
    · subst h1; simp
    · by_cases h2 : y = 2#32
      · subst h2; simp
      · simp [h0, h1, h2]

end Pick

end Cert.KernelIdeal.Groups3

end
-- ==== Proof.KernelGroups3.lean ====
/-
  The three 3-class groups of a block, as the kernel body computes them: per lane the sum over the 32 sublanes of the
  weighted negative log-likelihood, and per row the probability of "not class 0".

  The three groups run the same arithmetic on three columns of the logits from another offset (4, 7, 10) and on another
  column of the ternary labels, so everything is read once for a generic `[4096, 3]` block of logits and a generic vector
  of labels — the log-softmax at (row, class), the lane piece, the probability — and then instantiated at the three
  column cuts.
-/
import proofs.«403666_j67276367724950_3_alg».proof.Proof.Gen.KernelIdeal.Skeleton
import proofs.«403666_j67276367724950_3_alg».proof.Proof.LossSpec
import proofs.«403666_j67276367724950_3_alg».proof.Proof.KernelStep
import proofs.«403666_j67276367724950_3_alg».proof.Proof.BlockReads
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Groups3

open Cert.KernelIdeal Cert.KernelIdeal.Gen Cert.KernelIdeal.Step Idealize.ShloMosaic Idealize.ShloMosaic.ValueIdx Cert.InjuryLoss

/-! ## A generic block of three classes -/

/-- The log-softmax of a `[4096, 3]` block of logits, read at row `q`, class `c`: the row's entry less the row's
    maximum, less the logarithm of the row's sum of exponentials of the same differences. -/
theorem logp_apply (g : FVec Ideal S4096x3 .f32) (q : Fin 4096) (c : Fin 3) :
    k0_pay26 g (ix2 q c) = logSoftmax (fun c' : Fin 3 => g (ix2 q c')) c := by
  unfold k0_pay26
  rw [subf_apply, subf_apply, broadcastTo_a1_ab_apply, broadcastTo_a1_ab_apply, log_apply, shapeCast_a_a1_apply, shapeCast_a_a1_apply,
    rowSum_apply]
  simp only [exp_apply, subf_apply, broadcastTo_a1_ab_apply, shapeCast_a_a1_apply]
  rw [rowMax_apply]
  rfl

/-- The weighted negative log-likelihood of a `[4096, 3]` block of logits `g` under the labels `y`, laid out as
    `[32, 128]` and summed over the 32 sublanes: lane `l` of the `1 × 128` piece. Row `r · 128 + l` contributes the
    weight its label picks times minus the log-softmax entry its label picks (the sum over the classes of the
    entries where the label equals the class counter). -/
theorem piece_apply (y : IVec S4096 32) (g : FVec Ideal S4096x3 .f32) (l : Fin 128) :
    k0_pay27 (F := Ideal) y g (ix2 (0 : Fin 1) l)
      = ∑ r : Fin 32, weightedNll w3 (fun c : Fin 3 => g (ix2 (⟨r.val * 128 + l.val, by omega⟩ : Fin 4096) c))
          (y (ix1 (⟨r.val * 128 + l.val, by omega⟩ : Fin 4096))) := by
  unfold k0_pay27
  rw [shapeCast_a_1a_apply, laneSum_apply]
  refine Finset.sum_congr rfl fun r _ => ?_
  rw [shapeCast_4096_32x128_apply, mulf_apply, subf_apply, broadcast_apply, rowSum_apply]
  have hi : ∀ c : Fin 3, iota Kind.tc S4096x3 32 [1] iota_S4096x3_d1_w32 (ix2 (⟨r.val * 128 + l.val, by omega⟩ : Fin 4096) c)
      = BitVec.ofNat 32 c.val := fun c => iota_axis1_apply _ _ c
  simp only [select_apply, cmpi_apply, broadcast_apply, broadcastTo_a1_ab_apply, shapeCast_a_a1_apply, logp_apply,
    select_cmpi_eq, Ideal.ofBits_def, hi]
  rw [weights3_eq_pick, Ideal.ofBits_zero_f32]
  rfl

/-- The probability of "not class 0" of a `[4096, 3]` block of logits, read at row `q`. -/
theorem prob_apply (g : FVec Ideal S4096x3 .f32) (q : Fin 4096) :
    k0_pay28 (F := Ideal) g (ix1 q) = probInjured (fun c : Fin 3 => g (ix2 q c)) := by
  unfold k0_pay28
  rw [subf_apply, broadcast_apply, exp_apply, shapeCast_a1_a_apply, slice2_axis1_eq, logp_apply]
  rfl

/-! ## The three column cuts -/

/-- The three columns of the ternary labels, read at row `q`. -/
theorem label0_apply (x2 : Vec Ideal S4096x3 .i32) (q : Fin 4096) : k0_pay6 x2 (ix1 q) = x2 (ix2 q 0) := by
  unfold k0_pay6
  rw [shapeCast_a1_a_apply, slice2_axis1_eq]
  rfl
theorem label1_apply (x2 : Vec Ideal S4096x3 .i32) (q : Fin 4096) : k0_pay7 x2 (ix1 q) = x2 (ix2 q 1) := by
  unfold k0_pay7
  rw [shapeCast_a1_a_apply, slice2_axis1_eq]
  rfl
theorem label2_apply (x2 : Vec Ideal S4096x3 .i32) (q : Fin 4096) : k0_pay8 x2 (ix1 q) = x2 (ix2 q 2) := by
  unfold k0_pay8
  rw [shapeCast_a1_a_apply, slice2_axis1_eq]
  rfl

/-- The three columns from `o` of a block of logits, read at row `q`: entries `o`, `o + 1`, `o + 2` of the row. -/
theorem cols_apply (o : ℕ) (ho : o + 3 ≤ 13) (x0 : Vec Ideal S4096x13 .f32) (h : S4096x13.Slices ![0, o] S4096x3) (q : Fin 4096) :
    (fun c : Fin 3 => extractStridedSlice S4096x3 ![0, o] x0 h (ix2 q c)) = fun c : Fin 3 => blockX x0 q ⟨o + c.val, by omega⟩ :=
  funext fun c => slice2_axis1_apply o x0 h q c _ rfl

/-- The payloads of groups 2 and 3 are, operation for operation, those of group 4 on the columns from 4 and from 7. -/
theorem pay19_eq (x0 : Vec Ideal S4096x13 .f32) (y : IVec S4096 32) :
    k0_pay19 (F := Ideal) x0 y = k0_pay27 y (extractStridedSlice S4096x3 ![0, 4] x0 slices_S4096x13_o0_4_S4096x3) := rfl
theorem pay23_eq (x0 : Vec Ideal S4096x13 .f32) (y : IVec S4096 32) :
    k0_pay23 (F := Ideal) x0 y = k0_pay27 y (extractStridedSlice S4096x3 ![0, 7] x0 slices_S4096x13_o0_7_S4096x3) := rfl
theorem pay21_eq (x0 : Vec Ideal S4096x13 .f32) :
    k0_pay21 (F := Ideal) (k0_pay20 x0) = k0_pay28 (extractStridedSlice S4096x3 ![0, 4] x0 slices_S4096x13_o0_4_S4096x3) := rfl
theorem pay24_eq (x0 : Vec Ideal S4096x13 .f32) :
    k0_pay24 (F := Ideal) x0 = k0_pay28 (extractStridedSlice S4096x3 ![0, 7] x0 slices_S4096x13_o0_7_S4096x3) := rfl

end Cert.KernelIdeal.Groups3

namespace Cert.KernelIdeal.Step

open Cert.KernelIdeal Cert.KernelIdeal.Gen Cert.KernelIdeal.Groups3 Idealize.ShloMosaic Idealize.ShloMosaic.ValueIdx Cert.InjuryLoss

/-- Group 2 (logit columns 4–6, label column 0 of the ternary labels): lane `l` of the group's 1 × 128 piece. -/
theorem piece2_apply (x0 : Vec Ideal S4096x13 .f32) (x2 : Vec Ideal S4096x3 .i32) (l : Fin 128) :
    k0_pay19 (F := Ideal) x0 (k0_pay6 x2) (ix2 0 l)
      = ∑ r : Fin 32, weightedNll w3 (grp2 (blockX x0 ⟨r.val * 128 + l.val, by omega⟩)) (x2 (ix2 ⟨r.val * 128 + l.val, by omega⟩ 0)) := by
  rw [pay19_eq, piece_apply]
  refine Finset.sum_congr rfl fun r _ => ?_
  rw [label0_apply, cols_apply 4 (by omega)]
  rfl

theorem prob2_apply (x0 : Vec Ideal S4096x13 .f32) (q : Fin 4096) :
    k0_pay21 (F := Ideal) (k0_pay20 x0) (ix1 q) = probInjured (grp2 (blockX x0 q)) := by
  rw [pay21_eq, prob_apply, cols_apply 4 (by omega)]
  rfl

/-- Group 3 (logit columns 7–9, label column 1 of the ternary labels). -/
theorem piece3_apply (x0 : Vec Ideal S4096x13 .f32) (x2 : Vec Ideal S4096x3 .i32) (l : Fin 128) :
    k0_pay23 (F := Ideal) x0 (k0_pay7 x2) (ix2 0 l)
      = ∑ r : Fin 32, weightedNll w3 (grp3 (blockX x0 ⟨r.val * 128 + l.val, by omega⟩)) (x2 (ix2 ⟨r.val * 128 + l.val, by omega⟩ 1)) := by
  rw [pay23_eq, piece_apply]
  refine Finset.sum_congr rfl fun r _ => ?_
  rw [label1_apply, cols_apply 7 (by omega)]
  rfl

theorem prob3_apply (x0 : Vec Ideal S4096x13 .f32) (q : Fin 4096) :
    k0_pay24 (F := Ideal) x0 (ix1 q) = probInjured (grp3 (blockX x0 q)) := by
  rw [pay24_eq, prob_apply, cols_apply 7 (by omega)]
  rfl

/-- Group 4 (logit columns 10–12, label column 2 of the ternary labels). -/
theorem piece4_apply (x0 : Vec Ideal S4096x13 .f32) (x2 : Vec Ideal S4096x3 .i32) (l : Fin 128) :
    k0_pay27 (F := Ideal) (k0_pay8 x2) (k0_pay25 x0) (ix2 0 l)
      = ∑ r : Fin 32, weightedNll w3 (grp4 (blockX x0 ⟨r.val * 128 + l.val, by omega⟩)) (x2 (ix2 ⟨r.val * 128 + l.val, by omega⟩ 2)) := by
  rw [piece_apply]
  refine Finset.sum_congr rfl fun r _ => ?_
  unfold k0_pay25
  rw [label2_apply, cols_apply 10 (by omega)]
  rfl

theorem prob4_apply (x0 : Vec Ideal S4096x13 .f32) (q : Fin 4096) :
    k0_pay28 (F := Ideal) (k0_pay25 x0) (ix1 q) = probInjured (grp4 (blockX x0 q)) := by
  rw [prob_apply]
  unfold k0_pay25
  rw [cols_apply 10 (by omega)]
  rfl

end Cert.KernelIdeal.Step

end
-- ==== Proof.KernelStepSum.lean ====
/-
  A grid step read at an entry.  The stored value is the accumulator found plus the six 1 × 128 pieces stacked: five
  groups' sublane sums and the sublane sum of the weighted binary cross-entropy, whose per-row value the body
  computes from the five probabilities and the largest of the five labels.
-/
import proofs.«403666_j67276367724950_3_alg».proof.Proof.KernelGroups2
import proofs.«403666_j67276367724950_3_alg».proof.Proof.KernelGroups3

noncomputable section

namespace Cert.KernelIdeal.Step

open Cert.KernelIdeal Cert.KernelIdeal.Gen Idealize.ShloMosaic Idealize.ShloMosaic.ValueIdx Cert.InjuryLoss

namespace StepSum

/-! ## Six pieces stacked, and the sublane sum of a per-row vector -/

section
variable {α : Type}

/-- Six 1 × 128 pieces, in order. -/
abbrev sixPieces (p0 p1 p2 p3 p4 p5 : S1x128.Idx → α) : List ((s : Shape) × (s.Idx → α)) :=
  [⟨S1x128, p0⟩, ⟨S1x128, p1⟩, ⟨S1x128, p2⟩, ⟨S1x128, p3⟩, ⟨S1x128, p4⟩, ⟨S1x128, p5⟩]

/-- Six 1 × 128 pieces stacked along the rows, read at row `k`, lane `l`: the `k`-th piece at lane `l`. -/
theorem stack6_apply (p0 p1 p2 p3 p4 p5 : S1x128.Idx → α)
    (h : Shape.Concatenates [S1x128, S1x128, S1x128, S1x128, S1x128, S1x128] S6x128 0) (k : Fin 6) (l : Fin 128) :
    concatenate S6x128 0 (sixPieces p0 p1 p2 p3 p4 p5) h (ix2 k l) = (![p0, p1, p2, p3, p4, p5] k) (ix2 (0 : Fin 1) l) := by
  have hi : ∀ (n : Fin 6) (b : Fin S1x128.rank), b.cast (rfl : S1x128.rank = S6x128.rank) ≠ (0 : Fin 2) →
      ((ix2 (0 : Fin 1) l : S1x128.Idx) b).val = ((ix2 n l : S6x128.Idx) (b.cast rfl)).val := fun n b =>
    match b with
    | ⟨0, _⟩ => fun hb => absurd rfl hb
    | ⟨1, _⟩ => fun _ => rfl
  fin_cases k
  · exact concatenate_apply_piece (t := S6x128) (0 : Fin 2) (sixPieces p0 p1 p2 p3 p4 p5) h _ 0 (by decide : (0 : ℕ) < 6) S1x128 p0 rfl rfl 0 rfl (ix2 0 l) (hi 0) rfl
  · exact concatenate_apply_piece (t := S6x128) (0 : Fin 2) (sixPieces p0 p1 p2 p3 p4 p5) h _ 1 (by decide : (1 : ℕ) < 6) S1x128 p1 rfl rfl 1 rfl (ix2 0 l) (hi 1) rfl
  · exact concatenate_apply_piece (t := S6x128) (0 : Fin 2) (sixPieces p0 p1 p2 p3 p4 p5) h _ 2 (by decide : (2 : ℕ) < 6) S1x128 p2 rfl rfl 2 rfl (ix2 0 l) (hi 2) rfl
  · exact concatenate_apply_piece (t := S6x128) (0 : Fin 2) (sixPieces p0 p1 p2 p3 p4 p5) h _ 3 (by decide : (3 : ℕ) < 6) S1x128 p3 rfl rfl 3 rfl (ix2 0 l) (hi 3) rfl
  · exact concatenate_apply_piece (t := S6x128) (0 : Fin 2) (sixPieces p0 p1 p2 p3 p4 p5) h _ 4 (by decide : (4 : ℕ) < 6) S1x128 p4 rfl rfl 4 rfl (ix2 0 l) (hi 4) rfl
  · exact concatenate_apply_piece (t := S6x128) (0 : Fin 2) (sixPieces p0 p1 p2 p3 p4 p5) h _ 5 (by decide : (5 : ℕ) < 6) S1x128 p5 rfl rfl 5 rfl (ix2 0 l) (hi 5) rfl

end

/-- The sublane sum of a per-row vector: the 4096 rows laid out 32 × 128 (entry (r, l) is row r·128 + l), summed over
    the 32 sublanes, as a 1 × 128 piece. -/
theorem sublaneSum_apply (v : FVec Ideal S4096 .f32) (h1 : S4096.ShapeCasts S32x128) (h2 : S32x128.Reduces [0] S128)
    (hφ : FKind.Formats .f32) (hacc : (0x00000000#32 : BitVec FTy.f32.bits) = FKind.add.neutral .f32 hφ)
    (h3 : S128.ShapeCasts S1x128) (l : Fin 128) :
    shapeCast S1x128 (multiReduction .add [0] S128 (shapeCast S32x128 v h1) 0x00000000#32 h2 hφ hacc) h3 (ix2 (0 : Fin 1) l)
      = ∑ r : Fin 32, v (ix1 ⟨r.val * 128 + l.val, by omega⟩) := by
  refine (shapeCast_a_1a_apply _ h3 0 l).trans ?_
  refine (Ideal.multiReduction_add_single _ _ h2 hφ hacc (ix1 l)).trans ?_
  show ∑ r : Fin 32, shapeCast S32x128 v h1 (h2.lift (ix1 l) r) = _
  refine Finset.sum_congr rfl fun r _ => ?_
  refine shapeCast_apply v h1 _ _ ?_
  rw [Shape.rowMajor_val_one, Shape.rowMajor_val_two]
  rfl

/-! ## The positive-label indicator: a signed maximum is positive iff an operand is -/

/-- A signed maximum is positive iff one of its operands is. -/
theorem maxsi_pos_iff (a b : BitVec 32) : 0 < (IntOp.maxsi a b).toInt ↔ 0 < a.toInt ∨ 0 < b.toInt := by
  unfold IntOp.maxsi
  by_cases h : b.slt a = true
  · rw [if_pos h]
    have hlt : b.toInt < a.toInt := by simpa [BitVec.slt] using h
    exact ⟨Or.inl, fun h' => h'.elim id fun hb => by omega⟩
  · rw [if_neg h]
    have hle : ¬ b.toInt < a.toInt := by simpa [BitVec.slt] using h
    exact ⟨Or.inr, fun h' => h'.elim (fun ha => by omega) id⟩

/-- The comparison bit `m > 0` (signed), zero-extended to 32 bits and converted as a signed integer: 1 when `m` is
    positive, else 0. -/
theorem indicator_apply (m : BitVec 32) :
    (((((IntOp.cmpi .sgt m 0#32).setWidth 32).toInt : ℝ)) : EReal) = if 0 < m.toInt then 1 else 0 := by
  show ((((BitVec.ofBool ((0#32).slt m)).setWidth 32).toInt : ℝ) : EReal) = _
  by_cases h : 0 < m.toInt
  · have hs : (0#32).slt m = true := by simp [BitVec.slt, h]
    have h1 : ((BitVec.ofBool true).setWidth 32 : BitVec 32).toInt = 1 := by decide
    rw [hs, h1, if_pos h]; norm_num
  · have hs : (0#32).slt m = false := by simp [BitVec.slt, h]
    have h0 : ((BitVec.ofBool false).setWidth 32 : BitVec 32).toInt = 0 := by decide
    rw [hs, h0, if_neg h]; norm_num

/-- Column `c` of a block of labels, as a vector over the block's 4096 rows. -/
theorem labelColumn_apply {C : ℕ} (x : (⟨2, ![4096, C]⟩ : Shape).Idx → BitVec 32) (c : Fin C)
    (hs : (⟨2, ![4096, C]⟩ : Shape).Slices ![0, c.val] S4096x1) (hc : S4096x1.ShapeCasts S4096) (q : Fin 4096) :
    shapeCast S4096 (extractStridedSlice S4096x1 ![0, c.val] x hs) hc (ix1 q) = x (ix2 q c) := by
  refine (shapeCast_apply _ hc (ix1 q) (ix2 q (0 : Fin 1)) ?_).trans ?_
  · rw [Shape.rowMajor_val_two, Shape.rowMajor_val_one]
    show q.val * 1 + 0 = q.val
    omega
  · exact extractStridedSlice_apply _ x hs _ (ix2 q c) fun a =>
      match a with
      | ⟨0, _⟩ => by show q.val = 0 + q.val; omega
      | ⟨1, _⟩ => by show c.val = c.val + 0; omega

/-- The running signed maximum of a row's five labels. -/
theorem maxLabel_apply (x1 : Vec Ideal S4096x2 .i32) (x2 : Vec Ideal S4096x3 .i32) (q : Fin 4096) :
    k0_pay29 (k0_pay4 x1) (k0_pay5 x1) (k0_pay6 x2) (k0_pay7 x2) (k0_pay8 x2) (ix1 q)
      = IntOp.maxsi (IntOp.maxsi (IntOp.maxsi (IntOp.maxsi (x1 (ix2 q 0)) (x1 (ix2 q 1))) (x2 (ix2 q 0))) (x2 (ix2 q 1)))
          (x2 (ix2 q 2)) := by
  show IntOp.maxsi (IntOp.maxsi (IntOp.maxsi (IntOp.maxsi (k0_pay4 x1 (ix1 q)) (k0_pay5 x1 (ix1 q))) (k0_pay6 x2 (ix1 q)))
      (k0_pay7 x2 (ix1 q))) (k0_pay8 x2 (ix1 q)) = _
  rw [show k0_pay4 x1 (ix1 q) = x1 (ix2 q 0) from labelColumn_apply x1 (0 : Fin 2) _ _ q,
    show k0_pay5 x1 (ix1 q) = x1 (ix2 q 1) from labelColumn_apply x1 (1 : Fin 2) _ _ q,
    show k0_pay6 x2 (ix1 q) = x2 (ix2 q 0) from labelColumn_apply x2 (0 : Fin 3) _ _ q,
    show k0_pay7 x2 (ix1 q) = x2 (ix2 q 1) from labelColumn_apply x2 (1 : Fin 3) _ _ q,
    show k0_pay8 x2 (ix1 q) = x2 (ix2 q 2) from labelColumn_apply x2 (2 : Fin 3) _ _ q]

/-- The positive-label indicator of a row, as the body computes it from the running maximum. -/
theorem anyPositive_apply (x1 : Vec Ideal S4096x2 .i32) (x2 : Vec Ideal S4096x3 .i32) (q : Fin 4096) :
    (((((IntOp.cmpi .sgt (k0_pay29 (k0_pay4 x1) (k0_pay5 x1) (k0_pay6 x2) (k0_pay7 x2) (k0_pay8 x2) (ix1 q)) 0#32).setWidth 32).toInt : ℝ)) : EReal)
      = anyPositive (blockY x1 x2 q) := by
  rw [maxLabel_apply]
  refine (indicator_apply _).trans ?_
  have hiff : 0 < (IntOp.maxsi (IntOp.maxsi (IntOp.maxsi (IntOp.maxsi (x1 (ix2 q 0)) (x1 (ix2 q 1))) (x2 (ix2 q 0)))
      (x2 (ix2 q 1))) (x2 (ix2 q 2))).toInt ↔ ∃ k : Fin 5, 0 < (blockY x1 x2 q k).toInt := by
    rw [maxsi_pos_iff, maxsi_pos_iff, maxsi_pos_iff, maxsi_pos_iff]
    constructor
    · rintro ((((h | h) | h) | h) | h)
      exacts [⟨0, h⟩, ⟨1, h⟩, ⟨2, h⟩, ⟨3, h⟩, ⟨4, h⟩]
    · rintro ⟨k, hk⟩
      fin_cases k
      · exact Or.inl (Or.inl (Or.inl (Or.inl hk)))
      · exact Or.inl (Or.inl (Or.inl (Or.inr hk)))
      · exact Or.inl (Or.inl (Or.inr hk))
      · exact Or.inl (Or.inr hk)
      · exact Or.inr hk
  unfold anyPositive
  by_cases hE : ∃ k : Fin 5, 0 < (blockY x1 x2 q k).toInt
  · rw [if_pos hE, if_pos (hiff.2 hE)]
  · rw [if_neg hE, if_neg fun h => hE (hiff.1 h)]

/-! ## The per-row cross-entropy -/

/-- The weighted binary cross-entropy per row, as the body computes it from the five per-row probabilities and the
    running maximum of the five labels. -/
def bceVec (v53 v91 v133 v175 v217 : FVec Ideal S4096 .f32) (v221 : IVec S4096 32) : FVec Ideal S4096 .f32 :=
  mulf
    (subf (broadcast S4096 (Scalar.ofBits (F := Ideal) .f32 0x00000000#32))
      (addf
        (mulf (sitofp (F := Ideal) .f32 (extui 32 (cmpi .sgt v221 (broadcast S4096 0#32)) natLt_1_32))
          (log (maximumf (maximumf (maximumf (maximumf v53 v91) v133) v175) v217)))
        (mulf
          (subf (broadcast S4096 (Scalar.ofBits (F := Ideal) .f32 0x3F800000#32))
            (sitofp (F := Ideal) .f32 (extui 32 (cmpi .sgt v221 (broadcast S4096 0#32)) natLt_1_32)))
          (log1p (subf (broadcast S4096 (Scalar.ofBits (F := Ideal) .f32 0x00000000#32))
            (maximumf (maximumf (maximumf (maximumf v53 v91) v133) v175) v217))))))
    (select
      (cmpf .ogt (sitofp (F := Ideal) .f32 (extui 32 (cmpi .sgt v221 (broadcast S4096 0#32)) natLt_1_32))
        (broadcast S4096 (Scalar.ofBits (F := Ideal) .f32 0x3F000000#32)))
      (broadcast S4096 (Scalar.ofBits (F := Ideal) .f32 0x40C00000#32)) (broadcast S4096 (Scalar.ofBits (F := Ideal) .f32 0x3F800000#32)))

/-- The stored value of a grid step: the accumulator found plus the six pieces stacked, the sixth the sublane sum of
    the per-row cross-entropy. -/
theorem k0_pay1_eq (v48 : FVec Ideal S1x128 .f32) (v53 : FVec Ideal S4096 .f32) (v86 : FVec Ideal S1x128 .f32)
    (v91 : FVec Ideal S4096 .f32) (v128 : FVec Ideal S1x128 .f32) (v133 : FVec Ideal S4096 .f32)
    (v170 : FVec Ideal S1x128 .f32) (v175 : FVec Ideal S4096 .f32) (v212 : FVec Ideal S1x128 .f32)
    (v217 : FVec Ideal S4096 .f32) (v221 : IVec S4096 32) (acc : Vec Ideal S6x128 .f32) :
    k0_pay1 v48 v53 v86 v91 v128 v133 v170 v175 v212 v217 v221 0#32 acc
      = shapeCast S6x128
          (addf acc
            (concatenate S6x128 0
              (sixPieces v48 v86 v128 v170 v212
                (shapeCast S1x128
                  (multiReduction .add [0] S128 (shapeCast S32x128 (bceVec v53 v91 v133 v175 v217 v221) shapeCasts_S4096_S32x128)
                    0x00000000#32 reduces_S32x128_S128 (.inl rfl) rfl)
                  shapeCasts_S128_S1x128))
              concatenates_S1x128_S1x128_S1x128_S1x128_S1x128_S1x128_S6x128_d0))
          shapeCasts_S6x128_S6x128 := rfl

/-- The per-row cross-entropy at block row `q`. -/
theorem bceVec_apply (x0 : Vec Ideal S4096x13 .f32) (x1 : Vec Ideal S4096x2 .i32) (x2 : Vec Ideal S4096x3 .i32) (q : Fin 4096) :
    bceVec (k0_pay13 (k0_pay9 x0)) (k0_pay17 (k0_pay14 x0)) (k0_pay21 (k0_pay20 x0)) (k0_pay24 x0) (k0_pay28 (k0_pay25 x0))
        (k0_pay29 (k0_pay4 x1) (k0_pay5 x1) (k0_pay6 x2) (k0_pay7 x2) (k0_pay8 x2)) (ix1 q)
      = weightedBce (blockX x0 q) (blockY x1 x2 q) := by
  have hA := anyPositive_apply x1 x2 q
  have hP : max (max (max (max (k0_pay13 (k0_pay9 x0) (ix1 q)) (k0_pay17 (k0_pay14 x0) (ix1 q))) (k0_pay21 (k0_pay20 x0) (ix1 q)))
      (k0_pay24 x0 (ix1 q))) (k0_pay28 (k0_pay25 x0) (ix1 q)) = maxProb (blockX x0 q) := by
    rw [prob0_apply, prob1_apply, prob2_apply, prob3_apply, prob4_apply]
    rfl
  show (Ideal.ofBits .f32 0x00000000#32
        - ((((((IntOp.cmpi .sgt (k0_pay29 (k0_pay4 x1) (k0_pay5 x1) (k0_pay6 x2) (k0_pay7 x2) (k0_pay8 x2) (ix1 q)) 0#32).setWidth 32).toInt : ℝ)) : EReal)
            * Ideal.log (max (max (max (max (k0_pay13 (k0_pay9 x0) (ix1 q)) (k0_pay17 (k0_pay14 x0) (ix1 q))) (k0_pay21 (k0_pay20 x0) (ix1 q)))
                (k0_pay24 x0 (ix1 q))) (k0_pay28 (k0_pay25 x0) (ix1 q)))
          + (one - (((((IntOp.cmpi .sgt (k0_pay29 (k0_pay4 x1) (k0_pay5 x1) (k0_pay6 x2) (k0_pay7 x2) (k0_pay8 x2) (ix1 q)) 0#32).setWidth 32).toInt : ℝ)) : EReal))
            * Ideal.log1p (Ideal.ofBits .f32 0x00000000#32
                - max (max (max (max (k0_pay13 (k0_pay9 x0) (ix1 q)) (k0_pay17 (k0_pay14 x0) (ix1 q))) (k0_pay21 (k0_pay20 x0) (ix1 q)))
                    (k0_pay24 x0 (ix1 q))) (k0_pay28 (k0_pay25 x0) (ix1 q)))))
      * Scalar.select (Ideal.cmp .ogt (((((IntOp.cmpi .sgt (k0_pay29 (k0_pay4 x1) (k0_pay5 x1) (k0_pay6 x2) (k0_pay7 x2) (k0_pay8 x2) (ix1 q)) 0#32).setWidth 32).toInt : ℝ)) : EReal) half) six one
      = weightedBce (blockX x0 q) (blockY x1 x2 q)
  rw [hA, hP, Ideal.ofBits_zero_f32]
  rfl

end StepSum

/-! ## The step -/

/-- A grid step read at an entry: what it found there plus the 32 sublanes' per-row numbers. -/
theorem accStep_apply (x0 : Vec Ideal S4096x13 .f32) (x1 : Vec Ideal S4096x2 .i32) (x2 : Vec Ideal S4096x3 .i32)
    (acc : Vec Ideal S6x128 .f32) (k : Fin 6) (l : Fin 128) :
    accStep (F := Ideal) x0 x1 x2 acc (ix2 k l)
      = acc (ix2 k l) + ∑ r : Fin 32, rowLoss (blockX x0 ⟨r.val * 128 + l.val, by omega⟩)
          (blockY x1 x2 ⟨r.val * 128 + l.val, by omega⟩) k := by
  unfold accStep
  rw [StepSum.k0_pay1_eq, shapeCast_self]
  show acc (ix2 k l) + concatenate S6x128 0 (StepSum.sixPieces _ _ _ _ _ _) _ (ix2 k l) = _
  congr 1
  refine (StepSum.stack6_apply _ _ _ _ _ _ _ k l).trans ?_
  fin_cases k
  · exact piece0_apply x0 x1 l
  · exact piece1_apply x0 x1 l
  · exact piece2_apply x0 x2 l
  · exact piece3_apply x0 x2 l
  · exact piece4_apply x0 x2 l
  · refine (StepSum.sublaneSum_apply _ _ _ (.inl rfl) rfl _ l).trans ?_
    refine Finset.sum_congr rfl fun r _ => ?_
    exact StepSum.bceVec_apply x0 x1 x2 ⟨r.val * 128 + l.val, by omega⟩

end Cert.KernelIdeal.Step

end
-- ==== Proof.KernelPieces.lean ====
/-
  What each control case of the kernel body leaves behind, as values.  In every case the accumulator ends at one
  grid step applied to the step's three input blocks: over the zero block where the step resets it first, over
  what the step found otherwise.  At the last step of an output block the output's staging buffer receives that
  accumulator, reshaped from 6 × 128 to 1 × 6 × 128.
-/
import proofs.«403666_j67276367724950_3_alg».proof.Proof.Gen.KernelIdeal.Frame
import proofs.«403666_j67276367724950_3_alg».proof.Proof.KernelStep

set_option maxRecDepth 16384

noncomputable section

namespace Cert.KernelIdeal.Pieces

open Cert.KernelIdeal Cert.KernelIdeal.Gen Cert.KernelIdeal.Step Idealize.ShloMosaic Idealize.ShloMosaic.TcCoe
  Idealize.ShloMosaic.Tactic Idealize.SL.Sem

variable {F : FTy → Type} [FloatOps F]

/-- The origin of a rank-2 block, and of a rank-3 block. -/
theorem origin2 : (![0, 0] : Fin 2 → Nat) = fun _ => 0 := funext fun a => by fin_cases a <;> rfl
theorem origin3 : (![0, 0, 0] : Fin 3 → Nat) = fun _ => 0 := funext fun a => by fin_cases a <;> rfl

/-- A step that neither resets nor copies out leaves the accumulator at one step over what it found. -/
theorem sout0_B_0_eq (c : Dev nD) (i : grid0.Coords) (arg2 : Memref sig .tc .vmem S4096x13 .f32) (harg2 : arg2.IsWhole) (arg3 : Memref sig .tc .vmem S4096x2 .i32) (harg3 : arg3.IsWhole) (arg4 : Memref sig .tc .vmem S4096x3 .i32) (harg4 : arg4.IsWhole) (arg5 : Memref sig .tc .vmem S1x6x128 .f32) (harg5 : arg5.IsWhole) (arg6 : Memref sig .tc .vmem S6x128 .f32) (harg6 : arg6.IsWhole) (hc0 : ¬cond0_0 i) (hc1 : ¬cond0_1 i)
    (x0 : Vec F S4096x13 .f32) (x1 : Vec F S4096x2 .i32) (x2 : Vec F S4096x3 .i32) (xs0 : Vec F S6x128 .f32) :
    sout0_B_0 c i arg2 harg2 arg3 harg3 arg4 harg4 arg5 harg5 arg6 harg6 hc0 hc1 x0 x1 x2 xs0 = accStep x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero origin2]
  unfold accStep
  simp only [View.readAt_eq_ld, harg2.read_unread, harg3.read_unread, harg4.read_unread, harg6.read_unread,
    View.ld_unit_zero (S := S6x128) origin2, View.ld_unit_zero (S := S4096x13) origin2,
    View.ld_unit_zero (S := S4096x2) origin2, View.ld_unit_zero (S := S4096x3) origin2]

/-- The last step of an output block leaves the accumulator likewise, -/
theorem sout0_C_0_eq (c : Dev nD) (i : grid0.Coords) (arg2 : Memref sig .tc .vmem S4096x13 .f32) (harg2 : arg2.IsWhole) (arg3 : Memref sig .tc .vmem S4096x2 .i32) (harg3 : arg3.IsWhole) (arg4 : Memref sig .tc .vmem S4096x3 .i32) (harg4 : arg4.IsWhole) (arg5 : Memref sig .tc .vmem S1x6x128 .f32) (harg5 : arg5.IsWhole) (arg6 : Memref sig .tc .vmem S6x128 .f32) (harg6 : arg6.IsWhole) (hc0 : ¬cond0_0 i) (hc1 : cond0_1 i)
    (x0 : Vec F S4096x13 .f32) (x1 : Vec F S4096x2 .i32) (x2 : Vec F S4096x3 .i32) (xs0 : Vec F S6x128 .f32) :
    sout0_C_0 c i arg2 harg2 arg3 harg3 arg4 harg4 arg5 harg5 arg6 harg6 hc0 hc1 x0 x1 x2 xs0 = accStep x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero origin2]
  unfold accStep
  simp only [View.readAt_eq_ld, harg2.read_unread, harg3.read_unread, harg4.read_unread, harg6.read_unread,
    View.ld_unit_zero (S := S6x128) origin2, View.ld_unit_zero (S := S4096x13) origin2,
    View.ld_unit_zero (S := S4096x2) origin2, View.ld_unit_zero (S := S4096x3) origin2]

/-- and copies it, reshaped, into the output's staging buffer. -/
theorem out0_C_3_eq (c : Dev nD) (i : grid0.Coords) (arg2 : Memref sig .tc .vmem S4096x13 .f32) (harg2 : arg2.IsWhole) (arg3 : Memref sig .tc .vmem S4096x2 .i32) (harg3 : arg3.IsWhole) (arg4 : Memref sig .tc .vmem S4096x3 .i32) (harg4 : arg4.IsWhole) (arg5 : Memref sig .tc .vmem S1x6x128 .f32) (harg5 : arg5.IsWhole) (arg6 : Memref sig .tc .vmem S6x128 .f32) (harg6 : arg6.IsWhole) (hc0 : ¬cond0_0 i) (hc1 : cond0_1 i)
    (x0 : Vec F S4096x13 .f32) (x1 : Vec F S4096x2 .i32) (x2 : Vec F S4096x3 .i32) (xs0 : Vec F S6x128 .f32) :
    out0_C_3 c i arg2 harg2 arg3 harg3 arg4 harg4 arg5 harg5 arg6 harg6 hc0 hc1 x0 x1 x2 xs0 = k0_pay2 (accStep x0 x1 x2 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero origin3]
  unfold accStep
  simp only [View.readAt_eq_ld, harg2.read_unread, harg3.read_unread, harg4.read_unread, harg6.read_unread, View.readCov_unit_zero (S := S6x128) _ origin2,
    View.ld_unit_zero (S := S1x6x128) origin3, View.ld_unit_zero (S := S6x128) origin2, View.ld_unit_zero (S := S4096x13) origin2,
    View.ld_unit_zero (S := S4096x2) origin2, View.ld_unit_zero (S := S4096x3) origin2]

/-- The first step of an output block stores the zero block, then one step over it. -/
theorem sout0_A_0_eq (c : Dev nD) (i : grid0.Coords) (arg2 : Memref sig .tc .vmem S4096x13 .f32) (harg2 : arg2.IsWhole) (arg3 : Memref sig .tc .vmem S4096x2 .i32) (harg3 : arg3.IsWhole) (arg4 : Memref sig .tc .vmem S4096x3 .i32) (harg4 : arg4.IsWhole) (arg5 : Memref sig .tc .vmem S1x6x128 .f32) (harg5 : arg5.IsWhole) (arg6 : Memref sig .tc .vmem S6x128 .f32) (harg6 : arg6.IsWhole) (hc0 : cond0_0 i) (hc1 : ¬cond0_1 i)
    (x0 : Vec F S4096x13 .f32) (x1 : Vec F S4096x2 .i32) (x2 : Vec F S4096x3 .i32) :
    sout0_A_0 c i arg2 harg2 arg3 harg3 arg4 harg4 arg5 harg5 arg6 harg6 hc0 hc1 x0 x1 x2 = accStep x0 x1 x2 k0_pay3 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S6x128) origin2]
  unfold accStep
  simp only [View.readAt_eq_ld, harg2.read_unread, harg3.read_unread, harg4.read_unread, harg6.read_unread, View.readCov_unit_zero (S := S6x128) _ origin2,
    View.ld_unit_zero (S := S6x128) origin2, View.ld_unit_zero (S := S4096x13) origin2,
    View.ld_unit_zero (S := S4096x2) origin2, View.ld_unit_zero (S := S4096x3) origin2]

end Cert.KernelIdeal.Pieces

end
-- ==== Proof.KernelBlocks.lean ====
/-
  What the kernel call leaves in its output array.  The accumulator is reset at the first of each output block's
  256 grid steps and every step adds its block's sublane sums, so after step `i` of block `o` it holds the sums
  over steps `0 … i`; the last step copies it to the output block, which is written back there and nowhere else.
-/
import proofs.«403666_j67276367724950_3_alg».proof.Proof.Gen.KernelIdeal.Frame
import proofs.«403666_j67276367724950_3_alg».proof.Proof.KernelStepSum
import proofs.«403666_j67276367724950_3_alg».proof.Proof.KernelPieces
import Idealize.ShloMosaic.Lib.Pipeline.Value
import Idealize.ShloMosaic.Lib.ValueLayout
import Mathlib.Algebra.BigOperators.Intervals
import Mathlib.Algebra.BigOperators.Fin

set_option maxRecDepth 16384

noncomputable section

namespace Cert.KernelIdeal.Blocks

open Cert.KernelIdeal Cert.KernelIdeal.Gen Cert.KernelIdeal.Step Cert.KernelIdeal.Pieces Idealize.ShloMosaic
  Idealize.ShloMosaic.TcCoe Idealize.ShloMosaic.ValueIdx Idealize.SL.Sem Cert.InjuryLoss
open Idealize.ShloMosaic.Pipeline (Dat)

variable (m : (ℓ : Loc nD τ sig) → Buf (Elt Ideal) ℓ)

/-! ## The arrays and a step's blocks, by their literal types -/

/-- The three argument arrays as the call finds them. -/
abbrev arrX (c : Dev nD) : Vec Ideal S2097152x13 .f32 := V m c main_arg0
abbrev arrY1 (c : Dev nD) : Vec Ideal S2097152x2 .i32 := V m c main_arg1
abbrev arrY2 (c : Dev nD) : Vec Ideal S2097152x3 .i32 := V m c main_arg2
/-- The three input blocks of grid step `t`. -/
abbrev blkX (c : Dev nD) (t : Fin cfg0.N) : Vec Ideal S4096x13 .f32 := iblk m c 0 t
abbrev blkY1 (c : Dev nD) (t : Fin cfg0.N) : Vec Ideal S4096x2 .i32 := iblk m c 1 t
abbrev blkY2 (c : Dev nD) (t : Fin cfg0.N) : Vec Ideal S4096x3 .i32 := iblk m c 2 t

theorem step_lt (t : Fin cfg0.N) : t.val < 512 := lt_of_lt_of_eq t.isLt (show cfg0.N = 512 from N_0)

/-- The block indices of the four windows at every grid step: the inputs' row blocks move with the step, the
    output's block with the step's quotient by 256. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = t.val / 256 ∧ win0_3.index t (1 : Fin 3) = 0 ∧ win0_3.index t (2 : Fin 3) = 0 :=
  (by decide +kernel : ∀ t : Fin grid0.N, _)

/-- Row `q` of the block staged at step `s`, as a row of the arrays. -/
def rowAt (s : ℕ) (q : Fin 4096) : Fin 2097152 := ⟨(s % 512) * 4096 + q.val, by have := q.isLt; omega⟩

/-- A block of logits read at an entry is the array read at the block's row. -/
theorem blkX_apply (c : Dev nD) (t : Fin cfg0.N) (q : Fin 4096) (j : Fin 13) :
    blkX m c t (ix2 q j) = arrX m c (ix2 (rowAt t.val q) j) := by
  obtain ⟨e0, e1, -⟩ := block_indices t
  have hN := step_lt t
  show V m c main_arg0 (((cfg0.win 0).blk t).view.emb (ix2 q j)) = V m c main_arg0 (ix2 (rowAt t.val q) j)
  refine congrArg (V m c main_arg0) ?_
  funext a; apply Fin.ext
  match a with
  | ⟨0, _⟩ => show win0_0.index t (0 : Fin 2) * 4096 + 1 * q.val = (t.val % 512) * 4096 + q.val; rw [e0]; omega
  | ⟨1, _⟩ => show win0_0.index t (1 : Fin 2) * 13 + 1 * j.val = j.val; rw [e1]; omega

/-- The same for the binary labels, -/
theorem blkY1_apply (c : Dev nD) (t : Fin cfg0.N) (q : Fin 4096) (j : Fin 2) :
    blkY1 m c t (ix2 q j) = arrY1 m c (ix2 (rowAt t.val q) j) := by
  obtain ⟨-, -, e0, e1, -⟩ := block_indices t
  have hN := step_lt t
  show V m c main_arg1 (((cfg0.win 1).blk t).view.emb (ix2 q j)) = V m c main_arg1 (ix2 (rowAt t.val q) j)
  refine congrArg (V m c main_arg1) ?_
  funext a; apply Fin.ext
  match a with
  | ⟨0, _⟩ => show win0_1.index t (0 : Fin 2) * 4096 + 1 * q.val = (t.val % 512) * 4096 + q.val; rw [e0]; omega
  | ⟨1, _⟩ => show win0_1.index t (1 : Fin 2) * 2 + 1 * j.val = j.val; rw [e1]; omega

/-- and for the ternary labels. -/
theorem blkY2_apply (c : Dev nD) (t : Fin cfg0.N) (q : Fin 4096) (j : Fin 3) :
    blkY2 m c t (ix2 q j) = arrY2 m c (ix2 (rowAt t.val q) j) := by
  obtain ⟨-, -, -, -, e0, e1, -⟩ := block_indices t
  have hN := step_lt t
  show V m c main_arg2 (((cfg0.win 2).blk t).view.emb (ix2 q j)) = V m c main_arg2 (ix2 (rowAt t.val q) j)
  refine congrArg (V m c main_arg2) ?_
  funext a; apply Fin.ext
  match a with
  | ⟨0, _⟩ => show win0_2.index t (0 : Fin 2) * 4096 + 1 * q.val = (t.val % 512) * 4096 + q.val; rw [e0]; omega
  | ⟨1, _⟩ => show win0_2.index t (1 : Fin 2) * 3 + 1 * j.val = j.val; rw [e1]; omega

/-- So a block's row of logits is the arrays' row, -/
theorem blockX_eq (c : Dev nD) (t : Fin cfg0.N) (q : Fin 4096) :
    blockX (blkX m c t) q = rowsX (arrX m c) (rowAt t.val q) :=
  funext fun j => blkX_apply m c t q j

/-- and its five labels the arrays' five. -/
theorem blockY_eq (c : Dev nD) (t : Fin cfg0.N) (q : Fin 4096) :
    blockY (blkY1 m c t) (blkY2 m c t) q = rowsY (arrY1 m c) (arrY2 m c) (rowAt t.val q) := by
  show (![blkY1 m c t (ix2 q 0), blkY1 m c t (ix2 q 1), blkY2 m c t (ix2 q 0), blkY2 m c t (ix2 q 1),
      blkY2 m c t (ix2 q 2)] : Fin 5 → BitVec 32)
    = ![arrY1 m c (ix2 (rowAt t.val q) 0), arrY1 m c (ix2 (rowAt t.val q) 1), arrY2 m c (ix2 (rowAt t.val q) 0),
      arrY2 m c (ix2 (rowAt t.val q) 1), arrY2 m c (ix2 (rowAt t.val q) 2)]
  rw [blkY1_apply m c t q 0, blkY1_apply m c t q 1, blkY2_apply m c t q 0, blkY2_apply m c t q 1,
    blkY2_apply m c t q 2]

/-! ## One step, and the running sum -/

/-- What grid step `s` adds at row `k`, lane `l`: the 32 sublanes' per-row numbers. -/
def stepSum (c : Dev nD) (s : ℕ) (k : Fin 6) (l : Fin 128) : EReal :=
  ∑ r : Fin 32, rowLoss (rowsX (arrX m c) (rowAt s ⟨r.val * 128 + l.val, by omega⟩))
    (rowsY (arrY1 m c) (arrY2 m c) (rowAt s ⟨r.val * 128 + l.val, by omega⟩)) k

/-- A step over the step's blocks adds that to what it found. -/
theorem step_apply (c : Dev nD) (t : Fin cfg0.N) (acc : Vec Ideal S6x128 .f32) (k : Fin 6) (l : Fin 128) :
    accStep (F := Ideal) (blkX m c t) (blkY1 m c t) (blkY2 m c t) acc (ix2 k l) = acc (ix2 k l) + stepSum m c t.val k l := by
  refine (accStep_apply (blkX m c t) (blkY1 m c t) (blkY2 m c t) acc k l).trans ?_
  refine congrArg (fun z => acc (ix2 k l) + z) ?_
  unfold stepSum
  refine Finset.sum_congr rfl fun r _ => ?_
  rw [blockX_eq m c t ⟨r.val * 128 + l.val, by omega⟩, blockY_eq m c t ⟨r.val * 128 + l.val, by omega⟩]

/-- The block the reset stores is zero. -/
theorem zero_block (k : Fin 6) (l : Fin 128) : (k0_pay3 (F := Ideal)) (ix2 k l) = 0 := by
  unfold k0_pay3
  simp only [shapeCast_self, broadcast_apply]
  exact Ideal.ofBits_zero_f32

/-- The first step of an output block leaves its own sum. -/
theorem acc_first (c : Dev nD) (t : Fin cfg0.N) (h0 : t.val % 256 = 0) (h1 : ¬t.val % 256 = 255) (k : Fin 6) (l : Fin 128) :
    (outsAt0 m c t.val t.isLt).2 (ix2 k l) = stepSum m c t.val k l := by
  rw [outsAt0_A m c t h0 h1]; dsimp only
  refine (congrFun (sout0_A_0_eq (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (blkX m c t) (blkY1 m c t) (blkY2 m c t)) (ix2 k l)).trans ?_
  refine (step_apply m c t (k0_pay3 (F := Ideal)) k l).trans ?_
  rw [zero_block k l, zero_add]

/-- A later step that is not the block's last adds its sum to what the step before left, -/
theorem acc_middle (c : Dev nD) (t : Fin cfg0.N) (h0 : ¬t.val % 256 = 0) (h1 : ¬t.val % 256 = 255) (k : Fin 6) (l : Fin 128) :
    (outsAt0 m c t.val t.isLt).2 (ix2 k l) = (outsAt0 m c (t.val - 1) (Nat.lt_of_le_of_lt (Nat.sub_le _ _) t.isLt)).2 (ix2 k l) + stepSum m c t.val k l := by
  rw [outsAt0_B m c t h0 h1]; dsimp only
  refine (congrFun (sout0_B_0_eq (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (blkX m c t) (blkY1 m c t) (blkY2 m c t) (outsAt0 m c (t.val - 1) (Nat.lt_of_le_of_lt (Nat.sub_le _ _) t.isLt)).2) (ix2 k l)).trans ?_
  exact step_apply m c t (outsAt0 m c (t.val - 1) (Nat.lt_of_le_of_lt (Nat.sub_le _ _) t.isLt)).2 k l

/-- and so does the block's last step. -/
theorem acc_last (c : Dev nD) (t : Fin cfg0.N) (h0 : ¬t.val % 256 = 0) (h1 : t.val % 256 = 255) (k : Fin 6) (l : Fin 128) :
    (outsAt0 m c t.val t.isLt).2 (ix2 k l) = (outsAt0 m c (t.val - 1) (Nat.lt_of_le_of_lt (Nat.sub_le _ _) t.isLt)).2 (ix2 k l) + stepSum m c t.val k l := by
  rw [outsAt0_C m c t h0 h1]; dsimp only
  refine (congrFun (sout0_C_0_eq (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (blkX m c t) (blkY1 m c t) (blkY2 m c t) (outsAt0 m c (t.val - 1) (Nat.lt_of_le_of_lt (Nat.sub_le _ _) t.isLt)).2) (ix2 k l)).trans ?_
  exact step_apply m c t (outsAt0 m c (t.val - 1) (Nat.lt_of_le_of_lt (Nat.sub_le _ _) t.isLt)).2 k l

/-- THE RUNNING SUM: after step `n` the accumulator holds the sums of the steps of `n`'s output block up to `n`. -/
theorem acc_eq (c : Dev nD) (k : Fin 6) (l : Fin 128) : ∀ (n : ℕ) (hn : n < cfg0.N),
    (outsAt0 m c n hn).2 (ix2 k l) = ∑ s ∈ Finset.Ico (n / 256 * 256) (n + 1), stepSum m c s k l := by
  intro n
  induction n with
  | zero =>
    intro hn
    refine (acc_first m c ⟨0, hn⟩ rfl (show ¬(0 : ℕ) % 256 = 255 by decide) k l).trans ?_
    show stepSum m c 0 k l = ∑ s ∈ Finset.Ico 0 (0 + 1), stepSum m c s k l
    rw [Nat.Ico_succ_singleton, Finset.sum_singleton]
  | succ n ih =>
    intro hn
    have hN : n + 1 < 512 := lt_of_lt_of_eq hn (show cfg0.N = 512 from N_0)
    by_cases h0 : (n + 1) % 256 = 0
    · refine (acc_first m c ⟨n + 1, hn⟩ h0 (show ¬(n + 1) % 256 = 255 by omega) k l).trans ?_
      show stepSum m c (n + 1) k l = _
      rw [show (n + 1) / 256 * 256 = n + 1 from by omega, Nat.Ico_succ_singleton, Finset.sum_singleton]
    · have e : (outsAt0 m c (n + 1) hn).2 (ix2 k l)
          = (outsAt0 m c n (Nat.lt_of_succ_lt hn)).2 (ix2 k l) + stepSum m c (n + 1) k l := by
        by_cases h1 : (n + 1) % 256 = 255
        · exact acc_last m c ⟨n + 1, hn⟩ h0 h1 k l
        · exact acc_middle m c ⟨n + 1, hn⟩ h0 h1 k l
      rw [e, ih (Nat.lt_of_succ_lt hn), show (n + 1) / 256 * 256 = n / 256 * 256 from by omega,
        Finset.sum_Ico_succ_top (by omega : n / 256 * 256 ≤ n + 1)]

/-! ## The output block and the array -/

/-- A whole output block's running sum is the lane's sum over the block's 256 steps and the 32 sublanes. -/
theorem block_sum (c : Dev nD) (o : Fin 2) (k : Fin 6) (l : Fin 128) :
    ∑ s ∈ Finset.Ico (o.val * 256) (o.val * 256 + 256), stepSum m c s k l = laneSum (rowsX (arrX m c)) (rowsY (arrY1 m c) (arrY2 m c)) o k l := by
  rw [Finset.sum_Ico_eq_sum_range, show o.val * 256 + 256 - o.val * 256 = 256 from by omega, Finset.sum_range]
  unfold laneSum
  refine Finset.sum_congr rfl fun i _ => ?_
  show stepSum m c (o.val * 256 + i.val) k l = _
  unfold stepSum
  refine Finset.sum_congr rfl fun r _ => ?_
  have e : rowAt (o.val * 256 + i.val) ⟨r.val * 128 + l.val, by omega⟩ = rowOf o i r l := by
    apply Fin.ext
    show (o.val * 256 + i.val) % 512 * 4096 + (r.val * 128 + l.val) = (o.val * 256 + i.val) * 4096 + r.val * 128 + l.val
    have := o.isLt; have := i.isLt; omega
  rw [e]

/-- The last step of an output block puts, into the output's staging buffer, the block's whole running sum. -/
theorem out_last (c : Dev nD) (t : Fin cfg0.N) (h0 : ¬t.val % 256 = 0) (h1 : t.val % 256 = 255) (u : Fin 1) (k : Fin 6) (l : Fin 128) :
    (outsAt0 m c t.val t.isLt).1 (ix3 u k l) = ∑ s ∈ Finset.Ico (t.val / 256 * 256) (t.val + 1), stepSum m c s k l := by
  have e : (outsAt0 m c t.val t.isLt).1 (ix3 u k l) = (outsAt0 m c (t.val - 1) (Nat.lt_of_le_of_lt (Nat.sub_le _ _) t.isLt)).2 (ix2 k l) + stepSum m c t.val k l := by
    rw [outsAt0_C m c t h0 h1]; dsimp only
    refine (congrFun (out0_C_3_eq (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (blkX m c t) (blkY1 m c t) (blkY2 m c t) (outsAt0 m c (t.val - 1) (Nat.lt_of_le_of_lt (Nat.sub_le _ _) t.isLt)).2) (ix3 u k l)).trans ?_
    refine (shapeCast_ab_1ab_apply (accStep (F := Ideal) (blkX m c t) (blkY1 m c t) (blkY2 m c t) (outsAt0 m c (t.val - 1) (Nat.lt_of_le_of_lt (Nat.sub_le _ _) t.isLt)).2) _ u k l).trans ?_
    exact step_apply m c t (outsAt0 m c (t.val - 1) (Nat.lt_of_le_of_lt (Nat.sub_le _ _) t.isLt)).2 k l
  exact e.trans ((acc_last m c t h0 h1 k l).symm.trans (acc_eq m c k l t.val t.isLt))

/-- What a flushing step's staging buffer holds at an entry is the output array's closed form at the entry's place. -/
theorem out_entry (c : Dev nD) (t : Fin cfg0.N) (hf : (cfg0.win 3).flush t = true) (u : Fin 1) (k : Fin 6) (l : Fin 128) :
    (outsAt0 m c t.val t.isLt).1 (ix3 u k l)
      = laneArr (arrX m c) (arrY1 m c) (arrY2 m c) (((cfg0.win 3).blk t).view.emb (ix3 u k l)) := by
  have h1 : t.val % 256 = 255 := (flush0_3 t).mp hf
  have h0 : ¬t.val % 256 = 0 := by omega
  have hN := step_lt t
  have ho : t.val / 256 < 2 := by omega
  obtain ⟨-, -, -, -, -, -, e0, e1, e2⟩ := block_indices t
  refine (out_last m c t h0 h1 u k l).trans ?_
  rw [show t.val + 1 = t.val / 256 * 256 + 256 from by omega]
  refine (block_sum m c ⟨t.val / 256, ho⟩ k l).trans ?_
  have q0 : ((((cfg0.win 3).blk t).view.emb (ix3 u k l)) 0).val = t.val / 256 := by
    show win0_3.index t (0 : Fin 3) * 1 + 1 * u.val = t.val / 256
    rw [e0]; omega
  have q1 : ((((cfg0.win 3).blk t).view.emb (ix3 u k l)) 1).val = k.val := by
    show win0_3.index t (1 : Fin 3) * 6 + 1 * k.val = k.val
    rw [e1]; omega
  have q2 : ((((cfg0.win 3).blk t).view.emb (ix3 u k l)) 2).val = l.val := by
    show win0_3.index t (2 : Fin 3) * 128 + 1 * l.val = l.val
    rw [e2]; omega
  show laneSum (rowsX (arrX m c)) (rowsY (arrY1 m c) (arrY2 m c)) ⟨t.val / 256, ho⟩ k l
    = laneSum (rowsX (arrX m c)) (rowsY (arrY1 m c) (arrY2 m c)) ⟨((((cfg0.win 3).blk t).view.emb (ix3 u k l)) 0).val, _⟩
        ⟨((((cfg0.win 3).blk t).view.emb (ix3 u k l)) 1).val, _⟩ ⟨((((cfg0.win 3).blk t).view.emb (ix3 u k l)) 2).val, _⟩
  exact congr (congr (congrArg (laneSum (rowsX (arrX m c)) (rowsY (arrY1 m c) (arrY2 m c))) (Fin.ext q0.symm)) (Fin.ext q1.symm)) (Fin.ext q2.symm)

/-- WHAT A FLUSHING STEP WRITES BACK is its block of the closed form. -/
theorem flushed_eq (c : Dev nD) (t : Fin cfg0.N) (hf : (cfg0.win 3).flush t = true) :
    (dats (F := Ideal) m 0 c).flushed 3 t
      = ((cfg0.win 3).blk t).view.read (Elt Ideal) (laneArr (arrX m c) (arrY1 m c) (arrY2 m c)) := by
  show (cfg0.win 3).cut (grid0.coords t) ((dats m 0 c).after 3 t) = _
  rw [after0_3]
  funext y
  obtain ⟨u, k, l, rfl⟩ : ∃ (u : Fin 1) (k : Fin 6) (l : Fin 128), y = ix3 u k l := ⟨y 0, y 1, y 2, eq_ix3 y⟩
  exact out_entry m c t hf u k l

/-- An entry of the output array is in step `t`'s block iff each coordinate is in the block's range on its axis. -/
theorem mem_block (t : Fin cfg0.N) (i : S2x6x128.Idx) :
    i ∈ ((cfg0.win 3).blk t).view.set
      ↔ ∀ a : Fin 3, win0_3.index t a * S1x6x128.size a ≤ (i a).val ∧ (i a).val < win0_3.index t a * S1x6x128.size a + S1x6x128.size a := by
  show i ∈ ((View.whole main_v0).slice (win0_3.rect t)).set ↔ _
  rw [View.set_slice_whole, Rect.mem_set_unit]
  exact Iff.rfl

/-- Every entry of the output array is in the block the last step of its output block writes back. -/
theorem covered (i : S2x6x128.Idx) :
    ∃ t : Fin cfg0.N, (cfg0.win 3).flush t = true ∧ i ∈ ((cfg0.win 3).blk t).view.set := by
  have hi0 : (i 0).val < 2 := (i 0).isLt
  have hi1 : (i 1).val < 6 := (i 1).isLt
  have hi2 : (i 2).val < 128 := (i 2).isLt
  have hlt : (i 0).val * 256 + 255 < cfg0.N := by rw [show cfg0.N = 512 from N_0]; omega
  obtain ⟨-, -, -, -, -, -, e0, e1, e2⟩ := block_indices ⟨(i 0).val * 256 + 255, hlt⟩
  have e0' : win0_3.index ⟨(i 0).val * 256 + 255, hlt⟩ (0 : Fin 3) = (i 0).val := by
    rw [e0]; show ((i 0).val * 256 + 255) / 256 = (i 0).val; omega
  refine ⟨⟨(i 0).val * 256 + 255, hlt⟩, (flush0_3 _).mpr (show ((i 0).val * 256 + 255) % 256 = 255 by omega), ?_⟩
  rw [mem_block]
  intro a
  match a with
  | ⟨0, _⟩ =>
    show win0_3.index ⟨(i 0).val * 256 + 255, hlt⟩ (0 : Fin 3) * 1 ≤ (i 0).val
      ∧ (i 0).val < win0_3.index ⟨(i 0).val * 256 + 255, hlt⟩ (0 : Fin 3) * 1 + 1
    rw [e0']; omega
  | ⟨1, _⟩ =>
    show win0_3.index ⟨(i 0).val * 256 + 255, hlt⟩ (1 : Fin 3) * 6 ≤ (i 1).val
      ∧ (i 1).val < win0_3.index ⟨(i 0).val * 256 + 255, hlt⟩ (1 : Fin 3) * 6 + 6
    rw [e1]; omega
  | ⟨2, _⟩ =>
    show win0_3.index ⟨(i 0).val * 256 + 255, hlt⟩ (2 : Fin 3) * 128 ≤ (i 2).val
      ∧ (i 2).val < win0_3.index ⟨(i 0).val * 256 + 255, hlt⟩ (2 : Fin 3) * 128 + 128
    rw [e2]; omega

/-- After the whole grid, the output array holds, at block `o`, row `k`, lane `l`, the sum over the block's 256
    steps and the 32 sublanes of the `k`-th per-row number. -/
theorem final_o (c : Dev nD) :
    (dats (F := Ideal) m 0 c).arrAt 3 cfg0.N
      = laneArr (m ((c.tc : Thread nD τ).loc main_arg0)) (m ((c.tc : Thread nD τ).loc main_arg1))
          (m ((c.tc : Thread nD τ).loc main_arg2)) :=
  (dats (F := Ideal) m 0 c).arrAt_eq_of_cover 3 (laneArr (arrX m c) (arrY1 m c) (arrY2 m c))
    (fun t hf => flushed_eq m c t hf) covered

end Cert.KernelIdeal.Blocks

end
-- ==== Proof.SumRows.lean ====
/-
  The kernel's order of summation reaches every row once: block `o`, step `i`, sublane `r`, lane `l` name the row
  `(o·256 + i)·4096 + r·128 + l`, a bijection from `2 × 256 × 32 × 128` onto the 2 097 152 rows, and a sum in a
  commutative monoid does not depend on the order.
-/
import proofs.«403666_j67276367724950_3_alg».proof.Proof.LossSpec
import Mathlib.Algebra.BigOperators.Group.Finset.Basic
import Mathlib.Algebra.BigOperators.Fin

noncomputable section

namespace Cert.InjuryLoss

/-- The rows as the product of block, lane, grid step and sublane: `(o, l, i, r) ↦ (o·256 + i)·4096 + r·128 + l`,
    with the mixed-radix digits of a row number as the inverse. -/
def rowEquiv : Fin 2 × Fin 128 × Fin 256 × Fin 32 ≃ Fin 2097152 where
  toFun p := rowOf p.1 p.2.2.1 p.2.2.2 p.2.1
  invFun n :=
    (⟨n.val / 1048576, by omega⟩, ⟨n.val % 128, by omega⟩, ⟨n.val / 4096 % 256, by omega⟩, ⟨n.val / 128 % 32, by omega⟩)
  left_inv := by
    rintro ⟨⟨o, ho⟩, ⟨l, hl⟩, ⟨i, hi⟩, ⟨r, hr⟩⟩
    simp only [rowOf, Prod.mk.injEq, Fin.mk.injEq]
    refine ⟨?_, ?_, ?_, ?_⟩ <;> omega
  right_inv := by
    rintro ⟨n, hn⟩
    simp only [rowOf, Fin.mk.injEq]
    omega

theorem rowEquiv_apply (o : Fin 2) (l : Fin 128) (i : Fin 256) (r : Fin 32) :
    rowEquiv (o, l, i, r) = rowOf o i r l := rfl

/-- Summing the lanes' sums over the two output blocks and the 128 lanes is the sum over all rows. -/
theorem sum_lanes (X : Fin 2097152 → Fin 13 → EReal) (Y : Fin 2097152 → Fin 5 → BitVec 32) (k : Fin 6) :
    ∑ o : Fin 2, ∑ l : Fin 128, laneSum X Y o k l = total X Y k := by
  unfold laneSum total
  rw [← rowEquiv.sum_comp (fun n => rowLoss (X n) (Y n) k)]
  simp only [Fintype.sum_prod_type, rowEquiv_apply]

end Cert.InjuryLoss

end
-- ==== Proof.HostMeans.lean ====
/-
  The host operations that follow the kernel call, read as one function of the call's output array `[2, 6, 128]`:
  the sum over the two blocks and the 128 lanes of each of the six rows, the quotient by the row count, the sum of
  the six quotients, and the seven numbers laid side by side.  At the array the kernel call leaves, the lanes' sums,
  this is the loss vector: the lanes' sums added up are the sums over all rows.
-/
import proofs.«403666_j67276367724950_3_alg».proof.Proof.Gen.KernelIdeal
import proofs.«403666_j67276367724950_3_alg».proof.Proof.SumRows
import Idealize.ShloMosaic.Lib.IdealHost
import Idealize.ShloMosaic.Lib.Pipeline.Value

noncomputable section

namespace Cert.KernelIdeal.Result

open Cert.KernelIdeal Cert.KernelIdeal.Gen Idealize.ShloMosaic Idealize.ShloMosaic.ValueIdx Cert.InjuryLoss

/-! ## The host operations as functions of the output array -/

/-- Each of the six rows summed over the blocks and the lanes, from zero. -/
def blockSums (x : FVec Ideal S2x6x128 .f32) : FVec Ideal S6 .f32 :=
  Host.reduceAdd x (constant (F := Ideal) S_ .f32 0x00000000#32) reducesTo_S2x6x128_S6_d0_2 h_S_

/-- The six sums divided by the row count. -/
def means (x : FVec Ideal S2x6x128 .f32) : FVec Ideal S6 .f32 :=
  Host.divf (blockSums x) (broadcastInDim S6 ![] bcast_S_S6 (constant (F := Ideal) S_ .f32 0x4A000000#32))

/-- The sum of the six quotients, from zero. -/
def meanSum (x : FVec Ideal S2x6x128 .f32) : FVec Ideal S_ .f32 :=
  Host.reduceAdd (means x) (constant (F := Ideal) S_ .f32 0x00000000#32) reducesTo_S6_S_d0 h_S_

/-- The six quotients followed by their sum. -/
def tail (x : FVec Ideal S2x6x128 .f32) : FVec Ideal S7 .f32 :=
  concatenate S7 0 [⟨S6, means x⟩, ⟨S1, broadcastInDim S1 ![] bcast_S_S1 (meanSum x)⟩] concatenates_S6_S1_S7_d0

/-! ## The sum over the blocks and the lanes -/

/-- Dropping the block and the lane of an index leaves its row. -/
theorem drop_val (i : S2x6x128.Idx) : (reducesTo_S2x6x128_S6_d0_2.drop i 0).val = (i 1).val :=
  Shape.ReducesTo.drop_apply_val_of_eq _ i 0 1

/-- An index drops to row `k` exactly when its row is `k`. -/
theorem drop_eq_iff (i : S2x6x128.Idx) (k : Fin 6) : reducesTo_S2x6x128_S6_d0_2.drop i = ix1 k ↔ i 1 = k := by
  constructor
  · intro h
    have e : (reducesTo_S2x6x128_S6_d0_2.drop i 0).val = k.val := congrArg (fun j : S6.Idx => (j 0).val) h
    exact Fin.ext ((drop_val i).symm.trans e)
  · intro h
    funext b
    match b with
    | ⟨0, _⟩ => exact Fin.ext ((drop_val i).trans (congrArg Fin.val h))

/-- Block and lane to the index of row `k` there. -/
def laneEmb (k : Fin 6) : Fin 2 × Fin 128 ↪ S2x6x128.Idx :=
  ⟨fun p => ix3 p.1 k p.2, fun p q h => Prod.ext (congrFun h 0) (congrFun h 2)⟩

/-- The indices that drop to row `k` are the 2 × 128 indices of that row. -/
theorem filter_drop (k : Fin 6) :
    Finset.univ.filter (fun i : S2x6x128.Idx => reducesTo_S2x6x128_S6_d0_2.drop i = ix1 k) = Finset.univ.map (laneEmb k) := by
  ext i
  simp only [Finset.mem_filter, Finset.mem_univ, true_and, Finset.mem_map, drop_eq_iff]
  constructor
  · intro h
    refine ⟨(i 0, i 2), ?_⟩
    subst h
    exact (eq_ix3 i).symm
  · rintro ⟨p, rfl⟩
    rfl

/-- The first host operation at row `k`: the sum over the blocks and the lanes. -/
theorem blockSums_apply (x : FVec Ideal S2x6x128 .f32) (k : Fin 6) :
    blockSums x (ix1 k) = ∑ o : Fin 2, ∑ l : Fin 128, x (ix3 o k l) := by
  show Ideal.hostReduceAdd reducesTo_S2x6x128_S6_d0_2 x (Ideal.ofBits .f32 0x00000000#32) (ix1 k) = _
  unfold Ideal.hostReduceAdd
  rw [Ideal.ofBits_zero_f32, zero_add, filter_drop k, Finset.sum_map, Fintype.sum_prod_type]
  rfl

/-! ## At the lanes' sums -/

/-- The quotient at row `k` of the lanes' sums is the mean of the `k`-th per-row number. -/
theorem means_laneArr (a0 : (⟨2, ![2097152, 13]⟩ : Shape).Idx → EReal) (a1 : (⟨2, ![2097152, 2]⟩ : Shape).Idx → BitVec 32)
    (a2 : (⟨2, ![2097152, 3]⟩ : Shape).Idx → BitVec 32) (k : Fin 6) :
    means (laneArr a0 a1 a2) (ix1 k) = meanLoss (rowsX a0) (rowsY a1 a2) k := by
  show Ideal.div (blockSums (laneArr a0 a1 a2) (ix1 k)) rowCount = _
  rw [blockSums_apply]
  exact congrArg (fun t => Ideal.div t rowCount) (sum_lanes (rowsX a0) (rowsY a1 a2) k)

/-- The rank-1 indices of extent 6 are the six coordinates. -/
def ix1Equiv : Fin 6 ≃ S6.Idx := ⟨fun k => ix1 k, fun j => j 0, fun _ => rfl, fun j => (eq_ix1 j).symm⟩

/-- The sum of the six quotients. -/
theorem meanSum_apply (x : FVec Ideal S2x6x128 .f32) : meanSum x ix0 = ∑ k : Fin 6, means x (ix1 k) := by
  show Ideal.hostReduceAdd reducesTo_S6_S_d0 (means x) (Ideal.ofBits .f32 0x00000000#32) ix0 = _
  rw [Ideal.hostReduceAdd_total _ (fun b => b.elim0), Ideal.ofBits_zero_f32, zero_add, ← ix1Equiv.sum_comp]
  rfl

/-- The seven numbers: an entry below 6 is a quotient, -/
theorem tail_apply_lt (x : FVec Ideal S2x6x128 .f32) (j : Fin 7) (hj : j.val < 6) :
    tail x (ix1 j) = means x (ix1 ⟨j.val, hj⟩) :=
  concatenate_pair_apply_left (0 : Fin S7.rank) (means x) _ concatenates_S6_S1_S7_d0 (ix1 j) rfl (ix1 ⟨j.val, hj⟩)
    (fun b => match b with | ⟨0, _⟩ => rfl)

/-- and the last is their sum. -/
theorem tail_apply_last (x : FVec Ideal S2x6x128 .f32) (j : Fin 7) (hj : ¬ j.val < 6) :
    tail x (ix1 j) = ∑ k : Fin 6, means x (ix1 k) := by
  have h6 : j.val = 6 := by have := j.isLt; omega
  refine (concatenate_pair_apply_right (0 : Fin S7.rank) (means x) (broadcastInDim S1 ![] bcast_S_S1 (meanSum x))
    concatenates_S6_S1_S7_d0 (ix1 j) rfl rfl (ix1 (0 : Fin 1)) (fun b hb => ?_) ?_).trans ?_
  · match b with
    | ⟨0, _⟩ => exact absurd rfl hb
  · show 0 + 6 = j.val
    omega
  · rw [broadcastInDim_scalar_apply, meanSum_apply]

/-- The host operations at the lanes' sums give the loss vector. -/
theorem tail_laneArr (a0 : (⟨2, ![2097152, 13]⟩ : Shape).Idx → EReal) (a1 : (⟨2, ![2097152, 2]⟩ : Shape).Idx → BitVec 32)
    (a2 : (⟨2, ![2097152, 3]⟩ : Shape).Idx → BitVec 32) :
    tail (laneArr a0 a1 a2) = lossVector a0 a1 a2 := by
  funext j
  rw [eq_ix1 j]
  show tail (laneArr a0 a1 a2) (ix1 (j 0)) = result (rowsX a0) (rowsY a1 a2) ⟨(j 0).val, (j 0).isLt⟩
  unfold result
  by_cases hj : (j 0).val < 6
  · rw [dif_pos hj, tail_apply_lt _ _ hj, means_laneArr]
  · rw [dif_neg hj, tail_apply_last _ _ hj]
    exact Finset.sum_congr rfl fun k _ => means_laneArr a0 a1 a2 k

end Cert.KernelIdeal.Result

end
-- ==== Proof.KernelValue.lean ====
/-
  The idealized kernel program's result: the call's output array summed over its blocks and lanes is each per-row
  number summed over all rows; divided by the row count, and with the six means summed, it is the loss vector.
-/
import proofs.«403666_j67276367724950_3_alg».proof.Proof.KernelBlocks
import proofs.«403666_j67276367724950_3_alg».proof.Proof.SumRows
import proofs.«403666_j67276367724950_3_alg».proof.Proof.HostMeans
import Idealize.ShloMosaic.Lib.StableHlo.Run

noncomputable section

namespace Cert.KernelIdeal.Result

open Cert.KernelIdeal Cert.KernelIdeal.Gen Idealize.ShloMosaic Idealize.ShloMosaic.TcCoe
  Idealize.ShloMosaic.ValueIdx Idealize.SL.Sem Cert.InjuryLoss

/-- Every weakly fair execution of the idealized kernel program ends with the result at the loss vector of the
    arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6)
          = lossVector (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  -- the frame run: the pipeline's arrays at what the proof data give, every other buffer at the tail's result
  refine (θ_run defs _ _).mono (fun r h c => ?_) (run_main m ρ)
  refine ⟨?_, ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c)))⟩
  refine ((h c).2 main_v6 (Pipeline.mem_restRefs_of main_v6 rfl (by decide))).trans ?_
  -- the result buffer after the host operations: they applied to the call's output array
  unfold Pipeline.afterTail₀
  show StableHlo.after hostOps1 _ (Proc.devRef .tc main_v6) = _
  after_results
  -- the output array holds the lanes' sums
  have ho : Pipeline.withArrays (cfgs 0).spec c (V0 m c) (fun w => (dats m 0 c).arrAt w (cfgs 0).N) (Proc.devRef .tc main_v0)
      = laneArr (m ((c.tc : Thread nD τ).loc main_arg0)) (m ((c.tc : Thread nD τ).loc main_arg1))
          (m ((c.tc : Thread nD τ).loc main_arg2)) :=
    (Pipeline.withArrays_arr spec0 launch0.win.arr_inj c _ _ 3).trans (Blocks.final_o m c)
  show tail (Pipeline.withArrays (cfgs 0).spec c (V0 m c) (fun w => (dats m 0 c).arrAt w (cfgs 0).N) (Proc.devRef .tc main_v0)) = _
  rw [ho]
  exact tail_laneArr _ _ _

end Cert.KernelIdeal.Result

end
-- ==== Proof.RefOps.lean ====
/-
  The reference program's host operations as lists, in the program's order: each outlined function's operations stand
  at its call over that call's buffers. The lists are consecutive pieces of @main, cut where a later piece reads only
  a few buffers of the earlier ones; beside each list, that every buffer its operations touch is a TensorCore reference,
  the list of the buffers it writes, and that a buffer outside that list keeps its contents through the piece.
-/
import proofs.«403666_j67276367724950_3_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- One operation's written buffer is in the list: the builder's `writes` is the singleton of its result. -/
local macro "writes_in" : tactic =>
  `(tactic| (simp only [nullary_writes, unary_writes, binary_writes, ternary_writes, reshape_writes, nary_writes,
      Finset.singleton_subset_iff, List.mem_toFinset]; exact List.mem_map_of_mem (by decide)))

/-- The five weight tables and the label columns side by side (6 operations). -/
abbrev opsLabels : List (HloOp τ sig (Elt F)) :=
  [ StableHlo.nullary main_cst (fun i => FloatOps.ofBits .f32 (lit0 (S2.rowMajor i))),
    StableHlo.nullary main_cst_0 (fun i => FloatOps.ofBits .f32 (lit1 (S2.rowMajor i))),
    StableHlo.nullary main_cst_1 (fun i => FloatOps.ofBits .f32 (lit2 (S3.rowMajor i))),
    StableHlo.nullary main_cst_2 (fun i => FloatOps.ofBits .f32 (lit3 (S3.rowMajor i))),
    StableHlo.nullary main_cst_3 (fun i => FloatOps.ofBits .f32 (lit4 (S3.rowMajor i))),
    StableHlo.binary main_arg1 main_arg2 main_v0 ((fun a b => concatenate S2097152x5 1 [⟨S2097152x2, a⟩, ⟨S2097152x3, b⟩] concatenates_S2097152x2_S2097152x3_S2097152x5_d1) : (⟨S2097152x2, .i32⟩ : BufTy).Contents (Elt F) → (⟨S2097152x3, .i32⟩ : BufTy).Contents (Elt F) → (⟨S2097152x5, .i32⟩ : BufTy).Contents (Elt F)) ]

set_option maxRecDepth 8192 in
theorem opsLabels_sub : (opsLabels : List (HloOp τ sig (Elt F))).Forall fun op => op.bufs ⊆ tcRefs τ sig :=
  ⟨nullary_bufs_sub .., nullary_bufs_sub .., nullary_bufs_sub .., nullary_bufs_sub .., nullary_bufs_sub .., binary_bufs_sub ..⟩

/-- The buffers `opsLabels` writes. -/
abbrev opsLabels_W : List (Ref sig .tc) := [main_cst, main_cst_0, main_cst_1, main_cst_2, main_cst_3, main_v0]

set_option maxRecDepth 8192 in
theorem opsLabels_writes : (opsLabels : List (HloOp τ sig (Elt F))).Forall fun op => op.writes ⊆ (opsLabels_W.map (Proc.devRef (τ := τ) .tc)).toFinset := by
  simp only [List.Forall]; exact ⟨by writes_in, by writes_in, by writes_in, by writes_in, by writes_in, by writes_in⟩

/-- A buffer `opsLabels` does not write keeps its contents through it. -/
theorem opsLabels_keep (V : Valuation τ sig (Elt F)) (b : Ref sig .tc) (h : b ∉ opsLabels_W) :
    after opsLabels V (Proc.devRef .tc b) = V (Proc.devRef .tc b) :=
  after_of_writes_sub opsLabels V opsLabels_writes h

/-- Group 0: its log-softmax, weighted negative log-likelihood, mean and probability (63 operations). -/
abbrev opsGroup0 : List (HloOp τ sig (Elt F)) :=
  [ StableHlo.unary main_arg0 main_v1 ((extractStridedSlice S2097152x2 ![0, 0] · slices_S2097152x13_S2097152x2_0_0) : (⟨S2097152x13, .f32⟩ : BufTy).Contents (Elt F) → (⟨S2097152x2, .f32⟩ : BufTy).Contents (Elt F)),
    StableHlo.nullary main_call0_cst (constant S_ .f32 0xFF800000#32),
    StableHlo.binary main_v1 main_call0_cst main_call0_v0 (fun x v => Host.reduce FloatOps.maximumf x v reducesTo_S2097152x2_S2097152_d1 h_S_ : (⟨S2097152x2, .f32⟩ : BufTy).Contents (Elt F) → (⟨S_, .f32⟩ : BufTy).Contents (Elt F) → (⟨S2097152, .f32⟩ : BufTy).Contents (Elt F)),
    StableHlo.nullary main_call0_cst_0 (constant S_ .f32 0xFF800000#32),
    StableHlo.unary main_call0_cst_0 main_call0_v1 (broadcastInDim S2097152 ![] bcast_S_S2097152 : (⟨S_, .f32⟩ : BufTy).Contents (Elt F) → (⟨S2097152, .f32⟩ : BufTy).Contents (Elt F)),
    StableHlo.binary main_call0_v1 main_call0_v0 main_call0_v2 (maximumf : (⟨S2097152, .f32⟩ : BufTy).Contents (Elt F) → (⟨S2097152, .f32⟩ : BufTy).Contents (Elt F) → (⟨S2097152, .f32⟩ : BufTy).Contents (Elt F)),
    StableHlo.unary main_call0_v2 main_call0_v3 (broadcastInDim S2097152x1 ![0] bcast_S2097152_S2097152x1_0 : (⟨S2097152, .f32⟩ : BufTy).Contents (Elt F) → (⟨S2097152x1, .f32⟩ : BufTy).Contents (Elt F)),
    StableHlo.unary main_call0_v3 main_call0_v4 (broadcastInDim S2097152x2 ![0, 1] bcast_S2097152x1_S2097152x2_0_1 : (⟨S2097152x1, .f32⟩ : BufTy).Contents (Elt F) → (⟨S2097152x2, .f32⟩ : BufTy).Contents (Elt F)),
    StableHlo.binary main_v1 main_call0_v4 main_call0_v5 (subf : (⟨S2097152x2, .f32⟩ : BufTy).Contents (Elt F) → (⟨S2097152x2, .f32⟩ : BufTy).Contents (Elt F) → (⟨S2097152x2, .f32⟩ : BufTy).Contents (Elt F)),
    StableHlo.unary main_call0_v5 main_call0_v6 (Host.exp : (⟨S2097152x2, .f32⟩ : BufTy).Contents (Elt F) → (⟨S2097152x2, .f32⟩ : BufTy).Contents (Elt F)),
    StableHlo.nullary main_call0_cst_1 (constant S_ .f32 0x00000000#32),
    StableHlo.binary main_call0_v6 main_call0_cst_1 main_call0_v7 (fun x v => Host.reduceAdd x v reducesTo_S2097152x2_S2097152_d1 h_S_ : (⟨S2097152x2, .f32⟩ : BufTy).Contents (Elt F) → (⟨S_, .f32⟩ : BufTy).Contents (Elt F) → (⟨S2097152, .f32⟩ : BufTy).Contents (Elt F)),
    StableHlo.unary main_call0_v7 main_call0_v8 (broadcastInDim S2097152x1 ![0] bcast_S2097152_S2097152x1_0 : (⟨S2097152, .f32⟩ : BufTy).Contents (Elt F) → (⟨S2097152x1, .f32⟩ : BufTy).Contents (Elt F)),
    StableHlo.unary main_call0_v8 main_call0_v9 (Host.log : (⟨S2097152x1, .f32⟩ : BufTy).Contents (Elt F) → (⟨S2097152x1, .f32⟩ : BufTy).Contents (Elt F)),
    StableHlo.unary main_call0_v9 main_call0_v10 (broadcastInDim S2097152x2 ![0, 1] bcast_S2097152x1_S2097152x2_0_1 : (⟨S2097152x1, .f32⟩ : BufTy).Contents (Elt F) → (⟨S2097152x2, .f32⟩ : BufTy).Contents (Elt F)),
    StableHlo.binary main_call0_v5 main_call0_v10 main_v2 (subf : (⟨S2097152x2, .f32⟩ : BufTy).Contents (Elt F) → (⟨S2097152x2, .f32⟩ : BufTy).Contents (Elt F) → (⟨S2097152x2, .f32⟩ : BufTy).Contents (Elt F)),
    StableHlo.unary main_v0 main_v3 ((extractStridedSlice S2097152x1 ![0, 0] · slices_S2097152x5_S2097152x1_0_0) : (⟨S2097152x5, .i32⟩ : BufTy).Contents (Elt F) → (⟨S2097152x1, .i32⟩ : BufTy).Contents (Elt F)),
    StableHlo.reshape main_v3 main_v4 rfl shapeCasts_S2097152x1_S2097152,
    StableHlo.unary main_v4 main_v5 (broadcastInDim S2097152x1 ![0] bcast_S2097152_S2097152x1_0 : (⟨S2097152, .i32⟩ : BufTy).Contents (Elt F) → (⟨S2097152x1, .i32⟩ : BufTy).Contents (Elt F)),
    StableHlo.nullary main_call1_c (constantI S_ 32 0#32),
    StableHlo.unary main_call1_c main_call1_v0 (broadcastInDim S2097152x1 ![] bcast_S_S2097152x1 : (⟨S_, .i32⟩ : BufTy).Contents (Elt F) → (⟨S2097152x1, .i32⟩ : BufTy).Contents (Elt F)),
    StableHlo.binary main_v5 main_call1_v0 main_call1_v1 (cmpi .slt : (⟨S2097152x1, .i32⟩ : BufTy).Contents (Elt F) → (⟨S2097152x1, .i32⟩ : BufTy).Contents (Elt F) → (⟨S2097152x1, .i1⟩ : BufTy).Contents (Elt F)),
    StableHlo.nullary main_call1_c_0 (constantI S_ 32 2#32),
    StableHlo.unary main_call1_c_0 main_call1_v2 (broadcastInDim S2097152x1 ![] bcast_S_S2097152x1 : (⟨S_, .i32⟩ : BufTy).Contents (Elt F) → (⟨S2097152x1, .i32⟩ : BufTy).Contents (Elt F)),
    StableHlo.binary main_v5 main_call1_v2 main_call1_v3 (addi : (⟨S2097152x1, .i32⟩ : BufTy).Contents (Elt F) → (⟨S2097152x1, .i32⟩ : BufTy).Contents (Elt F) → (⟨S2097152x1, .i32⟩ : BufTy).Contents (Elt F)),
    StableHlo.ternary main_call1_v1 main_call1_v3 main_v5 main_call1_v4 (select : (⟨S2097152x1, .i1⟩ : BufTy).Contents (Elt F) → (⟨S2097152x1, .i32⟩ : BufTy).Contents (Elt F) → (⟨S2097152x1, .i32⟩ : BufTy).Contents (Elt F) → (⟨S2097152x1, .i32⟩ : BufTy).Contents (Elt F)),
    StableHlo.reshape main_call1_v4 main_call1_v5 rfl shapeCasts_S2097152x1_S2097152x1x1,
    StableHlo.nullary main_call1_c_1 (constantI S1 32 1#32),
    StableHlo.nullary main_call1_c_2 (constantI S_ 32 0#32),
    StableHlo.unary main_call1_c_2 main_call1_v6 (broadcastInDim S2097152x1x1 ![] bcast_S_S2097152x1x1 : (⟨S_, .i32⟩ : BufTy).Contents (Elt F) → (⟨S2097152x1x1, .i32⟩ : BufTy).Contents (Elt F)),
    StableHlo.binary main_call1_v5 main_call1_v6 main_call1_v7 (cmpi .sge : (⟨S2097152x1x1, .i32⟩ : BufTy).Contents (Elt F) → (⟨S2097152x1x1, .i32⟩ : BufTy).Contents (Elt F) → (⟨S2097152x1x1, .i1⟩ : BufTy).Contents (Elt F)),
    StableHlo.unary main_call1_c_1 main_call1_v8 (broadcastInDim S1x1x1 ![2] bcast_S1_S1x1x1_2 : (⟨S1, .i32⟩ : BufTy).Contents (Elt F) → (⟨S1x1x1, .i32⟩ : BufTy).Contents (Elt F)),
    StableHlo.unary main_call1_v8 main_call1_v9 (broadcastInDim S2097152x1x1 ![0, 1, 2] bcast_S1x1x1_S2097152x1x1_0_1_2 : (⟨S1x1x1, .i32⟩ : BufTy).Contents (Elt F) → (⟨S2097152x1x1, .i32⟩ : BufTy).Contents (Elt F)),
    StableHlo.binary main_call1_v5 main_call1_v9 main_call1_v10 (cmpi .sle : (⟨S2097152x1x1, .i32⟩ : BufTy).Contents (Elt F) → (⟨S2097152x1x1, .i32⟩ : BufTy).Contents (Elt F) → (⟨S2097152x1x1, .i1⟩ : BufTy).Contents (Elt F)),
    StableHlo.binary main_call1_v7 main_call1_v10 main_call1_v11 (andi : (⟨S2097152x1x1, .i1⟩ : BufTy).Contents (Elt F) → (⟨S2097152x1x1, .i1⟩ : BufTy).Contents (Elt F) → (⟨S2097152x1x1, .i1⟩ : BufTy).Contents (Elt F)),
    StableHlo.nullary main_call1_c_3 (constantI S_ 1 1#1),
    StableHlo.binary main_call1_v11 main_call1_c_3 main_call1_v12 (fun x v => Host.reduce IntOp.andi x v reducesTo_S2097152x1x1_S2097152x1_d2 h_S_ : (⟨S2097152x1x1, .i1⟩ : BufTy).Contents (Elt F) → (⟨S_, .i1⟩ : BufTy).Contents (Elt F) → (⟨S2097152x1, .i1⟩ : BufTy).Contents (Elt F)),
    StableHlo.binary main_v2 main_call1_v5 main_call1_v13 (fun x i => Host.gather gather_S2097152x2_S2097152x1x1_S2097152x1_n_1_0_0_1_2_11 x i : (⟨S2097152x2, .f32⟩ : BufTy).Contents (Elt F) → (⟨S2097152x1x1, .i32⟩ : BufTy).Contents (Elt F) → (⟨S2097152x1, .f32⟩ : BufTy).Contents (Elt F)),
    StableHlo.nullary main_call1_cst (constant S_ .f32 0x7FC00000#32),
    StableHlo.unary main_call1_cst main_call1_v14 (broadcastInDim S2097152x1 ![] bcast_S_S2097152x1 : (⟨S_, .f32⟩ : BufTy).Contents (Elt F) → (⟨S2097152x1, .f32⟩ : BufTy).Contents (Elt F)),
    StableHlo.ternary main_call1_v12 main_call1_v13 main_call1_v14 main_v6 (select : (⟨S2097152x1, .i1⟩ : BufTy).Contents (Elt F) → (⟨S2097152x1, .f32⟩ : BufTy).Contents (Elt F) → (⟨S2097152x1, .f32⟩ : BufTy).Contents (Elt F) → (⟨S2097152x1, .f32⟩ : BufTy).Contents (Elt F)),
    StableHlo.reshape main_v6 main_v7 rfl shapeCasts_S2097152x1_S2097152,
    StableHlo.unary main_v7 main_v8 (Host.negf : (⟨S2097152, .f32⟩ : BufTy).Contents (Elt F) → (⟨S2097152, .f32⟩ : BufTy).Contents (Elt F)),
    StableHlo.nullary main_c (constantI S_ 32 0#32),
    StableHlo.unary main_c main_v9 (broadcastInDim S2097152 ![] bcast_S_S2097152 : (⟨S_, .i32⟩ : BufTy).Contents (Elt F) → (⟨S2097152, .i32⟩ : BufTy).Contents (Elt F)),
    StableHlo.binary main_v4 main_v9 main_v10 (cmpi .slt : (⟨S2097152, .i32⟩ : BufTy).Contents (Elt F) → (⟨S2097152, .i32⟩ : BufTy).Contents (Elt F) → (⟨S2097152, .i1⟩ : BufTy).Contents (Elt F)),
    StableHlo.nullary main_c_4 (constantI S_ 32 2#32),
    StableHlo.unary main_c_4 main_v11 (broadcastInDim S2097152 ![] bcast_S_S2097152 : (⟨S_, .i32⟩ : BufTy).Contents (Elt F) → (⟨S2097152, .i32⟩ : BufTy).Contents (Elt F)),
    StableHlo.binary main_v4 main_v11 main_v12 (addi : (⟨S2097152, .i32⟩ : BufTy).Contents (Elt F) → (⟨S2097152, .i32⟩ : BufTy).Contents (Elt F) → (⟨S2097152, .i32⟩ : BufTy).Contents (Elt F)),
    StableHlo.ternary main_v10 main_v12 main_v4 main_v13 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v13 main_v14 (broadcastInDim S2097152x1 ![0] bcast_S2097152_S2097152x1_0 : (⟨S2097152, .i32⟩ : BufTy).Contents (Elt F) → (⟨S2097152x1, .i32⟩ : BufTy).Contents (Elt F)),
    StableHlo.binary main_cst main_v14 main_v15 ((fun x i => Host.gather gather_S2_S2097152x1_S2097152_n_0_n_n_0_1_1 x i) : (⟨S2, .f32⟩ : BufTy).Contents (Elt F) → (⟨S2097152x1, .i32⟩ : BufTy).Contents (Elt F) → (⟨S2097152, .f32⟩ : BufTy).Contents (Elt F)),
    StableHlo.binary main_v15 main_v8 main_v16 (mulf : (⟨S2097152, .f32⟩ : BufTy).Contents (Elt F) → (⟨S2097152, .f32⟩ : BufTy).Contents (Elt F) → (⟨S2097152, .f32⟩ : BufTy).Contents (Elt F)),
    StableHlo.nullary main_cst_5 (constant S_ .f32 0x00000000#32),
    StableHlo.binary main_v16 main_cst_5 main_v17 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)),
    StableHlo.nullary main_cst_6 (constant S_ .f32 0x4A000000#32),
    StableHlo.binary main_v17 main_cst_6 main_v18 (Host.divf : (⟨S_, .f32⟩ : BufTy).Contents (Elt F) → (⟨S_, .f32⟩ : BufTy).Contents (Elt F) → (⟨S_, .f32⟩ : BufTy).Contents (Elt F)),
    StableHlo.unary main_v2 main_v19 ((extractStridedSlice S2097152x1 ![0, 0] · slices_S2097152x2_S2097152x1_0_0) : (⟨S2097152x2, .f32⟩ : BufTy).Contents (Elt F) → (⟨S2097152x1, .f32⟩ : BufTy).Contents (Elt F)),
    StableHlo.reshape main_v19 main_v20 rfl shapeCasts_S2097152x1_S2097152,
    StableHlo.unary main_v20 main_v21 (Host.exp : (⟨S2097152, .f32⟩ : BufTy).Contents (Elt F) → (⟨S2097152, .f32⟩ : BufTy).Contents (Elt F)),
    StableHlo.nullary main_cst_7 (constant S_ .f32 0x3F800000#32),
    StableHlo.unary main_cst_7 main_v22 (broadcastInDim S2097152 ![] bcast_S_S2097152 : (⟨S_, .f32⟩ : BufTy).Contents (Elt F) → (⟨S2097152, .f32⟩ : BufTy).Contents (Elt F)),
    StableHlo.binary main_v22 main_v21 main_v23 (subf : (⟨S2097152, .f32⟩ : BufTy).Contents (Elt F) → (⟨S2097152, .f32⟩ : BufTy).Contents (Elt F) → (⟨S2097152, .f32⟩ : BufTy).Contents (Elt F)) ]

set_option maxRecDepth 8192 in
theorem opsGroup0_sub : (opsGroup0 : List (HloOp τ sig (Elt F))).Forall fun op => op.bufs ⊆ tcRefs τ sig :=
  ⟨unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., reshape_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., nullary_bufs_sub .., binary_bufs_sub .., unary_bufs_sub .., reshape_bufs_sub .., unary_bufs_sub .., nullary_bufs_sub .., unary_bufs_sub .., binary_bufs_sub ..⟩

/-- The buffers `opsGroup0` writes. -/
abbrev opsGroup0_W : List (Ref sig .tc) := [main_v1, main_call0_cst, main_call0_v0, main_call0_cst_0, main_call0_v1, main_call0_v2, main_call0_v3, main_call0_v4, main_call0_v5, main_call0_v6, main_call0_cst_1, main_call0_v7, main_call0_v8, main_call0_v9, main_call0_v10, main_v2, main_v3, main_v4, main_v5, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_cst, main_call1_v14, main_v6, main_v7, main_v8, main_c, main_v9, main_v10, main_c_4, main_v11, main_v12, main_v13, main_v14, main_v15, main_v16, main_cst_5, main_v17, main_cst_6, main_v18, main_v19, main_v20, main_v21, main_cst_7, main_v22, main_v23]

set_option maxRecDepth 8192 in
theorem opsGroup0_writes : (opsGroup0 : List (HloOp τ sig (Elt F))).Forall fun op => op.writes ⊆ (opsGroup0_W.map (Proc.devRef (τ := τ) .tc)).toFinset := by
  simp only [List.Forall]; exact ⟨by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in⟩

/-- A buffer `opsGroup0` does not write keeps its contents through it. -/
theorem opsGroup0_keep (V : Valuation τ sig (Elt F)) (b : Ref sig .tc) (h : b ∉ opsGroup0_W) :
    after opsGroup0 V (Proc.devRef .tc b) = V (Proc.devRef .tc b) :=
  after_of_writes_sub opsGroup0 V opsGroup0_writes h

/-- Group 1 up to the constant one of its probability (61 operations). -/
abbrev opsGroup1a : List (HloOp τ sig (Elt F)) :=
  [ StableHlo.unary main_arg0 main_v24 ((extractStridedSlice S2097152x2 ![0, 2] · slices_S2097152x13_S2097152x2_0_2) : (⟨S2097152x13, .f32⟩ : BufTy).Contents (Elt F) → (⟨S2097152x2, .f32⟩ : BufTy).Contents (Elt F)),
    StableHlo.nullary main_call2_cst (constant S_ .f32 0xFF800000#32),
    StableHlo.binary main_v24 main_call2_cst main_call2_v0 (fun x v => Host.reduce FloatOps.maximumf x v reducesTo_S2097152x2_S2097152_d1 h_S_ : (⟨S2097152x2, .f32⟩ : BufTy).Contents (Elt F) → (⟨S_, .f32⟩ : BufTy).Contents (Elt F) → (⟨S2097152, .f32⟩ : BufTy).Contents (Elt F)),
    StableHlo.nullary main_call2_cst_0 (constant S_ .f32 0xFF800000#32),
    StableHlo.unary main_call2_cst_0 main_call2_v1 (broadcastInDim S2097152 ![] bcast_S_S2097152 : (⟨S_, .f32⟩ : BufTy).Contents (Elt F) → (⟨S2097152, .f32⟩ : BufTy).Contents (Elt F)),
    StableHlo.binary main_call2_v1 main_call2_v0 main_call2_v2 (maximumf : (⟨S2097152, .f32⟩ : BufTy).Contents (Elt F) → (⟨S2097152, .f32⟩ : BufTy).Contents (Elt F) → (⟨S2097152, .f32⟩ : BufTy).Contents (Elt F)),
    StableHlo.unary main_call2_v2 main_call2_v3 (broadcastInDim S2097152x1 ![0] bcast_S2097152_S2097152x1_0 : (⟨S2097152, .f32⟩ : BufTy).Contents (Elt F) → (⟨S2097152x1, .f32⟩ : BufTy).Contents (Elt F)),
    StableHlo.unary main_call2_v3 main_call2_v4 (broadcastInDim S2097152x2 ![0, 1] bcast_S2097152x1_S2097152x2_0_1 : (⟨S2097152x1, .f32⟩ : BufTy).Contents (Elt F) → (⟨S2097152x2, .f32⟩ : BufTy).Contents (Elt F)),
    StableHlo.binary main_v24 main_call2_v4 main_call2_v5 (subf : (⟨S2097152x2, .f32⟩ : BufTy).Contents (Elt F) → (⟨S2097152x2, .f32⟩ : BufTy).Contents (Elt F) → (⟨S2097152x2, .f32⟩ : BufTy).Contents (Elt F)),
    StableHlo.unary main_call2_v5 main_call2_v6 (Host.exp : (⟨S2097152x2, .f32⟩ : BufTy).Contents (Elt F) → (⟨S2097152x2, .f32⟩ : BufTy).Contents (Elt F)),
    StableHlo.nullary main_call2_cst_1 (constant S_ .f32 0x00000000#32),
    StableHlo.binary main_call2_v6 main_call2_cst_1 main_call2_v7 (fun x v => Host.reduceAdd x v reducesTo_S2097152x2_S2097152_d1 h_S_ : (⟨S2097152x2, .f32⟩ : BufTy).Contents (Elt F) → (⟨S_, .f32⟩ : BufTy).Contents (Elt F) → (⟨S2097152, .f32⟩ : BufTy).Contents (Elt F)),
    StableHlo.unary main_call2_v7 main_call2_v8 (broadcastInDim S2097152x1 ![0] bcast_S2097152_S2097152x1_0 : (⟨S2097152, .f32⟩ : BufTy).Contents (Elt F) → (⟨S2097152x1, .f32⟩ : BufTy).Contents (Elt F)),
    StableHlo.unary main_call2_v8 main_call2_v9 (Host.log : (⟨S2097152x1, .f32⟩ : BufTy).Contents (Elt F) → (⟨S2097152x1, .f32⟩ : BufTy).Contents (Elt F)),
    StableHlo.unary main_call2_v9 main_call2_v10 (broadcastInDim S2097152x2 ![0, 1] bcast_S2097152x1_S2097152x2_0_1 : (⟨S2097152x1, .f32⟩ : BufTy).Contents (Elt F) → (⟨S2097152x2, .f32⟩ : BufTy).Contents (Elt F)),
    StableHlo.binary main_call2_v5 main_call2_v10 main_v25 (subf : (⟨S2097152x2, .f32⟩ : BufTy).Contents (Elt F) → (⟨S2097152x2, .f32⟩ : BufTy).Contents (Elt F) → (⟨S2097152x2, .f32⟩ : BufTy).Contents (Elt F)),
    StableHlo.unary main_v0 main_v26 ((extractStridedSlice S2097152x1 ![0, 1] · slices_S2097152x5_S2097152x1_0_1) : (⟨S2097152x5, .i32⟩ : BufTy).Contents (Elt F) → (⟨S2097152x1, .i32⟩ : BufTy).Contents (Elt F)),
    StableHlo.reshape main_v26 main_v27 rfl shapeCasts_S2097152x1_S2097152,
    StableHlo.unary main_v27 main_v28 (broadcastInDim S2097152x1 ![0] bcast_S2097152_S2097152x1_0 : (⟨S2097152, .i32⟩ : BufTy).Contents (Elt F) → (⟨S2097152x1, .i32⟩ : BufTy).Contents (Elt F)),
    StableHlo.nullary main_call3_c (constantI S_ 32 0#32),
    StableHlo.unary main_call3_c main_call3_v0 (broadcastInDim S2097152x1 ![] bcast_S_S2097152x1 : (⟨S_, .i32⟩ : BufTy).Contents (Elt F) → (⟨S2097152x1, .i32⟩ : BufTy).Contents (Elt F)),
    StableHlo.binary main_v28 main_call3_v0 main_call3_v1 (cmpi .slt : (⟨S2097152x1, .i32⟩ : BufTy).Contents (Elt F) → (⟨S2097152x1, .i32⟩ : BufTy).Contents (Elt F) → (⟨S2097152x1, .i1⟩ : BufTy).Contents (Elt F)),
    StableHlo.nullary main_call3_c_0 (constantI S_ 32 2#32),
    StableHlo.unary main_call3_c_0 main_call3_v2 (broadcastInDim S2097152x1 ![] bcast_S_S2097152x1 : (⟨S_, .i32⟩ : BufTy).Contents (Elt F) → (⟨S2097152x1, .i32⟩ : BufTy).Contents (Elt F)),
    StableHlo.binary main_v28 main_call3_v2 main_call3_v3 (addi : (⟨S2097152x1, .i32⟩ : BufTy).Contents (Elt F) → (⟨S2097152x1, .i32⟩ : BufTy).Contents (Elt F) → (⟨S2097152x1, .i32⟩ : BufTy).Contents (Elt F)),
    StableHlo.ternary main_call3_v1 main_call3_v3 main_v28 main_call3_v4 (select : (⟨S2097152x1, .i1⟩ : BufTy).Contents (Elt F) → (⟨S2097152x1, .i32⟩ : BufTy).Contents (Elt F) → (⟨S2097152x1, .i32⟩ : BufTy).Contents (Elt F) → (⟨S2097152x1, .i32⟩ : BufTy).Contents (Elt F)),
    StableHlo.reshape main_call3_v4 main_call3_v5 rfl shapeCasts_S2097152x1_S2097152x1x1,
    StableHlo.nullary main_call3_c_1 (constantI S1 32 1#32),
    StableHlo.nullary main_call3_c_2 (constantI S_ 32 0#32),
    StableHlo.unary main_call3_c_2 main_call3_v6 (broadcastInDim S2097152x1x1 ![] bcast_S_S2097152x1x1 : (⟨S_, .i32⟩ : BufTy).Contents (Elt F) → (⟨S2097152x1x1, .i32⟩ : BufTy).Contents (Elt F)),
    StableHlo.binary main_call3_v5 main_call3_v6 main_call3_v7 (cmpi .sge : (⟨S2097152x1x1, .i32⟩ : BufTy).Contents (Elt F) → (⟨S2097152x1x1, .i32⟩ : BufTy).Contents (Elt F) → (⟨S2097152x1x1, .i1⟩ : BufTy).Contents (Elt F)),
    StableHlo.unary main_call3_c_1 main_call3_v8 (broadcastInDim S1x1x1 ![2] bcast_S1_S1x1x1_2 : (⟨S1, .i32⟩ : BufTy).Contents (Elt F) → (⟨S1x1x1, .i32⟩ : BufTy).Contents (Elt F)),
    StableHlo.unary main_call3_v8 main_call3_v9 (broadcastInDim S2097152x1x1 ![0, 1, 2] bcast_S1x1x1_S2097152x1x1_0_1_2 : (⟨S1x1x1, .i32⟩ : BufTy).Contents (Elt F) → (⟨S2097152x1x1, .i32⟩ : BufTy).Contents (Elt F)),
    StableHlo.binary main_call3_v5 main_call3_v9 main_call3_v10 (cmpi .sle : (⟨S2097152x1x1, .i32⟩ : BufTy).Contents (Elt F) → (⟨S2097152x1x1, .i32⟩ : BufTy).Contents (Elt F) → (⟨S2097152x1x1, .i1⟩ : BufTy).Contents (Elt F)),
    StableHlo.binary main_call3_v7 main_call3_v10 main_call3_v11 (andi : (⟨S2097152x1x1, .i1⟩ : BufTy).Contents (Elt F) → (⟨S2097152x1x1, .i1⟩ : BufTy).Contents (Elt F) → (⟨S2097152x1x1, .i1⟩ : BufTy).Contents (Elt F)),
    StableHlo.nullary main_call3_c_3 (constantI S_ 1 1#1),
    StableHlo.binary main_call3_v11 main_call3_c_3 main_call3_v12 (fun x v => Host.reduce IntOp.andi x v reducesTo_S2097152x1x1_S2097152x1_d2 h_S_ : (⟨S2097152x1x1, .i1⟩ : BufTy).Contents (Elt F) → (⟨S_, .i1⟩ : BufTy).Contents (Elt F) → (⟨S2097152x1, .i1⟩ : BufTy).Contents (Elt F)),
    StableHlo.binary main_v25 main_call3_v5 main_call3_v13 (fun x i => Host.gather gather_S2097152x2_S2097152x1x1_S2097152x1_n_1_0_0_1_2_11 x i : (⟨S2097152x2, .f32⟩ : BufTy).Contents (Elt F) → (⟨S2097152x1x1, .i32⟩ : BufTy).Contents (Elt F) → (⟨S2097152x1, .f32⟩ : BufTy).Contents (Elt F)),
    StableHlo.nullary main_call3_cst (constant S_ .f32 0x7FC00000#32),
    StableHlo.unary main_call3_cst main_call3_v14 (broadcastInDim S2097152x1 ![] bcast_S_S2097152x1 : (⟨S_, .f32⟩ : BufTy).Contents (Elt F) → (⟨S2097152x1, .f32⟩ : BufTy).Contents (Elt F)),
    StableHlo.ternary main_call3_v12 main_call3_v13 main_call3_v14 main_v29 (select : (⟨S2097152x1, .i1⟩ : BufTy).Contents (Elt F) → (⟨S2097152x1, .f32⟩ : BufTy).Contents (Elt F) → (⟨S2097152x1, .f32⟩ : BufTy).Contents (Elt F) → (⟨S2097152x1, .f32⟩ : BufTy).Contents (Elt F)),
    StableHlo.reshape main_v29 main_v30 rfl shapeCasts_S2097152x1_S2097152,
    StableHlo.unary main_v30 main_v31 (Host.negf : (⟨S2097152, .f32⟩ : BufTy).Contents (Elt F) → (⟨S2097152, .f32⟩ : BufTy).Contents (Elt F)),
    StableHlo.nullary main_c_8 (constantI S_ 32 0#32),
    StableHlo.unary main_c_8 main_v32 (broadcastInDim S2097152 ![] bcast_S_S2097152 : (⟨S_, .i32⟩ : BufTy).Contents (Elt F) → (⟨S2097152, .i32⟩ : BufTy).Contents (Elt F)),
    StableHlo.binary main_v27 main_v32 main_v33 (cmpi .slt : (⟨S2097152, .i32⟩ : BufTy).Contents (Elt F) → (⟨S2097152, .i32⟩ : BufTy).Contents (Elt F) → (⟨S2097152, .i1⟩ : BufTy).Contents (Elt F)),
    StableHlo.nullary main_c_9 (constantI S_ 32 2#32),
    StableHlo.unary main_c_9 main_v34 (broadcastInDim S2097152 ![] bcast_S_S2097152 : (⟨S_, .i32⟩ : BufTy).Contents (Elt F) → (⟨S2097152, .i32⟩ : BufTy).Contents (Elt F)),
    StableHlo.binary main_v27 main_v34 main_v35 (addi : (⟨S2097152, .i32⟩ : BufTy).Contents (Elt F) → (⟨S2097152, .i32⟩ : BufTy).Contents (Elt F) → (⟨S2097152, .i32⟩ : BufTy).Contents (Elt F)),
    StableHlo.ternary main_v33 main_v35 main_v27 main_v36 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v36 main_v37 (broadcastInDim S2097152x1 ![0] bcast_S2097152_S2097152x1_0 : (⟨S2097152, .i32⟩ : BufTy).Contents (Elt F) → (⟨S2097152x1, .i32⟩ : BufTy).Contents (Elt F)),
    StableHlo.binary main_cst_0 main_v37 main_v38 ((fun x i => Host.gather gather_S2_S2097152x1_S2097152_n_0_n_n_0_1_1 x i) : (⟨S2, .f32⟩ : BufTy).Contents (Elt F) → (⟨S2097152x1, .i32⟩ : BufTy).Contents (Elt F) → (⟨S2097152, .f32⟩ : BufTy).Contents (Elt F)),
    StableHlo.binary main_v38 main_v31 main_v39 (mulf : (⟨S2097152, .f32⟩ : BufTy).Contents (Elt F) → (⟨S2097152, .f32⟩ : BufTy).Contents (Elt F) → (⟨S2097152, .f32⟩ : BufTy).Contents (Elt F)),
    StableHlo.nullary main_cst_10 (constant S_ .f32 0x00000000#32),
    StableHlo.binary main_v39 main_cst_10 main_v40 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)),
    StableHlo.nullary main_cst_11 (constant S_ .f32 0x4A000000#32),
    StableHlo.binary main_v40 main_cst_11 main_v41 (Host.divf : (⟨S_, .f32⟩ : BufTy).Contents (Elt F) → (⟨S_, .f32⟩ : BufTy).Contents (Elt F) → (⟨S_, .f32⟩ : BufTy).Contents (Elt F)),
    StableHlo.unary main_v25 main_v42 ((extractStridedSlice S2097152x1 ![0, 0] · slices_S2097152x2_S2097152x1_0_0) : (⟨S2097152x2, .f32⟩ : BufTy).Contents (Elt F) → (⟨S2097152x1, .f32⟩ : BufTy).Contents (Elt F)),
    StableHlo.reshape main_v42 main_v43 rfl shapeCasts_S2097152x1_S2097152,
    StableHlo.unary main_v43 main_v44 (Host.exp : (⟨S2097152, .f32⟩ : BufTy).Contents (Elt F) → (⟨S2097152, .f32⟩ : BufTy).Contents (Elt F)),
    StableHlo.nullary main_cst_12 (constant S_ .f32 0x3F800000#32) ]

set_option maxRecDepth 8192 in
theorem opsGroup1a_sub : (opsGroup1a : List (HloOp τ sig (Elt F))).Forall fun op => op.bufs ⊆ tcRefs τ sig :=
  ⟨unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., reshape_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., nullary_bufs_sub .., binary_bufs_sub .., unary_bufs_sub .., reshape_bufs_sub .., unary_bufs_sub .., nullary_bufs_sub ..⟩

/-- The buffers `opsGroup1a` writes. -/
abbrev opsGroup1a_W : List (Ref sig .tc) := [main_v24, main_call2_cst, main_call2_v0, main_call2_cst_0, main_call2_v1, main_call2_v2, main_call2_v3, main_call2_v4, main_call2_v5, main_call2_v6, main_call2_cst_1, main_call2_v7, main_call2_v8, main_call2_v9, main_call2_v10, main_v25, main_v26, main_v27, main_v28, main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_cst, main_call3_v14, main_v29, main_v30, main_v31, main_c_8, main_v32, main_v33, main_c_9, main_v34, main_v35, main_v36, main_v37, main_v38, main_v39, main_cst_10, main_v40, main_cst_11, main_v41, main_v42, main_v43, main_v44, main_cst_12]

set_option maxRecDepth 8192 in
theorem opsGroup1a_writes : (opsGroup1a : List (HloOp τ sig (Elt F))).Forall fun op => op.writes ⊆ (opsGroup1a_W.map (Proc.devRef (τ := τ) .tc)).toFinset := by
  simp only [List.Forall]; exact ⟨by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in⟩

/-- A buffer `opsGroup1a` does not write keeps its contents through it. -/
theorem opsGroup1a_keep (V : Valuation τ sig (Elt F)) (b : Ref sig .tc) (h : b ∉ opsGroup1a_W) :
    after opsGroup1a V (Proc.devRef .tc b) = V (Proc.devRef .tc b) :=
  after_of_writes_sub opsGroup1a V opsGroup1a_writes h

/-- Group 1's probability (2 operations). -/
abbrev opsGroup1b : List (HloOp τ sig (Elt F)) :=
  [ StableHlo.unary main_cst_12 main_v45 (broadcastInDim S2097152 ![] bcast_S_S2097152 : (⟨S_, .f32⟩ : BufTy).Contents (Elt F) → (⟨S2097152, .f32⟩ : BufTy).Contents (Elt F)),
    StableHlo.binary main_v45 main_v44 main_v46 (subf : (⟨S2097152, .f32⟩ : BufTy).Contents (Elt F) → (⟨S2097152, .f32⟩ : BufTy).Contents (Elt F) → (⟨S2097152, .f32⟩ : BufTy).Contents (Elt F)) ]

set_option maxRecDepth 8192 in
theorem opsGroup1b_sub : (opsGroup1b : List (HloOp τ sig (Elt F))).Forall fun op => op.bufs ⊆ tcRefs τ sig :=
  ⟨unary_bufs_sub .., binary_bufs_sub ..⟩

/-- The buffers `opsGroup1b` writes. -/
abbrev opsGroup1b_W : List (Ref sig .tc) := [main_v45, main_v46]

set_option maxRecDepth 8192 in
theorem opsGroup1b_writes : (opsGroup1b : List (HloOp τ sig (Elt F))).Forall fun op => op.writes ⊆ (opsGroup1b_W.map (Proc.devRef (τ := τ) .tc)).toFinset := by
  simp only [List.Forall]; exact ⟨by writes_in, by writes_in⟩

/-- A buffer `opsGroup1b` does not write keeps its contents through it. -/
theorem opsGroup1b_keep (V : Valuation τ sig (Elt F)) (b : Ref sig .tc) (h : b ∉ opsGroup1b_W) :
    after opsGroup1b V (Proc.devRef .tc b) = V (Proc.devRef .tc b) :=
  after_of_writes_sub opsGroup1b V opsGroup1b_writes h

/-- Group 2 (63 operations). -/
abbrev opsGroup2 : List (HloOp τ sig (Elt F)) :=
  [ StableHlo.unary main_arg0 main_v47 ((extractStridedSlice S2097152x3 ![0, 4] · slices_S2097152x13_S2097152x3_0_4) : (⟨S2097152x13, .f32⟩ : BufTy).Contents (Elt F) → (⟨S2097152x3, .f32⟩ : BufTy).Contents (Elt F)),
    StableHlo.nullary main_call4_cst (constant S_ .f32 0xFF800000#32),
    StableHlo.binary main_v47 main_call4_cst main_call4_v0 (fun x v => Host.reduce FloatOps.maximumf x v reducesTo_S2097152x3_S2097152_d1 h_S_ : (⟨S2097152x3, .f32⟩ : BufTy).Contents (Elt F) → (⟨S_, .f32⟩ : BufTy).Contents (Elt F) → (⟨S2097152, .f32⟩ : BufTy).Contents (Elt F)),
    StableHlo.nullary main_call4_cst_0 (constant S_ .f32 0xFF800000#32),
    StableHlo.unary main_call4_cst_0 main_call4_v1 (broadcastInDim S2097152 ![] bcast_S_S2097152 : (⟨S_, .f32⟩ : BufTy).Contents (Elt F) → (⟨S2097152, .f32⟩ : BufTy).Contents (Elt F)),
    StableHlo.binary main_call4_v1 main_call4_v0 main_call4_v2 (maximumf : (⟨S2097152, .f32⟩ : BufTy).Contents (Elt F) → (⟨S2097152, .f32⟩ : BufTy).Contents (Elt F) → (⟨S2097152, .f32⟩ : BufTy).Contents (Elt F)),
    StableHlo.unary main_call4_v2 main_call4_v3 (broadcastInDim S2097152x1 ![0] bcast_S2097152_S2097152x1_0 : (⟨S2097152, .f32⟩ : BufTy).Contents (Elt F) → (⟨S2097152x1, .f32⟩ : BufTy).Contents (Elt F)),
    StableHlo.unary main_call4_v3 main_call4_v4 (broadcastInDim S2097152x3 ![0, 1] bcast_S2097152x1_S2097152x3_0_1 : (⟨S2097152x1, .f32⟩ : BufTy).Contents (Elt F) → (⟨S2097152x3, .f32⟩ : BufTy).Contents (Elt F)),
    StableHlo.binary main_v47 main_call4_v4 main_call4_v5 (subf : (⟨S2097152x3, .f32⟩ : BufTy).Contents (Elt F) → (⟨S2097152x3, .f32⟩ : BufTy).Contents (Elt F) → (⟨S2097152x3, .f32⟩ : BufTy).Contents (Elt F)),
    StableHlo.unary main_call4_v5 main_call4_v6 (Host.exp : (⟨S2097152x3, .f32⟩ : BufTy).Contents (Elt F) → (⟨S2097152x3, .f32⟩ : BufTy).Contents (Elt F)),
    StableHlo.nullary main_call4_cst_1 (constant S_ .f32 0x00000000#32),
    StableHlo.binary main_call4_v6 main_call4_cst_1 main_call4_v7 (fun x v => Host.reduceAdd x v reducesTo_S2097152x3_S2097152_d1 h_S_ : (⟨S2097152x3, .f32⟩ : BufTy).Contents (Elt F) → (⟨S_, .f32⟩ : BufTy).Contents (Elt F) → (⟨S2097152, .f32⟩ : BufTy).Contents (Elt F)),
    StableHlo.unary main_call4_v7 main_call4_v8 (broadcastInDim S2097152x1 ![0] bcast_S2097152_S2097152x1_0 : (⟨S2097152, .f32⟩ : BufTy).Contents (Elt F) → (⟨S2097152x1, .f32⟩ : BufTy).Contents (Elt F)),
    StableHlo.unary main_call4_v8 main_call4_v9 (Host.log : (⟨S2097152x1, .f32⟩ : BufTy).Contents (Elt F) → (⟨S2097152x1, .f32⟩ : BufTy).Contents (Elt F)),
    StableHlo.unary main_call4_v9 main_call4_v10 (broadcastInDim S2097152x3 ![0, 1] bcast_S2097152x1_S2097152x3_0_1 : (⟨S2097152x1, .f32⟩ : BufTy).Contents (Elt F) → (⟨S2097152x3, .f32⟩ : BufTy).Contents (Elt F)),
    StableHlo.binary main_call4_v5 main_call4_v10 main_v48 (subf : (⟨S2097152x3, .f32⟩ : BufTy).Contents (Elt F) → (⟨S2097152x3, .f32⟩ : BufTy).Contents (Elt F) → (⟨S2097152x3, .f32⟩ : BufTy).Contents (Elt F)),
    StableHlo.unary main_v0 main_v49 ((extractStridedSlice S2097152x1 ![0, 2] · slices_S2097152x5_S2097152x1_0_2) : (⟨S2097152x5, .i32⟩ : BufTy).Contents (Elt F) → (⟨S2097152x1, .i32⟩ : BufTy).Contents (Elt F)),
    StableHlo.reshape main_v49 main_v50 rfl shapeCasts_S2097152x1_S2097152,
    StableHlo.unary main_v50 main_v51 (broadcastInDim S2097152x1 ![0] bcast_S2097152_S2097152x1_0 : (⟨S2097152, .i32⟩ : BufTy).Contents (Elt F) → (⟨S2097152x1, .i32⟩ : BufTy).Contents (Elt F)),
    StableHlo.nullary main_call5_c (constantI S_ 32 0#32),
    StableHlo.unary main_call5_c main_call5_v0 (broadcastInDim S2097152x1 ![] bcast_S_S2097152x1 : (⟨S_, .i32⟩ : BufTy).Contents (Elt F) → (⟨S2097152x1, .i32⟩ : BufTy).Contents (Elt F)),
    StableHlo.binary main_v51 main_call5_v0 main_call5_v1 (cmpi .slt : (⟨S2097152x1, .i32⟩ : BufTy).Contents (Elt F) → (⟨S2097152x1, .i32⟩ : BufTy).Contents (Elt F) → (⟨S2097152x1, .i1⟩ : BufTy).Contents (Elt F)),
    StableHlo.nullary main_call5_c_0 (constantI S_ 32 3#32),
    StableHlo.unary main_call5_c_0 main_call5_v2 (broadcastInDim S2097152x1 ![] bcast_S_S2097152x1 : (⟨S_, .i32⟩ : BufTy).Contents (Elt F) → (⟨S2097152x1, .i32⟩ : BufTy).Contents (Elt F)),
    StableHlo.binary main_v51 main_call5_v2 main_call5_v3 (addi : (⟨S2097152x1, .i32⟩ : BufTy).Contents (Elt F) → (⟨S2097152x1, .i32⟩ : BufTy).Contents (Elt F) → (⟨S2097152x1, .i32⟩ : BufTy).Contents (Elt F)),
    StableHlo.ternary main_call5_v1 main_call5_v3 main_v51 main_call5_v4 (select : (⟨S2097152x1, .i1⟩ : BufTy).Contents (Elt F) → (⟨S2097152x1, .i32⟩ : BufTy).Contents (Elt F) → (⟨S2097152x1, .i32⟩ : BufTy).Contents (Elt F) → (⟨S2097152x1, .i32⟩ : BufTy).Contents (Elt F)),
    StableHlo.reshape main_call5_v4 main_call5_v5 rfl shapeCasts_S2097152x1_S2097152x1x1,
    StableHlo.nullary main_call5_c_1 (constantI S1 32 2#32),
    StableHlo.nullary main_call5_c_2 (constantI S_ 32 0#32),
    StableHlo.unary main_call5_c_2 main_call5_v6 (broadcastInDim S2097152x1x1 ![] bcast_S_S2097152x1x1 : (⟨S_, .i32⟩ : BufTy).Contents (Elt F) → (⟨S2097152x1x1, .i32⟩ : BufTy).Contents (Elt F)),
    StableHlo.binary main_call5_v5 main_call5_v6 main_call5_v7 (cmpi .sge : (⟨S2097152x1x1, .i32⟩ : BufTy).Contents (Elt F) → (⟨S2097152x1x1, .i32⟩ : BufTy).Contents (Elt F) → (⟨S2097152x1x1, .i1⟩ : BufTy).Contents (Elt F)),
    StableHlo.unary main_call5_c_1 main_call5_v8 (broadcastInDim S1x1x1 ![2] bcast_S1_S1x1x1_2 : (⟨S1, .i32⟩ : BufTy).Contents (Elt F) → (⟨S1x1x1, .i32⟩ : BufTy).Contents (Elt F)),
    StableHlo.unary main_call5_v8 main_call5_v9 (broadcastInDim S2097152x1x1 ![0, 1, 2] bcast_S1x1x1_S2097152x1x1_0_1_2 : (⟨S1x1x1, .i32⟩ : BufTy).Contents (Elt F) → (⟨S2097152x1x1, .i32⟩ : BufTy).Contents (Elt F)),
    StableHlo.binary main_call5_v5 main_call5_v9 main_call5_v10 (cmpi .sle : (⟨S2097152x1x1, .i32⟩ : BufTy).Contents (Elt F) → (⟨S2097152x1x1, .i32⟩ : BufTy).Contents (Elt F) → (⟨S2097152x1x1, .i1⟩ : BufTy).Contents (Elt F)),
    StableHlo.binary main_call5_v7 main_call5_v10 main_call5_v11 (andi : (⟨S2097152x1x1, .i1⟩ : BufTy).Contents (Elt F) → (⟨S2097152x1x1, .i1⟩ : BufTy).Contents (Elt F) → (⟨S2097152x1x1, .i1⟩ : BufTy).Contents (Elt F)),
    StableHlo.nullary main_call5_c_3 (constantI S_ 1 1#1),
    StableHlo.binary main_call5_v11 main_call5_c_3 main_call5_v12 (fun x v => Host.reduce IntOp.andi x v reducesTo_S2097152x1x1_S2097152x1_d2 h_S_ : (⟨S2097152x1x1, .i1⟩ : BufTy).Contents (Elt F) → (⟨S_, .i1⟩ : BufTy).Contents (Elt F) → (⟨S2097152x1, .i1⟩ : BufTy).Contents (Elt F)),
    StableHlo.binary main_v48 main_call5_v5 main_call5_v13 (fun x i => Host.gather gather_S2097152x3_S2097152x1x1_S2097152x1_n_1_0_0_1_2_11 x i : (⟨S2097152x3, .f32⟩ : BufTy).Contents (Elt F) → (⟨S2097152x1x1, .i32⟩ : BufTy).Contents (Elt F) → (⟨S2097152x1, .f32⟩ : BufTy).Contents (Elt F)),
    StableHlo.nullary main_call5_cst (constant S_ .f32 0x7FC00000#32),
    StableHlo.unary main_call5_cst main_call5_v14 (broadcastInDim S2097152x1 ![] bcast_S_S2097152x1 : (⟨S_, .f32⟩ : BufTy).Contents (Elt F) → (⟨S2097152x1, .f32⟩ : BufTy).Contents (Elt F)),
    StableHlo.ternary main_call5_v12 main_call5_v13 main_call5_v14 main_v52 (select : (⟨S2097152x1, .i1⟩ : BufTy).Contents (Elt F) → (⟨S2097152x1, .f32⟩ : BufTy).Contents (Elt F) → (⟨S2097152x1, .f32⟩ : BufTy).Contents (Elt F) → (⟨S2097152x1, .f32⟩ : BufTy).Contents (Elt F)),
    StableHlo.reshape main_v52 main_v53 rfl shapeCasts_S2097152x1_S2097152,
    StableHlo.unary main_v53 main_v54 (Host.negf : (⟨S2097152, .f32⟩ : BufTy).Contents (Elt F) → (⟨S2097152, .f32⟩ : BufTy).Contents (Elt F)),
    StableHlo.nullary main_c_13 (constantI S_ 32 0#32),
    StableHlo.unary main_c_13 main_v55 (broadcastInDim S2097152 ![] bcast_S_S2097152 : (⟨S_, .i32⟩ : BufTy).Contents (Elt F) → (⟨S2097152, .i32⟩ : BufTy).Contents (Elt F)),
    StableHlo.binary main_v50 main_v55 main_v56 (cmpi .slt : (⟨S2097152, .i32⟩ : BufTy).Contents (Elt F) → (⟨S2097152, .i32⟩ : BufTy).Contents (Elt F) → (⟨S2097152, .i1⟩ : BufTy).Contents (Elt F)),
    StableHlo.nullary main_c_14 (constantI S_ 32 3#32),
    StableHlo.unary main_c_14 main_v57 (broadcastInDim S2097152 ![] bcast_S_S2097152 : (⟨S_, .i32⟩ : BufTy).Contents (Elt F) → (⟨S2097152, .i32⟩ : BufTy).Contents (Elt F)),
    StableHlo.binary main_v50 main_v57 main_v58 (addi : (⟨S2097152, .i32⟩ : BufTy).Contents (Elt F) → (⟨S2097152, .i32⟩ : BufTy).Contents (Elt F) → (⟨S2097152, .i32⟩ : BufTy).Contents (Elt F)),
    StableHlo.ternary main_v56 main_v58 main_v50 main_v59 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v59 main_v60 (broadcastInDim S2097152x1 ![0] bcast_S2097152_S2097152x1_0 : (⟨S2097152, .i32⟩ : BufTy).Contents (Elt F) → (⟨S2097152x1, .i32⟩ : BufTy).Contents (Elt F)),
    StableHlo.binary main_cst_1 main_v60 main_v61 ((fun x i => Host.gather gather_S3_S2097152x1_S2097152_n_0_n_n_0_1_1 x i) : (⟨S3, .f32⟩ : BufTy).Contents (Elt F) → (⟨S2097152x1, .i32⟩ : BufTy).Contents (Elt F) → (⟨S2097152, .f32⟩ : BufTy).Contents (Elt F)),
    StableHlo.binary main_v61 main_v54 main_v62 (mulf : (⟨S2097152, .f32⟩ : BufTy).Contents (Elt F) → (⟨S2097152, .f32⟩ : BufTy).Contents (Elt F) → (⟨S2097152, .f32⟩ : BufTy).Contents (Elt F)),
    StableHlo.nullary main_cst_15 (constant S_ .f32 0x00000000#32),
    StableHlo.binary main_v62 main_cst_15 main_v63 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)),
    StableHlo.nullary main_cst_16 (constant S_ .f32 0x4A000000#32),
    StableHlo.binary main_v63 main_cst_16 main_v64 (Host.divf : (⟨S_, .f32⟩ : BufTy).Contents (Elt F) → (⟨S_, .f32⟩ : BufTy).Contents (Elt F) → (⟨S_, .f32⟩ : BufTy).Contents (Elt F)),
    StableHlo.unary main_v48 main_v65 ((extractStridedSlice S2097152x1 ![0, 0] · slices_S2097152x3_S2097152x1_0_0) : (⟨S2097152x3, .f32⟩ : BufTy).Contents (Elt F) → (⟨S2097152x1, .f32⟩ : BufTy).Contents (Elt F)),
    StableHlo.reshape main_v65 main_v66 rfl shapeCasts_S2097152x1_S2097152,
    StableHlo.unary main_v66 main_v67 (Host.exp : (⟨S2097152, .f32⟩ : BufTy).Contents (Elt F) → (⟨S2097152, .f32⟩ : BufTy).Contents (Elt F)),
    StableHlo.nullary main_cst_17 (constant S_ .f32 0x3F800000#32),
    StableHlo.unary main_cst_17 main_v68 (broadcastInDim S2097152 ![] bcast_S_S2097152 : (⟨S_, .f32⟩ : BufTy).Contents (Elt F) → (⟨S2097152, .f32⟩ : BufTy).Contents (Elt F)),
    StableHlo.binary main_v68 main_v67 main_v69 (subf : (⟨S2097152, .f32⟩ : BufTy).Contents (Elt F) → (⟨S2097152, .f32⟩ : BufTy).Contents (Elt F) → (⟨S2097152, .f32⟩ : BufTy).Contents (Elt F)) ]

set_option maxRecDepth 8192 in
theorem opsGroup2_sub : (opsGroup2 : List (HloOp τ sig (Elt F))).Forall fun op => op.bufs ⊆ tcRefs τ sig :=
  ⟨unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., reshape_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., nullary_bufs_sub .., binary_bufs_sub .., unary_bufs_sub .., reshape_bufs_sub .., unary_bufs_sub .., nullary_bufs_sub .., unary_bufs_sub .., binary_bufs_sub ..⟩

/-- The buffers `opsGroup2` writes. -/
abbrev opsGroup2_W : List (Ref sig .tc) := [main_v47, main_call4_cst, main_call4_v0, main_call4_cst_0, main_call4_v1, main_call4_v2, main_call4_v3, main_call4_v4, main_call4_v5, main_call4_v6, main_call4_cst_1, main_call4_v7, main_call4_v8, main_call4_v9, main_call4_v10, main_v48, main_v49, main_v50, main_v51, main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_cst, main_call5_v14, main_v52, main_v53, main_v54, main_c_13, main_v55, main_v56, main_c_14, main_v57, main_v58, main_v59, main_v60, main_v61, main_v62, main_cst_15, main_v63, main_cst_16, main_v64, main_v65, main_v66, main_v67, main_cst_17, main_v68, main_v69]

set_option maxRecDepth 8192 in
theorem opsGroup2_writes : (opsGroup2 : List (HloOp τ sig (Elt F))).Forall fun op => op.writes ⊆ (opsGroup2_W.map (Proc.devRef (τ := τ) .tc)).toFinset := by
  simp only [List.Forall]; exact ⟨by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in⟩

/-- A buffer `opsGroup2` does not write keeps its contents through it. -/
theorem opsGroup2_keep (V : Valuation τ sig (Elt F)) (b : Ref sig .tc) (h : b ∉ opsGroup2_W) :
    after opsGroup2 V (Proc.devRef .tc b) = V (Proc.devRef .tc b) :=
  after_of_writes_sub opsGroup2 V opsGroup2_writes h

/-- Group 3 (63 operations). -/
abbrev opsGroup3 : List (HloOp τ sig (Elt F)) :=
  [ StableHlo.unary main_arg0 main_v70 ((extractStridedSlice S2097152x3 ![0, 7] · slices_S2097152x13_S2097152x3_0_7) : (⟨S2097152x13, .f32⟩ : BufTy).Contents (Elt F) → (⟨S2097152x3, .f32⟩ : BufTy).Contents (Elt F)),
    StableHlo.nullary main_call6_cst (constant S_ .f32 0xFF800000#32),
    StableHlo.binary main_v70 main_call6_cst main_call6_v0 (fun x v => Host.reduce FloatOps.maximumf x v reducesTo_S2097152x3_S2097152_d1 h_S_ : (⟨S2097152x3, .f32⟩ : BufTy).Contents (Elt F) → (⟨S_, .f32⟩ : BufTy).Contents (Elt F) → (⟨S2097152, .f32⟩ : BufTy).Contents (Elt F)),
    StableHlo.nullary main_call6_cst_0 (constant S_ .f32 0xFF800000#32),
    StableHlo.unary main_call6_cst_0 main_call6_v1 (broadcastInDim S2097152 ![] bcast_S_S2097152 : (⟨S_, .f32⟩ : BufTy).Contents (Elt F) → (⟨S2097152, .f32⟩ : BufTy).Contents (Elt F)),
    StableHlo.binary main_call6_v1 main_call6_v0 main_call6_v2 (maximumf : (⟨S2097152, .f32⟩ : BufTy).Contents (Elt F) → (⟨S2097152, .f32⟩ : BufTy).Contents (Elt F) → (⟨S2097152, .f32⟩ : BufTy).Contents (Elt F)),
    StableHlo.unary main_call6_v2 main_call6_v3 (broadcastInDim S2097152x1 ![0] bcast_S2097152_S2097152x1_0 : (⟨S2097152, .f32⟩ : BufTy).Contents (Elt F) → (⟨S2097152x1, .f32⟩ : BufTy).Contents (Elt F)),
    StableHlo.unary main_call6_v3 main_call6_v4 (broadcastInDim S2097152x3 ![0, 1] bcast_S2097152x1_S2097152x3_0_1 : (⟨S2097152x1, .f32⟩ : BufTy).Contents (Elt F) → (⟨S2097152x3, .f32⟩ : BufTy).Contents (Elt F)),
    StableHlo.binary main_v70 main_call6_v4 main_call6_v5 (subf : (⟨S2097152x3, .f32⟩ : BufTy).Contents (Elt F) → (⟨S2097152x3, .f32⟩ : BufTy).Contents (Elt F) → (⟨S2097152x3, .f32⟩ : BufTy).Contents (Elt F)),
    StableHlo.unary main_call6_v5 main_call6_v6 (Host.exp : (⟨S2097152x3, .f32⟩ : BufTy).Contents (Elt F) → (⟨S2097152x3, .f32⟩ : BufTy).Contents (Elt F)),
    StableHlo.nullary main_call6_cst_1 (constant S_ .f32 0x00000000#32),
    StableHlo.binary main_call6_v6 main_call6_cst_1 main_call6_v7 (fun x v => Host.reduceAdd x v reducesTo_S2097152x3_S2097152_d1 h_S_ : (⟨S2097152x3, .f32⟩ : BufTy).Contents (Elt F) → (⟨S_, .f32⟩ : BufTy).Contents (Elt F) → (⟨S2097152, .f32⟩ : BufTy).Contents (Elt F)),
    StableHlo.unary main_call6_v7 main_call6_v8 (broadcastInDim S2097152x1 ![0] bcast_S2097152_S2097152x1_0 : (⟨S2097152, .f32⟩ : BufTy).Contents (Elt F) → (⟨S2097152x1, .f32⟩ : BufTy).Contents (Elt F)),
    StableHlo.unary main_call6_v8 main_call6_v9 (Host.log : (⟨S2097152x1, .f32⟩ : BufTy).Contents (Elt F) → (⟨S2097152x1, .f32⟩ : BufTy).Contents (Elt F)),
    StableHlo.unary main_call6_v9 main_call6_v10 (broadcastInDim S2097152x3 ![0, 1] bcast_S2097152x1_S2097152x3_0_1 : (⟨S2097152x1, .f32⟩ : BufTy).Contents (Elt F) → (⟨S2097152x3, .f32⟩ : BufTy).Contents (Elt F)),
    StableHlo.binary main_call6_v5 main_call6_v10 main_v71 (subf : (⟨S2097152x3, .f32⟩ : BufTy).Contents (Elt F) → (⟨S2097152x3, .f32⟩ : BufTy).Contents (Elt F) → (⟨S2097152x3, .f32⟩ : BufTy).Contents (Elt F)),
    StableHlo.unary main_v0 main_v72 ((extractStridedSlice S2097152x1 ![0, 3] · slices_S2097152x5_S2097152x1_0_3) : (⟨S2097152x5, .i32⟩ : BufTy).Contents (Elt F) → (⟨S2097152x1, .i32⟩ : BufTy).Contents (Elt F)),
    StableHlo.reshape main_v72 main_v73 rfl shapeCasts_S2097152x1_S2097152,
    StableHlo.unary main_v73 main_v74 (broadcastInDim S2097152x1 ![0] bcast_S2097152_S2097152x1_0 : (⟨S2097152, .i32⟩ : BufTy).Contents (Elt F) → (⟨S2097152x1, .i32⟩ : BufTy).Contents (Elt F)),
    StableHlo.nullary main_call7_c (constantI S_ 32 0#32),
    StableHlo.unary main_call7_c main_call7_v0 (broadcastInDim S2097152x1 ![] bcast_S_S2097152x1 : (⟨S_, .i32⟩ : BufTy).Contents (Elt F) → (⟨S2097152x1, .i32⟩ : BufTy).Contents (Elt F)),
    StableHlo.binary main_v74 main_call7_v0 main_call7_v1 (cmpi .slt : (⟨S2097152x1, .i32⟩ : BufTy).Contents (Elt F) → (⟨S2097152x1, .i32⟩ : BufTy).Contents (Elt F) → (⟨S2097152x1, .i1⟩ : BufTy).Contents (Elt F)),
    StableHlo.nullary main_call7_c_0 (constantI S_ 32 3#32),
    StableHlo.unary main_call7_c_0 main_call7_v2 (broadcastInDim S2097152x1 ![] bcast_S_S2097152x1 : (⟨S_, .i32⟩ : BufTy).Contents (Elt F) → (⟨S2097152x1, .i32⟩ : BufTy).Contents (Elt F)),
    StableHlo.binary main_v74 main_call7_v2 main_call7_v3 (addi : (⟨S2097152x1, .i32⟩ : BufTy).Contents (Elt F) → (⟨S2097152x1, .i32⟩ : BufTy).Contents (Elt F) → (⟨S2097152x1, .i32⟩ : BufTy).Contents (Elt F)),
    StableHlo.ternary main_call7_v1 main_call7_v3 main_v74 main_call7_v4 (select : (⟨S2097152x1, .i1⟩ : BufTy).Contents (Elt F) → (⟨S2097152x1, .i32⟩ : BufTy).Contents (Elt F) → (⟨S2097152x1, .i32⟩ : BufTy).Contents (Elt F) → (⟨S2097152x1, .i32⟩ : BufTy).Contents (Elt F)),
    StableHlo.reshape main_call7_v4 main_call7_v5 rfl shapeCasts_S2097152x1_S2097152x1x1,
    StableHlo.nullary main_call7_c_1 (constantI S1 32 2#32),
    StableHlo.nullary main_call7_c_2 (constantI S_ 32 0#32),
    StableHlo.unary main_call7_c_2 main_call7_v6 (broadcastInDim S2097152x1x1 ![] bcast_S_S2097152x1x1 : (⟨S_, .i32⟩ : BufTy).Contents (Elt F) → (⟨S2097152x1x1, .i32⟩ : BufTy).Contents (Elt F)),
    StableHlo.binary main_call7_v5 main_call7_v6 main_call7_v7 (cmpi .sge : (⟨S2097152x1x1, .i32⟩ : BufTy).Contents (Elt F) → (⟨S2097152x1x1, .i32⟩ : BufTy).Contents (Elt F) → (⟨S2097152x1x1, .i1⟩ : BufTy).Contents (Elt F)),
    StableHlo.unary main_call7_c_1 main_call7_v8 (broadcastInDim S1x1x1 ![2] bcast_S1_S1x1x1_2 : (⟨S1, .i32⟩ : BufTy).Contents (Elt F) → (⟨S1x1x1, .i32⟩ : BufTy).Contents (Elt F)),
    StableHlo.unary main_call7_v8 main_call7_v9 (broadcastInDim S2097152x1x1 ![0, 1, 2] bcast_S1x1x1_S2097152x1x1_0_1_2 : (⟨S1x1x1, .i32⟩ : BufTy).Contents (Elt F) → (⟨S2097152x1x1, .i32⟩ : BufTy).Contents (Elt F)),
    StableHlo.binary main_call7_v5 main_call7_v9 main_call7_v10 (cmpi .sle : (⟨S2097152x1x1, .i32⟩ : BufTy).Contents (Elt F) → (⟨S2097152x1x1, .i32⟩ : BufTy).Contents (Elt F) → (⟨S2097152x1x1, .i1⟩ : BufTy).Contents (Elt F)),
    StableHlo.binary main_call7_v7 main_call7_v10 main_call7_v11 (andi : (⟨S2097152x1x1, .i1⟩ : BufTy).Contents (Elt F) → (⟨S2097152x1x1, .i1⟩ : BufTy).Contents (Elt F) → (⟨S2097152x1x1, .i1⟩ : BufTy).Contents (Elt F)),
    StableHlo.nullary main_call7_c_3 (constantI S_ 1 1#1),
    StableHlo.binary main_call7_v11 main_call7_c_3 main_call7_v12 (fun x v => Host.reduce IntOp.andi x v reducesTo_S2097152x1x1_S2097152x1_d2 h_S_ : (⟨S2097152x1x1, .i1⟩ : BufTy).Contents (Elt F) → (⟨S_, .i1⟩ : BufTy).Contents (Elt F) → (⟨S2097152x1, .i1⟩ : BufTy).Contents (Elt F)),
    StableHlo.binary main_v71 main_call7_v5 main_call7_v13 (fun x i => Host.gather gather_S2097152x3_S2097152x1x1_S2097152x1_n_1_0_0_1_2_11 x i : (⟨S2097152x3, .f32⟩ : BufTy).Contents (Elt F) → (⟨S2097152x1x1, .i32⟩ : BufTy).Contents (Elt F) → (⟨S2097152x1, .f32⟩ : BufTy).Contents (Elt F)),
    StableHlo.nullary main_call7_cst (constant S_ .f32 0x7FC00000#32),
    StableHlo.unary main_call7_cst main_call7_v14 (broadcastInDim S2097152x1 ![] bcast_S_S2097152x1 : (⟨S_, .f32⟩ : BufTy).Contents (Elt F) → (⟨S2097152x1, .f32⟩ : BufTy).Contents (Elt F)),
    StableHlo.ternary main_call7_v12 main_call7_v13 main_call7_v14 main_v75 (select : (⟨S2097152x1, .i1⟩ : BufTy).Contents (Elt F) → (⟨S2097152x1, .f32⟩ : BufTy).Contents (Elt F) → (⟨S2097152x1, .f32⟩ : BufTy).Contents (Elt F) → (⟨S2097152x1, .f32⟩ : BufTy).Contents (Elt F)),
    StableHlo.reshape main_v75 main_v76 rfl shapeCasts_S2097152x1_S2097152,
    StableHlo.unary main_v76 main_v77 (Host.negf : (⟨S2097152, .f32⟩ : BufTy).Contents (Elt F) → (⟨S2097152, .f32⟩ : BufTy).Contents (Elt F)),
    StableHlo.nullary main_c_18 (constantI S_ 32 0#32),
    StableHlo.unary main_c_18 main_v78 (broadcastInDim S2097152 ![] bcast_S_S2097152 : (⟨S_, .i32⟩ : BufTy).Contents (Elt F) → (⟨S2097152, .i32⟩ : BufTy).Contents (Elt F)),
    StableHlo.binary main_v73 main_v78 main_v79 (cmpi .slt : (⟨S2097152, .i32⟩ : BufTy).Contents (Elt F) → (⟨S2097152, .i32⟩ : BufTy).Contents (Elt F) → (⟨S2097152, .i1⟩ : BufTy).Contents (Elt F)),
    StableHlo.nullary main_c_19 (constantI S_ 32 3#32),
    StableHlo.unary main_c_19 main_v80 (broadcastInDim S2097152 ![] bcast_S_S2097152 : (⟨S_, .i32⟩ : BufTy).Contents (Elt F) → (⟨S2097152, .i32⟩ : BufTy).Contents (Elt F)),
    StableHlo.binary main_v73 main_v80 main_v81 (addi : (⟨S2097152, .i32⟩ : BufTy).Contents (Elt F) → (⟨S2097152, .i32⟩ : BufTy).Contents (Elt F) → (⟨S2097152, .i32⟩ : BufTy).Contents (Elt F)),
    StableHlo.ternary main_v79 main_v81 main_v73 main_v82 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v82 main_v83 (broadcastInDim S2097152x1 ![0] bcast_S2097152_S2097152x1_0 : (⟨S2097152, .i32⟩ : BufTy).Contents (Elt F) → (⟨S2097152x1, .i32⟩ : BufTy).Contents (Elt F)),
    StableHlo.binary main_cst_2 main_v83 main_v84 ((fun x i => Host.gather gather_S3_S2097152x1_S2097152_n_0_n_n_0_1_1 x i) : (⟨S3, .f32⟩ : BufTy).Contents (Elt F) → (⟨S2097152x1, .i32⟩ : BufTy).Contents (Elt F) → (⟨S2097152, .f32⟩ : BufTy).Contents (Elt F)),
    StableHlo.binary main_v84 main_v77 main_v85 (mulf : (⟨S2097152, .f32⟩ : BufTy).Contents (Elt F) → (⟨S2097152, .f32⟩ : BufTy).Contents (Elt F) → (⟨S2097152, .f32⟩ : BufTy).Contents (Elt F)),
    StableHlo.nullary main_cst_20 (constant S_ .f32 0x00000000#32),
    StableHlo.binary main_v85 main_cst_20 main_v86 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)),
    StableHlo.nullary main_cst_21 (constant S_ .f32 0x4A000000#32),
    StableHlo.binary main_v86 main_cst_21 main_v87 (Host.divf : (⟨S_, .f32⟩ : BufTy).Contents (Elt F) → (⟨S_, .f32⟩ : BufTy).Contents (Elt F) → (⟨S_, .f32⟩ : BufTy).Contents (Elt F)),
    StableHlo.unary main_v71 main_v88 ((extractStridedSlice S2097152x1 ![0, 0] · slices_S2097152x3_S2097152x1_0_0) : (⟨S2097152x3, .f32⟩ : BufTy).Contents (Elt F) → (⟨S2097152x1, .f32⟩ : BufTy).Contents (Elt F)),
    StableHlo.reshape main_v88 main_v89 rfl shapeCasts_S2097152x1_S2097152,
    StableHlo.unary main_v89 main_v90 (Host.exp : (⟨S2097152, .f32⟩ : BufTy).Contents (Elt F) → (⟨S2097152, .f32⟩ : BufTy).Contents (Elt F)),
    StableHlo.nullary main_cst_22 (constant S_ .f32 0x3F800000#32),
    StableHlo.unary main_cst_22 main_v91 (broadcastInDim S2097152 ![] bcast_S_S2097152 : (⟨S_, .f32⟩ : BufTy).Contents (Elt F) → (⟨S2097152, .f32⟩ : BufTy).Contents (Elt F)),
    StableHlo.binary main_v91 main_v90 main_v92 (subf : (⟨S2097152, .f32⟩ : BufTy).Contents (Elt F) → (⟨S2097152, .f32⟩ : BufTy).Contents (Elt F) → (⟨S2097152, .f32⟩ : BufTy).Contents (Elt F)) ]

set_option maxRecDepth 8192 in
theorem opsGroup3_sub : (opsGroup3 : List (HloOp τ sig (Elt F))).Forall fun op => op.bufs ⊆ tcRefs τ sig :=
  ⟨unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., reshape_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., nullary_bufs_sub .., binary_bufs_sub .., unary_bufs_sub .., reshape_bufs_sub .., unary_bufs_sub .., nullary_bufs_sub .., unary_bufs_sub .., binary_bufs_sub ..⟩

/-- The buffers `opsGroup3` writes. -/
abbrev opsGroup3_W : List (Ref sig .tc) := [main_v70, main_call6_cst, main_call6_v0, main_call6_cst_0, main_call6_v1, main_call6_v2, main_call6_v3, main_call6_v4, main_call6_v5, main_call6_v6, main_call6_cst_1, main_call6_v7, main_call6_v8, main_call6_v9, main_call6_v10, main_v71, main_v72, main_v73, main_v74, main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_cst, main_call7_v14, main_v75, main_v76, main_v77, main_c_18, main_v78, main_v79, main_c_19, main_v80, main_v81, main_v82, main_v83, main_v84, main_v85, main_cst_20, main_v86, main_cst_21, main_v87, main_v88, main_v89, main_v90, main_cst_22, main_v91, main_v92]

set_option maxRecDepth 8192 in
theorem opsGroup3_writes : (opsGroup3 : List (HloOp τ sig (Elt F))).Forall fun op => op.writes ⊆ (opsGroup3_W.map (Proc.devRef (τ := τ) .tc)).toFinset := by
  simp only [List.Forall]; exact ⟨by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in⟩

/-- A buffer `opsGroup3` does not write keeps its contents through it. -/
theorem opsGroup3_keep (V : Valuation τ sig (Elt F)) (b : Ref sig .tc) (h : b ∉ opsGroup3_W) :
    after opsGroup3 V (Proc.devRef .tc b) = V (Proc.devRef .tc b) :=
  after_of_writes_sub opsGroup3 V opsGroup3_writes h

/-- Group 4's log-softmax (16 operations). -/
abbrev opsGroup4a : List (HloOp τ sig (Elt F)) :=
  [ StableHlo.unary main_arg0 main_v93 ((extractStridedSlice S2097152x3 ![0, 10] · slices_S2097152x13_S2097152x3_0_10) : (⟨S2097152x13, .f32⟩ : BufTy).Contents (Elt F) → (⟨S2097152x3, .f32⟩ : BufTy).Contents (Elt F)),
    StableHlo.nullary main_call8_cst (constant S_ .f32 0xFF800000#32),
    StableHlo.binary main_v93 main_call8_cst main_call8_v0 (fun x v => Host.reduce FloatOps.maximumf x v reducesTo_S2097152x3_S2097152_d1 h_S_ : (⟨S2097152x3, .f32⟩ : BufTy).Contents (Elt F) → (⟨S_, .f32⟩ : BufTy).Contents (Elt F) → (⟨S2097152, .f32⟩ : BufTy).Contents (Elt F)),
    StableHlo.nullary main_call8_cst_0 (constant S_ .f32 0xFF800000#32),
    StableHlo.unary main_call8_cst_0 main_call8_v1 (broadcastInDim S2097152 ![] bcast_S_S2097152 : (⟨S_, .f32⟩ : BufTy).Contents (Elt F) → (⟨S2097152, .f32⟩ : BufTy).Contents (Elt F)),
    StableHlo.binary main_call8_v1 main_call8_v0 main_call8_v2 (maximumf : (⟨S2097152, .f32⟩ : BufTy).Contents (Elt F) → (⟨S2097152, .f32⟩ : BufTy).Contents (Elt F) → (⟨S2097152, .f32⟩ : BufTy).Contents (Elt F)),
    StableHlo.unary main_call8_v2 main_call8_v3 (broadcastInDim S2097152x1 ![0] bcast_S2097152_S2097152x1_0 : (⟨S2097152, .f32⟩ : BufTy).Contents (Elt F) → (⟨S2097152x1, .f32⟩ : BufTy).Contents (Elt F)),
    StableHlo.unary main_call8_v3 main_call8_v4 (broadcastInDim S2097152x3 ![0, 1] bcast_S2097152x1_S2097152x3_0_1 : (⟨S2097152x1, .f32⟩ : BufTy).Contents (Elt F) → (⟨S2097152x3, .f32⟩ : BufTy).Contents (Elt F)),
    StableHlo.binary main_v93 main_call8_v4 main_call8_v5 (subf : (⟨S2097152x3, .f32⟩ : BufTy).Contents (Elt F) → (⟨S2097152x3, .f32⟩ : BufTy).Contents (Elt F) → (⟨S2097152x3, .f32⟩ : BufTy).Contents (Elt F)),
    StableHlo.unary main_call8_v5 main_call8_v6 (Host.exp : (⟨S2097152x3, .f32⟩ : BufTy).Contents (Elt F) → (⟨S2097152x3, .f32⟩ : BufTy).Contents (Elt F)),
    StableHlo.nullary main_call8_cst_1 (constant S_ .f32 0x00000000#32),
    StableHlo.binary main_call8_v6 main_call8_cst_1 main_call8_v7 (fun x v => Host.reduceAdd x v reducesTo_S2097152x3_S2097152_d1 h_S_ : (⟨S2097152x3, .f32⟩ : BufTy).Contents (Elt F) → (⟨S_, .f32⟩ : BufTy).Contents (Elt F) → (⟨S2097152, .f32⟩ : BufTy).Contents (Elt F)),
    StableHlo.unary main_call8_v7 main_call8_v8 (broadcastInDim S2097152x1 ![0] bcast_S2097152_S2097152x1_0 : (⟨S2097152, .f32⟩ : BufTy).Contents (Elt F) → (⟨S2097152x1, .f32⟩ : BufTy).Contents (Elt F)),
    StableHlo.unary main_call8_v8 main_call8_v9 (Host.log : (⟨S2097152x1, .f32⟩ : BufTy).Contents (Elt F) → (⟨S2097152x1, .f32⟩ : BufTy).Contents (Elt F)),
    StableHlo.unary main_call8_v9 main_call8_v10 (broadcastInDim S2097152x3 ![0, 1] bcast_S2097152x1_S2097152x3_0_1 : (⟨S2097152x1, .f32⟩ : BufTy).Contents (Elt F) → (⟨S2097152x3, .f32⟩ : BufTy).Contents (Elt F)),
    StableHlo.binary main_call8_v5 main_call8_v10 main_v94 (subf : (⟨S2097152x3, .f32⟩ : BufTy).Contents (Elt F) → (⟨S2097152x3, .f32⟩ : BufTy).Contents (Elt F) → (⟨S2097152x3, .f32⟩ : BufTy).Contents (Elt F)) ]

set_option maxRecDepth 8192 in
theorem opsGroup4a_sub : (opsGroup4a : List (HloOp τ sig (Elt F))).Forall fun op => op.bufs ⊆ tcRefs τ sig :=
  ⟨unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The buffers `opsGroup4a` writes. -/
abbrev opsGroup4a_W : List (Ref sig .tc) := [main_v93, main_call8_cst, main_call8_v0, main_call8_cst_0, main_call8_v1, main_call8_v2, main_call8_v3, main_call8_v4, main_call8_v5, main_call8_v6, main_call8_cst_1, main_call8_v7, main_call8_v8, main_call8_v9, main_call8_v10, main_v94]

set_option maxRecDepth 8192 in
theorem opsGroup4a_writes : (opsGroup4a : List (HloOp τ sig (Elt F))).Forall fun op => op.writes ⊆ (opsGroup4a_W.map (Proc.devRef (τ := τ) .tc)).toFinset := by
  simp only [List.Forall]; exact ⟨by writes_in, by writes_in, by writes_in, by writes_in, by writes_in, by writes_in, by writes_in, by writes_in, by writes_in, by writes_in, by writes_in, by writes_in, by writes_in, by writes_in, by writes_in, by writes_in⟩

/-- A buffer `opsGroup4a` does not write keeps its contents through it. -/
theorem opsGroup4a_keep (V : Valuation τ sig (Elt F)) (b : Ref sig .tc) (h : b ∉ opsGroup4a_W) :
    after opsGroup4a V (Proc.devRef .tc b) = V (Proc.devRef .tc b) :=
  after_of_writes_sub opsGroup4a V opsGroup4a_writes h

/-- Group 4 after its log-softmax (47 operations). -/
abbrev opsGroup4b : List (HloOp τ sig (Elt F)) :=
  [ StableHlo.unary main_v0 main_v95 ((extractStridedSlice S2097152x1 ![0, 4] · slices_S2097152x5_S2097152x1_0_4) : (⟨S2097152x5, .i32⟩ : BufTy).Contents (Elt F) → (⟨S2097152x1, .i32⟩ : BufTy).Contents (Elt F)),
    StableHlo.reshape main_v95 main_v96 rfl shapeCasts_S2097152x1_S2097152,
    StableHlo.unary main_v96 main_v97 (broadcastInDim S2097152x1 ![0] bcast_S2097152_S2097152x1_0 : (⟨S2097152, .i32⟩ : BufTy).Contents (Elt F) → (⟨S2097152x1, .i32⟩ : BufTy).Contents (Elt F)),
    StableHlo.nullary main_call9_c (constantI S_ 32 0#32),
    StableHlo.unary main_call9_c main_call9_v0 (broadcastInDim S2097152x1 ![] bcast_S_S2097152x1 : (⟨S_, .i32⟩ : BufTy).Contents (Elt F) → (⟨S2097152x1, .i32⟩ : BufTy).Contents (Elt F)),
    StableHlo.binary main_v97 main_call9_v0 main_call9_v1 (cmpi .slt : (⟨S2097152x1, .i32⟩ : BufTy).Contents (Elt F) → (⟨S2097152x1, .i32⟩ : BufTy).Contents (Elt F) → (⟨S2097152x1, .i1⟩ : BufTy).Contents (Elt F)),
    StableHlo.nullary main_call9_c_0 (constantI S_ 32 3#32),
    StableHlo.unary main_call9_c_0 main_call9_v2 (broadcastInDim S2097152x1 ![] bcast_S_S2097152x1 : (⟨S_, .i32⟩ : BufTy).Contents (Elt F) → (⟨S2097152x1, .i32⟩ : BufTy).Contents (Elt F)),
    StableHlo.binary main_v97 main_call9_v2 main_call9_v3 (addi : (⟨S2097152x1, .i32⟩ : BufTy).Contents (Elt F) → (⟨S2097152x1, .i32⟩ : BufTy).Contents (Elt F) → (⟨S2097152x1, .i32⟩ : BufTy).Contents (Elt F)),
    StableHlo.ternary main_call9_v1 main_call9_v3 main_v97 main_call9_v4 (select : (⟨S2097152x1, .i1⟩ : BufTy).Contents (Elt F) → (⟨S2097152x1, .i32⟩ : BufTy).Contents (Elt F) → (⟨S2097152x1, .i32⟩ : BufTy).Contents (Elt F) → (⟨S2097152x1, .i32⟩ : BufTy).Contents (Elt F)),
    StableHlo.reshape main_call9_v4 main_call9_v5 rfl shapeCasts_S2097152x1_S2097152x1x1,
    StableHlo.nullary main_call9_c_1 (constantI S1 32 2#32),
    StableHlo.nullary main_call9_c_2 (constantI S_ 32 0#32),
    StableHlo.unary main_call9_c_2 main_call9_v6 (broadcastInDim S2097152x1x1 ![] bcast_S_S2097152x1x1 : (⟨S_, .i32⟩ : BufTy).Contents (Elt F) → (⟨S2097152x1x1, .i32⟩ : BufTy).Contents (Elt F)),
    StableHlo.binary main_call9_v5 main_call9_v6 main_call9_v7 (cmpi .sge : (⟨S2097152x1x1, .i32⟩ : BufTy).Contents (Elt F) → (⟨S2097152x1x1, .i32⟩ : BufTy).Contents (Elt F) → (⟨S2097152x1x1, .i1⟩ : BufTy).Contents (Elt F)),
    StableHlo.unary main_call9_c_1 main_call9_v8 (broadcastInDim S1x1x1 ![2] bcast_S1_S1x1x1_2 : (⟨S1, .i32⟩ : BufTy).Contents (Elt F) → (⟨S1x1x1, .i32⟩ : BufTy).Contents (Elt F)),
    StableHlo.unary main_call9_v8 main_call9_v9 (broadcastInDim S2097152x1x1 ![0, 1, 2] bcast_S1x1x1_S2097152x1x1_0_1_2 : (⟨S1x1x1, .i32⟩ : BufTy).Contents (Elt F) → (⟨S2097152x1x1, .i32⟩ : BufTy).Contents (Elt F)),
    StableHlo.binary main_call9_v5 main_call9_v9 main_call9_v10 (cmpi .sle : (⟨S2097152x1x1, .i32⟩ : BufTy).Contents (Elt F) → (⟨S2097152x1x1, .i32⟩ : BufTy).Contents (Elt F) → (⟨S2097152x1x1, .i1⟩ : BufTy).Contents (Elt F)),
    StableHlo.binary main_call9_v7 main_call9_v10 main_call9_v11 (andi : (⟨S2097152x1x1, .i1⟩ : BufTy).Contents (Elt F) → (⟨S2097152x1x1, .i1⟩ : BufTy).Contents (Elt F) → (⟨S2097152x1x1, .i1⟩ : BufTy).Contents (Elt F)),
    StableHlo.nullary main_call9_c_3 (constantI S_ 1 1#1),
    StableHlo.binary main_call9_v11 main_call9_c_3 main_call9_v12 (fun x v => Host.reduce IntOp.andi x v reducesTo_S2097152x1x1_S2097152x1_d2 h_S_ : (⟨S2097152x1x1, .i1⟩ : BufTy).Contents (Elt F) → (⟨S_, .i1⟩ : BufTy).Contents (Elt F) → (⟨S2097152x1, .i1⟩ : BufTy).Contents (Elt F)),
    StableHlo.binary main_v94 main_call9_v5 main_call9_v13 (fun x i => Host.gather gather_S2097152x3_S2097152x1x1_S2097152x1_n_1_0_0_1_2_11 x i : (⟨S2097152x3, .f32⟩ : BufTy).Contents (Elt F) → (⟨S2097152x1x1, .i32⟩ : BufTy).Contents (Elt F) → (⟨S2097152x1, .f32⟩ : BufTy).Contents (Elt F)),
    StableHlo.nullary main_call9_cst (constant S_ .f32 0x7FC00000#32),
    StableHlo.unary main_call9_cst main_call9_v14 (broadcastInDim S2097152x1 ![] bcast_S_S2097152x1 : (⟨S_, .f32⟩ : BufTy).Contents (Elt F) → (⟨S2097152x1, .f32⟩ : BufTy).Contents (Elt F)),
    StableHlo.ternary main_call9_v12 main_call9_v13 main_call9_v14 main_v98 (select : (⟨S2097152x1, .i1⟩ : BufTy).Contents (Elt F) → (⟨S2097152x1, .f32⟩ : BufTy).Contents (Elt F) → (⟨S2097152x1, .f32⟩ : BufTy).Contents (Elt F) → (⟨S2097152x1, .f32⟩ : BufTy).Contents (Elt F)),
    StableHlo.reshape main_v98 main_v99 rfl shapeCasts_S2097152x1_S2097152,
    StableHlo.unary main_v99 main_v100 (Host.negf : (⟨S2097152, .f32⟩ : BufTy).Contents (Elt F) → (⟨S2097152, .f32⟩ : BufTy).Contents (Elt F)),
    StableHlo.nullary main_c_23 (constantI S_ 32 0#32),
    StableHlo.unary main_c_23 main_v101 (broadcastInDim S2097152 ![] bcast_S_S2097152 : (⟨S_, .i32⟩ : BufTy).Contents (Elt F) → (⟨S2097152, .i32⟩ : BufTy).Contents (Elt F)),
    StableHlo.binary main_v96 main_v101 main_v102 (cmpi .slt : (⟨S2097152, .i32⟩ : BufTy).Contents (Elt F) → (⟨S2097152, .i32⟩ : BufTy).Contents (Elt F) → (⟨S2097152, .i1⟩ : BufTy).Contents (Elt F)),
    StableHlo.nullary main_c_24 (constantI S_ 32 3#32),
    StableHlo.unary main_c_24 main_v103 (broadcastInDim S2097152 ![] bcast_S_S2097152 : (⟨S_, .i32⟩ : BufTy).Contents (Elt F) → (⟨S2097152, .i32⟩ : BufTy).Contents (Elt F)),
    StableHlo.binary main_v96 main_v103 main_v104 (addi : (⟨S2097152, .i32⟩ : BufTy).Contents (Elt F) → (⟨S2097152, .i32⟩ : BufTy).Contents (Elt F) → (⟨S2097152, .i32⟩ : BufTy).Contents (Elt F)),
    StableHlo.ternary main_v102 main_v104 main_v96 main_v105 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v105 main_v106 (broadcastInDim S2097152x1 ![0] bcast_S2097152_S2097152x1_0 : (⟨S2097152, .i32⟩ : BufTy).Contents (Elt F) → (⟨S2097152x1, .i32⟩ : BufTy).Contents (Elt F)),
    StableHlo.binary main_cst_3 main_v106 main_v107 ((fun x i => Host.gather gather_S3_S2097152x1_S2097152_n_0_n_n_0_1_1 x i) : (⟨S3, .f32⟩ : BufTy).Contents (Elt F) → (⟨S2097152x1, .i32⟩ : BufTy).Contents (Elt F) → (⟨S2097152, .f32⟩ : BufTy).Contents (Elt F)),
    StableHlo.binary main_v107 main_v100 main_v108 (mulf : (⟨S2097152, .f32⟩ : BufTy).Contents (Elt F) → (⟨S2097152, .f32⟩ : BufTy).Contents (Elt F) → (⟨S2097152, .f32⟩ : BufTy).Contents (Elt F)),
    StableHlo.nullary main_cst_25 (constant S_ .f32 0x00000000#32),
    StableHlo.binary main_v108 main_cst_25 main_v109 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)),
    StableHlo.nullary main_cst_26 (constant S_ .f32 0x4A000000#32),
    StableHlo.binary main_v109 main_cst_26 main_v110 (Host.divf : (⟨S_, .f32⟩ : BufTy).Contents (Elt F) → (⟨S_, .f32⟩ : BufTy).Contents (Elt F) → (⟨S_, .f32⟩ : BufTy).Contents (Elt F)),
    StableHlo.unary main_v94 main_v111 ((extractStridedSlice S2097152x1 ![0, 0] · slices_S2097152x3_S2097152x1_0_0) : (⟨S2097152x3, .f32⟩ : BufTy).Contents (Elt F) → (⟨S2097152x1, .f32⟩ : BufTy).Contents (Elt F)),
    StableHlo.reshape main_v111 main_v112 rfl shapeCasts_S2097152x1_S2097152,
    StableHlo.unary main_v112 main_v113 (Host.exp : (⟨S2097152, .f32⟩ : BufTy).Contents (Elt F) → (⟨S2097152, .f32⟩ : BufTy).Contents (Elt F)),
    StableHlo.nullary main_cst_27 (constant S_ .f32 0x3F800000#32),
    StableHlo.unary main_cst_27 main_v114 (broadcastInDim S2097152 ![] bcast_S_S2097152 : (⟨S_, .f32⟩ : BufTy).Contents (Elt F) → (⟨S2097152, .f32⟩ : BufTy).Contents (Elt F)),
    StableHlo.binary main_v114 main_v113 main_v115 (subf : (⟨S2097152, .f32⟩ : BufTy).Contents (Elt F) → (⟨S2097152, .f32⟩ : BufTy).Contents (Elt F) → (⟨S2097152, .f32⟩ : BufTy).Contents (Elt F)) ]

set_option maxRecDepth 8192 in
theorem opsGroup4b_sub : (opsGroup4b : List (HloOp τ sig (Elt F))).Forall fun op => op.bufs ⊆ tcRefs τ sig :=
  ⟨unary_bufs_sub .., reshape_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., nullary_bufs_sub .., binary_bufs_sub .., unary_bufs_sub .., reshape_bufs_sub .., unary_bufs_sub .., nullary_bufs_sub .., unary_bufs_sub .., binary_bufs_sub ..⟩

/-- The buffers `opsGroup4b` writes. -/
abbrev opsGroup4b_W : List (Ref sig .tc) := [main_v95, main_v96, main_v97, main_call9_c, main_call9_v0, main_call9_v1, main_call9_c_0, main_call9_v2, main_call9_v3, main_call9_v4, main_call9_v5, main_call9_c_1, main_call9_c_2, main_call9_v6, main_call9_v7, main_call9_v8, main_call9_v9, main_call9_v10, main_call9_v11, main_call9_c_3, main_call9_v12, main_call9_v13, main_call9_cst, main_call9_v14, main_v98, main_v99, main_v100, main_c_23, main_v101, main_v102, main_c_24, main_v103, main_v104, main_v105, main_v106, main_v107, main_v108, main_cst_25, main_v109, main_cst_26, main_v110, main_v111, main_v112, main_v113, main_cst_27, main_v114, main_v115]

set_option maxRecDepth 8192 in
theorem opsGroup4b_writes : (opsGroup4b : List (HloOp τ sig (Elt F))).Forall fun op => op.writes ⊆ (opsGroup4b_W.map (Proc.devRef (τ := τ) .tc)).toFinset := by
  simp only [List.Forall]; exact ⟨by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in⟩

/-- A buffer `opsGroup4b` does not write keeps its contents through it. -/
theorem opsGroup4b_keep (V : Valuation τ sig (Elt F)) (b : Ref sig .tc) (h : b ∉ opsGroup4b_W) :
    after opsGroup4b V (Proc.devRef .tc b) = V (Proc.devRef .tc b) :=
  after_of_writes_sub opsGroup4b V opsGroup4b_writes h

/-- The positive-label indicator and the five probabilities as columns (11 operations). -/
abbrev opsAny : List (HloOp τ sig (Elt F)) :=
  [ StableHlo.nullary main_c_28 (constantI S_ 32 2147483648#32),
    StableHlo.binary main_v0 main_c_28 main_v116 ((fun x v => Host.reduce IntOp.maxsi x v reducesTo_S2097152x5_S2097152_d1 h_S_) : (⟨S2097152x5, .i32⟩ : BufTy).Contents (Elt F) → (⟨S_, .i32⟩ : BufTy).Contents (Elt F) → (⟨S2097152, .i32⟩ : BufTy).Contents (Elt F)),
    StableHlo.nullary main_c_29 (constantI S_ 32 0#32),
    StableHlo.unary main_c_29 main_v117 (broadcastInDim S2097152 ![] bcast_S_S2097152 : (⟨S_, .i32⟩ : BufTy).Contents (Elt F) → (⟨S2097152, .i32⟩ : BufTy).Contents (Elt F)),
    StableHlo.binary main_v116 main_v117 main_v118 (cmpi .sgt : (⟨S2097152, .i32⟩ : BufTy).Contents (Elt F) → (⟨S2097152, .i32⟩ : BufTy).Contents (Elt F) → (⟨S2097152, .i1⟩ : BufTy).Contents (Elt F)),
    StableHlo.unary main_v118 main_v119 (uitofp .f32 : (⟨S2097152, .i1⟩ : BufTy).Contents (Elt F) → (⟨S2097152, .f32⟩ : BufTy).Contents (Elt F)),
    StableHlo.unary main_v23 main_v120 (broadcastInDim S2097152x1 ![0] bcast_S2097152_S2097152x1_0 : (⟨S2097152, .f32⟩ : BufTy).Contents (Elt F) → (⟨S2097152x1, .f32⟩ : BufTy).Contents (Elt F)),
    StableHlo.unary main_v46 main_v121 (broadcastInDim S2097152x1 ![0] bcast_S2097152_S2097152x1_0 : (⟨S2097152, .f32⟩ : BufTy).Contents (Elt F) → (⟨S2097152x1, .f32⟩ : BufTy).Contents (Elt F)),
    StableHlo.unary main_v69 main_v122 (broadcastInDim S2097152x1 ![0] bcast_S2097152_S2097152x1_0 : (⟨S2097152, .f32⟩ : BufTy).Contents (Elt F) → (⟨S2097152x1, .f32⟩ : BufTy).Contents (Elt F)),
    StableHlo.unary main_v92 main_v123 (broadcastInDim S2097152x1 ![0] bcast_S2097152_S2097152x1_0 : (⟨S2097152, .f32⟩ : BufTy).Contents (Elt F) → (⟨S2097152x1, .f32⟩ : BufTy).Contents (Elt F)),
    StableHlo.unary main_v115 main_v124 (broadcastInDim S2097152x1 ![0] bcast_S2097152_S2097152x1_0 : (⟨S2097152, .f32⟩ : BufTy).Contents (Elt F) → (⟨S2097152x1, .f32⟩ : BufTy).Contents (Elt F)) ]

set_option maxRecDepth 8192 in
theorem opsAny_sub : (opsAny : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., unary_bufs_sub .., unary_bufs_sub .., unary_bufs_sub .., unary_bufs_sub ..⟩

/-- The buffers `opsAny` writes. -/
abbrev opsAny_W : List (Ref sig .tc) := [main_c_28, main_v116, main_c_29, main_v117, main_v118, main_v119, main_v120, main_v121, main_v122, main_v123, main_v124]

set_option maxRecDepth 8192 in
theorem opsAny_writes : (opsAny : List (HloOp τ sig (Elt F))).Forall fun op => op.writes ⊆ (opsAny_W.map (Proc.devRef (τ := τ) .tc)).toFinset := by
  simp only [List.Forall]; exact ⟨by writes_in, by writes_in, by writes_in, by writes_in, by writes_in, by writes_in, by writes_in, by writes_in, by writes_in, by writes_in, by writes_in⟩

/-- A buffer `opsAny` does not write keeps its contents through it. -/
theorem opsAny_keep (V : Valuation τ sig (Elt F)) (b : Ref sig .tc) (h : b ∉ opsAny_W) :
    after opsAny V (Proc.devRef .tc b) = V (Proc.devRef .tc b) :=
  after_of_writes_sub opsAny V opsAny_writes h

/-- The largest probability and the weighted binary cross-entropy, summed (25 operations). -/
abbrev opsBce : List (HloOp τ sig (Elt F)) :=
  [ StableHlo.nary ![main_v120, main_v121, main_v122, main_v123, main_v124] main_v125 (fun u => concatenate S2097152x5 1 [⟨S2097152x1, u 0⟩, ⟨S2097152x1, u 1⟩, ⟨S2097152x1, u 2⟩, ⟨S2097152x1, u 3⟩, ⟨S2097152x1, u 4⟩] concatenates_S2097152x1_S2097152x1_S2097152x1_S2097152x1_S2097152x1_S2097152x5_d1),
    StableHlo.nullary main_cst_30 (constant S_ .f32 0xFF800000#32),
    StableHlo.binary main_v125 main_cst_30 main_v126 ((fun x v => Host.reduce FloatOps.maximumf x v reducesTo_S2097152x5_S2097152_d1 h_S_) : (⟨S2097152x5, .f32⟩ : BufTy).Contents (Elt F) → (⟨S_, .f32⟩ : BufTy).Contents (Elt F) → (⟨S2097152, .f32⟩ : BufTy).Contents (Elt F)),
    StableHlo.nullary main_cst_31 (constant S_ .f32 0x3F000000#32),
    StableHlo.unary main_cst_31 main_v127 (broadcastInDim S2097152 ![] bcast_S_S2097152 : (⟨S_, .f32⟩ : BufTy).Contents (Elt F) → (⟨S2097152, .f32⟩ : BufTy).Contents (Elt F)),
    StableHlo.binary main_v119 main_v127 main_v128 (cmpf .ogt : (⟨S2097152, .f32⟩ : BufTy).Contents (Elt F) → (⟨S2097152, .f32⟩ : BufTy).Contents (Elt F) → (⟨S2097152, .i1⟩ : BufTy).Contents (Elt F)),
    StableHlo.nullary main_cst_32 (constant S_ .f32 0x40C00000#32),
    StableHlo.nullary main_cst_33 (constant S_ .f32 0x3F800000#32),
    StableHlo.unary main_cst_32 main_call10_v0 (broadcastInDim S2097152 ![] bcast_S_S2097152 : (⟨S_, .f32⟩ : BufTy).Contents (Elt F) → (⟨S2097152, .f32⟩ : BufTy).Contents (Elt F)),
    StableHlo.unary main_cst_33 main_call10_v1 (broadcastInDim S2097152 ![] bcast_S_S2097152 : (⟨S_, .f32⟩ : BufTy).Contents (Elt F) → (⟨S2097152, .f32⟩ : BufTy).Contents (Elt F)),
    StableHlo.ternary main_v128 main_call10_v0 main_call10_v1 main_v129 (select : (⟨S2097152, .i1⟩ : BufTy).Contents (Elt F) → (⟨S2097152, .f32⟩ : BufTy).Contents (Elt F) → (⟨S2097152, .f32⟩ : BufTy).Contents (Elt F) → (⟨S2097152, .f32⟩ : BufTy).Contents (Elt F)),
    StableHlo.unary main_v126 main_v130 (Host.log : (⟨S2097152, .f32⟩ : BufTy).Contents (Elt F) → (⟨S2097152, .f32⟩ : BufTy).Contents (Elt F)),
    StableHlo.binary main_v119 main_v130 main_v131 (mulf : (⟨S2097152, .f32⟩ : BufTy).Contents (Elt F) → (⟨S2097152, .f32⟩ : BufTy).Contents (Elt F) → (⟨S2097152, .f32⟩ : BufTy).Contents (Elt F)),
    StableHlo.nullary main_cst_34 (constant S_ .f32 0x3F800000#32),
    StableHlo.unary main_cst_34 main_v132 (broadcastInDim S2097152 ![] bcast_S_S2097152 : (⟨S_, .f32⟩ : BufTy).Contents (Elt F) → (⟨S2097152, .f32⟩ : BufTy).Contents (Elt F)),
    StableHlo.binary main_v132 main_v119 main_v133 (subf : (⟨S2097152, .f32⟩ : BufTy).Contents (Elt F) → (⟨S2097152, .f32⟩ : BufTy).Contents (Elt F) → (⟨S2097152, .f32⟩ : BufTy).Contents (Elt F)),
    StableHlo.unary main_v126 main_v134 (Host.negf : (⟨S2097152, .f32⟩ : BufTy).Contents (Elt F) → (⟨S2097152, .f32⟩ : BufTy).Contents (Elt F)),
    StableHlo.unary main_v134 main_v135 (Host.log1p : (⟨S2097152, .f32⟩ : BufTy).Contents (Elt F) → (⟨S2097152, .f32⟩ : BufTy).Contents (Elt F)),
    StableHlo.binary main_v133 main_v135 main_v136 (mulf : (⟨S2097152, .f32⟩ : BufTy).Contents (Elt F) → (⟨S2097152, .f32⟩ : BufTy).Contents (Elt F) → (⟨S2097152, .f32⟩ : BufTy).Contents (Elt F)),
    StableHlo.binary main_v131 main_v136 main_v137 (addf : (⟨S2097152, .f32⟩ : BufTy).Contents (Elt F) → (⟨S2097152, .f32⟩ : BufTy).Contents (Elt F) → (⟨S2097152, .f32⟩ : BufTy).Contents (Elt F)),
    StableHlo.unary main_v137 main_v138 (Host.negf : (⟨S2097152, .f32⟩ : BufTy).Contents (Elt F) → (⟨S2097152, .f32⟩ : BufTy).Contents (Elt F)),
    StableHlo.unary main_v129 main_v139 (id : (⟨S2097152, .f32⟩ : BufTy).Contents (Elt F) → (⟨S2097152, .f32⟩ : BufTy).Contents (Elt F)),
    StableHlo.binary main_v138 main_v139 main_v140 (mulf : (⟨S2097152, .f32⟩ : BufTy).Contents (Elt F) → (⟨S2097152, .f32⟩ : BufTy).Contents (Elt F) → (⟨S2097152, .f32⟩ : BufTy).Contents (Elt F)),
    StableHlo.nullary main_cst_35 (constant S_ .f32 0x00000000#32),
    StableHlo.binary main_v140 main_cst_35 main_v141 ((fun x v => Host.reduceAdd x v reducesTo_S2097152_S_d0 h_S_) : (⟨S2097152, .f32⟩ : BufTy).Contents (Elt F) → (⟨S_, .f32⟩ : BufTy).Contents (Elt F) → (⟨S_, .f32⟩ : BufTy).Contents (Elt F)) ]

set_option maxRecDepth 8192 in
theorem opsBce_sub : (opsBce : List (HloOp τ sig (Elt F))).Forall fun op => op.bufs ⊆ tcRefs τ sig :=
  ⟨nary_bufs_sub .., nullary_bufs_sub .., binary_bufs_sub .., nullary_bufs_sub .., unary_bufs_sub .., binary_bufs_sub .., nullary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., binary_bufs_sub .., unary_bufs_sub .., unary_bufs_sub .., binary_bufs_sub .., nullary_bufs_sub .., binary_bufs_sub ..⟩

/-- The buffers `opsBce` writes. -/
abbrev opsBce_W : List (Ref sig .tc) := [main_v125, main_cst_30, main_v126, main_cst_31, main_v127, main_v128, main_cst_32, main_cst_33, main_call10_v0, main_call10_v1, main_v129, main_v130, main_v131, main_cst_34, main_v132, main_v133, main_v134, main_v135, main_v136, main_v137, main_v138, main_v139, main_v140, main_cst_35, main_v141]

set_option maxRecDepth 8192 in
theorem opsBce_writes : (opsBce : List (HloOp τ sig (Elt F))).Forall fun op => op.writes ⊆ (opsBce_W.map (Proc.devRef (τ := τ) .tc)).toFinset := by
  simp only [List.Forall]; exact ⟨by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in, by writes_in⟩

/-- A buffer `opsBce` does not write keeps its contents through it. -/
theorem opsBce_keep (V : Valuation τ sig (Elt F)) (b : Ref sig .tc) (h : b ∉ opsBce_W) :
    after opsBce V (Proc.devRef .tc b) = V (Proc.devRef .tc b) :=
  after_of_writes_sub opsBce V opsBce_writes h

/-- The cross-entropy's mean (2 operations). -/
abbrev opsBceMean : List (HloOp τ sig (Elt F)) :=
  [ StableHlo.nullary main_cst_36 (constant S_ .f32 0x4A000000#32),
    StableHlo.binary main_v141 main_cst_36 main_v142 (Host.divf : (⟨S_, .f32⟩ : BufTy).Contents (Elt F) → (⟨S_, .f32⟩ : BufTy).Contents (Elt F) → (⟨S_, .f32⟩ : BufTy).Contents (Elt F)) ]

set_option maxRecDepth 8192 in
theorem opsBceMean_sub : (opsBceMean : List (HloOp τ sig (Elt F))).Forall fun op => op.bufs ⊆ tcRefs τ sig :=
  ⟨nullary_bufs_sub .., binary_bufs_sub ..⟩

/-- The buffers `opsBceMean` writes. -/
abbrev opsBceMean_W : List (Ref sig .tc) := [main_cst_36, main_v142]

set_option maxRecDepth 8192 in
theorem opsBceMean_writes : (opsBceMean : List (HloOp τ sig (Elt F))).Forall fun op => op.writes ⊆ (opsBceMean_W.map (Proc.devRef (τ := τ) .tc)).toFinset := by
  simp only [List.Forall]; exact ⟨by writes_in, by writes_in⟩

/-- A buffer `opsBceMean` does not write keeps its contents through it. -/
theorem opsBceMean_keep (V : Valuation τ sig (Elt F)) (b : Ref sig .tc) (h : b ∉ opsBceMean_W) :
    after opsBceMean V (Proc.devRef .tc b) = V (Proc.devRef .tc b) :=
  after_of_writes_sub opsBceMean V opsBceMean_writes h

/-- The six means added left to right, and the seven one-element arrays (12 operations). -/
abbrev opsSum : List (HloOp τ sig (Elt F)) :=
  [ StableHlo.binary main_v18 main_v41 main_v143 (addf : (⟨S_, .f32⟩ : BufTy).Contents (Elt F) → (⟨S_, .f32⟩ : BufTy).Contents (Elt F) → (⟨S_, .f32⟩ : BufTy).Contents (Elt F)),
    StableHlo.binary main_v143 main_v64 main_v144 (addf : (⟨S_, .f32⟩ : BufTy).Contents (Elt F) → (⟨S_, .f32⟩ : BufTy).Contents (Elt F) → (⟨S_, .f32⟩ : BufTy).Contents (Elt F)),
    StableHlo.binary main_v144 main_v87 main_v145 (addf : (⟨S_, .f32⟩ : BufTy).Contents (Elt F) → (⟨S_, .f32⟩ : BufTy).Contents (Elt F) → (⟨S_, .f32⟩ : BufTy).Contents (Elt F)),
    StableHlo.binary main_v145 main_v110 main_v146 (addf : (⟨S_, .f32⟩ : BufTy).Contents (Elt F) → (⟨S_, .f32⟩ : BufTy).Contents (Elt F) → (⟨S_, .f32⟩ : BufTy).Contents (Elt F)),
    StableHlo.binary main_v146 main_v142 main_v147 (addf : (⟨S_, .f32⟩ : BufTy).Contents (Elt F) → (⟨S_, .f32⟩ : BufTy).Contents (Elt F) → (⟨S_, .f32⟩ : BufTy).Contents (Elt F)),
    StableHlo.unary main_v18 main_v148 (broadcastInDim S1 ![] bcast_S_S1 : (⟨S_, .f32⟩ : BufTy).Contents (Elt F) → (⟨S1, .f32⟩ : BufTy).Contents (Elt F)),
    StableHlo.unary main_v41 main_v149 (broadcastInDim S1 ![] bcast_S_S1 : (⟨S_, .f32⟩ : BufTy).Contents (Elt F) → (⟨S1, .f32⟩ : BufTy).Contents (Elt F)),
    StableHlo.unary main_v64 main_v150 (broadcastInDim S1 ![] bcast_S_S1 : (⟨S_, .f32⟩ : BufTy).Contents (Elt F) → (⟨S1, .f32⟩ : BufTy).Contents (Elt F)),
    StableHlo.unary main_v87 main_v151 (broadcastInDim S1 ![] bcast_S_S1 : (⟨S_, .f32⟩ : BufTy).Contents (Elt F) → (⟨S1, .f32⟩ : BufTy).Contents (Elt F)),
    StableHlo.unary main_v110 main_v152 (broadcastInDim S1 ![] bcast_S_S1 : (⟨S_, .f32⟩ : BufTy).Contents (Elt F) → (⟨S1, .f32⟩ : BufTy).Contents (Elt F)),
    StableHlo.unary main_v142 main_v153 (broadcastInDim S1 ![] bcast_S_S1 : (⟨S_, .f32⟩ : BufTy).Contents (Elt F) → (⟨S1, .f32⟩ : BufTy).Contents (Elt F)),
    StableHlo.unary main_v147 main_v154 (broadcastInDim S1 ![] bcast_S_S1 : (⟨S_, .f32⟩ : BufTy).Contents (Elt F) → (⟨S1, .f32⟩ : BufTy).Contents (Elt F)) ]

set_option maxRecDepth 8192 in
theorem opsSum_sub : (opsSum : List (HloOp τ sig (Elt F))).Forall fun op => op.bufs ⊆ tcRefs τ sig :=
  ⟨binary_bufs_sub .., binary_bufs_sub .., binary_bufs_sub .., binary_bufs_sub .., binary_bufs_sub .., unary_bufs_sub .., unary_bufs_sub .., unary_bufs_sub .., unary_bufs_sub .., unary_bufs_sub .., unary_bufs_sub .., unary_bufs_sub ..⟩

/-- The buffers `opsSum` writes. -/
abbrev opsSum_W : List (Ref sig .tc) := [main_v143, main_v144, main_v145, main_v146, main_v147, main_v148, main_v149, main_v150, main_v151, main_v152, main_v153, main_v154]

set_option maxRecDepth 8192 in
theorem opsSum_writes : (opsSum : List (HloOp τ sig (Elt F))).Forall fun op => op.writes ⊆ (opsSum_W.map (Proc.devRef (τ := τ) .tc)).toFinset := by
  simp only [List.Forall]; exact ⟨by writes_in, by writes_in, by writes_in, by writes_in, by writes_in, by writes_in, by writes_in, by writes_in, by writes_in, by writes_in, by writes_in, by writes_in⟩

/-- A buffer `opsSum` does not write keeps its contents through it. -/
theorem opsSum_keep (V : Valuation τ sig (Elt F)) (b : Ref sig .tc) (h : b ∉ opsSum_W) :
    after opsSum V (Proc.devRef .tc b) = V (Proc.devRef .tc b) :=
  after_of_writes_sub opsSum V opsSum_writes h

/-- The seven side by side (1 operations). -/
abbrev opsOut : List (HloOp τ sig (Elt F)) :=
  [ StableHlo.nary ![main_v148, main_v149, main_v150, main_v151, main_v152, main_v153, main_v154] main_v155 (fun u => concatenate S7 0 [⟨S1, u 0⟩, ⟨S1, u 1⟩, ⟨S1, u 2⟩, ⟨S1, u 3⟩, ⟨S1, u 4⟩, ⟨S1, u 5⟩, ⟨S1, u 6⟩] concatenates_S1_S1_S1_S1_S1_S1_S1_S7_d0) ]

set_option maxRecDepth 8192 in
theorem opsOut_sub : (opsOut : List (HloOp τ sig (Elt F))).Forall fun op => op.bufs ⊆ tcRefs τ sig :=
  nary_bufs_sub ..

/-- The buffers `opsOut` writes. -/
abbrev opsOut_W : List (Ref sig .tc) := [main_v155]

set_option maxRecDepth 8192 in
theorem opsOut_writes : (opsOut : List (HloOp τ sig (Elt F))).Forall fun op => op.writes ⊆ (opsOut_W.map (Proc.devRef (τ := τ) .tc)).toFinset := by
  simp only [List.Forall]; writes_in

/-- A buffer `opsOut` does not write keeps its contents through it. -/
theorem opsOut_keep (V : Valuation τ sig (Elt F)) (b : Ref sig .tc) (h : b ∉ opsOut_W) :
    after opsOut V (Proc.devRef .tc b) = V (Proc.devRef .tc b) :=
  after_of_writes_sub opsOut V opsOut_writes h

end Cert.ReferenceIdeal.RefOps

end
-- ==== Proof.RefProg.lean ====
/-
  The reference program's four printed windows are straight lines of host operations: each window, with every
  outlined function's body standing at its call over that call's buffers, is the run of the matching consecutive
  pieces of the operation lists.
-/
import proofs.«403666_j67276367724950_3_alg».proof.Proof.RefOps
import Idealize.ShloMosaic.Lib.StableHlo.Run
import Idealize.ShloMosaic.Lib.Pipeline.Regions

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
/-- The first window: the weight tables and label columns, group 0, and group 1 up to the constant of its probability. -/
theorem main_part0_eq (c : Dev nD) : main_part0 (F := F) c = seq (opsLabels ++ (opsGroup0 ++ opsGroup1a)) := by
  chain_rfl

set_option maxRecDepth 65536 in
/-- The second window: group 1's probability, groups 2 and 3, and group 4's log-softmax. -/
theorem main_part1_eq (c : Dev nD) : main_part1 (F := F) c = seq (opsGroup1b ++ (opsGroup2 ++ (opsGroup3 ++ opsGroup4a))) := by
  chain_rfl

set_option maxRecDepth 65536 in
/-- The third window: the rest of group 4, the positive-label indicator, and the cross-entropy summed. -/
theorem main_part2_eq (c : Dev nD) : main_part2 (F := F) c = seq (opsGroup4b ++ (opsAny ++ opsBce)) := by
  chain_rfl

set_option maxRecDepth 65536 in
/-- The fourth window: the cross-entropy's mean, the sum of the six means, and the seven results side by side. -/
theorem main_part3_eq (c : Dev nD) : main_part3 (F := F) c = seq (opsBceMean ++ (opsSum ++ opsOut)) := by
  chain_rfl

end Cert.ReferenceIdeal.RefOps

end
-- ==== Proof.RefProgRun.lean ====
/-
  The reference program as one straight line: its four printed windows, run one after the other, are the run of the
  thirteen operation lists laid end to end; every operation touches TensorCore buffers only and allocates none; so
  every weakly fair execution ends with each buffer at the operations' results folded over the launch contents.
-/
import proofs.«403666_j67276367724950_3_alg».proof.Proof.RefProg
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- The whole program's operations, in order. -/
abbrev ops : List (HloOp τ sig (Elt F)) :=
  opsLabels ++ (opsGroup0 ++ (opsGroup1a ++ (opsGroup1b ++ (opsGroup2 ++ (opsGroup3 ++ (opsGroup4a ++ (opsGroup4b ++ (opsAny ++ (opsBce ++ (opsBceMean ++ (opsSum ++ (opsOut))))))))))))

/-- The program is the run of that list: the four windows in turn, each the run of its pieces. -/
theorem main_eq (c : Dev nD) : main (F := F) c = seq ops := by
  show (main_part0 (F := F) c >>= fun _ => main_part1 (F := F) c >>= fun _ => main_part2 (F := F) c >>= fun _ => main_part3 (F := F) c) = _
  rw [main_part0_eq, main_part1_eq, main_part2_eq, main_part3_eq]
  simp only [ops, seq_append, bind_assoc]

theorem scopedRefs_eq : (Finset.univ.filter fun b : Ref sig .tc => b.isScoped) = ∅ := by decide
theorem scopedSems_eq : (Finset.univ.filter fun sm : SemLoc sig => sm.isScoped .tc) = ∅ := by decide

open List in
/-- Every operation touches TensorCore buffers only. -/
theorem ops_sub : (ops : List (HloOp τ sig (Elt F))).Forall fun op => op.bufs ⊆ tcRefs τ sig :=
  forall_append.2 ⟨opsLabels_sub, (forall_append.2 ⟨opsGroup0_sub, (forall_append.2 ⟨opsGroup1a_sub, (forall_append.2 ⟨opsGroup1b_sub, (forall_append.2 ⟨opsGroup2_sub, (forall_append.2 ⟨opsGroup3_sub, (forall_append.2 ⟨opsGroup4a_sub, (forall_append.2 ⟨opsGroup4b_sub, (forall_append.2 ⟨opsAny_sub, (forall_append.2 ⟨opsBce_sub, (forall_append.2 ⟨opsBceMean_sub, (forall_append.2 ⟨opsSum_sub, opsOut_sub⟩)⟩)⟩)⟩)⟩)⟩)⟩)⟩)⟩)⟩)⟩)⟩

set_option maxRecDepth 8192 in
theorem opsLabels_fresh : (opsLabels : List (HloOp τ sig (Elt F))).Forall fun op => op.fresh = ∅ :=
  ⟨rfl, rfl, rfl, rfl, rfl, rfl⟩

set_option maxRecDepth 8192 in
theorem opsGroup0_fresh : (opsGroup0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsGroup1a_fresh : (opsGroup1a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsGroup1b_fresh : (opsGroup1b : List (HloOp τ sig (Elt F))).Forall fun op => op.fresh = ∅ :=
  ⟨rfl, rfl⟩

set_option maxRecDepth 8192 in
theorem opsGroup2_fresh : (opsGroup2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsGroup3_fresh : (opsGroup3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsGroup4a_fresh : (opsGroup4a : List (HloOp τ sig (Elt F))).Forall fun op => op.fresh = ∅ :=
  ⟨rfl, rfl, rfl, rfl, rfl, rfl, rfl, rfl, rfl, rfl, rfl, rfl, rfl, rfl, rfl, rfl⟩

set_option maxRecDepth 8192 in
theorem opsGroup4b_fresh : (opsGroup4b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem opsAny_fresh : (opsAny : List (HloOp τ sig (Elt F))).Forall fun op => op.fresh = ∅ :=
  ⟨rfl, rfl, rfl, rfl, rfl, rfl, rfl, rfl, rfl, rfl, rfl⟩

set_option maxRecDepth 8192 in
theorem opsBce_fresh : (opsBce : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

set_option maxRecDepth 8192 in
theorem opsBceMean_fresh : (opsBceMean : List (HloOp τ sig (Elt F))).Forall fun op => op.fresh = ∅ :=
  ⟨rfl, rfl⟩

set_option maxRecDepth 8192 in
theorem opsSum_fresh : (opsSum : List (HloOp τ sig (Elt F))).Forall fun op => op.fresh = ∅ :=
  ⟨rfl, rfl, rfl, rfl, rfl, rfl, rfl, rfl, rfl, rfl, rfl, rfl⟩

set_option maxRecDepth 8192 in
theorem opsOut_fresh : (opsOut : List (HloOp τ sig (Elt F))).Forall fun op => op.fresh = ∅ :=
  rfl

open List in
/-- No operation allocates a buffer. -/
theorem ops_fresh : (ops : List (HloOp τ sig (Elt F))).Forall fun op => op.fresh = ∅ :=
  forall_append.2 ⟨opsLabels_fresh, (forall_append.2 ⟨opsGroup0_fresh, (forall_append.2 ⟨opsGroup1a_fresh, (forall_append.2 ⟨opsGroup1b_fresh, (forall_append.2 ⟨opsGroup2_fresh, (forall_append.2 ⟨opsGroup3_fresh, (forall_append.2 ⟨opsGroup4a_fresh, (forall_append.2 ⟨opsGroup4b_fresh, (forall_append.2 ⟨opsAny_fresh, (forall_append.2 ⟨opsBce_fresh, (forall_append.2 ⟨opsBceMean_fresh, (forall_append.2 ⟨opsSum_fresh, opsOut_fresh⟩)⟩)⟩)⟩)⟩)⟩)⟩)⟩)⟩)⟩)⟩)⟩

/-- On every device, from any memory with zero counters: every weakly fair execution of the reference program
    terminates, and each TensorCore buffer ends at the operations' results folded over its launch contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.1 ops_fresh)

end Cert.ReferenceIdeal.RefOps

end
-- ==== Proof.RefArrays.lean ====
/-
  The reference program's operations composed into whole-array functions, one definition per step of the
  computation it spells: per group of logits the log-softmax, the entry at the label, the class weight, the
  weighted negative log-likelihood and the probability of "not class 0"; across the groups the positive-label
  indicator, the largest probability and the weighted binary cross-entropy; then the six means and their sum.
  Each definition applies the operations of the printed program in its order.
-/
import proofs.«403666_j67276367724950_3_alg».proof.Proof.Gen.ReferenceIdeal
import Idealize.ShloMosaic.Lib.StableHlo.Run

noncomputable section

namespace Cert.ReferenceIdeal.Arrays

open Cert.ReferenceIdeal Cert.ReferenceIdeal.Gen Idealize.ShloMosaic

variable {F : FTy → Type} [FloatOps F]

/-- A 2-class group's logits minus the row's largest (the largest taken once more against −∞, as the program does). -/
def shifted2 (x : FVec F S2097152x2 .f32) : FVec F S2097152x2 .f32 :=
  subf x (broadcastInDim S2097152x2 ![0, 1] bcast_S2097152x1_S2097152x2_0_1
    (broadcastInDim S2097152x1 ![0] bcast_S2097152_S2097152x1_0
      (maximumf (broadcastInDim S2097152 ![] bcast_S_S2097152 (constant S_ .f32 0xFF800000#32))
        (Host.reduce FloatOps.maximumf x (constant S_ .f32 0xFF800000#32) reducesTo_S2097152x2_S2097152_d1 h_S_))))

/-- The log-softmax of every row of a 2-class group. -/
def logSoftmax2 (x : FVec F S2097152x2 .f32) : FVec F S2097152x2 .f32 :=
  subf (shifted2 x) (broadcastInDim S2097152x2 ![0, 1] bcast_S2097152x1_S2097152x2_0_1
    (Host.log (broadcastInDim S2097152x1 ![0] bcast_S2097152_S2097152x1_0
      (Host.reduceAdd (Host.exp (shifted2 x)) (constant S_ .f32 0x00000000#32) reducesTo_S2097152x2_S2097152_d1 h_S_))))

/-- A label column with negative entries wrapped once by the class count 2, as a rank-3 index array. -/
def wrapped2 (idx : IVec S2097152x1 32) : IVec S2097152x1x1 32 :=
  shapeCast S2097152x1x1 (select (cmpi .slt idx (broadcastInDim S2097152x1 ![] bcast_S_S2097152x1 (constantI S_ 32 0#32)))
    (addi idx (broadcastInDim S2097152x1 ![] bcast_S_S2097152x1 (constantI S_ 32 2#32))) idx) shapeCasts_S2097152x1_S2097152x1x1

/-- The entry of each row's log-softmax at the row's label where the wrapped label is in `0 … 1`, the NaN word elsewhere. -/
def takeAlong2 (lp : FVec F S2097152x2 .f32) (idx : IVec S2097152x1 32) : FVec F S2097152x1 .f32 :=
  select
    (Host.reduce IntOp.andi
      (andi (cmpi .sge (wrapped2 idx) (broadcastInDim S2097152x1x1 ![] bcast_S_S2097152x1x1 (constantI S_ 32 0#32)))
        (cmpi .sle (wrapped2 idx) (broadcastInDim S2097152x1x1 ![0, 1, 2] bcast_S1x1x1_S2097152x1x1_0_1_2
          (broadcastInDim S1x1x1 ![2] bcast_S1_S1x1x1_2 (constantI S1 32 1#32)))))
      (constantI S_ 1 1#1) reducesTo_S2097152x1x1_S2097152x1_d2 h_S_)
    (Host.gather gather_S2097152x2_S2097152x1x1_S2097152x1_n_1_0_0_1_2_11 lp (wrapped2 idx))
    (broadcastInDim S2097152x1 ![] bcast_S_S2097152x1 (constant (F := F) S_ .f32 0x7FC00000#32))

/-- The class weight of each row's label, read from the weight table at the wrapped label. -/
def weightOf2 (tab : FVec F S2 .f32) (y : IVec S2097152 32) : FVec F S2097152 .f32 :=
  Host.gather gather_S2_S2097152x1_S2097152_n_0_n_n_0_1_1 tab
    (broadcastInDim S2097152x1 ![0] bcast_S2097152_S2097152x1_0
      (select (cmpi .slt y (broadcastInDim S2097152 ![] bcast_S_S2097152 (constantI S_ 32 0#32)))
        (addi y (broadcastInDim S2097152 ![] bcast_S_S2097152 (constantI S_ 32 2#32))) y))

/-- The weighted negative log-likelihood of every row of a 2-class group: the weight times minus the taken entry. -/
def nllArr2 (tab : FVec F S2 .f32) (lp : FVec F S2097152x2 .f32) (y : IVec S2097152 32) : FVec F S2097152 .f32 :=
  mulf (weightOf2 tab y)
    (Host.negf (shapeCast S2097152 (takeAlong2 lp (broadcastInDim S2097152x1 ![0] bcast_S2097152_S2097152x1_0 y)) shapeCasts_S2097152x1_S2097152))

/-- `1 − exp` of the class-0 column of a 2-class group's log-softmax. -/
def probArr2 (lp : FVec F S2097152x2 .f32) : FVec F S2097152 .f32 :=
  subf (broadcastInDim S2097152 ![] bcast_S_S2097152 (constant S_ .f32 0x3F800000#32))
    (Host.exp (shapeCast S2097152 (extractStridedSlice S2097152x1 ![0, 0] lp slices_S2097152x2_S2097152x1_0_0) shapeCasts_S2097152x1_S2097152))

/-- A 3-class group's logits minus the row's largest (the largest taken once more against −∞, as the program does). -/
def shifted3 (x : FVec F S2097152x3 .f32) : FVec F S2097152x3 .f32 :=
  subf x (broadcastInDim S2097152x3 ![0, 1] bcast_S2097152x1_S2097152x3_0_1
    (broadcastInDim S2097152x1 ![0] bcast_S2097152_S2097152x1_0
      (maximumf (broadcastInDim S2097152 ![] bcast_S_S2097152 (constant S_ .f32 0xFF800000#32))
        (Host.reduce FloatOps.maximumf x (constant S_ .f32 0xFF800000#32) reducesTo_S2097152x3_S2097152_d1 h_S_))))

/-- The log-softmax of every row of a 3-class group. -/
def logSoftmax3 (x : FVec F S2097152x3 .f32) : FVec F S2097152x3 .f32 :=
  subf (shifted3 x) (broadcastInDim S2097152x3 ![0, 1] bcast_S2097152x1_S2097152x3_0_1
    (Host.log (broadcastInDim S2097152x1 ![0] bcast_S2097152_S2097152x1_0
      (Host.reduceAdd (Host.exp (shifted3 x)) (constant S_ .f32 0x00000000#32) reducesTo_S2097152x3_S2097152_d1 h_S_))))

/-- A label column with negative entries wrapped once by the class count 3, as a rank-3 index array. -/
def wrapped3 (idx : IVec S2097152x1 32) : IVec S2097152x1x1 32 :=
  shapeCast S2097152x1x1 (select (cmpi .slt idx (broadcastInDim S2097152x1 ![] bcast_S_S2097152x1 (constantI S_ 32 0#32)))
    (addi idx (broadcastInDim S2097152x1 ![] bcast_S_S2097152x1 (constantI S_ 32 3#32))) idx) shapeCasts_S2097152x1_S2097152x1x1

/-- The entry of each row's log-softmax at the row's label where the wrapped label is in `0 … 2`, the NaN word elsewhere. -/
def takeAlong3 (lp : FVec F S2097152x3 .f32) (idx : IVec S2097152x1 32) : FVec F S2097152x1 .f32 :=
  select
    (Host.reduce IntOp.andi
      (andi (cmpi .sge (wrapped3 idx) (broadcastInDim S2097152x1x1 ![] bcast_S_S2097152x1x1 (constantI S_ 32 0#32)))
        (cmpi .sle (wrapped3 idx) (broadcastInDim S2097152x1x1 ![0, 1, 2] bcast_S1x1x1_S2097152x1x1_0_1_2
          (broadcastInDim S1x1x1 ![2] bcast_S1_S1x1x1_2 (constantI S1 32 2#32)))))
      (constantI S_ 1 1#1) reducesTo_S2097152x1x1_S2097152x1_d2 h_S_)
    (Host.gather gather_S2097152x3_S2097152x1x1_S2097152x1_n_1_0_0_1_2_11 lp (wrapped3 idx))
    (broadcastInDim S2097152x1 ![] bcast_S_S2097152x1 (constant (F := F) S_ .f32 0x7FC00000#32))

/-- The class weight of each row's label, read from the weight table at the wrapped label. -/
def weightOf3 (tab : FVec F S3 .f32) (y : IVec S2097152 32) : FVec F S2097152 .f32 :=
  Host.gather gather_S3_S2097152x1_S2097152_n_0_n_n_0_1_1 tab
    (broadcastInDim S2097152x1 ![0] bcast_S2097152_S2097152x1_0
      (select (cmpi .slt y (broadcastInDim S2097152 ![] bcast_S_S2097152 (constantI S_ 32 0#32)))
        (addi y (broadcastInDim S2097152 ![] bcast_S_S2097152 (constantI S_ 32 3#32))) y))

/-- The weighted negative log-likelihood of every row of a 3-class group: the weight times minus the taken entry. -/
def nllArr3 (tab : FVec F S3 .f32) (lp : FVec F S2097152x3 .f32) (y : IVec S2097152 32) : FVec F S2097152 .f32 :=
  mulf (weightOf3 tab y)
    (Host.negf (shapeCast S2097152 (takeAlong3 lp (broadcastInDim S2097152x1 ![0] bcast_S2097152_S2097152x1_0 y)) shapeCasts_S2097152x1_S2097152))

/-- `1 − exp` of the class-0 column of a 3-class group's log-softmax. -/
def probArr3 (lp : FVec F S2097152x3 .f32) : FVec F S2097152 .f32 :=
  subf (broadcastInDim S2097152 ![] bcast_S_S2097152 (constant S_ .f32 0x3F800000#32))
    (Host.exp (shapeCast S2097152 (extractStridedSlice S2097152x1 ![0, 0] lp slices_S2097152x3_S2097152x1_0_0) shapeCasts_S2097152x1_S2097152))

/-- The five label columns side by side. -/
def labels (a1 : IVec S2097152x2 32) (a2 : IVec S2097152x3 32) : IVec S2097152x5 32 :=
  concatenate S2097152x5 1 [⟨S2097152x2, a1⟩, ⟨S2097152x3, a2⟩] concatenates_S2097152x2_S2097152x3_S2097152x5_d1

/-- Label column `k` as a vector over the rows. -/
def labelCol0 (lab : IVec S2097152x5 32) : IVec S2097152 32 :=
  shapeCast S2097152 (extractStridedSlice S2097152x1 ![0, 0] lab slices_S2097152x5_S2097152x1_0_0) shapeCasts_S2097152x1_S2097152
def labelCol1 (lab : IVec S2097152x5 32) : IVec S2097152 32 :=
  shapeCast S2097152 (extractStridedSlice S2097152x1 ![0, 1] lab slices_S2097152x5_S2097152x1_0_1) shapeCasts_S2097152x1_S2097152
def labelCol2 (lab : IVec S2097152x5 32) : IVec S2097152 32 :=
  shapeCast S2097152 (extractStridedSlice S2097152x1 ![0, 2] lab slices_S2097152x5_S2097152x1_0_2) shapeCasts_S2097152x1_S2097152
def labelCol3 (lab : IVec S2097152x5 32) : IVec S2097152 32 :=
  shapeCast S2097152 (extractStridedSlice S2097152x1 ![0, 3] lab slices_S2097152x5_S2097152x1_0_3) shapeCasts_S2097152x1_S2097152
def labelCol4 (lab : IVec S2097152x5 32) : IVec S2097152 32 :=
  shapeCast S2097152 (extractStridedSlice S2097152x1 ![0, 4] lab slices_S2097152x5_S2097152x1_0_4) shapeCasts_S2097152x1_S2097152

/-- The five groups' log-softmax arrays. -/
def lp0 (a0 : FVec F S2097152x13 .f32) : FVec F S2097152x2 .f32 := logSoftmax2 (extractStridedSlice S2097152x2 ![0, 0] a0 slices_S2097152x13_S2097152x2_0_0)
def lp1 (a0 : FVec F S2097152x13 .f32) : FVec F S2097152x2 .f32 := logSoftmax2 (extractStridedSlice S2097152x2 ![0, 2] a0 slices_S2097152x13_S2097152x2_0_2)
def lp2 (a0 : FVec F S2097152x13 .f32) : FVec F S2097152x3 .f32 := logSoftmax3 (extractStridedSlice S2097152x3 ![0, 4] a0 slices_S2097152x13_S2097152x3_0_4)
def lp3 (a0 : FVec F S2097152x13 .f32) : FVec F S2097152x3 .f32 := logSoftmax3 (extractStridedSlice S2097152x3 ![0, 7] a0 slices_S2097152x13_S2097152x3_0_7)
def lp4 (a0 : FVec F S2097152x13 .f32) : FVec F S2097152x3 .f32 := logSoftmax3 (extractStridedSlice S2097152x3 ![0, 10] a0 slices_S2097152x13_S2097152x3_0_10)

/-- The weight tables. -/
def tab0 : FVec F S2 .f32 := fun i => FloatOps.ofBits .f32 (lit0 (S2.rowMajor i))
def tab1 : FVec F S2 .f32 := fun i => FloatOps.ofBits .f32 (lit1 (S2.rowMajor i))
def tab2 : FVec F S3 .f32 := fun i => FloatOps.ofBits .f32 (lit2 (S3.rowMajor i))
def tab3 : FVec F S3 .f32 := fun i => FloatOps.ofBits .f32 (lit3 (S3.rowMajor i))
def tab4 : FVec F S3 .f32 := fun i => FloatOps.ofBits .f32 (lit4 (S3.rowMajor i))

/-- The mean over the rows of a per-row array: its sum from zero, divided by the row count. -/
def meanOf (v : FVec F S2097152 .f32) : FVec F S_ .f32 :=
  Host.divf (Host.reduceAdd v (constant S_ .f32 0x00000000#32) reducesTo_S2097152_S_d0 h_S_) (constant S_ .f32 0x4A000000#32)

/-- 1.0 where the row's largest label is positive, else 0.0. -/
def anyLabel (lab : IVec S2097152x5 32) : FVec F S2097152 .f32 :=
  uitofp (F := F) .f32 (cmpi .sgt (Host.reduce IntOp.maxsi lab (constantI S_ 32 2147483648#32) reducesTo_S2097152x5_S2097152_d1 h_S_)
    (broadcastInDim S2097152 ![] bcast_S_S2097152 (constantI S_ 32 0#32)))

/-- The row-wise largest of the five probability arrays. -/
def maxProbArr (p0 p1 p2 p3 p4 : FVec F S2097152 .f32) : FVec F S2097152 .f32 :=
  Host.reduce FloatOps.maximumf
    (concatenate S2097152x5 1 [⟨S2097152x1, broadcastInDim S2097152x1 ![0] bcast_S2097152_S2097152x1_0 p0⟩,
      ⟨S2097152x1, broadcastInDim S2097152x1 ![0] bcast_S2097152_S2097152x1_0 p1⟩,
      ⟨S2097152x1, broadcastInDim S2097152x1 ![0] bcast_S2097152_S2097152x1_0 p2⟩,
      ⟨S2097152x1, broadcastInDim S2097152x1 ![0] bcast_S2097152_S2097152x1_0 p3⟩,
      ⟨S2097152x1, broadcastInDim S2097152x1 ![0] bcast_S2097152_S2097152x1_0 p4⟩]
      concatenates_S2097152x1_S2097152x1_S2097152x1_S2097152x1_S2097152x1_S2097152x5_d1)
    (constant S_ .f32 0xFF800000#32) reducesTo_S2097152x5_S2097152_d1 h_S_

/-- The weighted binary cross-entropy of every row from the label array `a` and the probability array `p`. -/
def bceArr (a p : FVec F S2097152 .f32) : FVec F S2097152 .f32 :=
  mulf
    (Host.negf (addf (mulf a (Host.log p))
      (mulf (subf (broadcastInDim S2097152 ![] bcast_S_S2097152 (constant S_ .f32 0x3F800000#32)) a) (Host.log1p (Host.negf p)))))
    (id (select (cmpf .ogt a (broadcastInDim S2097152 ![] bcast_S_S2097152 (constant S_ .f32 0x3F000000#32)))
      (broadcastInDim S2097152 ![] bcast_S_S2097152 (constant S_ .f32 0x40C00000#32))
      (broadcastInDim S2097152 ![] bcast_S_S2097152 (constant S_ .f32 0x3F800000#32))))

/-- The six means. -/
def loss0 (a0 : FVec F S2097152x13 .f32) (lab : IVec S2097152x5 32) : FVec F S_ .f32 := meanOf (nllArr2 tab0 (lp0 a0) (labelCol0 lab))
def loss1 (a0 : FVec F S2097152x13 .f32) (lab : IVec S2097152x5 32) : FVec F S_ .f32 := meanOf (nllArr2 tab1 (lp1 a0) (labelCol1 lab))
def loss2 (a0 : FVec F S2097152x13 .f32) (lab : IVec S2097152x5 32) : FVec F S_ .f32 := meanOf (nllArr3 tab2 (lp2 a0) (labelCol2 lab))
def loss3 (a0 : FVec F S2097152x13 .f32) (lab : IVec S2097152x5 32) : FVec F S_ .f32 := meanOf (nllArr3 tab3 (lp3 a0) (labelCol3 lab))
def loss4 (a0 : FVec F S2097152x13 .f32) (lab : IVec S2097152x5 32) : FVec F S_ .f32 := meanOf (nllArr3 tab4 (lp4 a0) (labelCol4 lab))
def loss5 (a0 : FVec F S2097152x13 .f32) (lab : IVec S2097152x5 32) : FVec F S_ .f32 :=
  meanOf (bceArr (anyLabel lab) (maxProbArr (probArr2 (lp0 a0)) (probArr2 (lp1 a0)) (probArr3 (lp2 a0)) (probArr3 (lp3 a0)) (probArr3 (lp4 a0))))

/-- The reference's result: the six means and their left-to-right sum, side by side. -/
def refOut (a0 : FVec F S2097152x13 .f32) (a1 : IVec S2097152x2 32) (a2 : IVec S2097152x3 32) : FVec F S7 .f32 :=
  concatenate S7 0
    [⟨S1, broadcastInDim S1 ![] bcast_S_S1 (loss0 a0 (labels a1 a2))⟩, ⟨S1, broadcastInDim S1 ![] bcast_S_S1 (loss1 a0 (labels a1 a2))⟩,
     ⟨S1, broadcastInDim S1 ![] bcast_S_S1 (loss2 a0 (labels a1 a2))⟩, ⟨S1, broadcastInDim S1 ![] bcast_S_S1 (loss3 a0 (labels a1 a2))⟩,
     ⟨S1, broadcastInDim S1 ![] bcast_S_S1 (loss4 a0 (labels a1 a2))⟩, ⟨S1, broadcastInDim S1 ![] bcast_S_S1 (loss5 a0 (labels a1 a2))⟩,
     ⟨S1, broadcastInDim S1 ![] bcast_S_S1
       (addf (addf (addf (addf (addf (loss0 a0 (labels a1 a2)) (loss1 a0 (labels a1 a2))) (loss2 a0 (labels a1 a2))) (loss3 a0 (labels a1 a2)))
         (loss4 a0 (labels a1 a2))) (loss5 a0 (labels a1 a2)))⟩]
    concatenates_S1_S1_S1_S1_S1_S1_S1_S7_d0

end Cert.ReferenceIdeal.Arrays

end
-- ==== Proof.RefPiecesGroups.lean ====
/-
  What the first pieces of the reference program leave in the buffers later pieces read: the weight tables and the label
  array; per group of logits the mean of its weighted negative log-likelihood and its probability array, as the
  whole-array functions of the contents of the three buffers the group reads (the logits, the labels, its weight table).
  Each is the fold of the piece's operations read back at that buffer.
-/
import proofs.«403666_j67276367724950_3_alg».proof.Proof.RefOps
import proofs.«403666_j67276367724950_3_alg».proof.Proof.RefArrays

noncomputable section

namespace Cert.ReferenceIdeal.RefRun

open Cert.ReferenceIdeal Cert.ReferenceIdeal.Gen Cert.ReferenceIdeal.Arrays Cert.ReferenceIdeal.RefOps Idealize.ShloMosaic
  Idealize.ShloMosaic.TcCoe Idealize.SL.Sem Idealize.ShloMosaic.StableHlo

variable {F : FTy → Type} [FloatOps F]

set_option maxRecDepth 8192 in
set_option maxHeartbeats 2000000 in
/-- Weight table 0 after the first piece. -/
theorem labels_tab0 (V : Valuation τ sig (Elt F)) :
    after opsLabels V (Proc.devRef .tc main_cst)
      = (tab0 : FVec F S2 .f32) := by
  simp only [opsLabels]
  after_results_simp
  rfl

set_option maxRecDepth 8192 in
set_option maxHeartbeats 2000000 in
/-- Weight table 1 after the first piece. -/
theorem labels_tab1 (V : Valuation τ sig (Elt F)) :
    after opsLabels V (Proc.devRef .tc main_cst_0)
      = (tab1 : FVec F S2 .f32) := by
  simp only [opsLabels]
  after_results_simp
  rfl

set_option maxRecDepth 8192 in
set_option maxHeartbeats 2000000 in
/-- Weight table 2 after the first piece. -/
theorem labels_tab2 (V : Valuation τ sig (Elt F)) :
    after opsLabels V (Proc.devRef .tc main_cst_1)
      = (tab2 : FVec F S3 .f32) := by
  simp only [opsLabels]
  after_results_simp
  rfl

set_option maxRecDepth 8192 in
set_option maxHeartbeats 2000000 in
/-- Weight table 3 after the first piece. -/
theorem labels_tab3 (V : Valuation τ sig (Elt F)) :
    after opsLabels V (Proc.devRef .tc main_cst_2)
      = (tab3 : FVec F S3 .f32) := by
  simp only [opsLabels]
  after_results_simp
  rfl

set_option maxRecDepth 8192 in
set_option maxHeartbeats 2000000 in
/-- Weight table 4 after the first piece. -/
theorem labels_tab4 (V : Valuation τ sig (Elt F)) :
    after opsLabels V (Proc.devRef .tc main_cst_3)
      = (tab4 : FVec F S3 .f32) := by
  simp only [opsLabels]
  after_results_simp
  rfl

set_option maxRecDepth 8192 in
set_option maxHeartbeats 2000000 in
/-- The label array after the first piece: the two label arguments side by side. -/
theorem labels_lab (V : Valuation τ sig (Elt F)) :
    after opsLabels V (Proc.devRef .tc main_v0)
      = labels (V (Proc.devRef .tc main_arg1)) (V (Proc.devRef .tc main_arg2)) := by
  simp only [opsLabels]
  after_results_simp
  rfl

set_option maxRecDepth 8192 in
set_option maxHeartbeats 2000000 in
/-- Group 0's mean after its piece. -/
theorem group0_mean (V : Valuation τ sig (Elt F)) :
    after opsGroup0 V (Proc.devRef .tc main_v18)
      = meanOf (nllArr2 (V (Proc.devRef .tc main_cst)) (lp0 (V (Proc.devRef .tc main_arg0)))
          (labelCol0 (V (Proc.devRef .tc main_v0)))) := by
  simp only [opsGroup0]
  after_results_simp
  rfl

set_option maxRecDepth 8192 in
set_option maxHeartbeats 2000000 in
/-- Group 0's probability array after its piece. -/
theorem group0_prob (V : Valuation τ sig (Elt F)) :
    after opsGroup0 V (Proc.devRef .tc main_v23)
      = probArr2 (lp0 (V (Proc.devRef .tc main_arg0))) := by
  simp only [opsGroup0]
  after_results_simp
  rfl

set_option maxRecDepth 8192 in
set_option maxHeartbeats 2000000 in
/-- Group 1's mean after its piece. -/
theorem group1_mean (V : Valuation τ sig (Elt F)) :
    after (opsGroup1a ++ opsGroup1b) V (Proc.devRef .tc main_v41)
      = meanOf (nllArr2 (V (Proc.devRef .tc main_cst_0)) (lp1 (V (Proc.devRef .tc main_arg0)))
          (labelCol1 (V (Proc.devRef .tc main_v0)))) := by
  simp only [opsGroup1a, opsGroup1b, List.cons_append, List.nil_append]
  after_results_simp
  rfl

set_option maxRecDepth 8192 in
set_option maxHeartbeats 2000000 in
/-- Group 1's probability array after its piece. -/
theorem group1_prob (V : Valuation τ sig (Elt F)) :
    after (opsGroup1a ++ opsGroup1b) V (Proc.devRef .tc main_v46)
      = probArr2 (lp1 (V (Proc.devRef .tc main_arg0))) := by
  simp only [opsGroup1a, opsGroup1b, List.cons_append, List.nil_append]
  after_results_simp
  rfl

set_option maxRecDepth 8192 in
set_option maxHeartbeats 2000000 in
/-- Group 2's mean after its piece. -/
theorem group2_mean (V : Valuation τ sig (Elt F)) :
    after opsGroup2 V (Proc.devRef .tc main_v64)
      = meanOf (nllArr3 (V (Proc.devRef .tc main_cst_1)) (lp2 (V (Proc.devRef .tc main_arg0)))
          (labelCol2 (V (Proc.devRef .tc main_v0)))) := by
  simp only [opsGroup2]
  after_results_simp
  rfl

set_option maxRecDepth 8192 in
set_option maxHeartbeats 2000000 in
/-- Group 2's probability array after its piece. -/
theorem group2_prob (V : Valuation τ sig (Elt F)) :
    after opsGroup2 V (Proc.devRef .tc main_v69)
      = probArr3 (lp2 (V (Proc.devRef .tc main_arg0))) := by
  simp only [opsGroup2]
  after_results_simp
  rfl

set_option maxRecDepth 8192 in
set_option maxHeartbeats 2000000 in
/-- Group 3's mean after its piece. -/
theorem group3_mean (V : Valuation τ sig (Elt F)) :
    after opsGroup3 V (Proc.devRef .tc main_v87)
      = meanOf (nllArr3 (V (Proc.devRef .tc main_cst_2)) (lp3 (V (Proc.devRef .tc main_arg0)))
          (labelCol3 (V (Proc.devRef .tc main_v0)))) := by
  simp only [opsGroup3]
  after_results_simp
  rfl

set_option maxRecDepth 8192 in
set_option maxHeartbeats 2000000 in
/-- Group 3's probability array after its piece. -/
theorem group3_prob (V : Valuation τ sig (Elt F)) :
    after opsGroup3 V (Proc.devRef .tc main_v92)
      = probArr3 (lp3 (V (Proc.devRef .tc main_arg0))) := by
  simp only [opsGroup3]
  after_results_simp
  rfl

set_option maxRecDepth 8192 in
set_option maxHeartbeats 2000000 in
/-- Group 4's mean after its piece. -/
theorem group4_mean (V : Valuation τ sig (Elt F)) :
    after (opsGroup4a ++ opsGroup4b) V (Proc.devRef .tc main_v110)
      = meanOf (nllArr3 (V (Proc.devRef .tc main_cst_3)) (lp4 (V (Proc.devRef .tc main_arg0)))
          (labelCol4 (V (Proc.devRef .tc main_v0)))) := by
  simp only [opsGroup4a, opsGroup4b, List.cons_append, List.nil_append]
  after_results_simp
  rfl

set_option maxRecDepth 8192 in
set_option maxHeartbeats 2000000 in
/-- Group 4's probability array after its piece. -/
theorem group4_prob (V : Valuation τ sig (Elt F)) :
    after (opsGroup4a ++ opsGroup4b) V (Proc.devRef .tc main_v115)
      = probArr3 (lp4 (V (Proc.devRef .tc main_arg0))) := by
  simp only [opsGroup4a, opsGroup4b, List.cons_append, List.nil_append]
  after_results_simp
  rfl

end Cert.ReferenceIdeal.RefRun

end
-- ==== Proof.RefPiecesTail.lean ====
/-
  What the last pieces of the reference program leave in the buffers later pieces read: the positive-label indicator and
  the five probability arrays as columns; the mean of the weighted binary cross-entropy; the seven one-element arrays
  (the six means and their left-to-right sum); the result, the seven side by side. Each is the fold of the piece's
  operations read back at that buffer, as a function of the contents of the buffers the piece reads.
-/
import proofs.«403666_j67276367724950_3_alg».proof.Proof.RefOps
import proofs.«403666_j67276367724950_3_alg».proof.Proof.RefArrays

noncomputable section

namespace Cert.ReferenceIdeal.RefRun

open Cert.ReferenceIdeal Cert.ReferenceIdeal.Gen Cert.ReferenceIdeal.Arrays Cert.ReferenceIdeal.RefOps Idealize.ShloMosaic
  Idealize.ShloMosaic.TcCoe Idealize.SL.Sem Idealize.ShloMosaic.StableHlo

variable {F : FTy → Type} [FloatOps F]

set_option maxRecDepth 8192 in
set_option maxHeartbeats 2000000 in
/-- The positive-label indicator after its piece. -/
theorem any_label (V : Valuation τ sig (Elt F)) :
    after opsAny V (Proc.devRef .tc main_v119)
      = anyLabel (F := F) (V (Proc.devRef .tc main_v0)) := by
  simp only [opsAny]
  after_results_simp
  rfl

set_option maxRecDepth 8192 in
set_option maxHeartbeats 2000000 in
/-- Group 0's probability array as a column. -/
theorem any_col0 (V : Valuation τ sig (Elt F)) :
    after opsAny V (Proc.devRef .tc main_v120)
      = broadcastInDim S2097152x1 ![0] bcast_S2097152_S2097152x1_0 (V (Proc.devRef .tc main_v23)) := by
  simp only [opsAny]
  after_results_simp

set_option maxRecDepth 8192 in
set_option maxHeartbeats 2000000 in
/-- Group 1's probability array as a column. -/
theorem any_col1 (V : Valuation τ sig (Elt F)) :
    after opsAny V (Proc.devRef .tc main_v121)
      = broadcastInDim S2097152x1 ![0] bcast_S2097152_S2097152x1_0 (V (Proc.devRef .tc main_v46)) := by
  simp only [opsAny]
  after_results_simp

set_option maxRecDepth 8192 in
set_option maxHeartbeats 2000000 in
/-- Group 2's probability array as a column. -/
theorem any_col2 (V : Valuation τ sig (Elt F)) :
    after opsAny V (Proc.devRef .tc main_v122)
      = broadcastInDim S2097152x1 ![0] bcast_S2097152_S2097152x1_0 (V (Proc.devRef .tc main_v69)) := by
  simp only [opsAny]
  after_results_simp

set_option maxRecDepth 8192 in
set_option maxHeartbeats 2000000 in
/-- Group 3's probability array as a column. -/
theorem any_col3 (V : Valuation τ sig (Elt F)) :
    after opsAny V (Proc.devRef .tc main_v123)
      = broadcastInDim S2097152x1 ![0] bcast_S2097152_S2097152x1_0 (V (Proc.devRef .tc main_v92)) := by
  simp only [opsAny]
  after_results_simp

set_option maxRecDepth 8192 in
set_option maxHeartbeats 2000000 in
/-- Group 4's probability array as a column. -/
theorem any_col4 (V : Valuation τ sig (Elt F)) :
    after opsAny V (Proc.devRef .tc main_v124)
      = broadcastInDim S2097152x1 ![0] bcast_S2097152_S2097152x1_0 (V (Proc.devRef .tc main_v115)) := by
  simp only [opsAny]
  after_results_simp

set_option maxRecDepth 8192 in
set_option maxHeartbeats 2000000 in
/-- The mean of the weighted binary cross-entropy, from the indicator and the five probability columns. -/
theorem bce_mean (V : Valuation τ sig (Elt F)) :
    after (opsBce ++ opsBceMean) V (Proc.devRef .tc main_v142)
      = meanOf (bceArr (V (Proc.devRef .tc main_v119))
          (Host.reduce FloatOps.maximumf
            (concatenate S2097152x5 1 [⟨S2097152x1, V (Proc.devRef .tc main_v120)⟩, ⟨S2097152x1, V (Proc.devRef .tc main_v121)⟩,
              ⟨S2097152x1, V (Proc.devRef .tc main_v122)⟩, ⟨S2097152x1, V (Proc.devRef .tc main_v123)⟩,
              ⟨S2097152x1, V (Proc.devRef .tc main_v124)⟩]
              concatenates_S2097152x1_S2097152x1_S2097152x1_S2097152x1_S2097152x1_S2097152x5_d1)
            (constant S_ .f32 0xFF800000#32) reducesTo_S2097152x5_S2097152_d1 h_S_)) := by
  simp only [opsBce, opsBceMean, List.cons_append, List.nil_append]
  after_results_simp
  rfl

set_option maxRecDepth 8192 in
set_option maxHeartbeats 2000000 in
/-- Mean 0 as a one-element array. -/
theorem sum_one0 (V : Valuation τ sig (Elt F)) :
    after opsSum V (Proc.devRef .tc main_v148)
      = broadcastInDim S1 ![] bcast_S_S1 (V (Proc.devRef .tc main_v18)) := by
  simp only [opsSum]
  after_results_simp

set_option maxRecDepth 8192 in
set_option maxHeartbeats 2000000 in
/-- Mean 1 as a one-element array. -/
theorem sum_one1 (V : Valuation τ sig (Elt F)) :
    after opsSum V (Proc.devRef .tc main_v149)
      = broadcastInDim S1 ![] bcast_S_S1 (V (Proc.devRef .tc main_v41)) := by
  simp only [opsSum]
  after_results_simp

set_option maxRecDepth 8192 in
set_option maxHeartbeats 2000000 in
/-- Mean 2 as a one-element array. -/
theorem sum_one2 (V : Valuation τ sig (Elt F)) :
    after opsSum V (Proc.devRef .tc main_v150)
      = broadcastInDim S1 ![] bcast_S_S1 (V (Proc.devRef .tc main_v64)) := by
  simp only [opsSum]
  after_results_simp

set_option maxRecDepth 8192 in
set_option maxHeartbeats 2000000 in
/-- Mean 3 as a one-element array. -/
theorem sum_one3 (V : Valuation τ sig (Elt F)) :
    after opsSum V (Proc.devRef .tc main_v151)
      = broadcastInDim S1 ![] bcast_S_S1 (V (Proc.devRef .tc main_v87)) := by
  simp only [opsSum]
  after_results_simp

set_option maxRecDepth 8192 in
set_option maxHeartbeats 2000000 in
/-- Mean 4 as a one-element array. -/
theorem sum_one4 (V : Valuation τ sig (Elt F)) :
    after opsSum V (Proc.devRef .tc main_v152)
      = broadcastInDim S1 ![] bcast_S_S1 (V (Proc.devRef .tc main_v110)) := by
  simp only [opsSum]
  after_results_simp

set_option maxRecDepth 8192 in
set_option maxHeartbeats 2000000 in
/-- Mean 5 as a one-element array. -/
theorem sum_one5 (V : Valuation τ sig (Elt F)) :
    after opsSum V (Proc.devRef .tc main_v153)
      = broadcastInDim S1 ![] bcast_S_S1 (V (Proc.devRef .tc main_v142)) := by
  simp only [opsSum]
  after_results_simp

set_option maxRecDepth 8192 in
set_option maxHeartbeats 2000000 in
/-- The six means added left to right, as a one-element array. -/
theorem sum_total (V : Valuation τ sig (Elt F)) :
    after opsSum V (Proc.devRef .tc main_v154)
      = broadcastInDim S1 ![] bcast_S_S1
          (addf (addf (addf (addf (addf (V (Proc.devRef .tc main_v18)) (V (Proc.devRef .tc main_v41))) (V (Proc.devRef .tc main_v64)))
            (V (Proc.devRef .tc main_v87))) (V (Proc.devRef .tc main_v110))) (V (Proc.devRef .tc main_v142))) := by
  simp only [opsSum]
  after_results_simp

set_option maxRecDepth 8192 in
set_option maxHeartbeats 2000000 in
/-- The result: the seven one-element arrays side by side. -/
theorem out_concat (V : Valuation τ sig (Elt F)) :
    after opsOut V (Proc.devRef .tc main_v155)
      = concatenate S7 0 [⟨S1, V (Proc.devRef .tc main_v148)⟩, ⟨S1, V (Proc.devRef .tc main_v149)⟩, ⟨S1, V (Proc.devRef .tc main_v150)⟩,
          ⟨S1, V (Proc.devRef .tc main_v151)⟩, ⟨S1, V (Proc.devRef .tc main_v152)⟩, ⟨S1, V (Proc.devRef .tc main_v153)⟩,
          ⟨S1, V (Proc.devRef .tc main_v154)⟩] concatenates_S1_S1_S1_S1_S1_S1_S1_S7_d0 := by
  simp only [opsOut]
  after_results_simp
  rfl

end Cert.ReferenceIdeal.RefRun

end
-- ==== Proof.RefRun.lean ====
/-
  The reference program's run: its operations, the outlined functions' bodies at their calls, are one straight line
  of host operations, each writing its own buffer; at the end the result buffer holds the operations composed,
  which is the function `refOut` of the three arguments, and the arguments are unchanged.

  The line is read piece by piece: `val k` is the device's contents after the first `k` pieces, and for each buffer a
  later piece reads, its contents there are named: written by the piece (its value lemma at the contents before it) or
  kept through it (the piece does not write the buffer).
-/
import proofs.«403666_j67276367724950_3_alg».proof.Proof.RefProgRun
import proofs.«403666_j67276367724950_3_alg».proof.Proof.RefPiecesGroups
import proofs.«403666_j67276367724950_3_alg».proof.Proof.RefPiecesTail

noncomputable section

namespace Cert.ReferenceIdeal.RefRun

open Cert.ReferenceIdeal Cert.ReferenceIdeal.Gen Cert.ReferenceIdeal.Arrays Cert.ReferenceIdeal.RefOps Idealize.ShloMosaic
  Idealize.ShloMosaic.TcCoe Idealize.SL.Sem Idealize.ShloMosaic.StableHlo

variable {F : FTy → Type} [FloatOps F]

/-- The fold over two lines one after the other is the second's fold over the first's. -/
theorem after_append' (l₁ l₂ : List (HloOp τ sig (Elt F))) (V : Valuation τ sig (Elt F)) :
    after (l₁ ++ l₂) V = after l₂ (after l₁ V) := by
  induction l₁ generalizing V with
  | nil => rfl
  | cons op l ih => exact ih _

/-- A buffer neither half of group 1's piece writes keeps its contents through it. -/
theorem group1_keep (V : Valuation τ sig (Elt F)) (b : Ref sig .tc) (ha : b ∉ opsGroup1a_W) (hb : b ∉ opsGroup1b_W) :
    after (opsGroup1a ++ opsGroup1b) V (Proc.devRef .tc b) = V (Proc.devRef .tc b) := by
  rw [after_append', opsGroup1b_keep _ b hb, opsGroup1a_keep _ b ha]

/-- A buffer neither half of group 4's piece writes keeps its contents through it. -/
theorem group4_keep (V : Valuation τ sig (Elt F)) (b : Ref sig .tc) (ha : b ∉ opsGroup4a_W) (hb : b ∉ opsGroup4b_W) :
    after (opsGroup4a ++ opsGroup4b) V (Proc.devRef .tc b) = V (Proc.devRef .tc b) := by
  rw [after_append', opsGroup4b_keep _ b hb, opsGroup4a_keep _ b ha]

/-- A buffer neither half of the cross-entropy's piece writes keeps its contents through it. -/
theorem bce_keep (V : Valuation τ sig (Elt F)) (b : Ref sig .tc) (ha : b ∉ opsBce_W) (hb : b ∉ opsBceMean_W) :
    after (opsBce ++ opsBceMean) V (Proc.devRef .tc b) = V (Proc.devRef .tc b) := by
  rw [after_append', opsBceMean_keep _ b hb, opsBce_keep _ b ha]

/-- The device's contents after the first 1 piece. -/
def val1 (V0 : Valuation τ sig (Elt F)) : Valuation τ sig (Elt F) := after opsLabels V0
theorem val1_arg0 (V0 : Valuation τ sig (Elt F)) : val1 V0 (Proc.devRef .tc main_arg0) = (V0 (Proc.devRef .tc main_arg0)) :=
  opsLabels_keep V0 main_arg0 (by decide)
theorem val1_arg1 (V0 : Valuation τ sig (Elt F)) : val1 V0 (Proc.devRef .tc main_arg1) = (V0 (Proc.devRef .tc main_arg1)) :=
  opsLabels_keep V0 main_arg1 (by decide)
theorem val1_arg2 (V0 : Valuation τ sig (Elt F)) : val1 V0 (Proc.devRef .tc main_arg2) = (V0 (Proc.devRef .tc main_arg2)) :=
  opsLabels_keep V0 main_arg2 (by decide)
theorem val1_tab0 (V0 : Valuation τ sig (Elt F)) : val1 V0 (Proc.devRef .tc main_cst) = (tab0 : FVec F S2 .f32) :=
  labels_tab0 V0
theorem val1_tab1 (V0 : Valuation τ sig (Elt F)) : val1 V0 (Proc.devRef .tc main_cst_0) = (tab1 : FVec F S2 .f32) :=
  labels_tab1 V0
theorem val1_tab2 (V0 : Valuation τ sig (Elt F)) : val1 V0 (Proc.devRef .tc main_cst_1) = (tab2 : FVec F S3 .f32) :=
  labels_tab2 V0
theorem val1_tab3 (V0 : Valuation τ sig (Elt F)) : val1 V0 (Proc.devRef .tc main_cst_2) = (tab3 : FVec F S3 .f32) :=
  labels_tab3 V0
theorem val1_tab4 (V0 : Valuation τ sig (Elt F)) : val1 V0 (Proc.devRef .tc main_cst_3) = (tab4 : FVec F S3 .f32) :=
  labels_tab4 V0
theorem val1_lab (V0 : Valuation τ sig (Elt F)) : val1 V0 (Proc.devRef .tc main_v0) = (labels (V0 (Proc.devRef .tc main_arg1)) (V0 (Proc.devRef .tc main_arg2))) :=
  labels_lab V0

/-- The device's contents after the first 2 pieces. -/
def val2 (V0 : Valuation τ sig (Elt F)) : Valuation τ sig (Elt F) := after opsGroup0 (val1 V0)
theorem val2_arg0 (V0 : Valuation τ sig (Elt F)) : val2 V0 (Proc.devRef .tc main_arg0) = (V0 (Proc.devRef .tc main_arg0)) :=
  (opsGroup0_keep (val1 V0) main_arg0 (by decide)).trans (val1_arg0 V0)
theorem val2_arg1 (V0 : Valuation τ sig (Elt F)) : val2 V0 (Proc.devRef .tc main_arg1) = (V0 (Proc.devRef .tc main_arg1)) :=
  (opsGroup0_keep (val1 V0) main_arg1 (by decide)).trans (val1_arg1 V0)
theorem val2_arg2 (V0 : Valuation τ sig (Elt F)) : val2 V0 (Proc.devRef .tc main_arg2) = (V0 (Proc.devRef .tc main_arg2)) :=
  (opsGroup0_keep (val1 V0) main_arg2 (by decide)).trans (val1_arg2 V0)
theorem val2_lab (V0 : Valuation τ sig (Elt F)) : val2 V0 (Proc.devRef .tc main_v0) = (labels (V0 (Proc.devRef .tc main_arg1)) (V0 (Proc.devRef .tc main_arg2))) :=
  (opsGroup0_keep (val1 V0) main_v0 (by decide)).trans (val1_lab V0)
theorem val2_tab1 (V0 : Valuation τ sig (Elt F)) : val2 V0 (Proc.devRef .tc main_cst_0) = (tab1 : FVec F S2 .f32) :=
  (opsGroup0_keep (val1 V0) main_cst_0 (by decide)).trans (val1_tab1 V0)
theorem val2_tab2 (V0 : Valuation τ sig (Elt F)) : val2 V0 (Proc.devRef .tc main_cst_1) = (tab2 : FVec F S3 .f32) :=
  (opsGroup0_keep (val1 V0) main_cst_1 (by decide)).trans (val1_tab2 V0)
theorem val2_tab3 (V0 : Valuation τ sig (Elt F)) : val2 V0 (Proc.devRef .tc main_cst_2) = (tab3 : FVec F S3 .f32) :=
  (opsGroup0_keep (val1 V0) main_cst_2 (by decide)).trans (val1_tab3 V0)
theorem val2_tab4 (V0 : Valuation τ sig (Elt F)) : val2 V0 (Proc.devRef .tc main_cst_3) = (tab4 : FVec F S3 .f32) :=
  (opsGroup0_keep (val1 V0) main_cst_3 (by decide)).trans (val1_tab4 V0)
theorem val2_mean0 (V0 : Valuation τ sig (Elt F)) : val2 V0 (Proc.devRef .tc main_v18) = (loss0 (V0 (Proc.devRef .tc main_arg0)) (labels (V0 (Proc.devRef .tc main_arg1)) (V0 (Proc.devRef .tc main_arg2)))) :=
  (group0_mean (val1 V0)).trans (by rw [val1_tab0, val1_arg0, val1_lab]; rfl)
theorem val2_prob0 (V0 : Valuation τ sig (Elt F)) : val2 V0 (Proc.devRef .tc main_v23) = (probArr2 (lp0 (V0 (Proc.devRef .tc main_arg0)))) :=
  (group0_prob (val1 V0)).trans (by rw [val1_arg0])

/-- The device's contents after the first 3 pieces. -/
def val3 (V0 : Valuation τ sig (Elt F)) : Valuation τ sig (Elt F) := after (opsGroup1a ++ opsGroup1b) (val2 V0)
theorem val3_arg0 (V0 : Valuation τ sig (Elt F)) : val3 V0 (Proc.devRef .tc main_arg0) = (V0 (Proc.devRef .tc main_arg0)) :=
  (group1_keep (val2 V0) main_arg0 (by decide) (by decide)).trans (val2_arg0 V0)
theorem val3_arg1 (V0 : Valuation τ sig (Elt F)) : val3 V0 (Proc.devRef .tc main_arg1) = (V0 (Proc.devRef .tc main_arg1)) :=
  (group1_keep (val2 V0) main_arg1 (by decide) (by decide)).trans (val2_arg1 V0)
theorem val3_arg2 (V0 : Valuation τ sig (Elt F)) : val3 V0 (Proc.devRef .tc main_arg2) = (V0 (Proc.devRef .tc main_arg2)) :=
  (group1_keep (val2 V0) main_arg2 (by decide) (by decide)).trans (val2_arg2 V0)
theorem val3_lab (V0 : Valuation τ sig (Elt F)) : val3 V0 (Proc.devRef .tc main_v0) = (labels (V0 (Proc.devRef .tc main_arg1)) (V0 (Proc.devRef .tc main_arg2))) :=
  (group1_keep (val2 V0) main_v0 (by decide) (by decide)).trans (val2_lab V0)
theorem val3_tab2 (V0 : Valuation τ sig (Elt F)) : val3 V0 (Proc.devRef .tc main_cst_1) = (tab2 : FVec F S3 .f32) :=
  (group1_keep (val2 V0) main_cst_1 (by decide) (by decide)).trans (val2_tab2 V0)
theorem val3_tab3 (V0 : Valuation τ sig (Elt F)) : val3 V0 (Proc.devRef .tc main_cst_2) = (tab3 : FVec F S3 .f32) :=
  (group1_keep (val2 V0) main_cst_2 (by decide) (by decide)).trans (val2_tab3 V0)
theorem val3_tab4 (V0 : Valuation τ sig (Elt F)) : val3 V0 (Proc.devRef .tc main_cst_3) = (tab4 : FVec F S3 .f32) :=
  (group1_keep (val2 V0) main_cst_3 (by decide) (by decide)).trans (val2_tab4 V0)
theorem val3_mean0 (V0 : Valuation τ sig (Elt F)) : val3 V0 (Proc.devRef .tc main_v18) = (loss0 (V0 (Proc.devRef .tc main_arg0)) (labels (V0 (Proc.devRef .tc main_arg1)) (V0 (Proc.devRef .tc main_arg2)))) :=
  (group1_keep (val2 V0) main_v18 (by decide) (by decide)).trans (val2_mean0 V0)
theorem val3_prob0 (V0 : Valuation τ sig (Elt F)) : val3 V0 (Proc.devRef .tc main_v23) = (probArr2 (lp0 (V0 (Proc.devRef .tc main_arg0)))) :=
  (group1_keep (val2 V0) main_v23 (by decide) (by decide)).trans (val2_prob0 V0)
theorem val3_mean1 (V0 : Valuation τ sig (Elt F)) : val3 V0 (Proc.devRef .tc main_v41) = (loss1 (V0 (Proc.devRef .tc main_arg0)) (labels (V0 (Proc.devRef .tc main_arg1)) (V0 (Proc.devRef .tc main_arg2)))) :=
  (group1_mean (val2 V0)).trans (by rw [val2_tab1, val2_arg0, val2_lab]; rfl)
theorem val3_prob1 (V0 : Valuation τ sig (Elt F)) : val3 V0 (Proc.devRef .tc main_v46) = (probArr2 (lp1 (V0 (Proc.devRef .tc main_arg0)))) :=
  (group1_prob (val2 V0)).trans (by rw [val2_arg0])

/-- The device's contents after the first 4 pieces. -/
def val4 (V0 : Valuation τ sig (Elt F)) : Valuation τ sig (Elt F) := after opsGroup2 (val3 V0)
theorem val4_arg0 (V0 : Valuation τ sig (Elt F)) : val4 V0 (Proc.devRef .tc main_arg0) = (V0 (Proc.devRef .tc main_arg0)) :=
  (opsGroup2_keep (val3 V0) main_arg0 (by decide)).trans (val3_arg0 V0)
theorem val4_arg1 (V0 : Valuation τ sig (Elt F)) : val4 V0 (Proc.devRef .tc main_arg1) = (V0 (Proc.devRef .tc main_arg1)) :=
  (opsGroup2_keep (val3 V0) main_arg1 (by decide)).trans (val3_arg1 V0)
theorem val4_arg2 (V0 : Valuation τ sig (Elt F)) : val4 V0 (Proc.devRef .tc main_arg2) = (V0 (Proc.devRef .tc main_arg2)) :=
  (opsGroup2_keep (val3 V0) main_arg2 (by decide)).trans (val3_arg2 V0)
theorem val4_lab (V0 : Valuation τ sig (Elt F)) : val4 V0 (Proc.devRef .tc main_v0) = (labels (V0 (Proc.devRef .tc main_arg1)) (V0 (Proc.devRef .tc main_arg2))) :=
  (opsGroup2_keep (val3 V0) main_v0 (by decide)).trans (val3_lab V0)
theorem val4_tab3 (V0 : Valuation τ sig (Elt F)) : val4 V0 (Proc.devRef .tc main_cst_2) = (tab3 : FVec F S3 .f32) :=
  (opsGroup2_keep (val3 V0) main_cst_2 (by decide)).trans (val3_tab3 V0)
theorem val4_tab4 (V0 : Valuation τ sig (Elt F)) : val4 V0 (Proc.devRef .tc main_cst_3) = (tab4 : FVec F S3 .f32) :=
  (opsGroup2_keep (val3 V0) main_cst_3 (by decide)).trans (val3_tab4 V0)
theorem val4_mean0 (V0 : Valuation τ sig (Elt F)) : val4 V0 (Proc.devRef .tc main_v18) = (loss0 (V0 (Proc.devRef .tc main_arg0)) (labels (V0 (Proc.devRef .tc main_arg1)) (V0 (Proc.devRef .tc main_arg2)))) :=
  (opsGroup2_keep (val3 V0) main_v18 (by decide)).trans (val3_mean0 V0)
theorem val4_mean1 (V0 : Valuation τ sig (Elt F)) : val4 V0 (Proc.devRef .tc main_v41) = (loss1 (V0 (Proc.devRef .tc main_arg0)) (labels (V0 (Proc.devRef .tc main_arg1)) (V0 (Proc.devRef .tc main_arg2)))) :=
  (opsGroup2_keep (val3 V0) main_v41 (by decide)).trans (val3_mean1 V0)
theorem val4_prob0 (V0 : Valuation τ sig (Elt F)) : val4 V0 (Proc.devRef .tc main_v23) = (probArr2 (lp0 (V0 (Proc.devRef .tc main_arg0)))) :=
  (opsGroup2_keep (val3 V0) main_v23 (by decide)).trans (val3_prob0 V0)
theorem val4_prob1 (V0 : Valuation τ sig (Elt F)) : val4 V0 (Proc.devRef .tc main_v46) = (probArr2 (lp1 (V0 (Proc.devRef .tc main_arg0)))) :=
  (opsGroup2_keep (val3 V0) main_v46 (by decide)).trans (val3_prob1 V0)
theorem val4_mean2 (V0 : Valuation τ sig (Elt F)) : val4 V0 (Proc.devRef .tc main_v64) = (loss2 (V0 (Proc.devRef .tc main_arg0)) (labels (V0 (Proc.devRef .tc main_arg1)) (V0 (Proc.devRef .tc main_arg2)))) :=
  (group2_mean (val3 V0)).trans (by rw [val3_tab2, val3_arg0, val3_lab]; rfl)
theorem val4_prob2 (V0 : Valuation τ sig (Elt F)) : val4 V0 (Proc.devRef .tc main_v69) = (probArr3 (lp2 (V0 (Proc.devRef .tc main_arg0)))) :=
  (group2_prob (val3 V0)).trans (by rw [val3_arg0])

/-- The device's contents after the first 5 pieces. -/
def val5 (V0 : Valuation τ sig (Elt F)) : Valuation τ sig (Elt F) := after opsGroup3 (val4 V0)
theorem val5_arg0 (V0 : Valuation τ sig (Elt F)) : val5 V0 (Proc.devRef .tc main_arg0) = (V0 (Proc.devRef .tc main_arg0)) :=
  (opsGroup3_keep (val4 V0) main_arg0 (by decide)).trans (val4_arg0 V0)
theorem val5_arg1 (V0 : Valuation τ sig (Elt F)) : val5 V0 (Proc.devRef .tc main_arg1) = (V0 (Proc.devRef .tc main_arg1)) :=
  (opsGroup3_keep (val4 V0) main_arg1 (by decide)).trans (val4_arg1 V0)
theorem val5_arg2 (V0 : Valuation τ sig (Elt F)) : val5 V0 (Proc.devRef .tc main_arg2) = (V0 (Proc.devRef .tc main_arg2)) :=
  (opsGroup3_keep (val4 V0) main_arg2 (by decide)).trans (val4_arg2 V0)
theorem val5_lab (V0 : Valuation τ sig (Elt F)) : val5 V0 (Proc.devRef .tc main_v0) = (labels (V0 (Proc.devRef .tc main_arg1)) (V0 (Proc.devRef .tc main_arg2))) :=
  (opsGroup3_keep (val4 V0) main_v0 (by decide)).trans (val4_lab V0)
theorem val5_tab4 (V0 : Valuation τ sig (Elt F)) : val5 V0 (Proc.devRef .tc main_cst_3) = (tab4 : FVec F S3 .f32) :=
  (opsGroup3_keep (val4 V0) main_cst_3 (by decide)).trans (val4_tab4 V0)
theorem val5_mean0 (V0 : Valuation τ sig (Elt F)) : val5 V0 (Proc.devRef .tc main_v18) = (loss0 (V0 (Proc.devRef .tc main_arg0)) (labels (V0 (Proc.devRef .tc main_arg1)) (V0 (Proc.devRef .tc main_arg2)))) :=
  (opsGroup3_keep (val4 V0) main_v18 (by decide)).trans (val4_mean0 V0)
theorem val5_mean1 (V0 : Valuation τ sig (Elt F)) : val5 V0 (Proc.devRef .tc main_v41) = (loss1 (V0 (Proc.devRef .tc main_arg0)) (labels (V0 (Proc.devRef .tc main_arg1)) (V0 (Proc.devRef .tc main_arg2)))) :=
  (opsGroup3_keep (val4 V0) main_v41 (by decide)).trans (val4_mean1 V0)
theorem val5_mean2 (V0 : Valuation τ sig (Elt F)) : val5 V0 (Proc.devRef .tc main_v64) = (loss2 (V0 (Proc.devRef .tc main_arg0)) (labels (V0 (Proc.devRef .tc main_arg1)) (V0 (Proc.devRef .tc main_arg2)))) :=
  (opsGroup3_keep (val4 V0) main_v64 (by decide)).trans (val4_mean2 V0)
theorem val5_prob0 (V0 : Valuation τ sig (Elt F)) : val5 V0 (Proc.devRef .tc main_v23) = (probArr2 (lp0 (V0 (Proc.devRef .tc main_arg0)))) :=
  (opsGroup3_keep (val4 V0) main_v23 (by decide)).trans (val4_prob0 V0)
theorem val5_prob1 (V0 : Valuation τ sig (Elt F)) : val5 V0 (Proc.devRef .tc main_v46) = (probArr2 (lp1 (V0 (Proc.devRef .tc main_arg0)))) :=
  (opsGroup3_keep (val4 V0) main_v46 (by decide)).trans (val4_prob1 V0)
theorem val5_prob2 (V0 : Valuation τ sig (Elt F)) : val5 V0 (Proc.devRef .tc main_v69) = (probArr3 (lp2 (V0 (Proc.devRef .tc main_arg0)))) :=
  (opsGroup3_keep (val4 V0) main_v69 (by decide)).trans (val4_prob2 V0)
theorem val5_mean3 (V0 : Valuation τ sig (Elt F)) : val5 V0 (Proc.devRef .tc main_v87) = (loss3 (V0 (Proc.devRef .tc main_arg0)) (labels (V0 (Proc.devRef .tc main_arg1)) (V0 (Proc.devRef .tc main_arg2)))) :=
  (group3_mean (val4 V0)).trans (by rw [val4_tab3, val4_arg0, val4_lab]; rfl)
theorem val5_prob3 (V0 : Valuation τ sig (Elt F)) : val5 V0 (Proc.devRef .tc main_v92) = (probArr3 (lp3 (V0 (Proc.devRef .tc main_arg0)))) :=
  (group3_prob (val4 V0)).trans (by rw [val4_arg0])

/-- The device's contents after the first 6 pieces. -/
def val6 (V0 : Valuation τ sig (Elt F)) : Valuation τ sig (Elt F) := after (opsGroup4a ++ opsGroup4b) (val5 V0)
theorem val6_arg0 (V0 : Valuation τ sig (Elt F)) : val6 V0 (Proc.devRef .tc main_arg0) = (V0 (Proc.devRef .tc main_arg0)) :=
  (group4_keep (val5 V0) main_arg0 (by decide) (by decide)).trans (val5_arg0 V0)
theorem val6_arg1 (V0 : Valuation τ sig (Elt F)) : val6 V0 (Proc.devRef .tc main_arg1) = (V0 (Proc.devRef .tc main_arg1)) :=
  (group4_keep (val5 V0) main_arg1 (by decide) (by decide)).trans (val5_arg1 V0)
theorem val6_arg2 (V0 : Valuation τ sig (Elt F)) : val6 V0 (Proc.devRef .tc main_arg2) = (V0 (Proc.devRef .tc main_arg2)) :=
  (group4_keep (val5 V0) main_arg2 (by decide) (by decide)).trans (val5_arg2 V0)
theorem val6_lab (V0 : Valuation τ sig (Elt F)) : val6 V0 (Proc.devRef .tc main_v0) = (labels (V0 (Proc.devRef .tc main_arg1)) (V0 (Proc.devRef .tc main_arg2))) :=
  (group4_keep (val5 V0) main_v0 (by decide) (by decide)).trans (val5_lab V0)
theorem val6_mean0 (V0 : Valuation τ sig (Elt F)) : val6 V0 (Proc.devRef .tc main_v18) = (loss0 (V0 (Proc.devRef .tc main_arg0)) (labels (V0 (Proc.devRef .tc main_arg1)) (V0 (Proc.devRef .tc main_arg2)))) :=
  (group4_keep (val5 V0) main_v18 (by decide) (by decide)).trans (val5_mean0 V0)
theorem val6_mean1 (V0 : Valuation τ sig (Elt F)) : val6 V0 (Proc.devRef .tc main_v41) = (loss1 (V0 (Proc.devRef .tc main_arg0)) (labels (V0 (Proc.devRef .tc main_arg1)) (V0 (Proc.devRef .tc main_arg2)))) :=
  (group4_keep (val5 V0) main_v41 (by decide) (by decide)).trans (val5_mean1 V0)
theorem val6_mean2 (V0 : Valuation τ sig (Elt F)) : val6 V0 (Proc.devRef .tc main_v64) = (loss2 (V0 (Proc.devRef .tc main_arg0)) (labels (V0 (Proc.devRef .tc main_arg1)) (V0 (Proc.devRef .tc main_arg2)))) :=
  (group4_keep (val5 V0) main_v64 (by decide) (by decide)).trans (val5_mean2 V0)
theorem val6_mean3 (V0 : Valuation τ sig (Elt F)) : val6 V0 (Proc.devRef .tc main_v87) = (loss3 (V0 (Proc.devRef .tc main_arg0)) (labels (V0 (Proc.devRef .tc main_arg1)) (V0 (Proc.devRef .tc main_arg2)))) :=
  (group4_keep (val5 V0) main_v87 (by decide) (by decide)).trans (val5_mean3 V0)
theorem val6_prob0 (V0 : Valuation τ sig (Elt F)) : val6 V0 (Proc.devRef .tc main_v23) = (probArr2 (lp0 (V0 (Proc.devRef .tc main_arg0)))) :=
  (group4_keep (val5 V0) main_v23 (by decide) (by decide)).trans (val5_prob0 V0)
theorem val6_prob1 (V0 : Valuation τ sig (Elt F)) : val6 V0 (Proc.devRef .tc main_v46) = (probArr2 (lp1 (V0 (Proc.devRef .tc main_arg0)))) :=
  (group4_keep (val5 V0) main_v46 (by decide) (by decide)).trans (val5_prob1 V0)
theorem val6_prob2 (V0 : Valuation τ sig (Elt F)) : val6 V0 (Proc.devRef .tc main_v69) = (probArr3 (lp2 (V0 (Proc.devRef .tc main_arg0)))) :=
  (group4_keep (val5 V0) main_v69 (by decide) (by decide)).trans (val5_prob2 V0)
theorem val6_prob3 (V0 : Valuation τ sig (Elt F)) : val6 V0 (Proc.devRef .tc main_v92) = (probArr3 (lp3 (V0 (Proc.devRef .tc main_arg0)))) :=
  (group4_keep (val5 V0) main_v92 (by decide) (by decide)).trans (val5_prob3 V0)
theorem val6_mean4 (V0 : Valuation τ sig (Elt F)) : val6 V0 (Proc.devRef .tc main_v110) = (loss4 (V0 (Proc.devRef .tc main_arg0)) (labels (V0 (Proc.devRef .tc main_arg1)) (V0 (Proc.devRef .tc main_arg2)))) :=
  (group4_mean (val5 V0)).trans (by rw [val5_tab4, val5_arg0, val5_lab]; rfl)
theorem val6_prob4 (V0 : Valuation τ sig (Elt F)) : val6 V0 (Proc.devRef .tc main_v115) = (probArr3 (lp4 (V0 (Proc.devRef .tc main_arg0)))) :=
  (group4_prob (val5 V0)).trans (by rw [val5_arg0])

/-- The device's contents after the first 7 pieces. -/
def val7 (V0 : Valuation τ sig (Elt F)) : Valuation τ sig (Elt F) := after opsAny (val6 V0)
theorem val7_arg0 (V0 : Valuation τ sig (Elt F)) : val7 V0 (Proc.devRef .tc main_arg0) = (V0 (Proc.devRef .tc main_arg0)) :=
  (opsAny_keep (val6 V0) main_arg0 (by decide)).trans (val6_arg0 V0)
theorem val7_arg1 (V0 : Valuation τ sig (Elt F)) : val7 V0 (Proc.devRef .tc main_arg1) = (V0 (Proc.devRef .tc main_arg1)) :=
  (opsAny_keep (val6 V0) main_arg1 (by decide)).trans (val6_arg1 V0)
theorem val7_arg2 (V0 : Valuation τ sig (Elt F)) : val7 V0 (Proc.devRef .tc main_arg2) = (V0 (Proc.devRef .tc main_arg2)) :=
  (opsAny_keep (val6 V0) main_arg2 (by decide)).trans (val6_arg2 V0)
theorem val7_mean0 (V0 : Valuation τ sig (Elt F)) : val7 V0 (Proc.devRef .tc main_v18) = (loss0 (V0 (Proc.devRef .tc main_arg0)) (labels (V0 (Proc.devRef .tc main_arg1)) (V0 (Proc.devRef .tc main_arg2)))) :=
  (opsAny_keep (val6 V0) main_v18 (by decide)).trans (val6_mean0 V0)
theorem val7_mean1 (V0 : Valuation τ sig (Elt F)) : val7 V0 (Proc.devRef .tc main_v41) = (loss1 (V0 (Proc.devRef .tc main_arg0)) (labels (V0 (Proc.devRef .tc main_arg1)) (V0 (Proc.devRef .tc main_arg2)))) :=
  (opsAny_keep (val6 V0) main_v41 (by decide)).trans (val6_mean1 V0)
theorem val7_mean2 (V0 : Valuation τ sig (Elt F)) : val7 V0 (Proc.devRef .tc main_v64) = (loss2 (V0 (Proc.devRef .tc main_arg0)) (labels (V0 (Proc.devRef .tc main_arg1)) (V0 (Proc.devRef .tc main_arg2)))) :=
  (opsAny_keep (val6 V0) main_v64 (by decide)).trans (val6_mean2 V0)
theorem val7_mean3 (V0 : Valuation τ sig (Elt F)) : val7 V0 (Proc.devRef .tc main_v87) = (loss3 (V0 (Proc.devRef .tc main_arg0)) (labels (V0 (Proc.devRef .tc main_arg1)) (V0 (Proc.devRef .tc main_arg2)))) :=
  (opsAny_keep (val6 V0) main_v87 (by decide)).trans (val6_mean3 V0)
theorem val7_mean4 (V0 : Valuation τ sig (Elt F)) : val7 V0 (Proc.devRef .tc main_v110) = (loss4 (V0 (Proc.devRef .tc main_arg0)) (labels (V0 (Proc.devRef .tc main_arg1)) (V0 (Proc.devRef .tc main_arg2)))) :=
  (opsAny_keep (val6 V0) main_v110 (by decide)).trans (val6_mean4 V0)
theorem val7_ind (V0 : Valuation τ sig (Elt F)) : val7 V0 (Proc.devRef .tc main_v119) = (anyLabel (F := F) (labels (V0 (Proc.devRef .tc main_arg1)) (V0 (Proc.devRef .tc main_arg2)))) :=
  (any_label (val6 V0)).trans (by rw [val6_lab])
theorem val7_col0 (V0 : Valuation τ sig (Elt F)) : val7 V0 (Proc.devRef .tc main_v120) = (broadcastInDim S2097152x1 ![0] bcast_S2097152_S2097152x1_0 (probArr2 (lp0 (V0 (Proc.devRef .tc main_arg0))))) :=
  (any_col0 (val6 V0)).trans (by rw [val6_prob0])
theorem val7_col1 (V0 : Valuation τ sig (Elt F)) : val7 V0 (Proc.devRef .tc main_v121) = (broadcastInDim S2097152x1 ![0] bcast_S2097152_S2097152x1_0 (probArr2 (lp1 (V0 (Proc.devRef .tc main_arg0))))) :=
  (any_col1 (val6 V0)).trans (by rw [val6_prob1])
theorem val7_col2 (V0 : Valuation τ sig (Elt F)) : val7 V0 (Proc.devRef .tc main_v122) = (broadcastInDim S2097152x1 ![0] bcast_S2097152_S2097152x1_0 (probArr3 (lp2 (V0 (Proc.devRef .tc main_arg0))))) :=
  (any_col2 (val6 V0)).trans (by rw [val6_prob2])
theorem val7_col3 (V0 : Valuation τ sig (Elt F)) : val7 V0 (Proc.devRef .tc main_v123) = (broadcastInDim S2097152x1 ![0] bcast_S2097152_S2097152x1_0 (probArr3 (lp3 (V0 (Proc.devRef .tc main_arg0))))) :=
  (any_col3 (val6 V0)).trans (by rw [val6_prob3])
theorem val7_col4 (V0 : Valuation τ sig (Elt F)) : val7 V0 (Proc.devRef .tc main_v124) = (broadcastInDim S2097152x1 ![0] bcast_S2097152_S2097152x1_0 (probArr3 (lp4 (V0 (Proc.devRef .tc main_arg0))))) :=
  (any_col4 (val6 V0)).trans (by rw [val6_prob4])

/-- The device's contents after the first 8 pieces. -/
def val8 (V0 : Valuation τ sig (Elt F)) : Valuation τ sig (Elt F) := after (opsBce ++ opsBceMean) (val7 V0)
theorem val8_arg0 (V0 : Valuation τ sig (Elt F)) : val8 V0 (Proc.devRef .tc main_arg0) = (V0 (Proc.devRef .tc main_arg0)) :=
  (bce_keep (val7 V0) main_arg0 (by decide) (by decide)).trans (val7_arg0 V0)
theorem val8_arg1 (V0 : Valuation τ sig (Elt F)) : val8 V0 (Proc.devRef .tc main_arg1) = (V0 (Proc.devRef .tc main_arg1)) :=
  (bce_keep (val7 V0) main_arg1 (by decide) (by decide)).trans (val7_arg1 V0)
theorem val8_arg2 (V0 : Valuation τ sig (Elt F)) : val8 V0 (Proc.devRef .tc main_arg2) = (V0 (Proc.devRef .tc main_arg2)) :=
  (bce_keep (val7 V0) main_arg2 (by decide) (by decide)).trans (val7_arg2 V0)
theorem val8_mean0 (V0 : Valuation τ sig (Elt F)) : val8 V0 (Proc.devRef .tc main_v18) = (loss0 (V0 (Proc.devRef .tc main_arg0)) (labels (V0 (Proc.devRef .tc main_arg1)) (V0 (Proc.devRef .tc main_arg2)))) :=
  (bce_keep (val7 V0) main_v18 (by decide) (by decide)).trans (val7_mean0 V0)
theorem val8_mean1 (V0 : Valuation τ sig (Elt F)) : val8 V0 (Proc.devRef .tc main_v41) = (loss1 (V0 (Proc.devRef .tc main_arg0)) (labels (V0 (Proc.devRef .tc main_arg1)) (V0 (Proc.devRef .tc main_arg2)))) :=
  (bce_keep (val7 V0) main_v41 (by decide) (by decide)).trans (val7_mean1 V0)
theorem val8_mean2 (V0 : Valuation τ sig (Elt F)) : val8 V0 (Proc.devRef .tc main_v64) = (loss2 (V0 (Proc.devRef .tc main_arg0)) (labels (V0 (Proc.devRef .tc main_arg1)) (V0 (Proc.devRef .tc main_arg2)))) :=
  (bce_keep (val7 V0) main_v64 (by decide) (by decide)).trans (val7_mean2 V0)
theorem val8_mean3 (V0 : Valuation τ sig (Elt F)) : val8 V0 (Proc.devRef .tc main_v87) = (loss3 (V0 (Proc.devRef .tc main_arg0)) (labels (V0 (Proc.devRef .tc main_arg1)) (V0 (Proc.devRef .tc main_arg2)))) :=
  (bce_keep (val7 V0) main_v87 (by decide) (by decide)).trans (val7_mean3 V0)
theorem val8_mean4 (V0 : Valuation τ sig (Elt F)) : val8 V0 (Proc.devRef .tc main_v110) = (loss4 (V0 (Proc.devRef .tc main_arg0)) (labels (V0 (Proc.devRef .tc main_arg1)) (V0 (Proc.devRef .tc main_arg2)))) :=
  (bce_keep (val7 V0) main_v110 (by decide) (by decide)).trans (val7_mean4 V0)
theorem val8_mean5 (V0 : Valuation τ sig (Elt F)) : val8 V0 (Proc.devRef .tc main_v142) = (loss5 (V0 (Proc.devRef .tc main_arg0)) (labels (V0 (Proc.devRef .tc main_arg1)) (V0 (Proc.devRef .tc main_arg2)))) :=
  (bce_mean (val7 V0)).trans (by rw [val7_ind, val7_col0, val7_col1, val7_col2, val7_col3, val7_col4]; rfl)

/-- The device's contents after the first 9 pieces. -/
def val9 (V0 : Valuation τ sig (Elt F)) : Valuation τ sig (Elt F) := after opsSum (val8 V0)
theorem val9_arg0 (V0 : Valuation τ sig (Elt F)) : val9 V0 (Proc.devRef .tc main_arg0) = (V0 (Proc.devRef .tc main_arg0)) :=
  (opsSum_keep (val8 V0) main_arg0 (by decide)).trans (val8_arg0 V0)
theorem val9_arg1 (V0 : Valuation τ sig (Elt F)) : val9 V0 (Proc.devRef .tc main_arg1) = (V0 (Proc.devRef .tc main_arg1)) :=
  (opsSum_keep (val8 V0) main_arg1 (by decide)).trans (val8_arg1 V0)
theorem val9_arg2 (V0 : Valuation τ sig (Elt F)) : val9 V0 (Proc.devRef .tc main_arg2) = (V0 (Proc.devRef .tc main_arg2)) :=
  (opsSum_keep (val8 V0) main_arg2 (by decide)).trans (val8_arg2 V0)
theorem val9_one0 (V0 : Valuation τ sig (Elt F)) : val9 V0 (Proc.devRef .tc main_v148) = (broadcastInDim S1 ![] bcast_S_S1 (loss0 (V0 (Proc.devRef .tc main_arg0)) (labels (V0 (Proc.devRef .tc main_arg1)) (V0 (Proc.devRef .tc main_arg2))))) :=
  (sum_one0 (val8 V0)).trans (by rw [val8_mean0])
theorem val9_one1 (V0 : Valuation τ sig (Elt F)) : val9 V0 (Proc.devRef .tc main_v149) = (broadcastInDim S1 ![] bcast_S_S1 (loss1 (V0 (Proc.devRef .tc main_arg0)) (labels (V0 (Proc.devRef .tc main_arg1)) (V0 (Proc.devRef .tc main_arg2))))) :=
  (sum_one1 (val8 V0)).trans (by rw [val8_mean1])
theorem val9_one2 (V0 : Valuation τ sig (Elt F)) : val9 V0 (Proc.devRef .tc main_v150) = (broadcastInDim S1 ![] bcast_S_S1 (loss2 (V0 (Proc.devRef .tc main_arg0)) (labels (V0 (Proc.devRef .tc main_arg1)) (V0 (Proc.devRef .tc main_arg2))))) :=
  (sum_one2 (val8 V0)).trans (by rw [val8_mean2])
theorem val9_one3 (V0 : Valuation τ sig (Elt F)) : val9 V0 (Proc.devRef .tc main_v151) = (broadcastInDim S1 ![] bcast_S_S1 (loss3 (V0 (Proc.devRef .tc main_arg0)) (labels (V0 (Proc.devRef .tc main_arg1)) (V0 (Proc.devRef .tc main_arg2))))) :=
  (sum_one3 (val8 V0)).trans (by rw [val8_mean3])
theorem val9_one4 (V0 : Valuation τ sig (Elt F)) : val9 V0 (Proc.devRef .tc main_v152) = (broadcastInDim S1 ![] bcast_S_S1 (loss4 (V0 (Proc.devRef .tc main_arg0)) (labels (V0 (Proc.devRef .tc main_arg1)) (V0 (Proc.devRef .tc main_arg2))))) :=
  (sum_one4 (val8 V0)).trans (by rw [val8_mean4])
theorem val9_one5 (V0 : Valuation τ sig (Elt F)) : val9 V0 (Proc.devRef .tc main_v153) = (broadcastInDim S1 ![] bcast_S_S1 (loss5 (V0 (Proc.devRef .tc main_arg0)) (labels (V0 (Proc.devRef .tc main_arg1)) (V0 (Proc.devRef .tc main_arg2))))) :=
  (sum_one5 (val8 V0)).trans (by rw [val8_mean5])
theorem val9_total (V0 : Valuation τ sig (Elt F)) : val9 V0 (Proc.devRef .tc main_v154) = (broadcastInDim S1 ![] bcast_S_S1
        (addf (addf (addf (addf (addf (loss0 (V0 (Proc.devRef .tc main_arg0)) (labels (V0 (Proc.devRef .tc main_arg1)) (V0 (Proc.devRef .tc main_arg2)))) (loss1 (V0 (Proc.devRef .tc main_arg0)) (labels (V0 (Proc.devRef .tc main_arg1)) (V0 (Proc.devRef .tc main_arg2))))) (loss2 (V0 (Proc.devRef .tc main_arg0)) (labels (V0 (Proc.devRef .tc main_arg1)) (V0 (Proc.devRef .tc main_arg2))))) (loss3 (V0 (Proc.devRef .tc main_arg0)) (labels (V0 (Proc.devRef .tc main_arg1)) (V0 (Proc.devRef .tc main_arg2))))) (loss4 (V0 (Proc.devRef .tc main_arg0)) (labels (V0 (Proc.devRef .tc main_arg1)) (V0 (Proc.devRef .tc main_arg2))))) (loss5 (V0 (Proc.devRef .tc main_arg0)) (labels (V0 (Proc.devRef .tc main_arg1)) (V0 (Proc.devRef .tc main_arg2)))))) :=
  (sum_total (val8 V0)).trans (by rw [val8_mean0, val8_mean1, val8_mean2, val8_mean3, val8_mean4, val8_mean5])

/-- The device's contents after the first 10 pieces. -/
def val10 (V0 : Valuation τ sig (Elt F)) : Valuation τ sig (Elt F) := after opsOut (val9 V0)
theorem val10_arg0 (V0 : Valuation τ sig (Elt F)) : val10 V0 (Proc.devRef .tc main_arg0) = (V0 (Proc.devRef .tc main_arg0)) :=
  (opsOut_keep (val9 V0) main_arg0 (by decide)).trans (val9_arg0 V0)
theorem val10_arg1 (V0 : Valuation τ sig (Elt F)) : val10 V0 (Proc.devRef .tc main_arg1) = (V0 (Proc.devRef .tc main_arg1)) :=
  (opsOut_keep (val9 V0) main_arg1 (by decide)).trans (val9_arg1 V0)
theorem val10_arg2 (V0 : Valuation τ sig (Elt F)) : val10 V0 (Proc.devRef .tc main_arg2) = (V0 (Proc.devRef .tc main_arg2)) :=
  (opsOut_keep (val9 V0) main_arg2 (by decide)).trans (val9_arg2 V0)
theorem val10_out (V0 : Valuation τ sig (Elt F)) : val10 V0 (Proc.devRef .tc main_v155) = refOut (V0 (Proc.devRef .tc main_arg0)) (V0 (Proc.devRef .tc main_arg1)) (V0 (Proc.devRef .tc main_arg2)) :=
  (out_concat (val9 V0)).trans (by rw [val9_one0, val9_one1, val9_one2, val9_one3, val9_one4, val9_one5, val9_total]; rfl)

/-- The fold over the whole line is the pieces' folds one after the other. -/
theorem after_ops (V0 : Valuation τ sig (Elt F)) : after ops V0 = val10 V0 := by
  simp only [ops, val10, val9, val8, val7, val6, val5, val4, val3, val2, val1, after_append']

/-- Every weakly fair execution of the reference program ends with the result at `refOut` of the arguments, and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v155)
          = refOut (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c main_v155).trans (by rw [after_ops]; exact val10_out (launchContents m c)),
       (h c main_arg0).trans (by rw [after_ops]; exact val10_arg0 (launchContents m c)),
       (h c main_arg1).trans (by rw [after_ops]; exact val10_arg1 (launchContents m c)),
       (h c main_arg2).trans (by rw [after_ops]; exact val10_arg2 (launchContents m c))⟩)
    (run_ops m ρ)

end Cert.ReferenceIdeal.RefRun

end
-- ==== Proof.GroupBasics.lean ====
/-
  Facts shared by the 2-class and the 3-class groups of the reference: the largest of a row folded from −∞ absorbs one
  more maximum against −∞; the host's exp, log and negation read at an index; a label word that names a class is not
  negative, passes the range test and survives the clamp; and for such a label the specification's sum of selected
  entries is the entry at the label.
-/
import proofs.«403666_j67276367724950_3_alg».proof.Proof.LossSpec
import Idealize.ShloMosaic.Lib.ValueIdx
import Idealize.ShloMosaic.PureOps.Ideal.Laws

noncomputable section

namespace Cert.ReferenceIdeal.RefRows

open Idealize.ShloMosaic Idealize.ShloMosaic.ValueIdx Cert.InjuryLoss

/-- A fold of max that starts from a absorbs one more maximum against a. -/
theorem max_fold_self {C : ℕ} (a : EReal) (f : Fin C → EReal) :
    max a ((Finset.univ : Finset (Fin C)).fold max a f) = (Finset.univ : Finset (Fin C)).fold max a f :=
  max_eq_right ((Finset.le_fold_max a).mpr (Or.inl le_rfl))

/-- The host's logarithm, exponential and negation at an index are the extended reals' of the element. -/
theorem hostLog_apply {s : Shape} (v : FVec Ideal s .f32) (i : s.Idx) : Host.log v i = Ideal.log (v i) := rfl
theorem hostExp_apply {s : Shape} (v : FVec Ideal s .f32) (i : s.Idx) : Host.exp v i = Ideal.exp (v i) := rfl
theorem hostNegf_apply {s : Shape} (v : FVec Ideal s .f32) (i : s.Idx) : Host.negf v i = -(v i) := rfl

/-- A word whose unsigned value is below 2 is the word 0 or the word 1. -/
theorem word_lt_two (v : BitVec 32) (hv : v.toNat < 2) : v = 0#32 ∨ v = 1#32 := by
  have h : v.toNat = 0 ∨ v.toNat = 1 := by omega
  rcases h with h | h
  · exact Or.inl (BitVec.eq_of_toNat_eq (by rw [h]; rfl))
  · exact Or.inr (BitVec.eq_of_toNat_eq (by rw [h]; rfl))

/-- A word whose unsigned value is below 3 is the word 0, 1 or 2. -/
theorem word_lt_three (v : BitVec 32) (hv : v.toNat < 3) : v = 0#32 ∨ v = 1#32 ∨ v = 2#32 := by
  have h : v.toNat = 0 ∨ v.toNat = 1 ∨ v.toNat = 2 := by omega
  rcases h with h | h | h
  · exact Or.inl (BitVec.eq_of_toNat_eq (by rw [h]; rfl))
  · exact Or.inr (Or.inl (BitVec.eq_of_toNat_eq (by rw [h]; rfl)))
  · exact Or.inr (Or.inr (BitVec.eq_of_toNat_eq (by rw [h]; rfl)))

/-- A label naming one of 2 classes is not negative as a signed number: the wrap-around select keeps it. -/
theorem wrap_keeps2 (v : BitVec 32) (hv : v.toNat < 2) :
    Scalar.select (IntOp.cmpi .slt v 0#32) (IntOp.addi v 2#32) v = v := by
  rcases word_lt_two v hv with rfl | rfl <;> decide

/-- The same for one of 3 classes. -/
theorem wrap_keeps3 (v : BitVec 32) (hv : v.toNat < 3) :
    Scalar.select (IntOp.cmpi .slt v 0#32) (IntOp.addi v 3#32) v = v := by
  rcases word_lt_three v hv with rfl | rfl | rfl <;> decide

/-- A label naming one of 2 classes passes the range test 0 ≤ · ≤ 1. -/
theorem inRange2 (v : BitVec 32) (hv : v.toNat < 2) :
    IntOp.andi (IntOp.cmpi .sge v 0#32) (IntOp.cmpi .sle v 1#32) = 1#1 := by
  rcases word_lt_two v hv with rfl | rfl <;> decide

/-- A label naming one of 3 classes passes the range test 0 ≤ · ≤ 2. -/
theorem inRange3 (v : BitVec 32) (hv : v.toNat < 3) :
    IntOp.andi (IntOp.cmpi .sge v 0#32) (IntOp.cmpi .sle v 2#32) = 1#1 := by
  rcases word_lt_three v hv with rfl | rfl | rfl <;> decide

/-- Read signed and clamped to the last of 2 classes, such a label is its unsigned value. -/
theorem clamp2 (v : BitVec 32) (hv : v.toNat < 2) : min v.toInt.toNat (2 - 1) = v.toNat := by
  rcases word_lt_two v hv with rfl | rfl <;> decide

/-- Read signed and clamped to the last of 3 classes, such a label is its unsigned value. -/
theorem clamp3 (v : BitVec 32) (hv : v.toNat < 3) : min v.toInt.toNat (3 - 1) = v.toNat := by
  rcases word_lt_three v hv with rfl | rfl | rfl <;> decide

/-- For a label that names a class, the sum of the selected entries is the entry at that class: every other class's
    word differs from the label. -/
theorem pick_of_lt {C : ℕ} (hC : C ≤ 2 ^ 32) (f : Fin C → EReal) (y : BitVec 32) (hy : y.toNat < C) :
    pick f y = f ⟨y.toNat, hy⟩ := by
  unfold pick
  rw [Finset.sum_eq_single (⟨y.toNat, hy⟩ : Fin C)]
  · rw [if_pos (BitVec.eq_of_toNat_eq (by simp))]
  · intro c _ hc
    rw [if_neg]
    intro h
    apply hc
    apply Fin.ext
    have hc2 : c.val < 2 ^ 32 := lt_of_lt_of_le c.isLt hC
    have := congrArg BitVec.toNat h
    rw [BitVec.toNat_ofNat, Nat.mod_eq_of_lt hc2] at this
    exact this.symm
  · intro h; exact absurd (Finset.mem_univ _) h

/-- So the weighted negative log-likelihood is the label's weight times minus the log-softmax at the label. -/
theorem weightedNll_of_lt {C : ℕ} (hC : C ≤ 2 ^ 32) (w z : Fin C → EReal) (y : BitVec 32) (hy : y.toNat < C) :
    weightedNll w z y = w ⟨y.toNat, hy⟩ * -(logSoftmax z ⟨y.toNat, hy⟩) := by
  unfold weightedNll
  rw [pick_of_lt hC w y hy, pick_of_lt hC _ y hy, zero_sub]

end Cert.ReferenceIdeal.RefRows

end
-- ==== Proof.LabelColumn.lean ====
/-
  The label column of a group, shared by the 2-class and the 3-class shapes: a per-row vector read as a column and as a
  rank-3 index array, and the conjunction over the unit axis of a rank-3 condition, each read at a row.
-/
import proofs.«403666_j67276367724950_3_alg».proof.Proof.RefArrays
import Idealize.ShloMosaic.Lib.ValueIdx
import Idealize.ShloMosaic.Lib.Pipeline.Value
import Idealize.ShloMosaic.PureOps.Reduce

noncomputable section

namespace Cert.ReferenceIdeal.RefRows

open Cert.ReferenceIdeal Cert.ReferenceIdeal.Gen Idealize.ShloMosaic Idealize.ShloMosaic.ValueIdx

/-- A per-row vector broadcast to a column reads, at (n, 0), the vector at n. -/
theorem labelCol_apply {α : Type} (y : S2097152.Idx → α) (n : Fin 2097152) :
    broadcastInDim S2097152x1 ![0] bcast_S2097152_S2097152x1_0 y (ix2 n (0 : Fin 1)) = y (ix1 n) :=
  broadcastInDim_apply _ bcast_S2097152_S2097152x1_0 y (ix2 n (0 : Fin 1)) (ix1 n) (fun a => match a with | ⟨0, _⟩ => rfl)

/-- A column cast to a vector reads, at n, the column at (n, 0). -/
theorem colToVec_apply {α : Type} (v : S2097152x1.Idx → α) (n : Fin 2097152) :
    shapeCast S2097152 v shapeCasts_S2097152x1_S2097152 (ix1 n) = v (ix2 n (0 : Fin 1)) :=
  shapeCast_apply v shapeCasts_S2097152x1_S2097152 (ix1 n) (ix2 n (0 : Fin 1)) (by
    rw [Shape.rowMajor_val_two, Shape.rowMajor_val_one]
    show n.val * 1 + 0 = n.val
    omega)

/-- A column cast to a rank-3 array with two unit axes reads, at (n, 0, 0), the column at (n, 0). -/
theorem colToCube_apply {α : Type} (v : S2097152x1.Idx → α) (n : Fin 2097152) :
    shapeCast S2097152x1x1 v shapeCasts_S2097152x1_S2097152x1x1 (ix3 n (0 : Fin 1) (0 : Fin 1)) = v (ix2 n (0 : Fin 1)) :=
  shapeCast_apply v shapeCasts_S2097152x1_S2097152x1x1 (ix3 n (0 : Fin 1) (0 : Fin 1)) (ix2 n (0 : Fin 1)) (by
    rw [Shape.rowMajor_val_two, Shape.rowMajor_val_three]
    show n.val * 1 + 0 = (n.val * 1 + 0) * 1 + 0
    omega)

/-- The reduced index (n, 0) with the last, unit, coordinate put back is (n, 0, 0). -/
theorem lift3_ix3 (h : S2097152x1x1.Reduces [2] S2097152x1) (n : Fin 2097152) (k : Fin (S2097152x1x1.size 2)) :
    h.lift (ix2 n (0 : Fin 1)) k = ix3 n (0 : Fin 1) (0 : Fin 1) := by
  have hk : k.val < 1 := k.isLt
  funext c; apply Fin.ext
  fin_cases c
  · rfl
  · rfl
  · show k.val = 0
    omega

/-- The conjunction over the unit axis of a condition that holds at (n, 0, 0) holds at (n, 0). -/
theorem reduceAnd_unit_apply (m : IVec S2097152x1x1 1) (n : Fin 2097152) (hm : m (ix3 n (0 : Fin 1) (0 : Fin 1)) = 1#1) :
    Host.reduce IntOp.andi m (constantI S_ 1 1#1) reducesTo_S2097152x1x1_S2097152x1_d2 h_S_ (ix2 n (0 : Fin 1)) = 1#1 := by
  rw [Host.reduce_eq_fold_single IntOp.andi m _ reducesTo_S2097152x1x1_S2097152x1_d2 (by decide) h_S_]
  have hf : (m ∘ (show S2097152x1x1.Reduces [2] S2097152x1 by decide).lift (ix2 n (0 : Fin 1))) = fun _ : Fin 1 => 1#1 :=
    funext fun k => (congrArg m (lift3_ix3 _ n k)).trans hm
  rw [hf]
  rfl

end Cert.ReferenceIdeal.RefRows

end
-- ==== Proof.RefGroup.lean ====
/-
  One 2-class group of the reference, row by row: the whole-array log-softmax, the entry taken at the label, the class
  weight gathered from the table, their product, and the probability of "not class 0", each read at a row, are the
  specification's per-row functions of that row's logits and label.
-/
import proofs.«403666_j67276367724950_3_alg».proof.Proof.RefArrays
import proofs.«403666_j67276367724950_3_alg».proof.Proof.LossSpec
import proofs.«403666_j67276367724950_3_alg».proof.Proof.GroupBasics
import proofs.«403666_j67276367724950_3_alg».proof.Proof.LabelColumn
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.RefRows

open Cert.ReferenceIdeal Cert.ReferenceIdeal.Gen Cert.ReferenceIdeal.Arrays Idealize.ShloMosaic Idealize.ShloMosaic.ValueIdx
  Cert.InjuryLoss

/-- The reduced index n with class k put back is (n, k). -/
theorem lift2_ix2 (h : S2097152x2.Reduces [1] S2097152) (n : Fin 2097152) (k : Fin (S2097152x2.size 1)) :
    h.lift (ix1 n) k = ix2 n (⟨k.val, k.isLt⟩ : Fin 2) := by
  funext c; apply Fin.ext
  fin_cases c <;> rfl

/-- A 2-class group's shifted logits at (n, c): the logit minus the row's largest. -/
theorem shifted2_apply (x : FVec Ideal S2097152x2 .f32) (n : Fin 2097152) (c : Fin 2) :
    shifted2 (F := Ideal) x (ix2 n c) = x (ix2 n c) - rowMax (fun c' : Fin 2 => x (ix2 n c')) := by
  unfold shifted2
  rw [subf_apply]
  rw [broadcastInDim_apply _ bcast_S2097152x1_S2097152x2_0_1 _ (ix2 n c) (ix2 n (0 : Fin 1))
    (fun a => match a with | ⟨0, _⟩ => rfl | ⟨1, _⟩ => rfl)]
  rw [broadcastInDim_apply _ bcast_S2097152_S2097152x1_0 _ (ix2 n (0 : Fin 1)) (ix1 n)
    (fun a => match a with | ⟨0, _⟩ => rfl)]
  rw [maximumf_apply, broadcastInDim_scalar_apply, constant_apply]
  rw [Host.reduce_eq_fold_single FloatOps.maximumf x _ reducesTo_S2097152x2_S2097152_d1 (by decide) h_S_]
  have hf : (x ∘ (show S2097152x2.Reduces [1] S2097152 by decide).lift (ix1 n)) = fun k : Fin 2 => x (ix2 n k) :=
    funext fun k => congrArg x (lift2_ix2 _ n k)
  rw [hf]
  exact congrArg (fun m => x (ix2 n c) - m) (max_fold_self _ _)

/-- Row `n` of the 2-class log-softmax array is the log-softmax of row `n`'s logits. -/
theorem logSoftmax2_apply (x : FVec Ideal S2097152x2 .f32) (n : Fin 2097152) (c : Fin 2) :
    logSoftmax2 (F := Ideal) x (ix2 n c) = logSoftmax (fun c' : Fin 2 => x (ix2 n c')) c := by
  unfold logSoftmax2
  rw [subf_apply, shifted2_apply]
  rw [broadcastInDim_apply _ bcast_S2097152x1_S2097152x2_0_1 _ (ix2 n c) (ix2 n (0 : Fin 1))
    (fun a => match a with | ⟨0, _⟩ => rfl | ⟨1, _⟩ => rfl)]
  rw [hostLog_apply]
  rw [broadcastInDim_apply _ bcast_S2097152_S2097152x1_0 _ (ix2 n (0 : Fin 1)) (ix1 n)
    (fun a => match a with | ⟨0, _⟩ => rfl)]
  rw [hostReduceAdd_apply, Ideal.hostReduceAdd_single reducesTo_S2097152x2_S2097152_d1 (by decide)]
  rw [constant_apply, Ideal.ofBits_zero_f32, zero_add]
  have hs : (∑ k, Host.exp (shifted2 x) ((show S2097152x2.Reduces [1] S2097152 by decide).lift (ix1 n) k))
      = ∑ c' : Fin 2, Ideal.exp (x (ix2 n c') - rowMax fun c'' : Fin 2 => x (ix2 n c'')) :=
    Finset.sum_congr rfl fun k _ => by rw [lift2_ix2, hostExp_apply, shifted2_apply]; rfl
  rw [hs]; rfl

/-- The weight table's gather at row n reads the table at the start index (n, 0), read signed and clamped to the last class. -/
theorem gatherTab2_apply {α : Type} (tab : S2.Idx → α) (idx : IVec S2097152x1 32) (n : Fin 2097152) :
    Host.gather gather_S2_S2097152x1_S2097152_n_0_n_n_0_1_1 tab idx (ix1 n)
      = tab (ix1 (⟨min (idx (ix2 n (0 : Fin 1))).toInt.toNat (2 - 1), by omega⟩ : Fin 2)) := by
  unfold Host.gather
  congr 1
  funext a
  obtain rfl : a = 0 := Subsingleton.elim _ _
  refine Fin.ext ?_
  show gather_S2_S2097152x1_S2097152_n_0_n_n_0_1_1.start (ix1 n) idx 0
    + gather_S2_S2097152x1_S2097152_n_0_n_n_0_1_1.batchCoord (ix1 n) 0
    + gather_S2_S2097152x1_S2097152_n_0_n_n_0_1_1.offCoord (ix1 n) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S2_S2097152x1_S2097152_n_0_n_n_0_1_1.startIndexMap from List.mem_singleton.mpr rfl)]
  have hsi : gather_S2_S2097152x1_S2097152_n_0_n_n_0_1_1.siIdx (ix1 n)
      ⟨List.idxOf (0 : Fin 1) gather_S2_S2097152x1_S2097152_n_0_n_n_0_1_1.startIndexMap,
        List.idxOf_lt_length_iff.2 (List.mem_singleton.mpr rfl)⟩ = ix2 n (0 : Fin 1) := by
    funext b; refine Fin.ext ?_
    match b with
    | ⟨0, _⟩ => rfl
    | ⟨1, _⟩ => rfl
  rw [hsi]
  rfl

/-- The log-softmax array's gather at (n, 0) reads row n at the start index (n, 0, 0), read signed and clamped to the last class. -/
theorem gatherRow2_apply {α : Type} (lp : S2097152x2.Idx → α) (idx : IVec S2097152x1x1 32) (n : Fin 2097152) :
    Host.gather gather_S2097152x2_S2097152x1x1_S2097152x1_n_1_0_0_1_2_11 lp idx (ix2 n (0 : Fin 1))
      = lp (ix2 n (⟨min (idx (ix3 n (0 : Fin 1) (0 : Fin 1))).toInt.toNat (2 - 1), by omega⟩ : Fin 2)) := by
  unfold Host.gather
  congr 1
  funext a
  refine Fin.ext ?_
  match a with
  | ⟨0, _⟩ =>
    show gather_S2097152x2_S2097152x1x1_S2097152x1_n_1_0_0_1_2_11.start (ix2 n (0 : Fin 1)) idx 0
      + gather_S2097152x2_S2097152x1x1_S2097152x1_n_1_0_0_1_2_11.batchCoord (ix2 n (0 : Fin 1)) 0
      + gather_S2097152x2_S2097152x1x1_S2097152x1_n_1_0_0_1_2_11.offCoord (ix2 n (0 : Fin 1)) 0 = n.val
    rw [GatherDims.start_batching _ _ _ _ (List.mem_singleton.mpr rfl),
      GatherDims.offCoord_eq_zero _ _ _ (fun h => ((GatherDims.mem_sKept _ _).mp h).2 (List.mem_singleton.mpr rfl))]
    simp only [Nat.add_zero, Nat.zero_add]
    rfl
  | ⟨1, _⟩ =>
    show gather_S2097152x2_S2097152x1x1_S2097152x1_n_1_0_0_1_2_11.start (ix2 n (0 : Fin 1)) idx 1
      + gather_S2097152x2_S2097152x1x1_S2097152x1_n_1_0_0_1_2_11.batchCoord (ix2 n (0 : Fin 1)) 1
      + gather_S2097152x2_S2097152x1x1_S2097152x1_n_1_0_0_1_2_11.offCoord (ix2 n (0 : Fin 1)) 1 = _
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S2097152x2_S2097152x1x1_S2097152x1_n_1_0_0_1_2_11.startIndexMap from List.mem_singleton.mpr rfl)]
    have hsi : gather_S2097152x2_S2097152x1x1_S2097152x1_n_1_0_0_1_2_11.siIdx (ix2 n (0 : Fin 1))
        ⟨List.idxOf (1 : Fin 2) gather_S2097152x2_S2097152x1x1_S2097152x1_n_1_0_0_1_2_11.startIndexMap,
          List.idxOf_lt_length_iff.2 (List.mem_singleton.mpr rfl)⟩ = ix3 n (0 : Fin 1) (0 : Fin 1) := by
      funext b; refine Fin.ext ?_
      match b with
      | ⟨0, _⟩ => rfl
      | ⟨1, _⟩ => rfl
      | ⟨2, _⟩ => rfl
    rw [hsi]
    rfl

/-- The wrapped label at (n, 0, 0) is the label itself when it names a class. -/
theorem wrapped2_apply (idx : IVec S2097152x1 32) (n : Fin 2097152) (h : (idx (ix2 n (0 : Fin 1))).toNat < 2) :
    wrapped2 idx (ix3 n (0 : Fin 1) (0 : Fin 1)) = idx (ix2 n (0 : Fin 1)) := by
  unfold wrapped2
  rw [colToCube_apply]
  exact wrap_keeps2 _ h

/-- Where the label at (n, 0) is the word v naming a class, the taken entry at (n, 0) is the array's at (n, v). -/
theorem takeAlong2_apply (lp : FVec Ideal S2097152x2 .f32) (idx : IVec S2097152x1 32) (n : Fin 2097152) (v : BitVec 32)
    (hv : idx (ix2 n (0 : Fin 1)) = v) (h : v.toNat < 2) :
    takeAlong2 (F := Ideal) lp idx (ix2 n (0 : Fin 1)) = lp (ix2 n (⟨v.toNat, h⟩ : Fin 2)) := by
  subst hv
  have hwr := wrapped2_apply idx n h
  unfold takeAlong2
  rw [select_apply, reduceAnd_unit_apply _ n (by
    show IntOp.andi (IntOp.cmpi .sge (wrapped2 idx (ix3 n (0 : Fin 1) (0 : Fin 1))) 0#32)
      (IntOp.cmpi .sle (wrapped2 idx (ix3 n (0 : Fin 1) (0 : Fin 1))) 1#32) = 1#1
    rw [hwr]; exact inRange2 _ h), select_one]
  refine (gatherRow2_apply lp _ n).trans (congrArg lp (congrArg (ix2 n) (Fin.ext ?_)))
  show min (wrapped2 idx (ix3 n (0 : Fin 1) (0 : Fin 1))).toInt.toNat (2 - 1) = _
  rw [hwr]; exact clamp2 _ h

/-- The class weight of row n's label, where the label names a class, is the table's entry at it. -/
theorem weightOf2_apply (tab : FVec Ideal S2 .f32) (y : IVec S2097152 32) (n : Fin 2097152) (hy : (y (ix1 n)).toNat < 2) :
    weightOf2 (F := Ideal) tab y (ix1 n) = tab (ix1 (⟨(y (ix1 n)).toNat, hy⟩ : Fin 2)) := by
  unfold weightOf2
  refine (gatherTab2_apply tab _ n).trans (congrArg tab (congrArg (fun k : Fin 2 => ix1 k) (Fin.ext ?_)))
  have hsel : broadcastInDim S2097152x1 ![0] bcast_S2097152_S2097152x1_0
      (select (cmpi .slt y (broadcastInDim S2097152 ![] bcast_S_S2097152 (constantI S_ 32 0#32)))
        (addi y (broadcastInDim S2097152 ![] bcast_S_S2097152 (constantI S_ 32 2#32))) y) (ix2 n (0 : Fin 1)) = y (ix1 n) := by
    rw [labelCol_apply]; exact wrap_keeps2 _ hy
  show min (_ : BitVec 32).toInt.toNat (2 - 1) = _
  rw [hsel]; exact clamp2 _ hy

/-- Where row `n`'s label names one of the 2 classes, the weighted negative log-likelihood array at `n` is the
    specification's: the gathers read the table and the log-softmax row at the label, which is what `pick` sums to. -/
theorem nllArr2_apply (tab : FVec Ideal S2 .f32) (w : Fin 2 → EReal) (hw : ∀ c : Fin 2, tab (ix1 c) = w c)
    (x : FVec Ideal S2097152x2 .f32) (y : IVec S2097152 32) (n : Fin 2097152) (hy : (y (ix1 n)).toNat < 2) :
    nllArr2 (F := Ideal) tab (logSoftmax2 x) y (ix1 n) = weightedNll w (fun c : Fin 2 => x (ix2 n c)) (y (ix1 n)) := by
  unfold nllArr2
  rw [mulf_apply, hostNegf_apply, weightOf2_apply tab y n hy, colToVec_apply,
    takeAlong2_apply _ _ n (y (ix1 n)) (labelCol_apply y n) hy, logSoftmax2_apply, hw,
    weightedNll_of_lt (by norm_num) w _ _ hy]

/-- The probability array at row `n`. -/
theorem probArr2_apply (x : FVec Ideal S2097152x2 .f32) (n : Fin 2097152) :
    probArr2 (F := Ideal) (logSoftmax2 x) (ix1 n) = probInjured (fun c : Fin 2 => x (ix2 n c)) := by
  unfold probArr2
  rw [subf_apply, broadcastInDim_scalar_apply, constant_apply, hostExp_apply, colToVec_apply]
  rw [extractStridedSlice_apply _ _ slices_S2097152x2_S2097152x1_0_0 (ix2 n (0 : Fin 1)) (ix2 n (0 : Fin 2))
    (fun a => match a with | ⟨0, _⟩ => (Nat.zero_add _).symm | ⟨1, _⟩ => rfl)]
  rw [logSoftmax2_apply]
  rfl

end Cert.ReferenceIdeal.RefRows

end
-- ==== Proof.RefGroup3.lean ====
/-
  One 3-class group of the reference, row by row: the whole-array log-softmax, the entry taken at the label, the class
  weight gathered from the table, their product, and the probability of "not class 0", each read at a row, are the
  specification's per-row functions of that row's logits and label.
-/
import proofs.«403666_j67276367724950_3_alg».proof.Proof.RefArrays
import proofs.«403666_j67276367724950_3_alg».proof.Proof.LossSpec
import proofs.«403666_j67276367724950_3_alg».proof.Proof.GroupBasics
import proofs.«403666_j67276367724950_3_alg».proof.Proof.LabelColumn
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.ReferenceIdeal.RefRows

open Cert.ReferenceIdeal Cert.ReferenceIdeal.Gen Cert.ReferenceIdeal.Arrays Idealize.ShloMosaic Idealize.ShloMosaic.ValueIdx
  Cert.InjuryLoss

/-! ## The log-softmax of a row -/

/-- Rows of three: the shape fact that names the inserted class index. -/
theorem reduces3 : S2097152x3.Reduces [1] S2097152 := by decide

/-- Row `n` with class `c` put back is (n, c). -/
theorem lift3 (n : Fin 2097152) (k : Fin (S2097152x3.size 1)) :
    reduces3.lift (ix1 n) k = ix2 n (⟨k.val, k.isLt⟩ : Fin 3) := by
  funext a; apply Fin.ext; fin_cases a <;> rfl

/-- The largest of row `n`, taken once more against −∞ as the program does, is the fold of the maximum from −∞. -/
theorem rowMaxArr3_apply (x : FVec Ideal S2097152x3 .f32) (n : Fin 2097152) :
    maximumf (broadcastInDim S2097152 ![] bcast_S_S2097152 (constant (F := Ideal) S_ .f32 0xFF800000#32))
        (Host.reduce FloatOps.maximumf x (constant S_ .f32 0xFF800000#32) reducesTo_S2097152x3_S2097152_d1 h_S_) (ix1 n)
      = rowMax (fun c' : Fin 3 => x (ix2 n c')) := by
  rw [maximumf_apply, Host.reduce_eq_fold_single FloatOps.maximumf x _ _ reduces3 h_S_]
  have hf : (x ∘ reduces3.lift (ix1 n)) = fun c' : Fin 3 => x (ix2 n c') := funext fun k => congrArg x (lift3 n k)
  rw [hf]
  exact max_fold_self negInf _

/-- The shifted logits at (n, c): the logit less the row's largest. -/
theorem shifted3_apply (x : FVec Ideal S2097152x3 .f32) (n : Fin 2097152) (c : Fin 3) :
    shifted3 (F := Ideal) x (ix2 n c) = x (ix2 n c) - rowMax (fun c' : Fin 3 => x (ix2 n c')) := by
  unfold shifted3
  rw [subf_apply,
    broadcastInDim_apply ![0, 1] _ _ (ix2 n c) (ix2 n (0 : Fin 1)) (fun a => by fin_cases a <;> rfl),
    broadcastInDim_apply ![0] _ _ (ix2 n (0 : Fin 1)) (ix1 n) (fun a => by fin_cases a <;> rfl),
    rowMaxArr3_apply]

/-- Row `n` of the 3-class log-softmax array is the log-softmax of row `n`'s logits. -/
theorem logSoftmax3_apply (x : FVec Ideal S2097152x3 .f32) (n : Fin 2097152) (c : Fin 3) :
    logSoftmax3 (F := Ideal) x (ix2 n c) = logSoftmax (fun c' : Fin 3 => x (ix2 n c')) c := by
  unfold logSoftmax3
  rw [subf_apply, shifted3_apply,
    broadcastInDim_apply ![0, 1] _ _ (ix2 n c) (ix2 n (0 : Fin 1)) (fun a => by fin_cases a <;> rfl),
    hostLog_apply,
    broadcastInDim_apply ![0] _ _ (ix2 n (0 : Fin 1)) (ix1 n) (fun a => by fin_cases a <;> rfl),
    hostReduceAdd_apply, Ideal.hostReduceAdd_single reducesTo_S2097152x3_S2097152_d1 reduces3,
    constant_apply, Ideal.ofBits_zero_f32, zero_add]
  have hs : (∑ k, Host.exp (shifted3 x) (reduces3.lift (ix1 n) k))
      = ∑ c' : Fin 3, Ideal.exp (x (ix2 n c') - rowMax fun c'' : Fin 3 => x (ix2 n c'')) :=
    Finset.sum_congr rfl fun k _ => by rw [lift3, hostExp_apply, shifted3_apply]; rfl
  rw [hs]
  rfl

/-! ## The two gathers at a row -/

/-- The weight table's gather at row `n` reads the table at the start index (n, 0), read signed and clamped to the
    last class. -/
theorem gatherTab3_apply {α : Type} (tab : S3.Idx → α) (idx : IVec S2097152x1 32) (n : Fin 2097152) :
    Host.gather gather_S3_S2097152x1_S2097152_n_0_n_n_0_1_1 tab idx (ix1 n)
      = tab (ix1 (⟨min (idx (ix2 n (0 : Fin 1))).toInt.toNat (3 - 1), by omega⟩ : Fin 3)) := by
  unfold Host.gather
  congr 1
  funext a
  obtain rfl : a = 0 := Subsingleton.elim _ _
  refine Fin.ext ?_
  show gather_S3_S2097152x1_S2097152_n_0_n_n_0_1_1.start (ix1 n) idx 0
    + gather_S3_S2097152x1_S2097152_n_0_n_n_0_1_1.batchCoord (ix1 n) 0
    + gather_S3_S2097152x1_S2097152_n_0_n_n_0_1_1.offCoord (ix1 n) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S3_S2097152x1_S2097152_n_0_n_n_0_1_1.startIndexMap from List.mem_singleton.mpr rfl)]
  have hsi : gather_S3_S2097152x1_S2097152_n_0_n_n_0_1_1.siIdx (ix1 n)
      ⟨List.idxOf (0 : Fin 1) gather_S3_S2097152x1_S2097152_n_0_n_n_0_1_1.startIndexMap,
        List.idxOf_lt_length_iff.2 (List.mem_singleton.mpr rfl)⟩ = ix2 n (0 : Fin 1) := by
    funext b; refine Fin.ext ?_
    match b with
    | ⟨0, _⟩ => rfl
    | ⟨1, _⟩ => rfl
  rw [hsi]
  rfl

/-- The log-softmax array's gather at (n, 0) reads row `n` at the start index (n, 0, 0), read signed and clamped to
    the last class. -/
theorem gatherRow3_apply {α : Type} (lp : S2097152x3.Idx → α) (idx : IVec S2097152x1x1 32) (n : Fin 2097152) :
    Host.gather gather_S2097152x3_S2097152x1x1_S2097152x1_n_1_0_0_1_2_11 lp idx (ix2 n (0 : Fin 1))
      = lp (ix2 n (⟨min (idx (ix3 n (0 : Fin 1) (0 : Fin 1))).toInt.toNat (3 - 1), by omega⟩ : Fin 3)) := by
  unfold Host.gather
  congr 1
  funext a
  refine Fin.ext ?_
  match a with
  | ⟨0, _⟩ =>
    show gather_S2097152x3_S2097152x1x1_S2097152x1_n_1_0_0_1_2_11.start (ix2 n (0 : Fin 1)) idx 0
      + gather_S2097152x3_S2097152x1x1_S2097152x1_n_1_0_0_1_2_11.batchCoord (ix2 n (0 : Fin 1)) 0
      + gather_S2097152x3_S2097152x1x1_S2097152x1_n_1_0_0_1_2_11.offCoord (ix2 n (0 : Fin 1)) 0 = n.val
    rw [GatherDims.start_batching _ _ _ _ (List.mem_singleton.mpr rfl),
      GatherDims.offCoord_eq_zero _ _ _ (fun h => ((GatherDims.mem_sKept _ _).mp h).2 (List.mem_singleton.mpr rfl))]
    simp only [Nat.add_zero, Nat.zero_add]
    rfl
  | ⟨1, _⟩ =>
    show gather_S2097152x3_S2097152x1x1_S2097152x1_n_1_0_0_1_2_11.start (ix2 n (0 : Fin 1)) idx 1
      + gather_S2097152x3_S2097152x1x1_S2097152x1_n_1_0_0_1_2_11.batchCoord (ix2 n (0 : Fin 1)) 1
      + gather_S2097152x3_S2097152x1x1_S2097152x1_n_1_0_0_1_2_11.offCoord (ix2 n (0 : Fin 1)) 1 = _
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S2097152x3_S2097152x1x1_S2097152x1_n_1_0_0_1_2_11.startIndexMap from List.mem_singleton.mpr rfl)]
    have hsi : gather_S2097152x3_S2097152x1x1_S2097152x1_n_1_0_0_1_2_11.siIdx (ix2 n (0 : Fin 1))
        ⟨List.idxOf (1 : Fin 2) gather_S2097152x3_S2097152x1x1_S2097152x1_n_1_0_0_1_2_11.startIndexMap,
          List.idxOf_lt_length_iff.2 (List.mem_singleton.mpr rfl)⟩ = ix3 n (0 : Fin 1) (0 : Fin 1) := by
      funext b; refine Fin.ext ?_
      match b with
      | ⟨0, _⟩ => rfl
      | ⟨1, _⟩ => rfl
      | ⟨2, _⟩ => rfl
    rw [hsi]
    rfl

/-! ## The weighted negative log-likelihood of a row -/

/-- The class weight at row `n`: the table at the label. -/
theorem weightOf3_apply (tab : FVec Ideal S3 .f32) (y : IVec S2097152 32) (n : Fin 2097152) (hy : (y (ix1 n)).toNat < 3) :
    weightOf3 (F := Ideal) tab y (ix1 n) = tab (ix1 (⟨(y (ix1 n)).toNat, hy⟩ : Fin 3)) := by
  unfold weightOf3
  rw [gatherTab3_apply]
  refine congrArg tab (congrArg ix1 (Fin.ext ?_))
  show min (BitVec.toInt _).toNat (3 - 1) = (y (ix1 n)).toNat
  rw [broadcastInDim_apply ![0] _ _ (ix2 n (0 : Fin 1)) (ix1 n) (fun a => by fin_cases a <;> rfl)]
  refine Eq.trans ?_ (clamp3 _ hy)
  exact congrArg (fun v : BitVec 32 => min v.toInt.toNat (3 - 1)) (wrap_keeps3 _ hy)

/-- The wrapped label column at (n, 0, 0) is the label where it names a class. -/
theorem wrapped3_apply (idx : IVec S2097152x1 32) (n : Fin 2097152) (h : (idx (ix2 n (0 : Fin 1))).toNat < 3) :
    wrapped3 idx (ix3 n (0 : Fin 1) (0 : Fin 1)) = idx (ix2 n (0 : Fin 1)) := by
  unfold wrapped3
  rw [colToCube_apply]
  exact wrap_keeps3 _ h

/-- Where the label at (n, 0) is the word `v` naming a class, the taken entry at (n, 0) is the array's at (n, v):
    the range test holds, so the select keeps the gather, which reads the row at the label. -/
theorem takeAlong3_apply (lp : FVec Ideal S2097152x3 .f32) (idx : IVec S2097152x1 32) (n : Fin 2097152) (v : BitVec 32)
    (hv : idx (ix2 n (0 : Fin 1)) = v) (h : v.toNat < 3) :
    takeAlong3 (F := Ideal) lp idx (ix2 n (0 : Fin 1)) = lp (ix2 n (⟨v.toNat, h⟩ : Fin 3)) := by
  subst hv
  have hwr := wrapped3_apply idx n h
  unfold takeAlong3
  rw [select_apply, reduceAnd_unit_apply _ n (by
    show IntOp.andi (IntOp.cmpi .sge (wrapped3 idx (ix3 n (0 : Fin 1) (0 : Fin 1))) 0#32)
      (IntOp.cmpi .sle (wrapped3 idx (ix3 n (0 : Fin 1) (0 : Fin 1))) 2#32) = 1#1
    rw [hwr]; exact inRange3 _ h), select_one]
  refine (gatherRow3_apply lp _ n).trans (congrArg lp (congrArg (ix2 n) (Fin.ext ?_)))
  show min (wrapped3 idx (ix3 n (0 : Fin 1) (0 : Fin 1))).toInt.toNat (3 - 1) = _
  rw [hwr]; exact clamp3 _ h

/-- Where row `n`'s label names one of the 3 classes, the weighted negative log-likelihood array at `n` is the
    specification's: the gathers read the table and the log-softmax row at the label, which is what `pick` sums to. -/
theorem nllArr3_apply (tab : FVec Ideal S3 .f32) (w : Fin 3 → EReal) (hw : ∀ c : Fin 3, tab (ix1 c) = w c)
    (x : FVec Ideal S2097152x3 .f32) (y : IVec S2097152 32) (n : Fin 2097152) (hy : (y (ix1 n)).toNat < 3) :
    nllArr3 (F := Ideal) tab (logSoftmax3 x) y (ix1 n) = weightedNll w (fun c : Fin 3 => x (ix2 n c)) (y (ix1 n)) := by
  unfold nllArr3
  rw [mulf_apply, hostNegf_apply, weightOf3_apply tab y n hy, colToVec_apply,
    takeAlong3_apply _ _ n (y (ix1 n)) (labelCol_apply y n) hy, logSoftmax3_apply, hw,
    weightedNll_of_lt (by norm_num) w _ _ hy]

/-! ## The probability of "not class 0" -/

/-- The probability array at row `n`. -/
theorem probArr3_apply (x : FVec Ideal S2097152x3 .f32) (n : Fin 2097152) :
    probArr3 (F := Ideal) (logSoftmax3 x) (ix1 n) = probInjured (fun c : Fin 3 => x (ix2 n c)) := by
  unfold probArr3
  rw [subf_apply, broadcastInDim_scalar_apply, constant_apply, hostExp_apply, colToVec_apply,
    extractStridedSlice_apply _ _ slices_S2097152x3_S2097152x1_0_0 (ix2 n (0 : Fin 1)) (ix2 n (0 : Fin 3))
      (fun a => match a with | ⟨0, _⟩ => (Nat.zero_add _).symm | ⟨1, _⟩ => rfl),
    logSoftmax3_apply]
  rfl

end Cert.ReferenceIdeal.RefRows

end
-- ==== Proof.RefLabels.lean ====
/-
  The reference's label columns, positive-label indicator and largest probability, read at a row: the five label
  columns of the concatenated label array are the two binary and three ternary labels of the row; the maximum of the
  five labels from the most negative word is positive exactly when some label is; the maximum over the five
  concatenated probability columns from −∞ is the left-to-right maximum of the five.
-/
import proofs.«403666_j67276367724950_3_alg».proof.Proof.RefArrays
import proofs.«403666_j67276367724950_3_alg».proof.Proof.LossSpec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefRows

open Cert.ReferenceIdeal Cert.ReferenceIdeal.Gen Cert.ReferenceIdeal.Arrays Idealize.ShloMosaic Idealize.ShloMosaic.ValueIdx
  Cert.InjuryLoss

/-- A column below 2 of the label array reads the binary label array at that column. -/
theorem labels_apply_left (a1 : IVec S2097152x2 32) (a2 : IVec S2097152x3 32) (n : Fin 2097152) (c : Fin 5) (hc : c.val < 2) :
    labels a1 a2 (ix2 n c) = a1 (ix2 n ⟨c.val, hc⟩) := by
  unfold labels
  refine concatenate_pair_apply_left (t := S2097152x5) (s₁ := S2097152x2) (s₂ := S2097152x3) 1 a1 a2
    concatenates_S2097152x2_S2097152x3_S2097152x5_d1 (ix2 n c) rfl (ix2 n ⟨c.val, hc⟩) ?_
  intro b
  match b with
  | ⟨0, _⟩ => rfl
  | ⟨1, _⟩ => rfl

/-- A column from 2 on of the label array reads the ternary label array two columns earlier. -/
theorem labels_apply_right (a1 : IVec S2097152x2 32) (a2 : IVec S2097152x3 32) (n : Fin 2097152) (c : Fin 5) (hc : 2 ≤ c.val) :
    labels a1 a2 (ix2 n c) = a2 (ix2 n ⟨c.val - 2, by omega⟩) := by
  unfold labels
  refine concatenate_pair_apply_right (t := S2097152x5) (s₁ := S2097152x2) (s₂ := S2097152x3) 1 a1 a2
    concatenates_S2097152x2_S2097152x3_S2097152x5_d1 (ix2 n c) rfl rfl (ix2 n ⟨c.val - 2, by omega⟩) ?_ ?_
  · intro b hb
    match b with
    | ⟨0, _⟩ => rfl
    | ⟨1, _⟩ => exact absurd rfl hb
  · show c.val - 2 + 2 = c.val
    omega

/-- Column `c` of the label array, sliced out and flattened, at row `n`. -/
theorem col_apply (lab : IVec S2097152x5 32) (c : Fin 5) (h : S2097152x5.Slices ![0, c.val] S2097152x1) (n : Fin 2097152) :
    shapeCast S2097152 (extractStridedSlice S2097152x1 ![0, c.val] lab h) shapeCasts_S2097152x1_S2097152 (ix1 n) = lab (ix2 n c) := by
  refine (shapeCast_apply _ _ (ix1 n) (ix2 n 0) ?_).trans ?_
  · rw [Shape.rowMajor_val_two, Shape.rowMajor_val_one]
    show n.val * 1 + 0 = n.val
    omega
  refine extractStridedSlice_apply _ _ _ (ix2 n 0) (ix2 n c) ?_
  intro a
  match a with
  | ⟨0, _⟩ => show n.val = 0 + n.val; omega
  | ⟨1, _⟩ => show c.val = c.val + 0; omega

/-- The five label columns at row `n`: the row's two binary labels, then its three ternary ones. -/
theorem labelCol0_apply (a1 : IVec S2097152x2 32) (a2 : IVec S2097152x3 32) (n : Fin 2097152) :
    labelCol0 (labels a1 a2) (ix1 n) = a1 (ix2 n 0) :=
  (col_apply (labels a1 a2) 0 _ n).trans (labels_apply_left a1 a2 n 0 (by decide))
theorem labelCol1_apply (a1 : IVec S2097152x2 32) (a2 : IVec S2097152x3 32) (n : Fin 2097152) :
    labelCol1 (labels a1 a2) (ix1 n) = a1 (ix2 n 1) :=
  (col_apply (labels a1 a2) 1 _ n).trans (labels_apply_left a1 a2 n 1 (by decide))
theorem labelCol2_apply (a1 : IVec S2097152x2 32) (a2 : IVec S2097152x3 32) (n : Fin 2097152) :
    labelCol2 (labels a1 a2) (ix1 n) = a2 (ix2 n 0) :=
  (col_apply (labels a1 a2) 2 _ n).trans (labels_apply_right a1 a2 n 2 (by decide))
theorem labelCol3_apply (a1 : IVec S2097152x2 32) (a2 : IVec S2097152x3 32) (n : Fin 2097152) :
    labelCol3 (labels a1 a2) (ix1 n) = a2 (ix2 n 1) :=
  (col_apply (labels a1 a2) 3 _ n).trans (labels_apply_right a1 a2 n 3 (by decide))
theorem labelCol4_apply (a1 : IVec S2097152x2 32) (a2 : IVec S2097152x3 32) (n : Fin 2097152) :
    labelCol4 (labels a1 a2) (ix1 n) = a2 (ix2 n 2) :=
  (col_apply (labels a1 a2) 4 _ n).trans (labels_apply_right a1 a2 n 4 (by decide))

/-- The shape fact naming the index a reduction over the five columns inserts. -/
theorem reduces5 : S2097152x5.Reduces [1] S2097152 := by decide

/-- Row `n` with column `k` inserted. -/
theorem lift5 (n : Fin 2097152) (k : Fin 5) : reduces5.lift (ix1 n) k = ix2 n k := by
  funext c
  match c with
  | ⟨0, _⟩ => rfl
  | ⟨1, _⟩ => rfl

/-- Row `n` of the label array is the row's five labels. -/
theorem labels_row (a1 : IVec S2097152x2 32) (a2 : IVec S2097152x3 32) (n : Fin 2097152) (k : Fin 5) :
    labels a1 a2 (ix2 n k) = rowsY a1 a2 n k := by
  match k with
  | ⟨0, _⟩ => exact labels_apply_left a1 a2 n 0 (by decide)
  | ⟨1, _⟩ => exact labels_apply_left a1 a2 n 1 (by decide)
  | ⟨2, _⟩ => exact labels_apply_right a1 a2 n 2 (by decide)
  | ⟨3, _⟩ => exact labels_apply_right a1 a2 n 3 (by decide)
  | ⟨4, _⟩ => exact labels_apply_right a1 a2 n 4 (by decide)

/-- The signed maximum of two words reads, signed, as the maximum of their signed readings. -/
theorem toInt_maxsi (x y : BitVec 32) : (IntOp.maxsi x y).toInt = max x.toInt y.toInt := by
  simp only [IntOp.maxsi, BitVec.slt, decide_eq_true_eq]
  split_ifs <;> omega

/-- A signed maximum folded from the most negative word is positive exactly when some operand is. -/
theorem fold_maxsi_pos {ι : Type} [DecidableEq ι] (S : Finset ι) (f : ι → BitVec 32) :
    (0#32 : BitVec 32).toInt < (S.fold IntOp.maxsi 2147483648#32 f).toInt ↔ ∃ k ∈ S, 0 < (f k).toInt := by
  have := Finset.fold_op_rel_iff_or (op := IntOp.maxsi) (r := fun x y : BitVec 32 => x.toInt < y.toInt)
    (fun {x y z} => by rw [toInt_maxsi]; exact lt_max_iff) (c := 0#32) (b := 2147483648#32) (f := f) (s := S)
  rw [this, show (0#32 : BitVec 32).toInt = 0 from by decide, show (2147483648#32 : BitVec 32).toInt = -2147483648 from by decide]
  simp

/-- The positive-label indicator at row `n`. -/
theorem anyLabel_apply (a1 : IVec S2097152x2 32) (a2 : IVec S2097152x3 32) (n : Fin 2097152) :
    anyLabel (F := Ideal) (labels a1 a2) (ix1 n) = anyPositive (rowsY a1 a2 n) := by
  unfold anyLabel anyPositive
  show ((((IntOp.cmpi .sgt (Host.reduce IntOp.maxsi (labels a1 a2) (constantI S_ 32 2147483648#32) reducesTo_S2097152x5_S2097152_d1 h_S_ (ix1 n))
    0#32).toNat : ℝ) : EReal)) = _
  rw [Host.reduce_eq_fold_single IntOp.maxsi _ _ reducesTo_S2097152x5_S2097152_d1 reduces5 h_S_ (ix1 n)]
  have hf : (labels a1 a2 ∘ reduces5.lift (ix1 n)) = rowsY a1 a2 n := funext fun k => by
    exact (congrArg (labels a1 a2) (lift5 n k)).trans (labels_row a1 a2 n k)
  rw [hf]
  show ((((IntOp.cmpi .sgt (Finset.univ.fold IntOp.maxsi 2147483648#32 (rowsY a1 a2 n)) 0#32).toNat : ℝ) : EReal)) = _
  by_cases hp : ∃ k, 0 < (rowsY a1 a2 n k).toInt
  · have hb : IntOp.cmpi .sgt (Finset.univ.fold IntOp.maxsi 2147483648#32 (rowsY a1 a2 n)) 0#32 = 1#1 :=
      IntOp.cmpi_sgt.2 ((fold_maxsi_pos Finset.univ _).2 (by obtain ⟨k, hk⟩ := hp; exact ⟨k, Finset.mem_univ k, hk⟩))
    rw [hb, if_pos hp]
    simp
  · have hb : IntOp.cmpi .sgt (Finset.univ.fold IntOp.maxsi 2147483648#32 (rowsY a1 a2 n)) 0#32 = 0#1 :=
      eq_zero_of_ne_one fun h1 => hp (by
        obtain ⟨k, _, hk⟩ := (fold_maxsi_pos Finset.univ _).1 (IntOp.cmpi_sgt.1 h1); exact ⟨k, hk⟩)
    rw [hb, if_neg hp]
    simp

/-- The fold of `max` from −∞ over five values is their left-to-right maximum. -/
theorem fold_max5 (f : Fin 5 → EReal) :
    (Finset.univ : Finset (Fin 5)).fold max ⊥ f = max (max (max (max (f 0) (f 1)) (f 2)) (f 3)) (f 4) := by
  apply le_antisymm
  · rw [Finset.fold_max_le]
    refine ⟨bot_le, fun k _ => ?_⟩
    match k with
    | ⟨0, _⟩ => exact le_max_of_le_left (le_max_of_le_left (le_max_of_le_left (le_max_left _ _)))
    | ⟨1, _⟩ => exact le_max_of_le_left (le_max_of_le_left (le_max_of_le_left (le_max_right _ _)))
    | ⟨2, _⟩ => exact le_max_of_le_left (le_max_of_le_left (le_max_right _ _))
    | ⟨3, _⟩ => exact le_max_of_le_left (le_max_right _ _)
    | ⟨4, _⟩ => exact le_max_right _ _
  · have hk : ∀ k : Fin 5, f k ≤ (Finset.univ : Finset (Fin 5)).fold max ⊥ f := fun k =>
      (Finset.le_fold_max _).2 (Or.inr ⟨k, Finset.mem_univ k, le_rfl⟩)
    exact max_le (max_le (max_le (max_le (hk 0) (hk 1)) (hk 2)) (hk 3)) (hk 4)

/-- A per-row array laid out as one column reads, at row `n`, the array at `n`. -/
theorem col1_apply {α : Type} (p : S2097152.Idx → α) (n : Fin 2097152) :
    broadcastInDim S2097152x1 ![0] bcast_S2097152_S2097152x1_0 p (ix2 n 0) = p (ix1 n) := by
  refine broadcastInDim_apply _ _ _ _ (ix1 n) ?_
  intro a
  match a with
  | ⟨0, h0⟩ =>
    have h1 : ¬S2097152.size ⟨0, h0⟩ = 1 := by show ¬(2097152 : ℕ) = 1; decide
    rw [if_neg h1]
    rfl

/-- Five one-column arrays side by side, read at row `n` and column `k`: the `k`-th array at row `n`. -/
theorem cols5_apply {α : Type} (x0 x1 x2 x3 x4 : S2097152x1.Idx → α) (n : Fin 2097152) (k : Fin 5) :
    concatenate S2097152x5 1 [⟨S2097152x1, x0⟩, ⟨S2097152x1, x1⟩, ⟨S2097152x1, x2⟩, ⟨S2097152x1, x3⟩, ⟨S2097152x1, x4⟩]
      concatenates_S2097152x1_S2097152x1_S2097152x1_S2097152x1_S2097152x1_S2097152x5_d1 (ix2 n k)
      = ![x0, x1, x2, x3, x4] k (ix2 n 0) := by
  refine concatenate_ofFn_unit_apply (t := S2097152x5) (s₁ := S2097152x1) 1 ![x0, x1, x2, x3, x4]
    concatenates_S2097152x1_S2097152x1_S2097152x1_S2097152x1_S2097152x1_S2097152x5_d1 rfl rfl (ix2 n k) k rfl (ix2 n 0) ?_
  intro b hb
  match b with
  | ⟨0, _⟩ => rfl
  | ⟨1, _⟩ => exact absurd rfl hb

/-- The largest of five probability arrays at row `n`, as the left-to-right maximum. -/
theorem maxProbArr_apply (p0 p1 p2 p3 p4 : FVec Ideal S2097152 .f32) (n : Fin 2097152) :
    maxProbArr (F := Ideal) p0 p1 p2 p3 p4 (ix1 n)
      = max (max (max (max (p0 (ix1 n)) (p1 (ix1 n))) (p2 (ix1 n))) (p3 (ix1 n))) (p4 (ix1 n)) := by
  unfold maxProbArr
  rw [Host.reduce_eq_fold_single FloatOps.maximumf _ _ reducesTo_S2097152x5_S2097152_d1 reduces5 h_S_ (ix1 n)]
  have hf : ∀ k : Fin 5, (concatenate S2097152x5 1 [⟨S2097152x1, broadcastInDim S2097152x1 ![0] bcast_S2097152_S2097152x1_0 p0⟩,
      ⟨S2097152x1, broadcastInDim S2097152x1 ![0] bcast_S2097152_S2097152x1_0 p1⟩,
      ⟨S2097152x1, broadcastInDim S2097152x1 ![0] bcast_S2097152_S2097152x1_0 p2⟩,
      ⟨S2097152x1, broadcastInDim S2097152x1 ![0] bcast_S2097152_S2097152x1_0 p3⟩,
      ⟨S2097152x1, broadcastInDim S2097152x1 ![0] bcast_S2097152_S2097152x1_0 p4⟩]
      concatenates_S2097152x1_S2097152x1_S2097152x1_S2097152x1_S2097152x1_S2097152x5_d1 ∘ reduces5.lift (ix1 n)) k
      = ![p0 (ix1 n), p1 (ix1 n), p2 (ix1 n), p3 (ix1 n), p4 (ix1 n)] k := fun k => by
    refine (congrArg _ (lift5 n k)).trans ((cols5_apply _ _ _ _ _ n k).trans ?_)
    match k with
    | ⟨0, _⟩ => exact col1_apply p0 n
    | ⟨1, _⟩ => exact col1_apply p1 n
    | ⟨2, _⟩ => exact col1_apply p2 n
    | ⟨3, _⟩ => exact col1_apply p3 n
    | ⟨4, _⟩ => exact col1_apply p4 n
  rw [show (_ ∘ reduces5.lift (ix1 n)) = ![p0 (ix1 n), p1 (ix1 n), p2 (ix1 n), p3 (ix1 n), p4 (ix1 n)] from funext hf]
  show (Finset.univ : Finset (Fin 5)).fold max (Ideal.ofBits .f32 0xFF800000#32) ![p0 (ix1 n), p1 (ix1 n), p2 (ix1 n), p3 (ix1 n), p4 (ix1 n)] = _
  rw [show Ideal.ofBits .f32 0xFF800000#32 = (⊥ : EReal) from by simp [Ideal.ofBits, Ideal.ieee], fold_max5]
  rfl

end Cert.ReferenceIdeal.RefRows

end
-- ==== Proof.RefRows.lean ====
/-
  The reference's composed function is the loss vector, where every label names a class of its group: row by row
  its log-softmax, taken entry, class weight, probability, positive-label indicator and cross-entropy are the
  per-row numbers of the specification, and its means and their sum are the specification's.
-/
import proofs.«403666_j67276367724950_3_alg».proof.Proof.RefArrays
import proofs.«403666_j67276367724950_3_alg».proof.Proof.RefGroup
import proofs.«403666_j67276367724950_3_alg».proof.Proof.RefGroup3
import proofs.«403666_j67276367724950_3_alg».proof.Proof.RefLabels
import proofs.«403666_j67276367724950_3_alg».proof.Proof.LossSpec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.RefRows

open Cert.ReferenceIdeal Cert.ReferenceIdeal.Gen Cert.ReferenceIdeal.Arrays Idealize.ShloMosaic Idealize.ShloMosaic.ValueIdx
  Cert.InjuryLoss

/-! ## The groups of logits -/

/-- Columns `off … off + C − 1` of the logits, read at an entry. -/
theorem sliceCols_apply {C : Nat} (off : Nat) (hC : off + C ≤ 13) (a0 : FVec Ideal S2097152x13 .f32)
    (h : S2097152x13.Slices ![0, off] ⟨2, ![2097152, C]⟩) (n : Fin 2097152) (c : Fin C) :
    extractStridedSlice ⟨2, ![2097152, C]⟩ ![0, off] a0 h (ix2 n c) = a0 (ix2 n ⟨off + c.val, by omega⟩) := by
  refine extractStridedSlice_apply _ a0 h _ _ fun a => ?_
  match a with
  | ⟨0, _⟩ => show n.val = 0 + n.val; omega
  | ⟨1, _⟩ => rfl

theorem slice0_row (a0 : FVec Ideal S2097152x13 .f32) (n : Fin 2097152) :
    (fun c : Fin 2 => extractStridedSlice S2097152x2 ![0, 0] a0 slices_S2097152x13_S2097152x2_0_0 (ix2 n c)) = grp0 (rowsX a0 n) := by
  funext c
  rw [sliceCols_apply 0 (by omega)]
  show a0 _ = a0 _
  congr 1
  exact congrArg (ix2 n) (Fin.ext (by show 0 + c.val = c.val; omega))

theorem slice1_row (a0 : FVec Ideal S2097152x13 .f32) (n : Fin 2097152) :
    (fun c : Fin 2 => extractStridedSlice S2097152x2 ![0, 2] a0 slices_S2097152x13_S2097152x2_0_2 (ix2 n c)) = grp1 (rowsX a0 n) := by
  funext c
  rw [sliceCols_apply 2 (by omega)]
  rfl

theorem slice2_row (a0 : FVec Ideal S2097152x13 .f32) (n : Fin 2097152) :
    (fun c : Fin 3 => extractStridedSlice S2097152x3 ![0, 4] a0 slices_S2097152x13_S2097152x3_0_4 (ix2 n c)) = grp2 (rowsX a0 n) := by
  funext c
  rw [sliceCols_apply 4 (by omega)]
  rfl

theorem slice3_row (a0 : FVec Ideal S2097152x13 .f32) (n : Fin 2097152) :
    (fun c : Fin 3 => extractStridedSlice S2097152x3 ![0, 7] a0 slices_S2097152x13_S2097152x3_0_7 (ix2 n c)) = grp3 (rowsX a0 n) := by
  funext c
  rw [sliceCols_apply 7 (by omega)]
  rfl

theorem slice4_row (a0 : FVec Ideal S2097152x13 .f32) (n : Fin 2097152) :
    (fun c : Fin 3 => extractStridedSlice S2097152x3 ![0, 10] a0 slices_S2097152x13_S2097152x3_0_10 (ix2 n c)) = grp4 (rowsX a0 n) := by
  funext c
  rw [sliceCols_apply 10 (by omega)]
  rfl

/-! ## The class-weight tables -/

theorem tab0_apply (c : Fin 2) : tab0 (F := Ideal) (ix1 c) = w2a c := by
  match c with
  | ⟨0, _⟩ => rfl
  | ⟨1, _⟩ => rfl
theorem tab1_apply (c : Fin 2) : tab1 (F := Ideal) (ix1 c) = w2b c := by
  match c with
  | ⟨0, _⟩ => rfl
  | ⟨1, _⟩ => rfl
theorem tab2_apply (c : Fin 3) : tab2 (F := Ideal) (ix1 c) = w3 c := by
  match c with
  | ⟨0, _⟩ => rfl
  | ⟨1, _⟩ => rfl
  | ⟨2, _⟩ => rfl
theorem tab3_apply (c : Fin 3) : tab3 (F := Ideal) (ix1 c) = w3 c := by
  match c with
  | ⟨0, _⟩ => rfl
  | ⟨1, _⟩ => rfl
  | ⟨2, _⟩ => rfl
theorem tab4_apply (c : Fin 3) : tab4 (F := Ideal) (ix1 c) = w3 c := by
  match c with
  | ⟨0, _⟩ => rfl
  | ⟨1, _⟩ => rfl
  | ⟨2, _⟩ => rfl

/-! ## The cross-entropy and the means -/

/-- The weighted binary cross-entropy array at a row, from the label and probability arrays' entries there. -/
theorem bceArr_apply (a p : FVec Ideal S2097152 .f32) (n : Fin 2097152) :
    bceArr (F := Ideal) a p (ix1 n)
      = (0 - (a (ix1 n) * Ideal.log (p (ix1 n)) + (one - a (ix1 n)) * Ideal.log1p (0 - p (ix1 n))))
          * Scalar.select (Ideal.cmp .ogt (a (ix1 n)) half) six one := by
  rw [zero_sub, zero_sub]
  rfl

/-- The indices of a per-row array are the rows. -/
def rowsEquiv : Fin 2097152 ≃ S2097152.Idx where
  toFun := ix1
  invFun := fun j => j 0
  left_inv := fun _ => rfl
  right_inv := fun j => (eq_ix1 j).symm

/-- The mean over the rows: the sum of the entries divided by the row count. -/
theorem meanOf_apply (v : FVec Ideal S2097152 .f32) :
    meanOf (F := Ideal) v ix0 = Ideal.div (∑ n : Fin 2097152, v (ix1 n)) rowCount := by
  unfold meanOf
  rw [hostDivf_apply, hostReduceAdd_apply, Ideal.hostReduceAdd_total reducesTo_S2097152_S_d0 (fun b => b.elim0)]
  show Ideal.div (Ideal.ofBits .f32 0x00000000#32 + ∑ i : S2097152.Idx, v i) rowCount = _
  rw [Ideal.ofBits_zero_f32, zero_add, ← Equiv.sum_comp rowsEquiv v]
  rfl

/-! ## The six per-row numbers -/

variable (a0 : FVec Ideal S2097152x13 .f32) (a1 : IVec S2097152x2 32) (a2 : IVec S2097152x3 32)

theorem nll0_row (h : LabelsInRange a1 a2) (n : Fin 2097152) :
    nllArr2 (F := Ideal) tab0 (lp0 a0) (labelCol0 (labels a1 a2)) (ix1 n) = rowLoss (rowsX a0 n) (rowsY a1 a2 n) 0 := by
  unfold lp0
  rw [nllArr2_apply tab0 w2a tab0_apply _ _ n (by rw [labelCol0_apply]; exact h.1 n 0), labelCol0_apply, slice0_row]
  rfl

theorem nll1_row (h : LabelsInRange a1 a2) (n : Fin 2097152) :
    nllArr2 (F := Ideal) tab1 (lp1 a0) (labelCol1 (labels a1 a2)) (ix1 n) = rowLoss (rowsX a0 n) (rowsY a1 a2 n) 1 := by
  unfold lp1
  rw [nllArr2_apply tab1 w2b tab1_apply _ _ n (by rw [labelCol1_apply]; exact h.1 n 1), labelCol1_apply, slice1_row]
  rfl

theorem nll2_row (h : LabelsInRange a1 a2) (n : Fin 2097152) :
    nllArr3 (F := Ideal) tab2 (lp2 a0) (labelCol2 (labels a1 a2)) (ix1 n) = rowLoss (rowsX a0 n) (rowsY a1 a2 n) 2 := by
  unfold lp2
  rw [nllArr3_apply tab2 w3 tab2_apply _ _ n (by rw [labelCol2_apply]; exact h.2 n 0), labelCol2_apply, slice2_row]
  rfl

theorem nll3_row (h : LabelsInRange a1 a2) (n : Fin 2097152) :
    nllArr3 (F := Ideal) tab3 (lp3 a0) (labelCol3 (labels a1 a2)) (ix1 n) = rowLoss (rowsX a0 n) (rowsY a1 a2 n) 3 := by
  unfold lp3
  rw [nllArr3_apply tab3 w3 tab3_apply _ _ n (by rw [labelCol3_apply]; exact h.2 n 1), labelCol3_apply, slice3_row]
  rfl

theorem nll4_row (h : LabelsInRange a1 a2) (n : Fin 2097152) :
    nllArr3 (F := Ideal) tab4 (lp4 a0) (labelCol4 (labels a1 a2)) (ix1 n) = rowLoss (rowsX a0 n) (rowsY a1 a2 n) 4 := by
  unfold lp4
  rw [nllArr3_apply tab4 w3 tab4_apply _ _ n (by rw [labelCol4_apply]; exact h.2 n 2), labelCol4_apply, slice4_row]
  rfl

theorem bce_row (n : Fin 2097152) :
    bceArr (F := Ideal) (anyLabel (labels a1 a2))
        (maxProbArr (probArr2 (lp0 a0)) (probArr2 (lp1 a0)) (probArr3 (lp2 a0)) (probArr3 (lp3 a0)) (probArr3 (lp4 a0))) (ix1 n)
      = rowLoss (rowsX a0 n) (rowsY a1 a2 n) 5 := by
  rw [bceArr_apply, anyLabel_apply, maxProbArr_apply]
  unfold lp0 lp1 lp2 lp3 lp4
  rw [probArr2_apply, probArr2_apply, probArr3_apply, probArr3_apply, probArr3_apply, slice0_row, slice1_row, slice2_row, slice3_row,
    slice4_row]
  rfl

/-! ## The six means -/

theorem loss0_eq (h : LabelsInRange a1 a2) : loss0 (F := Ideal) a0 (labels a1 a2) ix0 = meanLoss (rowsX a0) (rowsY a1 a2) 0 := by
  unfold loss0 meanLoss total
  rw [meanOf_apply]
  exact congrArg (fun s => Ideal.div s rowCount) (Finset.sum_congr rfl fun n _ => nll0_row a0 a1 a2 h n)
theorem loss1_eq (h : LabelsInRange a1 a2) : loss1 (F := Ideal) a0 (labels a1 a2) ix0 = meanLoss (rowsX a0) (rowsY a1 a2) 1 := by
  unfold loss1 meanLoss total
  rw [meanOf_apply]
  exact congrArg (fun s => Ideal.div s rowCount) (Finset.sum_congr rfl fun n _ => nll1_row a0 a1 a2 h n)
theorem loss2_eq (h : LabelsInRange a1 a2) : loss2 (F := Ideal) a0 (labels a1 a2) ix0 = meanLoss (rowsX a0) (rowsY a1 a2) 2 := by
  unfold loss2 meanLoss total
  rw [meanOf_apply]
  exact congrArg (fun s => Ideal.div s rowCount) (Finset.sum_congr rfl fun n _ => nll2_row a0 a1 a2 h n)
theorem loss3_eq (h : LabelsInRange a1 a2) : loss3 (F := Ideal) a0 (labels a1 a2) ix0 = meanLoss (rowsX a0) (rowsY a1 a2) 3 := by
  unfold loss3 meanLoss total
  rw [meanOf_apply]
  exact congrArg (fun s => Ideal.div s rowCount) (Finset.sum_congr rfl fun n _ => nll3_row a0 a1 a2 h n)
theorem loss4_eq (h : LabelsInRange a1 a2) : loss4 (F := Ideal) a0 (labels a1 a2) ix0 = meanLoss (rowsX a0) (rowsY a1 a2) 4 := by
  unfold loss4 meanLoss total
  rw [meanOf_apply]
  exact congrArg (fun s => Ideal.div s rowCount) (Finset.sum_congr rfl fun n _ => nll4_row a0 a1 a2 h n)
theorem loss5_eq : loss5 (F := Ideal) a0 (labels a1 a2) ix0 = meanLoss (rowsX a0) (rowsY a1 a2) 5 := by
  unfold loss5 meanLoss total
  rw [meanOf_apply]
  exact congrArg (fun s => Ideal.div s rowCount) (Finset.sum_congr rfl fun n _ => bce_row a0 a1 a2 n)

/-! ## The seven results side by side -/

/-- Seven scalars laid side by side, read at a position. -/
theorem concat7_apply (l0 l1 l2 l3 l4 l5 l6 : FVec Ideal S_ .f32) (k : Fin 7) :
    concatenate S7 0
        [⟨S1, broadcastInDim S1 ![] bcast_S_S1 l0⟩, ⟨S1, broadcastInDim S1 ![] bcast_S_S1 l1⟩, ⟨S1, broadcastInDim S1 ![] bcast_S_S1 l2⟩,
         ⟨S1, broadcastInDim S1 ![] bcast_S_S1 l3⟩, ⟨S1, broadcastInDim S1 ![] bcast_S_S1 l4⟩, ⟨S1, broadcastInDim S1 ![] bcast_S_S1 l5⟩,
         ⟨S1, broadcastInDim S1 ![] bcast_S_S1 l6⟩]
        concatenates_S1_S1_S1_S1_S1_S1_S1_S7_d0 (ix1 k)
      = (![l0 ix0, l1 ix0, l2 ix0, l3 ix0, l4 ix0, l5 ix0, l6 ix0] : Fin 7 → EReal) k := by
  have hi : ∀ b : Fin S1.rank, b.cast (rfl : S1.rank = S7.rank) ≠ 0 → ((ix1 (0 : Fin 1) : S1.Idx) b).val = ((ix1 k : S7.Idx) (b.cast rfl)).val := fun b hb => by
    match b with
    | ⟨0, _⟩ => exact absurd rfl hb
  refine (concatenate_apply_piece 0 _ _ (ix1 k) k.val ?_ S1
    (broadcastInDim S1 ![] bcast_S_S1 ((![l0, l1, l2, l3, l4, l5, l6] : Fin 7 → FVec Ideal S_ .f32) k)) ?_ rfl k.val ?_ (ix1 0) hi rfl).trans ?_
  · exact k.isLt
  · match k with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
  · match k with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
  · rw [broadcastInDim_scalar_apply]
    match k with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl

/-- With every label in its group's class range, the reference's result is the loss vector. -/
theorem refOut_eq (a0 : FVec Ideal S2097152x13 .f32) (a1 : IVec S2097152x2 32) (a2 : IVec S2097152x3 32)
    (h : LabelsInRange a1 a2) : refOut (F := Ideal) a0 a1 a2 = lossVector a0 a1 a2 := by
  funext j
  obtain ⟨k, rfl⟩ : ∃ k : Fin 7, j = ix1 k := ⟨j 0, eq_ix1 j⟩
  unfold refOut
  rw [concat7_apply]
  have e0 := loss0_eq a0 a1 a2 h
  have e1 := loss1_eq a0 a1 a2 h
  have e2 := loss2_eq a0 a1 a2 h
  have e3 := loss3_eq a0 a1 a2 h
  have e4 := loss4_eq a0 a1 a2 h
  have e5 := loss5_eq a0 a1 a2
  unfold lossVector result
  match k with
  | ⟨0, _⟩ => rw [dif_pos (show (0 : ℕ) < 6 by omega)]; exact e0
  | ⟨1, _⟩ => rw [dif_pos (show (1 : ℕ) < 6 by omega)]; exact e1
  | ⟨2, _⟩ => rw [dif_pos (show (2 : ℕ) < 6 by omega)]; exact e2
  | ⟨3, _⟩ => rw [dif_pos (show (3 : ℕ) < 6 by omega)]; exact e3
  | ⟨4, _⟩ => rw [dif_pos (show (4 : ℕ) < 6 by omega)]; exact e4
  | ⟨5, _⟩ => rw [dif_pos (show (5 : ℕ) < 6 by omega)]; exact e5
  | ⟨6, _⟩ =>
    rw [dif_neg (show ¬(6 : ℕ) < 6 by omega), Fin.sum_univ_six, ← e0, ← e1, ← e2, ← e3, ← e4, ← e5]
    rfl

end Cert.ReferenceIdeal.RefRows

end
-- ==== Proof.PreRange.lean ====
/-
  The precondition, read: its three conjuncts are "every logit is finite", "every binary label is ≥ 0 and < 2" and
  "every ternary label is ≥ 0 and < 3" (signed comparisons), each reduced with `and` over its whole array; where the
  predicate is true, every label names a class of its group.
-/
import proofs.«403666_j67276367724950_3_alg».proof.Pre_finite_inputs
import proofs.«403666_j67276367724950_3_alg».proof.Proof.Gen.Pre_finite_inputs
import proofs.«403666_j67276367724950_3_alg».proof.Proof.LossSpec
import Idealize.ShloMosaic.Lib.ReduceAll
import Idealize.ShloMosaic.Lib.StableHlo.Predicate
import Idealize.ShloMosaic.Lib.ValueIdx

noncomputable section

namespace Cert.Pre_finite_inputs.Range

open Cert.Pre_finite_inputs Cert.Pre_finite_inputs.Gen Idealize.ShloMosaic Idealize.ShloMosaic.ValueIdx Cert.InjuryLoss

variable {F : FTy → Type} [FloatOps F]

/-- The result of the predicate has rank 0: it has a single index. -/
instance : Subsingleton S_.Idx := ⟨fun a b => funext fun d => d.elim0⟩

/-- A 32-bit word that is ≥ 0 and < k as a signed integer (k below 2³¹) has its top bit clear, so its unsigned
    value is its signed value and lies below k. -/
theorem toNat_lt_of_signed (y : BitVec 32) (k : ℕ) (hk : k < 2 ^ 31) (h0 : (0#32 : BitVec 32).toInt ≤ y.toInt)
    (h1 : y.toInt < (BitVec.ofNat 32 k).toInt) : y.toNat < k := by
  rw [StableHlo.Predicate.toInt_ofNat_small k hk] at h1
  rw [show (0#32 : BitVec 32).toInt = 0 from by decide] at h0
  have := BitVec.toInt_eq_toNat_cond y
  split at this <;> omega

/-- Where the precondition holds, the binary labels lie in {0, 1} and the ternary ones in {0, 1, 2}. -/
theorem labels_of_pre (a0 : FVec F S2097152x13 .f32) (a1 : IVec S2097152x2 32) (a2 : IVec S2097152x3 32)
    (h : Cert.Pre_finite_inputs.fn (F := F) a0 a1 a2 = fun _ => 1#1) : LabelsInRange a1 a2 := by
  -- the predicate at its one index is the conjunction (finite ∧ binary in range) ∧ ternary in range
  have h0 := congrFun h ValueIdx.ix0
  dsimp only [fn, fn_part1] at h0
  obtain ⟨h12, h3⟩ := IntOp.andi_eq_one.1 h0
  obtain ⟨_, h2⟩ := IntOp.andi_eq_one.1 h12
  -- an all-reduce by `and` that is 1 saw a 1 at every index; there both signed comparisons hold
  refine ⟨fun n j => ?_, fun n j => ?_⟩
  · obtain ⟨e0, e1⟩ := IntOp.andi_eq_one.1 (Host.reduce_andi_all _ _ _ _ _ h2 (ix2 n j))
    exact toNat_lt_of_signed _ 2 (by norm_num) (IntOp.cmpi_sge.1 e0) (IntOp.cmpi_slt.1 e1)
  · obtain ⟨e0, e1⟩ := IntOp.andi_eq_one.1 (Host.reduce_andi_all _ _ _ _ _ h3 (ix2 n j))
    exact toNat_lt_of_signed _ 3 (by norm_num) (IntOp.cmpi_sge.1 e0) (IntOp.cmpi_slt.1 e1)

end Cert.Pre_finite_inputs.Range

end
-- ==== Proof.lean ====
/-
  A multi-task classification loss (five weighted cross-entropies over groups of a 13-way logit vector and one
  weighted binary cross-entropy, each averaged over 2 097 152 rows, and their sum) computed two ways: by a kernel
  that streams 4096-row blocks over a 2 × 256 grid, accumulating 6 × 128 lane sums per output block, followed by a
  host sum and division; and by a plain array program.  Over the extended reals both are the loss vector of
  Proof/LossSpec.lean, provided every label names a class of its group (the precondition's added conjuncts: outside
  that range the array program's gather answers the NaN word while the kernel's one-hot select answers zero).
  The kernel side never uses the range, nor the finiteness of the logits: its one-hot sums and select chains are the
  specification's own forms, and regrouping a sum needs only that addition is commutative and associative.
-/
import proofs.«403666_j67276367724950_3_alg».proof.Defs
import proofs.«403666_j67276367724950_3_alg».proof.Proof.Gen.Kernel
import proofs.«403666_j67276367724950_3_alg».proof.Proof.Gen.Kernel.Skeleton
import proofs.«403666_j67276367724950_3_alg».proof.Proof.Gen.Kernel.Launch
import proofs.«403666_j67276367724950_3_alg».proof.Proof.Gen.Kernel.Points
import proofs.«403666_j67276367724950_3_alg».proof.Proof.Gen.Kernel.Frame
import proofs.«403666_j67276367724950_3_alg».proof.Proof.Gen.KernelIdeal
import proofs.«403666_j67276367724950_3_alg».proof.Proof.Gen.KernelIdeal.Skeleton
import proofs.«403666_j67276367724950_3_alg».proof.Proof.Gen.KernelIdeal.Launch
import proofs.«403666_j67276367724950_3_alg».proof.Proof.Gen.KernelIdeal.Points
import proofs.«403666_j67276367724950_3_alg».proof.Proof.Gen.KernelIdeal.Frame
import proofs.«403666_j67276367724950_3_alg».proof.Proof.Gen.ReferenceIdeal
import proofs.«403666_j67276367724950_3_alg».proof.Proof.Gen.Pre_finite_inputs
import proofs.«403666_j67276367724950_3_alg».proof.Proof.KernelValue
import proofs.«403666_j67276367724950_3_alg».proof.Proof.RefRun
import proofs.«403666_j67276367724950_3_alg».proof.Proof.RefRows
import proofs.«403666_j67276367724950_3_alg».proof.Proof.PreRange
import Idealize.ShloMosaic.Adequacy
import Idealize.ShloMosaic.Init

noncomputable section

namespace Cert.Proof

open Idealize.ShloMosaic Idealize.SL.Sem Cert.InjuryLoss

/-- The word-level kernel program runs and keeps its arguments. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- And the reference: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- From memories that agree on the arguments and satisfy the precondition, both idealized programs end at the loss
    vector of the arguments: the kernel's unconditionally, the reference's because the precondition puts every label
    in its group's class range. -/
theorem algebraic : Cert.algebraic_KernelIdeal_ReferenceIdeal := by
  intro m ρ m' ρ' hpre hagree
  refine ⟨fun c => lossVector (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Result.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  exact Cert.ReferenceIdeal.RefRows.refOut_eq _ _ _ (Cert.Pre_finite_inputs.Range.labels_of_pre _ _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
